-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v49)) (v4 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_v53) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S4x512x2048 : Shape := ⟨3, ![4, 512, 2048]⟩
abbrev S4x512 : Shape := ⟨2, ![4, 512]⟩
abbrev S4 : Shape := ⟨1, ![4]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S4x512x2048 : S_.BroadcastsInDim S4x512x2048 (![] : Fin 0 → Fin S4x512x2048.rank)
  reducesTo_S4x512x2048_S_d0_1_2 : S4x512x2048.ReducesTo [0, 1, 2] S_
  bcast_S_S4 : S_.BroadcastsInDim S4 (![] : Fin 0 → Fin S4.rank)
  reducesTo_S4_S_d0 : S4.ReducesTo [0] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg2 : IVec S4x512 32) (main_arg6 : FVec F S32000x2048 .f32) (main_v13 : IVec S_ 1) (main_v16 : IVec S4x512x2048 1) : IVec S_ 1 :=
  let main_c_5 : IVec S_ 1 := constantI S_ 1 1#1
  let main_v17 : IVec S_ 1 := (fun x v => Host.reduce IntOp.andi x v reducesTo_S4x512x2048_S_d0_1_2 h_S_) main_v16 main_c_5
  let main_v18 : IVec S_ 1 := andi main_v13 main_v17
  let main_v19 : FVec F S32000x2048 .f32 := Host.absf main_arg6
  let main_cst_6 : FVec F S_ .f32 := constant S_ .f32 0x7F800000#32
  let main_v20 : FVec F S32000x2048 .f32 := broadcastInDim S32000x2048 ![] bcast_S_S32000x2048 main_cst_6
  let main_v21 : IVec S32000x2048 1 := cmpf .olt main_v19 main_v20
  let main_c_7 : IVec S_ 1 := constantI S_ 1 1#1
  let main_v22 : IVec S_ 1 := (fun x v => Host.reduce IntOp.andi x v reducesTo_S32000x2048_S_d0_1 h_S_) main_v21 main_c_7
  let main_v23 : IVec S_ 1 := andi main_v18 main_v22
  let main_c_8 : IVec S_ 32 := constantI S_ 32 0#32
  let main_v24 : IVec S4x512 32 := broadcastInDim S4x512 ![] bcast_S_S4x512 main_c_8
  let main_v25 : IVec S4x512 1 := cmpi .sge main_arg2 main_v24
  let main_c_9 : IVec S_ 1 := constantI S_ 1 1#1
  let main_v26 : IVec S_ 1 := (fun x v => Host.reduce IntOp.andi x v reducesTo_S4x512_S_d0_1 h_S_) main_v25 main_c_9
  let main_v27 : IVec S_ 1 := andi main_v23 main_v26
  let main_c_10 : IVec S_ 32 := constantI S_ 32 32000#32
  let main_v28 : IVec S4x512 32 := broadcastInDim S4x512 ![] bcast_S_S4x512 main_c_10
  let main_v29 : IVec S4x512 1 := cmpi .slt main_arg2 main_v28
  let main_c_11 : IVec S_ 1 := constantI S_ 1 1#1
  let main_v30 : IVec S_ 1 := (fun x v => Host.reduce IntOp.andi x v reducesTo_S4x512_S_d0_1 h_S_) main_v29 main_c_11
  let main_v31 : IVec S_ 1 := andi main_v27 main_v30
  main_v31

def fn {F : FTy → Type} [FloatOps F] (main_arg0 : FVec F S32000x2048 .f32) (main_arg1 : FVec F S4x512x2048 .f32) (main_arg2 : IVec S4x512 32) (main_arg3 : IVec S4x512 32) (main_arg4 : FVec F S4 .f32) (main_arg5 : FVec F S4x512x2048 .f32) (main_arg6 : FVec F S32000x2048 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S4x512x2048 .f32 := Host.absf main_arg1
  let main_cst_0 : FVec F S_ .f32 := constant S_ .f32 0x7F800000#32
  let main_v5 : FVec F S4x512x2048 .f32 := broadcastInDim S4x512x2048 ![] bcast_S_S4x512x2048 main_cst_0
  let main_v6 : IVec S4x512x2048 1 := cmpf .olt main_v4 main_v5
  let main_c_1 : IVec S_ 1 := constantI S_ 1 1#1
  let main_v7 : IVec S_ 1 := (fun x v => Host.reduce IntOp.andi x v reducesTo_S4x512x2048_S_d0_1_2 h_S_) main_v6 main_c_1
  let main_v8 : IVec S_ 1 := andi main_v3 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x512x2048 .f32 := Host.absf main_arg5
  let main_cst_4 : FVec F S_ .f32 := constant S_ .f32 0x7F800000#32
  let main_v15 : FVec F S4x512x2048 .f32 := broadcastInDim S4x512x2048 ![] bcast_S_S4x512x2048 main_cst_4
  let main_v16 : IVec S4x512x2048 1 := cmpf .olt main_v14 main_v15
  fn_part1 (F := F) main_arg2 main_arg6 main_v13 main_v16
-- ==== Kernel.lean ====
abbrev S32000x2048 : Shape := ⟨2, ![32000, 2048]⟩
abbrev S4x512x2048 : Shape := ⟨3, ![4, 512, 2048]⟩
abbrev S4x512 : Shape := ⟨2, ![4, 512]⟩
abbrev S4 : Shape := ⟨1, ![4]⟩
abbrev S2048x2048 : Shape := ⟨2, ![2048, 2048]⟩
abbrev S_ : Shape := ⟨0, ![]⟩
abbrev S2048x1 : Shape := ⟨2, ![2048, 1]⟩
abbrev S2048x4 : Shape := ⟨2, ![2048, 4]⟩
abbrev S1024x2048 : Shape := ⟨2, ![1024, 2048]⟩
abbrev S256x2048 : Shape := ⟨2, ![256, 2048]⟩
abbrev S1024x1 : Shape := ⟨2, ![1024, 1]⟩
abbrev S1024x4 : Shape := ⟨2, ![1024, 4]⟩
abbrev S1024x256 : Shape := ⟨2, ![1024, 256]⟩
abbrev S1024 : Shape := ⟨1, ![1024]⟩
abbrev S4x1 : Shape := ⟨2, ![4, 1]⟩
abbrev S1x1 : Shape := ⟨2, ![1, 1]⟩

abbrev nBuf : Space → Nat
  | .hbm => 101
  | .vmem => 24
  | .smem => 0
  | _ => 0

abbrev bufTy : (tb : Table) → Fin (tcTables nBuf tb) → BufTy
  | .hbm, ⟨0, _⟩ => ⟨S32000x2048, .f32⟩
  | .hbm, ⟨1, _⟩ => ⟨S4x512x2048, .f32⟩
  | .hbm, ⟨2, _⟩ => ⟨S4x512, .i32⟩
  | .hbm, ⟨3, _⟩ => ⟨S4x512, .i32⟩
  | .hbm, ⟨4, _⟩ => ⟨S4, .f32⟩
  | .hbm, ⟨5, _⟩ => ⟨S4x512x2048, .f32⟩
  | .hbm, ⟨6, _⟩ => ⟨S32000x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x512, .i32⟩
  | .hbm, ⟨15, _⟩ => ⟨S4x512, .i32⟩
  | .hbm, ⟨16, _⟩ => ⟨S_, .i32⟩
  | .hbm, ⟨17, _⟩ => ⟨S4x512, .i32⟩
  | .hbm, ⟨18, _⟩ => ⟨S4x512, .i32⟩
  | .hbm, ⟨19, _⟩ => ⟨S2048x1, .i32⟩
  | .hbm, ⟨20, _⟩ => ⟨S2048x4, .f32⟩
  | .hbm, ⟨21, _⟩ => ⟨S2048x4, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S4x512, .f32⟩
  | .hbm, ⟨36, _⟩ => ⟨S2048x1, .f32⟩
  | .hbm, ⟨37, _⟩ => ⟨S4x512, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S4x512, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S_, .f32⟩
  | .hbm, ⟨47, _⟩ => ⟨S4x512, .f32⟩
  | .hbm, ⟨48, _⟩ => ⟨S4x512, .f32⟩
  | .hbm, ⟨49, _⟩ => ⟨S4x1, .f32⟩
  | .hbm, ⟨50, _⟩ => ⟨S_, .f32⟩
  | .hbm, ⟨51, _⟩ => ⟨S4x512, .f32⟩
  | .hbm, ⟨52, _⟩ => ⟨S4x512, .f32⟩
  | .hbm, ⟨53, _⟩ => ⟨S4x512, .f32⟩
  | .hbm, ⟨54, _⟩ => ⟨S4x512, .f32⟩
  | .hbm, ⟨55, _⟩ => ⟨S4x512, .f32⟩
  | .hbm, ⟨56, _⟩ => ⟨S4x512, .f32⟩
  | .hbm, ⟨57, _⟩ => ⟨S4x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i32⟩
  | .hbm, ⟨70, _⟩ => ⟨S_, .f32⟩
  | .hbm, ⟨71, _⟩ => ⟨S_, .f32⟩
  | .hbm, ⟨72, _⟩ => ⟨S1x1, .f32⟩
  | .hbm, ⟨73, _⟩ => ⟨S_, .f32⟩
  | .hbm, ⟨74, _⟩ => ⟨S1x1, .f32⟩
  | .hbm, ⟨75, _⟩ => ⟨S1x1, .f32⟩
  | .hbm, ⟨76, _⟩ => ⟨S4x512, .f32⟩
  | .hbm, ⟨77, _⟩ => ⟨S4x512, .f32⟩
  | .hbm, ⟨78, _⟩ => ⟨S4x512, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4x512, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .f32⟩
  | .local _ .vmem, ⟨3, _⟩ => ⟨S256x2048, .f32⟩
  | .local _ .vmem, ⟨4, _⟩ => ⟨S1024x1, .i32⟩
  | .local _ .vmem, ⟨5, _⟩ => ⟨S1024x1, .i32⟩
  | .local _ .vmem, ⟨6, _⟩ => ⟨S1024x4, .f32⟩
  | .local _ .vmem, ⟨7, _⟩ => ⟨S1024x4, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x2048, .bf16⟩
  | .local _ .vmem, ⟨13, _⟩ => ⟨S1024x2048, .bf16⟩
  | .local _ .vmem, ⟨14, _⟩ => ⟨S256x2048, .f32⟩
  | .local _ .vmem, ⟨15, _⟩ => ⟨S256x2048, .f32⟩
  | .local _ .vmem, ⟨16, _⟩ => ⟨S1024x1, .i32⟩
  | .local _ .vmem, ⟨17, _⟩ => ⟨S1024x1, .i32⟩
  | .local _ .vmem, ⟨18, _⟩ => ⟨S1024x4, .f32⟩
  | .local _ .vmem, ⟨19, _⟩ => ⟨S1024x4, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_c_8 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_cst_0 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_cst_1 : Ref sig .tc := ⟨.hbm, 80, rfl⟩
abbrev main_call1_call0_v8 : Ref sig .tc := ⟨.hbm, 81, rfl⟩
abbrev main_call1_call0_cst_2 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_cst_3 : Ref sig .tc := ⟨.hbm, 85, rfl⟩
abbrev main_call1_call0_v11 : Ref sig .tc := ⟨.hbm, 86, rfl⟩
abbrev main_call1_call0_cst_4 : Ref sig .tc := ⟨.hbm, 87, rfl⟩
abbrev main_call1_call0_call0_v0 : Ref sig .tc := ⟨.hbm, 88, rfl⟩
abbrev main_call1_v0 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_cst_10 : Ref sig .tc := ⟨.hbm, 93, rfl⟩
abbrev main_v49 : Ref sig .tc := ⟨.hbm, 94, rfl⟩
abbrev main_v50 : Ref sig .tc := ⟨.hbm, 95, rfl⟩
abbrev main_cst_11 : Ref sig .tc := ⟨.hbm, 96, rfl⟩
abbrev main_v51 : Ref sig .tc := ⟨.hbm, 97, rfl⟩
abbrev main_cst_12 : Ref sig .tc := ⟨.hbm, 98, rfl⟩
abbrev main_v52 : Ref sig .tc := ⟨.hbm, 99, rfl⟩
abbrev main_v53 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v52 : BitVec 1 := Scalar.cmpi .eq arg1 c124_i32
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 125], ![false, false]⟩

def k1_cond2 (i : grid1.Coords) : BitVec 1 :=
  let arg1 : BitVec 32 := BitVec.ofNat 32 (i 1).val
  let c124_i32 : BitVec 32 := 124#32
  let v52 : BitVec 1 := Scalar.cmpi .eq arg1 c124_i32
  let v53 : BitVec 32 := Scalar.extui v52
  let c0_i32_27 : BitVec 32 := 0#32
  let v54 : BitVec 1 := Scalar.cmpi .ne v53 c0_i32_27
  v54

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x512x2048_S2048x2048 : S4x512x2048.ShapeCasts S2048x2048
  bitsLt_bf16_f32 : FTy.bits .bf16 < FTy.bits .f32
  bcast_S_S4x512 : S_.BroadcastsInDim S4x512 (![] : Fin 0 → Fin S4x512.rank)
  shapeCasts_S4x512_S2048x1 : S4x512.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  iota_S1024x256_d1_w32 : S1024x256.Iotas .tc 32 [1]
  broadcasts_S1024x1_S1024x256 : S1024x1.Broadcasts S1024x256
  reduces_S1024x256_S1024 : S1024x256.Reduces [1] S1024
  shapeCasts_S1024_S1024x1 : S1024.ShapeCasts S1024x1
  inb_S1024x4_S1024x1_0_0 : ∀ a, (![0, 0] : Fin 2 → Nat) a + S1024x1.size a ≤ S1024x4.size a
  inb_S1024x4_S1024x1_0_1 : ∀ a, (![0, 1] : Fin 2 → Nat) a + S1024x1.size a ≤ S1024x4.size a
  inb_S1024x4_S1024x1_0_2 : ∀ a, (![0, 2] : Fin 2 → Nat) a + S1024x1.size a ≤ S1024x4.size a
  inb_S1024x4_S1024x1_0_3 : ∀ a, (![0, 3] : Fin 2 → Nat) a + S1024x1.size a ≤ S1024x4.size a
  slices_S2048x4_S2048x1_0_0 : S2048x4.Slices ![0, 0] S2048x1
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  shapeCasts_S2048x1_S4x512 : S2048x1.ShapeCasts S4x512
  bcast_S_S2048x1 : S_.BroadcastsInDim S2048x1 (![] : Fin 0 → Fin S2048x1.rank)
  bcast_S4_S4x1_0 : S4.BroadcastsInDim S4x1 (![0] : Fin 1 → Fin S4x1.rank)
  bcast_S4x1_S4x512_0_1 : S4x1.BroadcastsInDim S4x512 (![0, 1] : Fin 2 → Fin S4x512.rank)
  reducesTo_S4x512_S_d0_1 : S4x512.ReducesTo [0, 1] S_
  h_S_ : 0 < S_.numel
  bcast_S_S1x1 : S_.BroadcastsInDim S1x1 (![] : Fin 0 → Fin S1x1.rank)
  bcast_S1x1_S4x512_0_1 : S1x1.BroadcastsInDim S4x512 (![0, 1] : Fin 2 → Fin S4x512.rank)
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .f32 = 32 ∨ (Rect.block (s := S32000x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S2048x4.size a
  hwx0_3 : ∀ i : grid0.Coords, EltTy.bits .f32 = 32 ∨ (Rect.block (s := S2048x4) S1024x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x2048.size a
  hwx1_0 : ∀ i : grid1.Coords, EltTy.bits .bf16 = 32 ∨ (Rect.block (s := S2048x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S32000x2048.size a
  hwx1_1 : ∀ i : grid1.Coords, EltTy.bits .f32 = 32 ∨ (Rect.block (s := S32000x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .i32 = 32 ∨ (Rect.block (s := S2048x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x4.size a ≤ S2048x4.size a
  hwx1_3 : ∀ i : grid1.Coords, EltTy.bits .f32 = 32 ∨ (Rect.block (s := S2048x4) S1024x4.size (cc1_transform_3 i) (hinb1_3 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S32000x2048 : Shape := ⟨2, ![32000, 2048]⟩
abbrev S4x512x2048 : Shape := ⟨3, ![4, 512, 2048]⟩
abbrev S4x512 : Shape := ⟨2, ![4, 512]⟩
abbrev S4 : Shape := ⟨1, ![4]⟩
abbrev S4x512x32000 : Shape := ⟨3, ![4, 512, 32000]⟩
abbrev S_ : Shape := ⟨0, ![]⟩
abbrev S4x512x1 : Shape := ⟨3, ![4, 512, 1]⟩
abbrev S4x512x1x1 : Shape := ⟨4, ![4, 512, 1, 1]⟩
abbrev S1 : Shape := ⟨1, ![1]⟩
abbrev S1x1x1x1 : Shape := ⟨4, ![1, 1, 1, 1]⟩
abbrev S4x1 : Shape := ⟨2, ![4, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S32000x2048, .f32⟩
  | 1 => ⟨S4x512x2048, .f32⟩
  | 2 => ⟨S4x512, .i32⟩
  | 3 => ⟨S4x512, .i32⟩
  | 4 => ⟨S4, .f32⟩
  | 5 => ⟨S4x512x2048, .f32⟩
  | 6 => ⟨S32000x2048, .f32⟩
  | 7 => ⟨S4x512x32000, .f32⟩
  | 8 => ⟨S4x512x32000, .f32⟩
  | 9 => ⟨S_, .f32⟩
  | 10 => ⟨S4x512, .f32⟩
  | 11 => ⟨S_, .f32⟩
  | 12 => ⟨S4x512, .f32⟩
  | 13 => ⟨S4x512, .f32⟩
  | 14 => ⟨S4x512x1, .f32⟩
  | 15 => ⟨S4x512x32000, .f32⟩
  | 16 => ⟨S4x512x32000, .f32⟩
  | 17 => ⟨S4x512x32000, .f32⟩
  | 18 => ⟨S_, .f32⟩
  | 19 => ⟨S4x512, .f32⟩
  | 20 => ⟨S4x512x1, .f32⟩
  | 21 => ⟨S4x512x1, .f32⟩
  | 22 => ⟨S4x512x32000, .f32⟩
  | 23 => ⟨S4x512x32000, .f32⟩
  | 24 => ⟨S4x512x1, .i32⟩
  | 25 => ⟨S_, .i32⟩
  | 26 => ⟨S4x512x1, .i32⟩
  | 27 => ⟨S4x512x1, .i1⟩
  | 28 => ⟨S_, .i32⟩
  | 29 => ⟨S4x512x1, .i32⟩
  | 30 => ⟨S4x512x1, .i32⟩
  | 31 => ⟨S4x512x1, .i32⟩
  | 32 => ⟨S4x512x1x1, .i32⟩
  | 33 => ⟨S1, .i32⟩
  | 34 => ⟨S_, .i32⟩
  | 35 => ⟨S4x512x1x1, .i32⟩
  | 36 => ⟨S4x512x1x1, .i1⟩
  | 37 => ⟨S1x1x1x1, .i32⟩
  | 38 => ⟨S4x512x1x1, .i32⟩
  | 39 => ⟨S4x512x1x1, .i1⟩
  | 40 => ⟨S4x512x1x1, .i1⟩
  | 41 => ⟨S_, .i1⟩
  | 42 => ⟨S4x512x1, .i1⟩
  | 43 => ⟨S4x512x1, .f32⟩
  | 44 => ⟨S_, .f32⟩
  | 45 => ⟨S4x512x1, .f32⟩
  | 46 => ⟨S4x512x1, .f32⟩
  | 47 => ⟨S4x512, .f32⟩
  | 48 => ⟨S_, .f32⟩
  | 49 => ⟨S4x512, .f32⟩
  | 50 => ⟨S_, .f32⟩
  | 51 => ⟨S4x512, .f32⟩
  | 52 => ⟨S4x512, .f32⟩
  | 53 => ⟨S4x512x1, .f32⟩
  | 54 => ⟨S4x512x32000, .f32⟩
  | 55 => ⟨S4x512x32000, .f32⟩
  | 56 => ⟨S4x512x32000, .f32⟩
  | 57 => ⟨S_, .f32⟩
  | 58 => ⟨S4x512, .f32⟩
  | 59 => ⟨S4x512x1, .f32⟩
  | 60 => ⟨S4x512x1, .f32⟩
  | 61 => ⟨S4x512x32000, .f32⟩
  | 62 => ⟨S4x512x32000, .f32⟩
  | 63 => ⟨S4x512x1, .i32⟩
  | 64 => ⟨S_, .i32⟩
  | 65 => ⟨S4x512x1, .i32⟩
  | 66 => ⟨S4x512x1, .i1⟩
  | 67 => ⟨S_, .i32⟩
  | 68 => ⟨S4x512x1, .i32⟩
  | 69 => ⟨S4x512x1, .i32⟩
  | 70 => ⟨S4x512x1, .i32⟩
  | 71 => ⟨S4x512x1x1, .i32⟩
  | 72 => ⟨S1, .i32⟩
  | 73 => ⟨S_, .i32⟩
  | 74 => ⟨S4x512x1x1, .i32⟩
  | 75 => ⟨S4x512x1x1, .i1⟩
  | 76 => ⟨S1x1x1x1, .i32⟩
  | 77 => ⟨S4x512x1x1, .i32⟩
  | 78 => ⟨S4x512x1x1, .i1⟩
  | 79 => ⟨S4x512x1x1, .i1⟩
  | 80 => ⟨S_, .i1⟩
  | 81 => ⟨S4x512x1, .i1⟩
  | 82 => ⟨S4x512x1, .f32⟩
  | 83 => ⟨S_, .f32⟩
  | 84 => ⟨S4x512x1, .f32⟩
  | 85 => ⟨S4x512x1, .f32⟩
  | 86 => ⟨S4x512, .f32⟩
  | 87 => ⟨S4x512, .f32⟩
  | 88 => ⟨S4x512, .f32⟩
  | 89 => ⟨S4x512, .f32⟩
  | 90 => ⟨S_, .f32⟩
  | 91 => ⟨S4x512, .f32⟩
  | 92 => ⟨S4x512, .f32⟩
  | 93 => ⟨S4x512, .f32⟩
  | 94 => ⟨S4x512, .f32⟩
  | 95 => ⟨S4x1, .f32⟩
  | 96 => ⟨S4x512, .f32⟩
  | 97 => ⟨S4x512, .f32⟩
  | 98 => ⟨S_, .f32⟩
  | 99 => ⟨S4x512, .f32⟩
  | 100 => ⟨S4x512, .f32⟩
  | 101 => ⟨S4x512, .f32⟩
  | 102 => ⟨S4x512, .f32⟩
  | 103 => ⟨S4x512, .f32⟩
  | 104 => ⟨S4x512, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .i32⟩
  | 117 => ⟨S_, .f32⟩
  | 118 => ⟨S_, .f32⟩
  | 119 => ⟨S1x1, .f32⟩
  | 120 => ⟨S_, .f32⟩
  | 121 => ⟨S1x1, .f32⟩
  | 122 => ⟨S1x1, .f32⟩
  | 123 => ⟨S4x512, .f32⟩
  | 124 => ⟨S4x512, .f32⟩
  | 125 => ⟨S4x512, .f32⟩
  | 126 => ⟨S_, .f32⟩
  | 127 => ⟨S_, .f32⟩
  | _ => ⟨S32000x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4x512, .f32⟩
  | 15 => ⟨S_, .f32⟩
  | 16 => ⟨S_, .f32⟩
  | 17 => ⟨S_, .f32⟩
  | 18 => ⟨S_, .f32⟩
  | 19 => ⟨S_, .f32⟩
  | _ => ⟨S32000x2048, .f32⟩

abbrev hbmTy (i : Nat) : BufTy := match i / 128 with
  | 0 => hbmTy0_0 i
  | 1 => hbmTy0_1 i
  | _ => ⟨S32000x2048, .f32⟩

abbrev bufTy : (tb : Table) → Fin (tcTables nBuf tb) → BufTy
  | .hbm, ⟨i, _⟩ => hbmTy i
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v2 : Ref sig .tc := ⟨.hbm, 23, rfl⟩
abbrev main_v3 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v4 : Ref sig .tc := ⟨.hbm, 46, rfl⟩
abbrev main_v5 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v6 : Ref sig .tc := ⟨.hbm, 62, rfl⟩
abbrev main_v7 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_cst : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_cst_0 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_cst_1 : Ref sig .tc := ⟨.hbm, 105, rfl⟩
abbrev main_v26 : Ref sig .tc := ⟨.hbm, 106, rfl⟩
abbrev main_cst_2 : Ref sig .tc := ⟨.hbm, 107, rfl⟩
abbrev main_v27 : Ref sig .tc := ⟨.hbm, 108, rfl⟩
abbrev main_cst_3 : Ref sig .tc := ⟨.hbm, 109, rfl⟩
abbrev main_v28 : Ref sig .tc := ⟨.hbm, 110, rfl⟩
abbrev main_v29 : Ref sig .tc := ⟨.hbm, 111, rfl⟩
abbrev main_cst_4 : Ref sig .tc := ⟨.hbm, 112, rfl⟩
abbrev main_v30 : Ref sig .tc := ⟨.hbm, 113, rfl⟩
abbrev main_cst_5 : Ref sig .tc := ⟨.hbm, 114, rfl⟩
abbrev main_v31 : Ref sig .tc := ⟨.hbm, 115, rfl⟩
abbrev main_c : Ref sig .tc := ⟨.hbm, 116, rfl⟩
abbrev main_call4_call0_cst : Ref sig .tc := ⟨.hbm, 117, rfl⟩
abbrev main_call4_call0_v0 : Ref sig .tc := ⟨.hbm, 118, rfl⟩
abbrev main_call4_call0_v1 : Ref sig .tc := ⟨.hbm, 119, rfl⟩
abbrev main_call4_call0_cst_0 : Ref sig .tc := ⟨.hbm, 120, rfl⟩
abbrev main_call4_call0_v2 : Ref sig .tc := ⟨.hbm, 121, rfl⟩
abbrev main_call4_call0_v3 : Ref sig .tc := ⟨.hbm, 122, rfl⟩
abbrev main_call4_call0_v4 : Ref sig .tc := ⟨.hbm, 123, rfl⟩
abbrev main_call4_call0_v5 : Ref sig .tc := ⟨.hbm, 124, rfl⟩
abbrev main_call4_call0_v6 : Ref sig .tc := ⟨.hbm, 125, rfl⟩
abbrev main_call4_call0_v7 : Ref sig .tc := ⟨.hbm, 126, rfl⟩
abbrev main_call4_call0_cst_1 : Ref sig .tc := ⟨.hbm, 127, rfl⟩
abbrev main_call4_call0_v8 : Ref sig .tc := ⟨.hbm, 128, rfl⟩
abbrev main_call4_call0_cst_2 : Ref sig .tc := ⟨.hbm, 129, rfl⟩
abbrev main_call4_call0_v9 : Ref sig .tc := ⟨.hbm, 130, rfl⟩
abbrev main_call4_call0_v10 : Ref sig .tc := ⟨.hbm, 131, rfl⟩
abbrev main_call4_call0_cst_3 : Ref sig .tc := ⟨.hbm, 132, rfl⟩
abbrev main_call4_call0_v11 : Ref sig .tc := ⟨.hbm, 133, rfl⟩
abbrev main_call4_call0_cst_4 : Ref sig .tc := ⟨.hbm, 134, rfl⟩
abbrev main_call4_call0_call0_v0 : Ref sig .tc := ⟨.hbm, 135, rfl⟩
abbrev main_call4_v0 : Ref sig .tc := ⟨.hbm, 136, rfl⟩
abbrev main_v32 : Ref sig .tc := ⟨.hbm, 137, rfl⟩
abbrev main_cst_6 : Ref sig .tc := ⟨.hbm, 138, rfl⟩
abbrev main_v33 : Ref sig .tc := ⟨.hbm, 139, rfl⟩
abbrev main_cst_7 : Ref sig .tc := ⟨.hbm, 140, rfl⟩
abbrev main_v34 : Ref sig .tc := ⟨.hbm, 141, rfl⟩
abbrev main_v35 : Ref sig .tc := ⟨.hbm, 142, rfl⟩
abbrev main_cst_8 : Ref sig .tc := ⟨.hbm, 143, rfl⟩
abbrev main_v36 : Ref sig .tc := ⟨.hbm, 144, rfl⟩
abbrev main_cst_9 : Ref sig .tc := ⟨.hbm, 145, rfl⟩
abbrev main_v37 : Ref sig .tc := ⟨.hbm, 146, rfl⟩
abbrev main_v38 : Ref sig .tc := ⟨.hbm, 147, rfl⟩

abbrev nD : Nat := 1
abbrev τ : Topo := Topo.v7x

variable {F : FTy → Type} [FloatOps F]

class Facts₀ : Prop where
  reducesTo_S4x512x32000_S4x512_d2 : S4x512x32000.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x32000_0_1_2 : S4x512x1.BroadcastsInDim S4x512x32000 (![0, 1, 2] : Fin 3 → Fin S4x512x32000.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  bcast_S4_S4x1_0 : S4.BroadcastsInDim S4x1 (![0] : Fin 1 → Fin S4x1.rank)
  bcast_S4x1_S4x512_0_1 : S4x1.BroadcastsInDim S4x512 (![0, 1] : Fin 2 → Fin S4x512.rank)
  reducesTo_S4x512_S_d0_1 : S4x512.ReducesTo [0, 1] S_
  bcast_S_S1x1 : S_.BroadcastsInDim S1x1 (![] : Fin 0 → Fin S1x1.rank)
  bcast_S1x1_S4x512_0_1 : S1x1.BroadcastsInDim S4x512 (![0, 1] : Fin 2 → Fin S4x512.rank)
  reducesTo_S4x512x32000_S_d0_1_2 : S4x512x32000.ReducesTo [0, 1, 2] S_
  dot_S4x512x2048_S32000x2048_S4x512x32000_2_1_01_0_n_n_wf : DotDims.WF S4x512x2048 S32000x2048 S4x512x32000 [2] [1] [0, 1] [0] [] []
  gather_S4x512x32000_S4x512x1x1_S4x512x1_n_2_01_01_2_3_111_wf : GatherDims.WF S4x512x32000 S4x512x1x1 S4x512x1 [] [2] [0, 1] [2] [0, 1] 3 ![1, 1, 1]

variable [Facts₀]

def dot_S4x512x2048_S32000x2048_S4x512x32000_2_1_01_0_n_n : DotDims S4x512x2048 S32000x2048 S4x512x32000 where
  lhsContracting := [2]
  rhsContracting := [1]
  lhsNonContracting := [0, 1]
  rhsNonContracting := [0]
  lhsBatch := []
  rhsBatch := []
  wf := dot_S4x512x2048_S32000x2048_S4x512x32000_2_1_01_0_n_n_wf
def gather_S4x512x32000_S4x512x1x1_S4x512x1_n_2_01_01_2_3_111 : GatherDims S4x512x32000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x32000_S4x512x1x1_S4x512x1_n_2_01_01_2_3_111_wf

class Facts : Prop extends Facts₀ where

variable [Facts]
-- ==== Proof.K.Runs0.lean ====
/- What the three control cases of region 0's kernel body share: the two branch conditions of the body in closed
   form over the grid (the block index along the vocabulary axis is 0 / is 124), where the output window is idle,
   the staging and scratch memrefs the body is called with, and the launch invariant with the four carried
   scratches (running maximum, running sum of exponentials, target logit, logit sum) named as owned memrefs. -/
import proofs.«420414_j89421219103752_3_alg».proof.Proof.Gen.Kernel.Launch
import proofs.«420414_j89421219103752_3_alg».proof.Proof.Gen.Kernel.Skeleton
import proofs.«420414_j89421219103752_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (initialise the four scratches): the vocabulary-block coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 125). -/
theorem hcond0_0 : ∀ t : Fin cfg0.N, cond0_0 (grid0.coords t) ↔ t.val % 125 = 0 :=
  (by decide +kernel : ∀ t : Fin grid0.N, cond0_0 (grid0.coords t) ↔ t.val % 125 = 0)

/-- The condition of the body's second `scf.if` (write the four statistics columns): the vocabulary-block coordinate is 124. -/
abbrev cond0_1 (i : grid0.Coords) : Prop := k0_cond2 i = 1#1
/-- It holds at the points ≡ 124 (mod 125). -/
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the first vocabulary block the output is idle: nothing is stored into it. -/
theorem idleAt0_3_A : ∀ t : Fin cfg0.N, cond0_0 (grid0.coords t) → ¬cond0_1 (grid0.coords t) → cfg0.idle 3 (grid0.coords t) = true := by decide +kernel
/-- and its block is not written back there. -/
theorem noFlush0_3_A : ∀ t : Fin cfg0.N, cond0_0 (grid0.coords t) → ¬cond0_1 (grid0.coords t) → (cfg0.win 3).flush t = false := by decide +kernel
/-- At an inner vocabulary block the output is idle. -/
theorem idleAt0_3_B : ∀ t : Fin cfg0.N, ¬cond0_0 (grid0.coords t) → ¬cond0_1 (grid0.coords t) → cfg0.idle 3 (grid0.coords t) = true := by decide +kernel
/-- and its block is not written back there. -/
theorem noFlush0_3_B : ∀ t : Fin cfg0.N, ¬cond0_0 (grid0.coords t) → ¬cond0_1 (grid0.coords t) → (cfg0.win 3).flush t = false := by decide +kernel
/-- At the last vocabulary block the output is live: its four columns are stored. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1024x4 .f32 := (Memref.whole cc0_stg3_0 : Memref sig .tc .vmem S1024x4 .f32).view
/-- Each window's current staging memref at point `t`, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4 .f32 := win0_3.stage (cfg0.slots t 3)
abbrev hs0_3 (t : Fin cfg0.N) : (ms0_3 t).IsWhole := hstage0_3 ((cfg0.slots t 3).cast nbuf0_3)
/-- The scratch operands (running maximum, running sum of exponentials, target logit, logit sum): whole scoped buffers. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
/-- The same as views. -/
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

/-- The scoped buffers of the core that belong to the other call (its staging buffers and scratches), each whole
    at some contents: this region never touches them. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- The launch invariant with the four scratch operands as memrefs owned at some contents, the other call's scoped
    buffers beside them, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped0 (F := F) c) ∗ (∃ r, prngReg c r)) := by
  unfold Pipeline.ΦA; rw [scopedRest0_eq]; simp only [scM0_0, scM0_1, scM0_2, scM0_3, owns_whole]; try rfl

end Cert.Kernel.Hand

end
-- ==== Proof.K.Run0A.lean ====
/- The run of region 0's kernel body in control case A: a triple over whole staging and scratch memrefs, with the
   pieces the body's stores leave in each buffer as the witness. -/
import proofs.«420414_j89421219103752_3_alg».proof.Proof.K.Runs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a FIRST vocabulary block (the initialising branch taken, the output branch not): the four scratches,
    owned at anything, are initialised (−∞, 0, 0, 0) and then updated with the block's statistics; the inputs' staging
    memrefs are handed back at their contents and the output's untouched. The pieces each scratch ends with are the witness. -/
noncomputable def kernelRun0_A (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.K.Run0B.lean ====
/- The run of region 0's kernel body in control case B: a triple over whole staging and scratch memrefs, with the
   pieces the body's stores leave in each buffer as the witness. -/
import proofs.«420414_j89421219103752_3_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at an INNER vocabulary block (neither branch taken): the four scratches, owned at what the block before
    left, are updated with the block's statistics (running maximum, rescaled sum of exponentials, target logit, logit sum);
    the inputs' staging memrefs are handed back at their contents and the output's untouched. The pieces each scratch
    ends with are the witness. -/
noncomputable def kernelRun0_B (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.K.Run0C.lean ====
/- The run of region 0's kernel body in control case C: a triple over whole staging and scratch memrefs, with the
   pieces the body's stores leave in each buffer as the witness. -/
import proofs.«420414_j89421219103752_3_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the LAST vocabulary block (the output branch taken): the four scratches are updated as at an inner
    block and then copied into the four columns of the output's staging memref, owned at anything. The pieces the output
    and each scratch end with are the witness. -/
noncomputable def kernelRun0_C (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.Kernel.Hand

end
-- ==== Proof.K.Frame0.lean ====
/- Region 0's proof data and body obligation. The kernel body runs in one of three control cases at each grid
   point t (vocabulary-block coordinate t % 125): the first block (the four carried scratches — running maximum,
   running sum of exponentials, target logit, logit sum — are re-initialised and then updated), an inner block (updated),
   the last block (updated, then copied into the four columns of the output block). This module states what the output's
   staging buffer and the four scratches hold after every point (a recursion over the points, each case's run read back),
   the proof data over an entry valuation V, and the body obligation. -/
import proofs.«420414_j89421219103752_3_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer when region 0 is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's staging buffer and in the four scratches -/

/-- At the first vocabulary block (the scratches re-initialised, then updated) nothing is stored into the output block (the window is idle there and not written
    back): a placeholder that nothing consults. -/
def out0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x4 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- At the first vocabulary block (the scratches re-initialised, then updated) the stores into scratch 0 (running maximum) cover it. -/
theorem scover0_A_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1024x1.size (by sl_kernel_rfl) y

/-- What the first vocabulary block (the scratches re-initialised, then updated) leaves in scratch 0 (running maximum): its stores read back. -/
def sout0_A_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)

/-- At the first vocabulary block (the scratches re-initialised, then updated) the stores into scratch 1 (running sum of exponentials) cover it. -/
theorem scover0_A_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1024x1.size (by sl_kernel_rfl) y

/-- What the first vocabulary block (the scratches re-initialised, then updated) leaves in scratch 1 (running sum of exponentials): its stores read back. -/
def sout0_A_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)

/-- At the first vocabulary block (the scratches re-initialised, then updated) the stores into scratch 2 (target logit) cover it. -/
theorem scover0_A_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1024x1.size (by sl_kernel_rfl) y

/-- What the first vocabulary block (the scratches re-initialised, then updated) leaves in scratch 2 (target logit): its stores read back. -/
def sout0_A_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.2.1)

/-- At the first vocabulary block (the scratches re-initialised, then updated) the stores into scratch 3 (logit sum) cover it. -/
theorem scover0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1024x1.size (by sl_kernel_rfl) y

/-- What the first vocabulary block (the scratches re-initialised, then updated) leaves in scratch 3 (logit sum): its stores read back. -/
def sout0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 hc0 hc1 x0 x1 x2).2.2.2.2.1)

/-- At an inner vocabulary block nothing is stored into the output block (the window is idle there and not written
    back): a placeholder that nothing consults. -/
def out0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x4 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1 xs2 xs3).1)

/-- At an inner vocabulary block the stores into scratch 0 (running maximum) cover it. -/
theorem scover0_B_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What an inner vocabulary block leaves in scratch 0 (running maximum): its stores read back. -/
def sout0_B_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2 xs3).2.1)

/-- At an inner vocabulary block the stores into scratch 1 (running sum of exponentials) cover it. -/
theorem scover0_B_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What an inner vocabulary block leaves in scratch 1 (running sum of exponentials): its stores read back. -/
def sout0_B_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2 xs3).2.2.1)

/-- At an inner vocabulary block the stores into scratch 2 (target logit) cover it. -/
theorem scover0_B_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What an inner vocabulary block leaves in scratch 2 (target logit): its stores read back. -/
def sout0_B_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2 xs3).2.2.2.1)

/-- At an inner vocabulary block the stores into scratch 3 (logit sum) cover it. -/
theorem scover0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What an inner vocabulary block leaves in scratch 3 (logit sum): its stores read back. -/
def sout0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 hc0 hc1 x0 x1 x2 xs0 xs1 xs2 xs3).2.2.2.2.1)

/-- At the last vocabulary block the four column stores tile the output block, so they cover it. -/
theorem cover0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x4.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).1 S1024x1.size (by sl_kernel_rfl) y

/-- What the last vocabulary block leaves in the output's staging buffer: its four columns read back. -/
def out0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x4 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2 xs3).1)

/-- At the last vocabulary block (the scratches updated, then copied into the output's four columns) the stores into scratch 0 (running maximum) cover it. -/
theorem scover0_C_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What the last vocabulary block (the scratches updated, then copied into the output's four columns) leaves in scratch 0 (running maximum): its stores read back. -/
def sout0_C_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2 xs3).2.1)

/-- At the last vocabulary block (the scratches updated, then copied into the output's four columns) the stores into scratch 1 (running sum of exponentials) cover it. -/
theorem scover0_C_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What the last vocabulary block (the scratches updated, then copied into the output's four columns) leaves in scratch 1 (running sum of exponentials): its stores read back. -/
def sout0_C_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2 xs3).2.2.1)

/-- At the last vocabulary block (the scratches updated, then copied into the output's four columns) the stores into scratch 2 (target logit) cover it. -/
theorem scover0_C_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What the last vocabulary block (the scratches updated, then copied into the output's four columns) leaves in scratch 2 (target logit): its stores read back. -/
def sout0_C_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2 xs3).2.2.2.1)

/-- At the last vocabulary block (the scratches updated, then copied into the output's four columns) the stores into scratch 3 (logit sum) cover it. -/
theorem scover0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What the last vocabulary block (the scratches updated, then copied into the output's four columns) leaves in scratch 3 (logit sum): its stores read back. -/
def sout0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 hc0 hc1 x0 x1 x2 xs0 xs1 xs2 xs3).2.2.2.2.1)

/-! ## What the output's staging buffer and the scratches hold after each point -/

/-- THE ACCUMULATION. What the output's staging buffer and the four scratches (running maximum, running sum of
    exponentials, target logit, logit sum) hold after the body at position `n`: the case the vocabulary-block coordinate
    selects at `n`, run at the point's memrefs and input blocks, the scratches taken at what position `n - 1` left
    (the first block takes them at anything). -/
def outsAt0 (c : Dev nD) : (n : ℕ) → n < cfg0.N → Vec F S1024x4 .f32 × Vec F S1024x1 .f32 × Vec F S1024x1 .f32 × Vec F S1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 125 = 0 then
      if h1 : (n + 1) % 125 = 124 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 125 = 124 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a first vocabulary block: that case's contents. -/
theorem outsAt0_A (c : Dev nD) (t : Fin cfg0.N) (h0 : t.val % 125 = 0) (h1 : ¬t.val % 125 = 124) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at an inner vocabulary block: that case's contents, over what the point before left in the scratches. -/
theorem outsAt0_B (c : Dev nD) (t : Fin cfg0.N) (h0 : ¬t.val % 125 = 0) (h1 : ¬t.val % 125 = 124) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last vocabulary block: that case's contents, over what the point before left in the scratches. -/
theorem outsAt0_C (c : Dev nD) (t : Fin cfg0.N) (h0 : ¬t.val % 125 = 0) (h1 : t.val % 125 = 124) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the launch invariant (every scratch at anything);
    afterwards the four carried scratches at what the point before left in them, the other call's scoped buffers at
    anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratches at that point's contents. -/
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ otherScoped0 (F := F) c) ∗ (∃ r, prngReg c r)) := rfl

/-- Before a point that is not the first: the carried scratches at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2) ∗ otherScoped0 (F := F) c) ∗ (∃ r, prngReg c r)) := by
  cases n with
  | zero => exact absurd rfl hz
  | succ n => rfl

/-! ## The proof data -/

/-- The proof data of region 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]
/-- Full shares. -/
theorem q_eq0 (c : Dev nD) (w : Fin cfg0.W) : (dat0 V c).q w = fullShare := rfl
/-- Nothing owed. -/
theorem owed_eq0 (c : Dev nD) (t : Fin (cfg0.N + 1)) : (dat0 V c).owed t = 0 := rfl
/-- Every point is recorded. -/
theorem recorded_eq0 (c : Dev nD) (t : Fin (cfg0.N + 1)) : (dat0 V c).recorded t = Set.univ := rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the vocabulary-block coordinate says which case the
    point is in; the invariant hands the body the four carried scratches at what the point before left (at anything at the
    first point), and takes them back at this point's contents; the output's buffer is handed back untouched unless the
    point is a last vocabulary block, where it is left at its four columns; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 250 := lt_of_lt_of_eq t.isLt (show cfg0.N = 250 from N_0)
  by_cases h0 : t.val % 125 = 0
  · by_cases h1 : t.val % 125 = 124
    · exfalso; omega
    · -- the first vocabulary block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, Hot⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
  · by_cases h1 : t.val % 125 = 124
    · -- the last vocabulary block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _ _ _).2.2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e3, H3⟩, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _ _ _ _ _ _ _)
    · -- an inner vocabulary block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _ _ _).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch invariant back: the scratches' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, HS2, HS3, Hot⟩, Hg⟩
  isplitl [HS0 HS1 HS2 HS3 Hot]
  · isplitl [HS0]; · iexists _; iexact HS0
    isplitl [HS1]; · iexists _; iexact HS1
    isplitl [HS2]; · iexists _; iexact HS2
    isplitl [HS3]; · iexists _; iexact HS3
    iexact Hot
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 250 := N_0; omega)

end Cert.Kernel.Hand

end
-- ==== Proof.K.Runs1.lean ====
/- What the three control cases of region 1's kernel body share: the two branch conditions of the body in closed
   form over the grid (the block index along the vocabulary axis is 0 / is 124), where the output window is idle,
   the staging and scratch memrefs the body is called with, and the launch invariant with the four carried
   scratches (running maximum, running sum of exponentials, target logit, logit sum) named as owned memrefs. -/
import proofs.«420414_j89421219103752_3_alg».proof.Proof.Gen.Kernel.Launch
import proofs.«420414_j89421219103752_3_alg».proof.Proof.Gen.Kernel.Skeleton
import proofs.«420414_j89421219103752_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (initialise the four scratches): the vocabulary-block coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 125). -/
theorem hcond1_0 : ∀ t : Fin cfg1.N, cond1_0 (grid1.coords t) ↔ t.val % 125 = 0 :=
  (by decide +kernel : ∀ t : Fin grid1.N, cond1_0 (grid1.coords t) ↔ t.val % 125 = 0)

/-- The condition of the body's second `scf.if` (write the four statistics columns): the vocabulary-block coordinate is 124. -/
abbrev cond1_1 (i : grid1.Coords) : Prop := k1_cond2 i = 1#1
/-- It holds at the points ≡ 124 (mod 125). -/
theorem hcond1_1 : ∀ t : Fin cfg1.N, cond1_1 (grid1.coords t) ↔ t.val % 125 = 124 :=
  (by decide +kernel : ∀ t : Fin grid1.N, cond1_1 (grid1.coords t) ↔ t.val % 125 = 124)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first vocabulary block the output is idle: nothing is stored into it. -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At an inner vocabulary block the output is idle. -/
theorem idleAt1_3_B : ∀ t : Fin cfg1.N, ¬cond1_0 (grid1.coords t) → ¬cond1_1 (grid1.coords t) → cfg1.idle 3 (grid1.coords t) = true := by decide +kernel
/-- and its block is not written back there. -/
theorem noFlush1_3_B : ∀ t : Fin cfg1.N, ¬cond1_0 (grid1.coords t) → ¬cond1_1 (grid1.coords t) → (cfg1.win 3).flush t = false := by decide +kernel
/-- At the last vocabulary block the output is live: its four columns are stored. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x4 .f32 := (Memref.whole cc1_stg3_0 : Memref sig .tc .vmem S1024x4 .f32).view
/-- Each window's current staging memref at point `t`, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x4 .f32 := win1_3.stage (cfg1.slots t 3)
abbrev hs1_3 (t : Fin cfg1.N) : (ms1_3 t).IsWhole := hstage1_3 ((cfg1.slots t 3).cast nbuf1_3)
/-- The scratch operands (running maximum, running sum of exponentials, target logit, logit sum): whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1 .f32 := Memref.whole cc1_scratch3
/-- The same as views. -/
abbrev VS1_0 : View sig .tc .vmem S1024x1 .f32 := scM1_0.view
abbrev VS1_1 : View sig .tc .vmem S1024x1 .f32 := scM1_1.view
abbrev VS1_2 : View sig .tc .vmem S1024x1 .f32 := scM1_2.view
abbrev VS1_3 : View sig .tc .vmem S1024x1 .f32 := scM1_3.view

/-- The scoped buffers of the core that belong to the other call (its staging buffers and scratches), each whole
    at some contents: this region never touches them. -/
abbrev otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- Two assertions that entail one another are equal. -/
theorem eq_of_entails {P Q : sProp 𝕄} (h₁ : P ⊢ Q) (h₂ : Q ⊢ P) : P = Q := BI.equiv_iff.mp ⟨h₁, h₂⟩

/-- The launch invariant with the four scratch operands as memrefs owned at some contents, the other call's scoped
    buffers beside them, and the generator register at some state (the enumeration lists the other call's buffers
    first: the separating conjunction is commutative and associative). -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ otherScoped1 (F := F) c) ∗ (∃ r, prngReg c r)) := by
  unfold Pipeline.ΦA; rw [scopedRest1_eq]; simp only [scM1_0, scM1_1, scM1_2, scM1_3, owns_whole]
  congr 1
  refine eq_of_entails ?_ ?_
  · iintro ⟨O0, O1, O2, O3, O4, O5, O6, O7, O8, O9, O10, O11, S0, S1, S2, S3⟩
    isplitl [S0]; · iexact S0
    isplitl [S1]; · iexact S1
    isplitl [S2]; · iexact S2
    isplitl [S3]; · iexact S3
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    iexact O11
  · iintro ⟨S0, S1, S2, S3, O0, O1, O2, O3, O4, O5, O6, O7, O8, O9, O10, O11⟩
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [S0]; · iexact S0
    isplitl [S1]; · iexact S1
    isplitl [S2]; · iexact S2
    iexact S3

end Cert.Kernel.Hand

end
-- ==== Proof.K.Run1A.lean ====
/- The run of region 1's kernel body in control case A: a triple over whole staging and scratch memrefs, with the
   pieces the body's stores leave in each buffer as the witness. -/
import proofs.«420414_j89421219103752_3_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a FIRST vocabulary block (the initialising branch taken, the output branch not): the four scratches,
    owned at anything, are initialised (−∞, 0, 0, 0) and then updated with the block's statistics; the inputs' staging
    memrefs are handed back at their contents and the output's untouched. The pieces each scratch ends with are the witness. -/
noncomputable def kernelRun1_A (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc1__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.K.Run1B.lean ====
/- The run of region 1's kernel body in control case B: a triple over whole staging and scratch memrefs, with the
   pieces the body's stores leave in each buffer as the witness. -/
import proofs.«420414_j89421219103752_3_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at an INNER vocabulary block (neither branch taken): the four scratches, owned at what the block before
    left, are updated with the block's statistics (running maximum, rescaled sum of exponentials, target logit, logit sum);
    the inputs' staging memrefs are handed back at their contents and the output's untouched. The pieces each scratch
    ends with are the witness. -/
noncomputable def kernelRun1_B (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc1__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Hand

end
-- ==== Proof.K.Run1C.lean ====
/- The run of region 1's kernel body in control case C: a triple over whole staging and scratch memrefs, with the
   pieces the body's stores leave in each buffer as the witness. -/
import proofs.«420414_j89421219103752_3_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the LAST vocabulary block (the output branch taken): the four scratches are updated as at an inner
    block and then copied into the four columns of the output's staging memref, owned at anything. The pieces the output
    and each scratch end with are the witness. -/
noncomputable def kernelRun1_C (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc1__stats_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.Kernel.Hand

end
-- ==== Proof.K.Frame1.lean ====
/- Region 1's proof data and body obligation. The kernel body runs in one of three control cases at each grid
   point t (vocabulary-block coordinate t % 125): the first block (the four carried scratches — running maximum,
   running sum of exponentials, target logit, logit sum — are re-initialised and then updated), an inner block (updated),
   the last block (updated, then copied into the four columns of the output block). This module states what the output's
   staging buffer and the four scratches hold after every point (a recursion over the points, each case's run read back),
   the proof data over an entry valuation V, and the body obligation. -/
import proofs.«420414_j89421219103752_3_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer when region 1 is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's staging buffer and in the four scratches -/

/-- At the first vocabulary block (the scratches re-initialised, then updated) nothing is stored into the output block (the window is idle there and not written
    back): a placeholder that nothing consults. -/
def out1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x4 .f32 :=
  VO1_3.read (Elt F) (VO1_3.writes (Elt F) VO1_3.junk (kernelRun1_A c i arg2 harg2 arg3 harg3 arg4 harg4 arg5 harg5 arg6 harg6 arg7 harg7 arg8 harg8 arg9 harg9 hc0 hc1 x0 x1 x2).1)

/-- At the first vocabulary block (the scratches re-initialised, then updated) the stores into scratch 0 (running maximum) cover it. -/
theorem scover1_A_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.1, y ∈ pc.1.set :=
  View.cover_of_tiledL (kernelRun1_A c i arg2 harg2 arg3 harg3 arg4 harg4 arg5 harg5 arg6 harg6 arg7 harg7 arg8 harg8 arg9 harg9 hc0 hc1 x0 x1 x2).2.1 S1024x1.size (by sl_kernel_rfl) y

/-- What the first vocabulary block (the scratches re-initialised, then updated) leaves in scratch 0 (running maximum): its stores read back. -/
def sout1_A_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2).2.1)

/-- At the first vocabulary block (the scratches re-initialised, then updated) the stores into scratch 1 (running sum of exponentials) cover it. -/
theorem scover1_A_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.1 S1024x1.size (by sl_kernel_rfl) y

/-- What the first vocabulary block (the scratches re-initialised, then updated) leaves in scratch 1 (running sum of exponentials): its stores read back. -/
def sout1_A_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2).2.2.1)

/-- At the first vocabulary block (the scratches re-initialised, then updated) the stores into scratch 2 (target logit) cover it. -/
theorem scover1_A_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.2.1 S1024x1.size (by sl_kernel_rfl) y

/-- What the first vocabulary block (the scratches re-initialised, then updated) leaves in scratch 2 (target logit): its stores read back. -/
def sout1_A_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2).2.2.2.1)

/-- At the first vocabulary block (the scratches re-initialised, then updated) the stores into scratch 3 (logit sum) cover it. -/
theorem scover1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.2.2.1 S1024x1.size (by sl_kernel_rfl) y

/-- What the first vocabulary block (the scratches re-initialised, then updated) leaves in scratch 3 (logit sum): its stores read back. -/
def sout1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_3.read (Elt F) (VS1_3.writes (Elt F) VS1_3.junk (kernelRun1_A c i arg2 harg2 arg3 harg3 arg4 harg4 arg5 harg5 arg6 harg6 arg7 harg7 arg8 harg8 arg9 harg9 hc0 hc1 x0 x1 x2).2.2.2.2.1)

/-- At an inner vocabulary block nothing is stored into the output block (the window is idle there and not written
    back): a placeholder that nothing consults. -/
def out1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x4 .f32 :=
  VO1_3.read (Elt F) (VO1_3.writes (Elt F) VO1_3.junk (kernelRun1_B c i arg2 harg2 arg3 harg3 arg4 harg4 arg5 harg5 arg6 harg6 arg7 harg7 arg8 harg8 arg9 harg9 hc0 hc1 x0 x1 x2 xs0 xs1 xs2 xs3).1)

/-- At an inner vocabulary block the stores into scratch 0 (running maximum) cover it. -/
theorem scover1_B_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What an inner vocabulary block leaves in scratch 0 (running maximum): its stores read back. -/
def sout1_B_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 xs0 xs1 xs2 xs3).2.1)

/-- At an inner vocabulary block the stores into scratch 1 (running sum of exponentials) cover it. -/
theorem scover1_B_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What an inner vocabulary block leaves in scratch 1 (running sum of exponentials): its stores read back. -/
def sout1_B_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 xs0 xs1 xs2 xs3).2.2.1)

/-- At an inner vocabulary block the stores into scratch 2 (target logit) cover it. -/
theorem scover1_B_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What an inner vocabulary block leaves in scratch 2 (target logit): its stores read back. -/
def sout1_B_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 xs0 xs1 xs2 xs3).2.2.2.1)

/-- At an inner vocabulary block the stores into scratch 3 (logit sum) cover it. -/
theorem scover1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What an inner vocabulary block leaves in scratch 3 (logit sum): its stores read back. -/
def sout1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_3.read (Elt F) (VS1_3.writes (Elt F) VS1_3.junk (kernelRun1_B c i arg2 harg2 arg3 harg3 arg4 harg4 arg5 harg5 arg6 harg6 arg7 harg7 arg8 harg8 arg9 harg9 hc0 hc1 x0 x1 x2 xs0 xs1 xs2 xs3).2.2.2.2.1)

/-- At the last vocabulary block the four column stores tile the output block, so they cover it. -/
theorem cover1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x4.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).1 S1024x1.size (by sl_kernel_rfl) y

/-- What the last vocabulary block leaves in the output's staging buffer: its four columns read back. -/
def out1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x4 .f32 :=
  VO1_3.read (Elt F) (VO1_3.writes (Elt F) VO1_3.junk (kernelRun1_C c i arg2 harg2 arg3 harg3 arg4 harg4 arg5 harg5 arg6 harg6 arg7 harg7 arg8 harg8 arg9 harg9 hc0 hc1 x0 x1 x2 xs0 xs1 xs2 xs3).1)

/-- At the last vocabulary block (the scratches updated, then copied into the output's four columns) the stores into scratch 0 (running maximum) cover it. -/
theorem scover1_C_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What the last vocabulary block (the scratches updated, then copied into the output's four columns) leaves in scratch 0 (running maximum): its stores read back. -/
def sout1_C_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 xs0 xs1 xs2 xs3).2.1)

/-- At the last vocabulary block (the scratches updated, then copied into the output's four columns) the stores into scratch 1 (running sum of exponentials) cover it. -/
theorem scover1_C_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What the last vocabulary block (the scratches updated, then copied into the output's four columns) leaves in scratch 1 (running sum of exponentials): its stores read back. -/
def sout1_C_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 xs0 xs1 xs2 xs3).2.2.1)

/-- At the last vocabulary block (the scratches updated, then copied into the output's four columns) the stores into scratch 2 (target logit) cover it. -/
theorem scover1_C_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What the last vocabulary block (the scratches updated, then copied into the output's four columns) leaves in scratch 2 (target logit): its stores read back. -/
def sout1_C_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 xs0 xs1 xs2 xs3).2.2.2.1)

/-- At the last vocabulary block (the scratches updated, then copied into the output's four columns) the stores into scratch 3 (logit sum) cover it. -/
theorem scover1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What the last vocabulary block (the scratches updated, then copied into the output's four columns) leaves in scratch 3 (logit sum): its stores read back. -/
def sout1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_3.read (Elt F) (VS1_3.writes (Elt F) VS1_3.junk (kernelRun1_C c i arg2 harg2 arg3 harg3 arg4 harg4 arg5 harg5 arg6 harg6 arg7 harg7 arg8 harg8 arg9 harg9 hc0 hc1 x0 x1 x2 xs0 xs1 xs2 xs3).2.2.2.2.1)

/-! ## What the output's staging buffer and the scratches hold after each point -/

/-- THE ACCUMULATION. What the output's staging buffer and the four scratches (running maximum, running sum of
    exponentials, target logit, logit sum) hold after the body at position `n`: the case the vocabulary-block coordinate
    selects at `n`, run at the point's memrefs and input blocks, the scratches taken at what position `n - 1` left
    (the first block takes them at anything). -/
def outsAt1 (c : Dev nD) : (n : ℕ) → n < cfg1.N → Vec F S1024x4 .f32 × Vec F S1024x1 .f32 × Vec F S1024x1 .f32 × Vec F S1024x1 .f32 × Vec F S1024x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 125 = 0 then
      if h1 : (n + 1) % 125 = 124 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 125 = 124 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a first vocabulary block: that case's contents. -/
theorem outsAt1_A (c : Dev nD) (t : Fin cfg1.N) (h0 : t.val % 125 = 0) (h1 : ¬t.val % 125 = 124) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an inner vocabulary block: that case's contents, over what the point before left in the scratches. -/
theorem outsAt1_B (c : Dev nD) (t : Fin cfg1.N) (h0 : ¬t.val % 125 = 0) (h1 : ¬t.val % 125 = 124) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last vocabulary block: that case's contents, over what the point before left in the scratches. -/
theorem outsAt1_C (c : Dev nD) (t : Fin cfg1.N) (h0 : ¬t.val % 125 = 0) (h1 : t.val % 125 = 124) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the launch invariant (every scratch at anything);
    afterwards the four carried scratches at what the point before left in them, the other call's scoped buffers at
    anything, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2) ∗ otherScoped1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratches at that point's contents. -/
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2) ∗ otherScoped1 (F := F) c) ∗ (∃ r, prngReg c r)) := rfl

/-- Before a point that is not the first: the carried scratches at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2) ∗ otherScoped1 (F := F) c) ∗ (∃ r, prngReg c r)) := by
  cases n with
  | zero => exact absurd rfl hz
  | succ n => rfl

/-! ## The proof data -/

/-- The proof data of region 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]
/-- Full shares. -/
theorem q_eq1 (c : Dev nD) (w : Fin cfg1.W) : (dat1 V c).q w = fullShare := rfl
/-- Nothing owed. -/
theorem owed_eq1 (c : Dev nD) (t : Fin (cfg1.N + 1)) : (dat1 V c).owed t = 0 := rfl
/-- Every point is recorded. -/
theorem recorded_eq1 (c : Dev nD) (t : Fin (cfg1.N + 1)) : (dat1 V c).recorded t = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the vocabulary-block coordinate says which case the
    point is in; the invariant hands the body the four carried scratches at what the point before left (at anything at the
    first point), and takes them back at this point's contents; the output's buffer is handed back untouched unless the
    point is a last vocabulary block, where it is left at its four columns; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 250 := lt_of_lt_of_eq t.isLt (show cfg1.N = 250 from N_1)
  by_cases h0 : t.val % 125 = 0
  · by_cases h1 : t.val % 125 = 124
    · exfalso; omega
    · -- the first vocabulary block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2 sout1_A_3; (try dsimp only)
      by_cases hz : t.val = 0
      · rw [PhiS1_castSucc V c t, PhiS1_zero V c _ _ hz, PhiA1_eq]
        iintro ⟨⟨⟨HS0, HS1, HS2, HS3, Hot⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover1_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover1_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
  · by_cases h1 : t.val % 125 = 124
    · -- the last vocabulary block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2 sout1_C_3; (try dsimp only)
      by_cases hz : t.val = 0
      · exfalso; omega
      · rw [PhiS1_castSucc V c t, PhiS1_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _ _ _).2.2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e3, H3⟩, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover1_C_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ _ _ _)
    · -- an inner vocabulary block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2 sout1_B_3; (try dsimp only)
      by_cases hz : t.val = 0
      · exfalso; omega
      · rw [PhiS1_castSucc V c t, PhiS1_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover1_B_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch invariant back: the scratches' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HS1, HS2, HS3, Hot⟩, Hg⟩
  isplitl [HS0 HS1 HS2 HS3 Hot]
  · isplitl [HS0]; · iexists _; iexact HS0
    isplitl [HS1]; · iexists _; iexact HS1
    isplitl [HS2]; · iexists _; iexact HS2
    isplitl [HS3]; · iexists _; iexact HS3
    iexact Hot
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 250 := N_1; omega)

end Cert.Kernel.Hand

end
-- ==== Proof.K.Launch.lean ====
/- THE LAUNCH of the kernel program. @main is eight segments in order: three stretches of host operations, the two
   kernel regions (one per pallas_call of the statistics kernel), three stretches of host operations. This module
   names the contents of every TensorCore buffer at each of the nine segment boundaries as a fold from the launch
   memory (a host stretch applies its operations; a region leaves its arrays at what its write-backs fold to and
   every other buffer as entered), gives each region as a segment record over the thread state "every unscoped
   buffer at the boundary's contents, the generator register at some state, nothing owed", and runs the launch:
   every weakly fair execution terminates and the final memory holds, at every unscoped buffer, the last
   boundary's contents. The seven argument arrays are written by no segment, hence end as launched. -/
import proofs.«420414_j89421219103752_3_alg».proof.Proof.Gen.Kernel.Regions
import proofs.«420414_j89421219103752_3_alg».proof.Proof.K.Frame0
import proofs.«420414_j89421219103752_3_alg».proof.Proof.K.Frame1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- The launch state: memory `m`, every semaphore counter at zero, generator registers `ρ`. -/
abbrev s₀ : MemSt nD τ sig (Elt F) := ⟨m, fun _ => 0, ρ⟩
/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second host stretch. -/
abbrev W2 : Dev nD → Valuation τ sig (Elt F) := fun c => StableHlo.after hostOps0_1 (W1 m ρ c)
/-- After the third host stretch: region 0's entry. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- Region 0 leaves every buffer that is none of its arrays as entered. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents, region 1's entry). -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- Region 1 leaves every buffer that is none of its arrays as entered. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the fourth host stretch (the tail's first). -/
abbrev W6 : Dev nD → Valuation τ sig (Elt F) := fun c => StableHlo.after hostOps2 (W5 m ρ c)
/-- After the fifth host stretch. -/
abbrev W7 : Dev nD → Valuation τ sig (Elt F) := fun c => StableHlo.after hostOps2_1 (W6 m ρ c)
/-- After the sixth host stretch: the contents @main returns at. -/
abbrev W8 : Dev nD → Valuation τ sig (Elt F) := fun c => StableHlo.after hostOps2_2 (W7 m ρ c)

/-! ### What the regions leave -/

/-- Region 0's output array `main_v6` ends at what its write-backs fold to. -/
theorem W4_out (c : Dev nD) : W4 m ρ c (Proc.devRef .tc main_v6) = (dat0 (V3 m ρ) c).arrAt 3 cfg0.N := W4_arr m ρ c 3
/-- Region 1's output array `main_v7` ends at what its write-backs fold to. -/
theorem W5_out (c : Dev nD) : W5 m ρ c (Proc.devRef .tc main_v7) = (dat1 (V4 m ρ) c).arrAt 3 cfg1.N := W5_arr m ρ c 3

/-- Region 0 changes no buffer but its output array: an input array is never written back. -/
theorem W4_keep (c : Dev nD) (b : Ref sig .tc) (hb : b ≠ main_v6) :
    W4 m ρ c (Proc.devRef .tc b) = W3 m ρ c (Proc.devRef .tc b) := by
  by_cases h : ∃ w, Pipeline.arrRef spec0 w = b
  · obtain ⟨w, rfl⟩ := h
    rw [W4_arr]
    have hw : w = 0 ∨ w = 1 ∨ w = 2 ∨ w = 3 := by revert w; decide
    rcases hw with rfl | rfl | rfl | rfl
    · exact ((dat0 (V3 m ρ) c).arrAt_in 0 rfl _).trans (A_eq0 (V3 m ρ) c 0)
    · exact ((dat0 (V3 m ρ) c).arrAt_in 1 rfl _).trans (A_eq0 (V3 m ρ) c 1)
    · exact ((dat0 (V3 m ρ) c).arrAt_in 2 rfl _).trans (A_eq0 (V3 m ρ) c 2)
    · exact absurd rfl hb
  · exact W4_of_ne m ρ c b fun w e => h ⟨w, e⟩
/-- Region 1 changes no buffer but its output array. -/
theorem W5_keep (c : Dev nD) (b : Ref sig .tc) (hb : b ≠ main_v7) :
    W5 m ρ c (Proc.devRef .tc b) = W4 m ρ c (Proc.devRef .tc b) := by
  by_cases h : ∃ w, Pipeline.arrRef spec1 w = b
  · obtain ⟨w, rfl⟩ := h
    rw [W5_arr]
    have hw : w = 0 ∨ w = 1 ∨ w = 2 ∨ w = 3 := by revert w; decide
    rcases hw with rfl | rfl | rfl | rfl
    · exact ((dat1 (V4 m ρ) c).arrAt_in 0 rfl _).trans (A_eq1 (V4 m ρ) c 0)
    · exact ((dat1 (V4 m ρ) c).arrAt_in 1 rfl _).trans (A_eq1 (V4 m ρ) c 1)
    · exact ((dat1 (V4 m ρ) c).arrAt_in 2 rfl _).trans (A_eq1 (V4 m ρ) c 2)
    · exact absurd rfl hb
  · exact W5_of_ne m ρ c b fun w e => h ⟨w, e⟩
/-- Region 1 does not touch region 0's output array. -/
theorem W5_main_v6 (c : Dev nD) : W5 m ρ c (Proc.devRef .tc main_v6) = W4 m ρ c (Proc.devRef .tc main_v6) :=
  W5_keep m ρ c main_v6 (by decide)

/-! ### What the host stretches leave: a buffer no operation of a stretch writes is as before it -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W7_of (c : Dev nD) (r : Ref sig .tc) (h : r ∉ hostOps2_1_W) : W7 m ρ c (Proc.devRef .tc r) = W6 m ρ c (Proc.devRef .tc r) :=
  StableHlo.after_of_writes_sub hostOps2_1 _ hostOps2_1_writes h
theorem W8_of (c : Dev nD) (r : Ref sig .tc) (h : r ∉ hostOps2_2_W) : W8 m ρ c (Proc.devRef .tc r) = W7 m ρ c (Proc.devRef .tc r) :=
  StableHlo.after_of_writes_sub hostOps2_2 _ hostOps2_2_writes h

/-! ### The arguments end as launched: no host operation and no region writes one -/

/-- `main_arg0` reaches the end as launched. -/
theorem W8_main_arg0 (c : Dev nD) : W8 m ρ c (Proc.devRef .tc main_arg0) = m ((c : Thread nD τ).loc main_arg0) :=
  (W8_of m ρ c main_arg0 (by decide)).trans <| (W7_of m ρ c main_arg0 (by decide)).trans <| (W6_of m ρ c main_arg0 (by decide)).trans <|
    (W5_keep m ρ c main_arg0 (by decide)).trans <| (W4_keep m ρ c main_arg0 (by decide)).trans <| (W3_of m ρ c main_arg0 (by decide)).trans <|
    (W2_of m ρ c main_arg0 (by decide)).trans <| (W1_of m ρ c main_arg0 (by decide)).trans rfl

/-- `main_arg1` reaches the end as launched. -/
theorem W8_main_arg1 (c : Dev nD) : W8 m ρ c (Proc.devRef .tc main_arg1) = m ((c : Thread nD τ).loc main_arg1) :=
  (W8_of m ρ c main_arg1 (by decide)).trans <| (W7_of m ρ c main_arg1 (by decide)).trans <| (W6_of m ρ c main_arg1 (by decide)).trans <|
    (W5_keep m ρ c main_arg1 (by decide)).trans <| (W4_keep m ρ c main_arg1 (by decide)).trans <| (W3_of m ρ c main_arg1 (by decide)).trans <|
    (W2_of m ρ c main_arg1 (by decide)).trans <| (W1_of m ρ c main_arg1 (by decide)).trans rfl

/-- `main_arg2` reaches the end as launched. -/
theorem W8_main_arg2 (c : Dev nD) : W8 m ρ c (Proc.devRef .tc main_arg2) = m ((c : Thread nD τ).loc main_arg2) :=
  (W8_of m ρ c main_arg2 (by decide)).trans <| (W7_of m ρ c main_arg2 (by decide)).trans <| (W6_of m ρ c main_arg2 (by decide)).trans <|
    (W5_keep m ρ c main_arg2 (by decide)).trans <| (W4_keep m ρ c main_arg2 (by decide)).trans <| (W3_of m ρ c main_arg2 (by decide)).trans <|
    (W2_of m ρ c main_arg2 (by decide)).trans <| (W1_of m ρ c main_arg2 (by decide)).trans rfl

/-- `main_arg3` reaches the end as launched. -/
theorem W8_main_arg3 (c : Dev nD) : W8 m ρ c (Proc.devRef .tc main_arg3) = m ((c : Thread nD τ).loc main_arg3) :=
  (W8_of m ρ c main_arg3 (by decide)).trans <| (W7_of m ρ c main_arg3 (by decide)).trans <| (W6_of m ρ c main_arg3 (by decide)).trans <|
    (W5_keep m ρ c main_arg3 (by decide)).trans <| (W4_keep m ρ c main_arg3 (by decide)).trans <| (W3_of m ρ c main_arg3 (by decide)).trans <|
    (W2_of m ρ c main_arg3 (by decide)).trans <| (W1_of m ρ c main_arg3 (by decide)).trans rfl

/-- `main_arg4` reaches the end as launched. -/
theorem W8_main_arg4 (c : Dev nD) : W8 m ρ c (Proc.devRef .tc main_arg4) = m ((c : Thread nD τ).loc main_arg4) :=
  (W8_of m ρ c main_arg4 (by decide)).trans <| (W7_of m ρ c main_arg4 (by decide)).trans <| (W6_of m ρ c main_arg4 (by decide)).trans <|
    (W5_keep m ρ c main_arg4 (by decide)).trans <| (W4_keep m ρ c main_arg4 (by decide)).trans <| (W3_of m ρ c main_arg4 (by decide)).trans <|
    (W2_of m ρ c main_arg4 (by decide)).trans <| (W1_of m ρ c main_arg4 (by decide)).trans rfl

/-- `main_arg5` reaches the end as launched. -/
theorem W8_main_arg5 (c : Dev nD) : W8 m ρ c (Proc.devRef .tc main_arg5) = m ((c : Thread nD τ).loc main_arg5) :=
  (W8_of m ρ c main_arg5 (by decide)).trans <| (W7_of m ρ c main_arg5 (by decide)).trans <| (W6_of m ρ c main_arg5 (by decide)).trans <|
    (W5_keep m ρ c main_arg5 (by decide)).trans <| (W4_keep m ρ c main_arg5 (by decide)).trans <| (W3_of m ρ c main_arg5 (by decide)).trans <|
    (W2_of m ρ c main_arg5 (by decide)).trans <| (W1_of m ρ c main_arg5 (by decide)).trans rfl

/-- `main_arg6` reaches the end as launched. -/
theorem W8_main_arg6 (c : Dev nD) : W8 m ρ c (Proc.devRef .tc main_arg6) = m ((c : Thread nD τ).loc main_arg6) :=
  (W8_of m ρ c main_arg6 (by decide)).trans <| (W7_of m ρ c main_arg6 (by decide)).trans <| (W6_of m ρ c main_arg6 (by decide)).trans <|
    (W5_keep m ρ c main_arg6 (by decide)).trans <| (W4_keep m ρ c main_arg6 (by decide)).trans <| (W3_of m ρ c main_arg6 (by decide)).trans <|
    (W2_of m ρ c main_arg6 (by decide)).trans <| (W1_of m ρ c main_arg6 (by decide)).trans rfl

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 (custom_call 0) over the thread state: entered from every unscoped buffer at `W3`, left at `W4`.
    Its arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun c t => owed_eq0 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V3 m ρ) c w) (V3 m ρ c) fun w => A_eq0 (V3 m ρ) c w
    rw [Pipeline.unscopedBufs_held] at hsplit
    have e0 : (pdats m ρ 0 c).owed 0 = 0 := owed_eq0 (V3 m ρ) c 0
    have eR : (pdats m ρ 0 c).recorded 0 = Set.univ := recorded_eq0 (V3 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl (eR ▸ Set.mem_univ x)
      iexact HO
    isplitl [Hp]; · iexact Hp
    iexact Hrest
  hin c := by
    refine .trans ?_ (hin0 (V3 m ρ) c); unfold Pipeline.ΦA
    iintro ⟨Hp, -, Hr⟩
    isplitl [Hr]; · iexact Hr
    iexact Hp
  hout c := by
    rw [Pipeline.ownSems0_none]
    refine (hout0 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V3 m ρ) c w)
      (V3 m ρ c) (V4 m ρ c) ((pdats m ρ 0 c).arrAt · cfg0.N) (hF0 m ρ c) (hrest0 m ρ c)
    rw [Pipeline.unscopedBufs_held] at hjoin
    have eN : (pdats m ρ 0 c).owed (Fin.last (Pipeline.pin (pcfgs (F := F)) adm 0).N) = 0 := owed_eq0 (V3 m ρ) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- REGION 1 (custom_call 1) over the thread state: entered from every unscoped buffer at `W4`, left at `W5`.
    Its arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun c t => owed_eq1 (V4 m ρ) c t
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V4 m ρ) c w) (V4 m ρ c) fun w => A_eq1 (V4 m ρ) c w
    rw [Pipeline.unscopedBufs_held] at hsplit
    have e0 : (pdats m ρ 1 c).owed 0 = 0 := owed_eq1 (V4 m ρ) c 0
    have eR : (pdats m ρ 1 c).recorded 0 = Set.univ := recorded_eq1 (V4 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl (eR ▸ Set.mem_univ x)
      iexact HO
    isplitl [Hp]; · iexact Hp
    iexact Hrest
  hin c := by
    refine .trans ?_ (hin1 (V4 m ρ) c); unfold Pipeline.ΦA
    iintro ⟨Hp, -, Hr⟩
    isplitl [Hr]; · iexact Hr
    iexact Hp
  hout c := by
    rw [Pipeline.ownSems0_none]
    refine (hout1 (V4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V4 m ρ) c w)
      (V4 m ρ c) (V5 m ρ c) ((pdats m ρ 1 c).arrAt · cfg1.N) (hF1 m ρ c) (hrest1 m ρ c)
    rw [Pipeline.unscopedBufs_held] at hjoin
    have eN : (pdats m ρ 1 c).owed (Fin.last (Pipeline.pin (pcfgs (F := F)) adm 1).N) = 0 := owed_eq1 (V4 m ρ) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)) ]

set_option backward.isDefEq.respectTransparency.types false in
/-- THE RUN. From any memory with zero counters, every weakly fair execution of @main on the TensorCores terminates,
    nothing faulting, and every final memory holds at every unscoped TensorCore buffer the last boundary's
    contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W8 m ρ c))
    (hch := ⟨fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨Hh, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME at any `F`: every weakly fair execution of @main from memory `m` with zero counters terminates,
    nothing faulting, and every final memory holds each of the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨(hr c _ (mem_uc main_arg0 (by decide))).trans (W8_main_arg0 m ρ c),
    (hr c _ (mem_uc main_arg1 (by decide))).trans (W8_main_arg1 m ρ c),
    (hr c _ (mem_uc main_arg2 (by decide))).trans (W8_main_arg2 m ρ c),
    (hr c _ (mem_uc main_arg3 (by decide))).trans (W8_main_arg3 m ρ c),
    (hr c _ (mem_uc main_arg4 (by decide))).trans (W8_main_arg4 m ρ c),
    (hr c _ (mem_uc main_arg5 (by decide))).trans (W8_main_arg5 m ρ c),
    (hr c _ (mem_uc main_arg6 (by decide))).trans (W8_main_arg6 m ρ c)⟩) (run_all m ρ)

end Cert.Kernel.Hand

end
-- ==== Proof.KI.Runs0.lean ====
/- What the three control cases of region 0's kernel body share: the two branch conditions of the body in closed
   form over the grid (the block index along the vocabulary axis is 0 / is 124), where the output window is idle,
   the staging and scratch memrefs the body is called with, and the launch invariant with the four carried
   scratches (running maximum, running sum of exponentials, target logit, logit sum) named as owned memrefs. -/
import proofs.«420414_j89421219103752_3_alg».proof.Proof.Gen.KernelIdeal.Launch
import proofs.«420414_j89421219103752_3_alg».proof.Proof.Gen.KernelIdeal.Skeleton
import proofs.«420414_j89421219103752_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (initialise the four scratches): the vocabulary-block coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 125). -/
theorem hcond0_0 : ∀ t : Fin cfg0.N, cond0_0 (grid0.coords t) ↔ t.val % 125 = 0 :=
  (by decide +kernel : ∀ t : Fin grid0.N, cond0_0 (grid0.coords t) ↔ t.val % 125 = 0)

/-- The condition of the body's second `scf.if` (write the four statistics columns): the vocabulary-block coordinate is 124. -/
abbrev cond0_1 (i : grid0.Coords) : Prop := k0_cond2 i = 1#1
/-- It holds at the points ≡ 124 (mod 125). -/
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the first vocabulary block the output is idle: nothing is stored into it. -/
theorem idleAt0_3_A : ∀ t : Fin cfg0.N, cond0_0 (grid0.coords t) → ¬cond0_1 (grid0.coords t) → cfg0.idle 3 (grid0.coords t) = true := by decide +kernel
/-- and its block is not written back there. -/
theorem noFlush0_3_A : ∀ t : Fin cfg0.N, cond0_0 (grid0.coords t) → ¬cond0_1 (grid0.coords t) → (cfg0.win 3).flush t = false := by decide +kernel
/-- At an inner vocabulary block the output is idle. -/
theorem idleAt0_3_B : ∀ t : Fin cfg0.N, ¬cond0_0 (grid0.coords t) → ¬cond0_1 (grid0.coords t) → cfg0.idle 3 (grid0.coords t) = true := by decide +kernel
/-- and its block is not written back there. -/
theorem noFlush0_3_B : ∀ t : Fin cfg0.N, ¬cond0_0 (grid0.coords t) → ¬cond0_1 (grid0.coords t) → (cfg0.win 3).flush t = false := by decide +kernel
/-- At the last vocabulary block the output is live: its four columns are stored. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1024x4 .f32 := (Memref.whole cc0_stg3_0 : Memref sig .tc .vmem S1024x4 .f32).view
/-- Each window's current staging memref at point `t`, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4 .f32 := win0_3.stage (cfg0.slots t 3)
abbrev hs0_3 (t : Fin cfg0.N) : (ms0_3 t).IsWhole := hstage0_3 ((cfg0.slots t 3).cast nbuf0_3)
/-- The scratch operands (running maximum, running sum of exponentials, target logit, logit sum): whole scoped buffers. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1 .f32 := Memref.whole cc0_scratch3
/-- The same as views. -/
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VS0_3 : View sig .tc .vmem S1024x1 .f32 := scM0_3.view

/-- The scoped buffers of the core that belong to the other call (its staging buffers and scratches), each whole
    at some contents: this region never touches them. -/
abbrev otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- The launch invariant with the four scratch operands as memrefs owned at some contents, the other call's scoped
    buffers beside them, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ otherScoped0 (F := F) c) ∗ (∃ r, prngReg c r)) := by
  unfold Pipeline.ΦA; rw [scopedRest0_eq]; simp only [scM0_0, scM0_1, scM0_2, scM0_3, owns_whole]; try rfl

end Cert.KernelIdeal.Hand

end
-- ==== Proof.KI.Run0A.lean ====
/- The run of region 0's kernel body in control case A: a triple over whole staging and scratch memrefs, with the
   pieces the body's stores leave in each buffer as the witness. -/
import proofs.«420414_j89421219103752_3_alg».proof.Proof.KI.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a FIRST vocabulary block (the initialising branch taken, the output branch not): the four scratches,
    owned at anything, are initialised (−∞, 0, 0, 0) and then updated with the block's statistics; the inputs' staging
    memrefs are handed back at their contents and the output's untouched. The pieces each scratch ends with are the witness. -/
noncomputable def kernelRun0_A (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KI.Run0B.lean ====
/- The run of region 0's kernel body in control case B: a triple over whole staging and scratch memrefs, with the
   pieces the body's stores leave in each buffer as the witness. -/
import proofs.«420414_j89421219103752_3_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at an INNER vocabulary block (neither branch taken): the four scratches, owned at what the block before
    left, are updated with the block's statistics (running maximum, rescaled sum of exponentials, target logit, logit sum);
    the inputs' staging memrefs are handed back at their contents and the output's untouched. The pieces each scratch
    ends with are the witness. -/
noncomputable def kernelRun0_B (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KI.Run0C.lean ====
/- The run of region 0's kernel body in control case C: a triple over whole staging and scratch memrefs, with the
   pieces the body's stores leave in each buffer as the witness. -/
import proofs.«420414_j89421219103752_3_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the LAST vocabulary block (the output branch taken): the four scratches are updated as at an inner
    block and then copied into the four columns of the output's staging memref, owned at anything. The pieces the output
    and each scratch end with are the witness. -/
noncomputable def kernelRun0_C (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.Hand

end
-- ==== Proof.KI.Frame0.lean ====
/- Region 0's proof data and body obligation. The kernel body runs in one of three control cases at each grid
   point t (vocabulary-block coordinate t % 125): the first block (the four carried scratches — running maximum,
   running sum of exponentials, target logit, logit sum — are re-initialised and then updated), an inner block (updated),
   the last block (updated, then copied into the four columns of the output block). This module states what the output's
   staging buffer and the four scratches hold after every point (a recursion over the points, each case's run read back),
   the proof data over an entry valuation V, and the body obligation. -/
import proofs.«420414_j89421219103752_3_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer when region 0 is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the block
    index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the block
    index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's staging buffer and in the four scratches -/

/-- At the first vocabulary block (the scratches re-initialised, then updated) nothing is stored into the output block (the window is idle there and not written
    back): a placeholder that nothing consults. -/
def out0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x4 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- At the first vocabulary block (the scratches re-initialised, then updated) the stores into scratch 0 (running maximum) cover it. -/
theorem scover0_A_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S1024x1.size (by sl_kernel_rfl) y

/-- What the first vocabulary block (the scratches re-initialised, then updated) leaves in scratch 0 (running maximum): its stores read back. -/
def sout0_A_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.1)

/-- At the first vocabulary block (the scratches re-initialised, then updated) the stores into scratch 1 (running sum of exponentials) cover it. -/
theorem scover0_A_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1024x1.size (by sl_kernel_rfl) y

/-- What the first vocabulary block (the scratches re-initialised, then updated) leaves in scratch 1 (running sum of exponentials): its stores read back. -/
def sout0_A_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.1)

/-- At the first vocabulary block (the scratches re-initialised, then updated) the stores into scratch 2 (target logit) cover it. -/
theorem scover0_A_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1024x1.size (by sl_kernel_rfl) y

/-- What the first vocabulary block (the scratches re-initialised, then updated) leaves in scratch 2 (target logit): its stores read back. -/
def sout0_A_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.2.1)

/-- At the first vocabulary block (the scratches re-initialised, then updated) the stores into scratch 3 (logit sum) cover it. -/
theorem scover0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1024x1.size (by sl_kernel_rfl) y

/-- What the first vocabulary block (the scratches re-initialised, then updated) leaves in scratch 3 (logit sum): its stores read back. -/
def sout0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 hc0 hc1 x0 x1 x2).2.2.2.2.1)

/-- At an inner vocabulary block nothing is stored into the output block (the window is idle there and not written
    back): a placeholder that nothing consults. -/
def out0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x4 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1 xs2 xs3).1)

/-- At an inner vocabulary block the stores into scratch 0 (running maximum) cover it. -/
theorem scover0_B_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What an inner vocabulary block leaves in scratch 0 (running maximum): its stores read back. -/
def sout0_B_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2 xs3).2.1)

/-- At an inner vocabulary block the stores into scratch 1 (running sum of exponentials) cover it. -/
theorem scover0_B_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What an inner vocabulary block leaves in scratch 1 (running sum of exponentials): its stores read back. -/
def sout0_B_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2 xs3).2.2.1)

/-- At an inner vocabulary block the stores into scratch 2 (target logit) cover it. -/
theorem scover0_B_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What an inner vocabulary block leaves in scratch 2 (target logit): its stores read back. -/
def sout0_B_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2 xs3).2.2.2.1)

/-- At an inner vocabulary block the stores into scratch 3 (logit sum) cover it. -/
theorem scover0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What an inner vocabulary block leaves in scratch 3 (logit sum): its stores read back. -/
def sout0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S256x2048 .f32) (x2 : Vec F S1024x1 .i32) (xs0 xs1 xs2 xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 hc0 hc1 x0 x1 x2 xs0 xs1 xs2 xs3).2.2.2.2.1)

/-- At the last vocabulary block the four column stores tile the output block, so they cover it. -/
theorem cover0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x4.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).1 S1024x1.size (by sl_kernel_rfl) y

/-- What the last vocabulary block leaves in the output's staging buffer: its four columns read back. -/
def out0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x4 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2 xs3).1)

/-- At the last vocabulary block (the scratches updated, then copied into the output's four columns) the stores into scratch 0 (running maximum) cover it. -/
theorem scover0_C_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What the last vocabulary block (the scratches updated, then copied into the output's four columns) leaves in scratch 0 (running maximum): its stores read back. -/
def sout0_C_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2 xs3).2.1)

/-- At the last vocabulary block (the scratches updated, then copied into the output's four columns) the stores into scratch 1 (running sum of exponentials) cover it. -/
theorem scover0_C_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What the last vocabulary block (the scratches updated, then copied into the output's four columns) leaves in scratch 1 (running sum of exponentials): its stores read back. -/
def sout0_C_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2 xs3).2.2.1)

/-- At the last vocabulary block (the scratches updated, then copied into the output's four columns) the stores into scratch 2 (target logit) cover it. -/
theorem scover0_C_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What the last vocabulary block (the scratches updated, then copied into the output's four columns) leaves in scratch 2 (target logit): its stores read back. -/
def sout0_C_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2 xs3).2.2.2.1)

/-- At the last vocabulary block (the scratches updated, then copied into the output's four columns) the stores into scratch 3 (logit sum) cover it. -/
theorem scover0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What the last vocabulary block (the scratches updated, then copied into the output's four columns) leaves in scratch 3 (logit sum): its stores read back. -/
def sout0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S256x2048 .f32) (x2 : Vec F S1024x1 .i32) (xs0 xs1 xs2 xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 hc0 hc1 x0 x1 x2 xs0 xs1 xs2 xs3).2.2.2.2.1)

/-! ## What the output's staging buffer and the scratches hold after each point -/

/-- THE ACCUMULATION. What the output's staging buffer and the four scratches (running maximum, running sum of
    exponentials, target logit, logit sum) hold after the body at position `n`: the case the vocabulary-block coordinate
    selects at `n`, run at the point's memrefs and input blocks, the scratches taken at what position `n - 1` left
    (the first block takes them at anything). -/
def outsAt0 (c : Dev nD) : (n : ℕ) → n < cfg0.N → Vec F S1024x4 .f32 × Vec F S1024x1 .f32 × Vec F S1024x1 .f32 × Vec F S1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 125 = 0 then
      if h1 : (n + 1) % 125 = 124 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 125 = 124 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a first vocabulary block: that case's contents. -/
theorem outsAt0_A (c : Dev nD) (t : Fin cfg0.N) (h0 : t.val % 125 = 0) (h1 : ¬t.val % 125 = 124) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t),
        sout0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at an inner vocabulary block: that case's contents, over what the point before left in the scratches. -/
theorem outsAt0_B (c : Dev nD) (t : Fin cfg0.N) (h0 : ¬t.val % 125 = 0) (h1 : ¬t.val % 125 = 124) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last vocabulary block: that case's contents, over what the point before left in the scratches. -/
theorem outsAt0_C (c : Dev nD) (t : Fin cfg0.N) (h0 : ¬t.val % 125 = 0) (h1 : t.val % 125 = 124) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2,
        sout0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the launch invariant (every scratch at anything);
    afterwards the four carried scratches at what the point before left in them, the other call's scoped buffers at
    anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratches at that point's contents. -/
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2.1) ∗ owns (c : Thread nD τ) scM0_3 fullShare ((outsAt0 V c n hn).2.2.2.2) ∗ otherScoped0 (F := F) c) ∗ (∃ r, prngReg c r)) := rfl

/-- Before a point that is not the first: the carried scratches at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2.1) ∗ owns (c : Thread nD τ) scM0_3 fullShare ((outsAt0 V c (n - 1) (by omega)).2.2.2.2) ∗ otherScoped0 (F := F) c) ∗ (∃ r, prngReg c r)) := by
  cases n with
  | zero => exact absurd rfl hz
  | succ n => rfl

/-! ## The proof data -/

/-- The proof data of region 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]
/-- Full shares. -/
theorem q_eq0 (c : Dev nD) (w : Fin cfg0.W) : (dat0 V c).q w = fullShare := rfl
/-- Nothing owed. -/
theorem owed_eq0 (c : Dev nD) (t : Fin (cfg0.N + 1)) : (dat0 V c).owed t = 0 := rfl
/-- Every point is recorded. -/
theorem recorded_eq0 (c : Dev nD) (t : Fin (cfg0.N + 1)) : (dat0 V c).recorded t = Set.univ := rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the vocabulary-block coordinate says which case the
    point is in; the invariant hands the body the four carried scratches at what the point before left (at anything at the
    first point), and takes them back at this point's contents; the output's buffer is handed back untouched unless the
    point is a last vocabulary block, where it is left at its four columns; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 250 := lt_of_lt_of_eq t.isLt (show cfg0.N = 250 from N_0)
  by_cases h0 : t.val % 125 = 0
  · by_cases h1 : t.val % 125 = 124
    · exfalso; omega
    · -- the first vocabulary block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, Hot⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
  · by_cases h1 : t.val % 125 = 124
    · -- the last vocabulary block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _ _ _).2.2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e3, H3⟩, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _ _ _ _ _ _ _)
    · -- an inner vocabulary block
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _ _ _).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch invariant back: the scratches' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HS1, HS2, HS3, Hot⟩, Hg⟩
  isplitl [HS0 HS1 HS2 HS3 Hot]
  · isplitl [HS0]; · iexists _; iexact HS0
    isplitl [HS1]; · iexists _; iexact HS1
    isplitl [HS2]; · iexists _; iexact HS2
    isplitl [HS3]; · iexists _; iexact HS3
    iexact Hot
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 250 := N_0; omega)

end Cert.KernelIdeal.Hand

end
-- ==== Proof.KI.Runs1.lean ====
/- What the three control cases of region 1's kernel body share: the two branch conditions of the body in closed
   form over the grid (the block index along the vocabulary axis is 0 / is 124), where the output window is idle,
   the staging and scratch memrefs the body is called with, and the launch invariant with the four carried
   scratches (running maximum, running sum of exponentials, target logit, logit sum) named as owned memrefs. -/
import proofs.«420414_j89421219103752_3_alg».proof.Proof.Gen.KernelIdeal.Launch
import proofs.«420414_j89421219103752_3_alg».proof.Proof.Gen.KernelIdeal.Skeleton
import proofs.«420414_j89421219103752_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (initialise the four scratches): the vocabulary-block coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 125). -/
theorem hcond1_0 : ∀ t : Fin cfg1.N, cond1_0 (grid1.coords t) ↔ t.val % 125 = 0 :=
  (by decide +kernel : ∀ t : Fin grid1.N, cond1_0 (grid1.coords t) ↔ t.val % 125 = 0)

/-- The condition of the body's second `scf.if` (write the four statistics columns): the vocabulary-block coordinate is 124. -/
abbrev cond1_1 (i : grid1.Coords) : Prop := k1_cond2 i = 1#1
/-- It holds at the points ≡ 124 (mod 125). -/
theorem hcond1_1 : ∀ t : Fin cfg1.N, cond1_1 (grid1.coords t) ↔ t.val % 125 = 124 :=
  (by decide +kernel : ∀ t : Fin grid1.N, cond1_1 (grid1.coords t) ↔ t.val % 125 = 124)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first vocabulary block the output is idle: nothing is stored into it. -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At an inner vocabulary block the output is idle. -/
theorem idleAt1_3_B : ∀ t : Fin cfg1.N, ¬cond1_0 (grid1.coords t) → ¬cond1_1 (grid1.coords t) → cfg1.idle 3 (grid1.coords t) = true := by decide +kernel
/-- and its block is not written back there. -/
theorem noFlush1_3_B : ∀ t : Fin cfg1.N, ¬cond1_0 (grid1.coords t) → ¬cond1_1 (grid1.coords t) → (cfg1.win 3).flush t = false := by decide +kernel
/-- At the last vocabulary block the output is live: its four columns are stored. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x4 .f32 := (Memref.whole cc1_stg3_0 : Memref sig .tc .vmem S1024x4 .f32).view
/-- Each window's current staging memref at point `t`, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x4 .f32 := win1_3.stage (cfg1.slots t 3)
abbrev hs1_3 (t : Fin cfg1.N) : (ms1_3 t).IsWhole := hstage1_3 ((cfg1.slots t 3).cast nbuf1_3)
/-- The scratch operands (running maximum, running sum of exponentials, target logit, logit sum): whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1 .f32 := Memref.whole cc1_scratch3
/-- The same as views. -/
abbrev VS1_0 : View sig .tc .vmem S1024x1 .f32 := scM1_0.view
abbrev VS1_1 : View sig .tc .vmem S1024x1 .f32 := scM1_1.view
abbrev VS1_2 : View sig .tc .vmem S1024x1 .f32 := scM1_2.view
abbrev VS1_3 : View sig .tc .vmem S1024x1 .f32 := scM1_3.view

/-- The scoped buffers of the core that belong to the other call (its staging buffers and scratches), each whole
    at some contents: this region never touches them. -/
abbrev otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- Two assertions that entail one another are equal. -/
theorem eq_of_entails {P Q : sProp 𝕄} (h₁ : P ⊢ Q) (h₂ : Q ⊢ P) : P = Q := BI.equiv_iff.mp ⟨h₁, h₂⟩

/-- The launch invariant with the four scratch operands as memrefs owned at some contents, the other call's scoped
    buffers beside them, and the generator register at some state (the enumeration lists the other call's buffers
    first: the separating conjunction is commutative and associative). -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ otherScoped1 (F := F) c) ∗ (∃ r, prngReg c r)) := by
  unfold Pipeline.ΦA; rw [scopedRest1_eq]; simp only [scM1_0, scM1_1, scM1_2, scM1_3, owns_whole]
  congr 1
  refine eq_of_entails ?_ ?_
  · iintro ⟨O0, O1, O2, O3, O4, O5, O6, O7, O8, O9, O10, O11, S0, S1, S2, S3⟩
    isplitl [S0]; · iexact S0
    isplitl [S1]; · iexact S1
    isplitl [S2]; · iexact S2
    isplitl [S3]; · iexact S3
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    iexact O11
  · iintro ⟨S0, S1, S2, S3, O0, O1, O2, O3, O4, O5, O6, O7, O8, O9, O10, O11⟩
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [S0]; · iexact S0
    isplitl [S1]; · iexact S1
    isplitl [S2]; · iexact S2
    iexact S3

end Cert.KernelIdeal.Hand

end
-- ==== Proof.KI.Run1A.lean ====
/- The run of region 1's kernel body in control case A: a triple over whole staging and scratch memrefs, with the
   pieces the body's stores leave in each buffer as the witness. -/
import proofs.«420414_j89421219103752_3_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a FIRST vocabulary block (the initialising branch taken, the output branch not): the four scratches,
    owned at anything, are initialised (−∞, 0, 0, 0) and then updated with the block's statistics; the inputs' staging
    memrefs are handed back at their contents and the output's untouched. The pieces each scratch ends with are the witness. -/
noncomputable def kernelRun1_A (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc1__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KI.Run1B.lean ====
/- The run of region 1's kernel body in control case B: a triple over whole staging and scratch memrefs, with the
   pieces the body's stores leave in each buffer as the witness. -/
import proofs.«420414_j89421219103752_3_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at an INNER vocabulary block (neither branch taken): the four scratches, owned at what the block before
    left, are updated with the block's statistics (running maximum, rescaled sum of exponentials, target logit, logit sum);
    the inputs' staging memrefs are handed back at their contents and the output's untouched. The pieces each scratch
    ends with are the witness. -/
noncomputable def kernelRun1_B (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (xi3 : Vec F S1024x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc1__stats_kernel i arg2 harg2 arg3 harg3 arg4 harg4 arg5 harg5 arg6 harg6 arg7 harg7 arg8 harg8 arg9 harg9) K } := by
  refine ⟨[], ?_, ?_, ?_, ?_, fun xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Hand

end
-- ==== Proof.KI.Run1C.lean ====
/- The run of region 1's kernel body in control case C: a triple over whole staging and scratch memrefs, with the
   pieces the body's stores leave in each buffer as the witness. -/
import proofs.«420414_j89421219103752_3_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the LAST vocabulary block (the output branch taken): the four scratches are updated as at an inner
    block and then copied into the four columns of the output's staging memref, owned at anything. The pieces the output
    and each scratch end with are the witness. -/
noncomputable def kernelRun1_C (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) :
    Σ' (L3 : List (View.Piece (Elt F) S1024x4 .f32)) (LS0 LS1 LS2 : List (View.Piece (Elt F) S1024x1 .f32)), { LS3 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc1__stats_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.Hand

end
-- ==== Proof.KI.Frame1.lean ====
/- Region 1's proof data and body obligation. The kernel body runs in one of three control cases at each grid
   point t (vocabulary-block coordinate t % 125): the first block (the four carried scratches — running maximum,
   running sum of exponentials, target logit, logit sum — are re-initialised and then updated), an inner block (updated),
   the last block (updated, then copied into the four columns of the output block). This module states what the output's
   staging buffer and the four scratches hold after every point (a recursion over the points, each case's run read back),
   the proof data over an entry valuation V, and the body obligation. -/
import proofs.«420414_j89421219103752_3_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every TensorCore buffer when region 1 is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's staging buffer and in the four scratches -/

/-- At the first vocabulary block (the scratches re-initialised, then updated) nothing is stored into the output block (the window is idle there and not written
    back): a placeholder that nothing consults. -/
def out1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x4 .f32 :=
  VO1_3.read (Elt F) (VO1_3.writes (Elt F) VO1_3.junk (kernelRun1_A c i arg2 harg2 arg3 harg3 arg4 harg4 arg5 harg5 arg6 harg6 arg7 harg7 arg8 harg8 arg9 harg9 hc0 hc1 x0 x1 x2).1)

/-- At the first vocabulary block (the scratches re-initialised, then updated) the stores into scratch 0 (running maximum) cover it. -/
theorem scover1_A_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.1, y ∈ pc.1.set :=
  View.cover_of_tiledL (kernelRun1_A c i arg2 harg2 arg3 harg3 arg4 harg4 arg5 harg5 arg6 harg6 arg7 harg7 arg8 harg8 arg9 harg9 hc0 hc1 x0 x1 x2).2.1 S1024x1.size (by sl_kernel_rfl) y

/-- What the first vocabulary block (the scratches re-initialised, then updated) leaves in scratch 0 (running maximum): its stores read back. -/
def sout1_A_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2).2.1)

/-- At the first vocabulary block (the scratches re-initialised, then updated) the stores into scratch 1 (running sum of exponentials) cover it. -/
theorem scover1_A_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.1 S1024x1.size (by sl_kernel_rfl) y

/-- What the first vocabulary block (the scratches re-initialised, then updated) leaves in scratch 1 (running sum of exponentials): its stores read back. -/
def sout1_A_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2).2.2.1)

/-- At the first vocabulary block (the scratches re-initialised, then updated) the stores into scratch 2 (target logit) cover it. -/
theorem scover1_A_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.2.1 S1024x1.size (by sl_kernel_rfl) y

/-- What the first vocabulary block (the scratches re-initialised, then updated) leaves in scratch 2 (target logit): its stores read back. -/
def sout1_A_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2).2.2.2.1)

/-- At the first vocabulary block (the scratches re-initialised, then updated) the stores into scratch 3 (logit sum) cover it. -/
theorem scover1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) (y : S1024x1.Idx) :
    ∃ pc ∈ (kernelRun1_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2).2.2.2.2.1 S1024x1.size (by sl_kernel_rfl) y

/-- What the first vocabulary block (the scratches re-initialised, then updated) leaves in scratch 3 (logit sum): its stores read back. -/
def sout1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) : Vec F S1024x1 .f32 :=
  VS1_3.read (Elt F) (VS1_3.writes (Elt F) VS1_3.junk (kernelRun1_A c i arg2 harg2 arg3 harg3 arg4 harg4 arg5 harg5 arg6 harg6 arg7 harg7 arg8 harg8 arg9 harg9 hc0 hc1 x0 x1 x2).2.2.2.2.1)

/-- At an inner vocabulary block nothing is stored into the output block (the window is idle there and not written
    back): a placeholder that nothing consults. -/
def out1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x4 .f32 :=
  VO1_3.read (Elt F) (VO1_3.writes (Elt F) VO1_3.junk (kernelRun1_B c i arg2 harg2 arg3 harg3 arg4 harg4 arg5 harg5 arg6 harg6 arg7 harg7 arg8 harg8 arg9 harg9 hc0 hc1 x0 x1 x2 xs0 xs1 xs2 xs3).1)

/-- At an inner vocabulary block the stores into scratch 0 (running maximum) cover it. -/
theorem scover1_B_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What an inner vocabulary block leaves in scratch 0 (running maximum): its stores read back. -/
def sout1_B_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 xs0 xs1 xs2 xs3).2.1)

/-- At an inner vocabulary block the stores into scratch 1 (running sum of exponentials) cover it. -/
theorem scover1_B_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What an inner vocabulary block leaves in scratch 1 (running sum of exponentials): its stores read back. -/
def sout1_B_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 xs0 xs1 xs2 xs3).2.2.1)

/-- At an inner vocabulary block the stores into scratch 2 (target logit) cover it. -/
theorem scover1_B_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What an inner vocabulary block leaves in scratch 2 (target logit): its stores read back. -/
def sout1_B_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 xs0 xs1 xs2 xs3).2.2.2.1)

/-- At an inner vocabulary block the stores into scratch 3 (logit sum) cover it. -/
theorem scover1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_B c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What an inner vocabulary block leaves in scratch 3 (logit sum): its stores read back. -/
def sout1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i)
    (x0 : Vec F S1024x2048 .bf16) (x1 : Vec F S256x2048 .f32) (x2 : Vec F S1024x1 .i32) (xs0 xs1 xs2 xs3 : Vec F S1024x1 .f32) : Vec F S1024x1 .f32 :=
  VS1_3.read (Elt F) (VS1_3.writes (Elt F) VS1_3.junk (kernelRun1_B c i arg2 harg2 arg3 harg3 arg4 harg4 arg5 harg5 arg6 harg6 arg7 harg7 arg8 harg8 arg9 harg9 hc0 hc1 x0 x1 x2 xs0 xs1 xs2 xs3).2.2.2.2.1)

/-- At the last vocabulary block the four column stores tile the output block, so they cover it. -/
theorem cover1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x4.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).1 S1024x1.size (by sl_kernel_rfl) y

/-- What the last vocabulary block leaves in the output's staging buffer: its four columns read back. -/
def out1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x4 .f32 :=
  VO1_3.read (Elt F) (VO1_3.writes (Elt F) VO1_3.junk (kernelRun1_C c i arg2 harg2 arg3 harg3 arg4 harg4 arg5 harg5 arg6 harg6 arg7 harg7 arg8 harg8 arg9 harg9 hc0 hc1 x0 x1 x2 xs0 xs1 xs2 xs3).1)

/-- At the last vocabulary block (the scratches updated, then copied into the output's four columns) the stores into scratch 0 (running maximum) cover it. -/
theorem scover1_C_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.1 S1024x1.size (by sl_kernel_rfl) y

/-- What the last vocabulary block (the scratches updated, then copied into the output's four columns) leaves in scratch 0 (running maximum): its stores read back. -/
def sout1_C_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 xs0 xs1 xs2 xs3).2.1)

/-- At the last vocabulary block (the scratches updated, then copied into the output's four columns) the stores into scratch 1 (running sum of exponentials) cover it. -/
theorem scover1_C_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.2.1 S1024x1.size (by sl_kernel_rfl) y

/-- What the last vocabulary block (the scratches updated, then copied into the output's four columns) leaves in scratch 1 (running sum of exponentials): its stores read back. -/
def sout1_C_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 xs0 xs1 xs2 xs3).2.2.1)

/-- At the last vocabulary block (the scratches updated, then copied into the output's four columns) the stores into scratch 2 (target logit) cover it. -/
theorem scover1_C_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.2.2.1 S1024x1.size (by sl_kernel_rfl) y

/-- What the last vocabulary block (the scratches updated, then copied into the output's four columns) leaves in scratch 2 (target logit): its stores read back. -/
def sout1_C_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 xs0 xs1 xs2 xs3).2.2.2.1)

/-- At the last vocabulary block (the scratches updated, then copied into the output's four columns) the stores into scratch 3 (logit sum) cover it. -/
theorem scover1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) (y : S1024x1.Idx) :
    ∃ pc ∈ (kernelRun1_C c i arg2 harg2 arg3 harg3 arg4 harg4 arg5 harg5 arg6 harg6 arg7 harg7 arg8 harg8 arg9 harg9 hc0 hc1 x0 x1 x2 xs0 xs1 xs2 xs3).2.2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 xs0 xs1 xs2 xs3).2.2.2.2.1 S1024x1.size (by sl_kernel_rfl) y

/-- What the last vocabulary block (the scratches updated, then copied into the output's four columns) leaves in scratch 3 (logit sum): its stores read back. -/
def sout1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i)
    (x0 : Vec F S1024x2048 .bf16) (x1 : Vec F S256x2048 .f32) (x2 : Vec F S1024x1 .i32) (xs0 xs1 xs2 xs3 : Vec F S1024x1 .f32) : Vec F S1024x1 .f32 :=
  VS1_3.read (Elt F) (VS1_3.writes (Elt F) VS1_3.junk (kernelRun1_C c i arg2 harg2 arg3 harg3 arg4 harg4 arg5 harg5 arg6 harg6 arg7 harg7 arg8 harg8 arg9 harg9 hc0 hc1 x0 x1 x2 xs0 xs1 xs2 xs3).2.2.2.2.1)

/-! ## What the output's staging buffer and the scratches hold after each point -/

/-- THE ACCUMULATION. What the output's staging buffer and the four scratches (running maximum, running sum of
    exponentials, target logit, logit sum) hold after the body at position `n`: the case the vocabulary-block coordinate
    selects at `n`, run at the point's memrefs and input blocks, the scratches taken at what position `n - 1` left
    (the first block takes them at anything). -/
def outsAt1 (c : Dev nD) : (n : ℕ) → n < cfg1.N → Vec F S1024x4 .f32 × Vec F S1024x1 .f32 × Vec F S1024x1 .f32 × Vec F S1024x1 .f32 × Vec F S1024x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
        sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 125 = 0 then
      if h1 : (n + 1) % 125 = 124 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 125 = 124 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a first vocabulary block: that case's contents. -/
theorem outsAt1_A (c : Dev nD) (t : Fin cfg1.N) (h0 : t.val % 125 = 0) (h1 : ¬t.val % 125 = 124) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t),
        sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an inner vocabulary block: that case's contents, over what the point before left in the scratches. -/
theorem outsAt1_B (c : Dev nD) (t : Fin cfg1.N) (h0 : ¬t.val % 125 = 0) (h1 : ¬t.val % 125 = 124) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last vocabulary block: that case's contents, over what the point before left in the scratches. -/
theorem outsAt1_C (c : Dev nD) (t : Fin cfg1.N) (h0 : ¬t.val % 125 = 0) (h1 : t.val % 125 = 124) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the launch invariant (every scratch at anything);
    afterwards the four carried scratches at what the point before left in them, the other call's scoped buffers at
    anything, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2) ∗ otherScoped1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratches at that point's contents. -/
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2) ∗ otherScoped1 (F := F) c) ∗ (∃ r, prngReg c r)) := rfl

/-- Before a point that is not the first: the carried scratches at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2) ∗ otherScoped1 (F := F) c) ∗ (∃ r, prngReg c r)) := by
  cases n with
  | zero => exact absurd rfl hz
  | succ n => rfl

/-! ## The proof data -/

/-- The proof data of region 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]
/-- Full shares. -/
theorem q_eq1 (c : Dev nD) (w : Fin cfg1.W) : (dat1 V c).q w = fullShare := rfl
/-- Nothing owed. -/
theorem owed_eq1 (c : Dev nD) (t : Fin (cfg1.N + 1)) : (dat1 V c).owed t = 0 := rfl
/-- Every point is recorded. -/
theorem recorded_eq1 (c : Dev nD) (t : Fin (cfg1.N + 1)) : (dat1 V c).recorded t = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the vocabulary-block coordinate says which case the
    point is in; the invariant hands the body the four carried scratches at what the point before left (at anything at the
    first point), and takes them back at this point's contents; the output's buffer is handed back untouched unless the
    point is a last vocabulary block, where it is left at its four columns; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 250 := lt_of_lt_of_eq t.isLt (show cfg1.N = 250 from N_1)
  by_cases h0 : t.val % 125 = 0
  · by_cases h1 : t.val % 125 = 124
    · exfalso; omega
    · -- the first vocabulary block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2 sout1_A_3; (try dsimp only)
      by_cases hz : t.val = 0
      · rw [PhiS1_castSucc V c t, PhiS1_zero V c _ _ hz, PhiA1_eq]
        iintro ⟨⟨⟨HS0, HS1, HS2, HS3, Hot⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover1_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            isplitl [HS3]
            · unfold owns; iexists _; isplitr
              swap; · iexact HS3
              ipureintro; exact View.read_writes_of_cover _ _ _ _ _ (scover1_A_3 c _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3
  · by_cases h1 : t.val % 125 = 124
    · -- the last vocabulary block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2 sout1_C_3; (try dsimp only)
      by_cases hz : t.val = 0
      · exfalso; omega
      · rw [PhiS1_castSucc V c t, PhiS1_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _ _ _).2.2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e3, H3⟩, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover1_C_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ _ _ _)
    · -- an inner vocabulary block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2 sout1_B_3; (try dsimp only)
      by_cases hz : t.val = 0
      · exfalso; omega
      · rw [PhiS1_castSucc V c t, PhiS1_pos V c _ _ hz]
        iintro ⟨⟨⟨HS0, HS1, HS2, HS3, Hot⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _).2.2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%es0, HS0⟩, ⟨%es1, HS1⟩, ⟨%es2, HS2⟩, ⟨%es3, HS3⟩⟩
        isplitl [HS0 HS1 HS2 HS3 Hot Hg]
        · isplitl [HS0 HS1 HS2 HS3 Hot]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover1_B_3 c _ _ _ _ _ _ _ _ _ _ _ _ _ _ _ _ _ _ _ _ _ _ _ _ _ _)
            iexact Hot
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch invariant back: the scratches' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HS1, HS2, HS3, Hot⟩, Hg⟩
  isplitl [HS0 HS1 HS2 HS3 Hot]
  · isplitl [HS0]; · iexists _; iexact HS0
    isplitl [HS1]; · iexists _; iexact HS1
    isplitl [HS2]; · iexists _; iexact HS2
    isplitl [HS3]; · iexists _; iexact HS3
    iexact Hot
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 250 := N_1; omega)

end Cert.KernelIdeal.Hand

end
-- ==== Proof.KI.Launch.lean ====
/- THE LAUNCH of the kernel program. @main is eight segments in order: three stretches of host operations, the two
   kernel regions (one per pallas_call of the statistics kernel), three stretches of host operations. This module
   names the contents of every TensorCore buffer at each of the nine segment boundaries as a fold from the launch
   memory (a host stretch applies its operations; a region leaves its arrays at what its write-backs fold to and
   every other buffer as entered), gives each region as a segment record over the thread state "every unscoped
   buffer at the boundary's contents, the generator register at some state, nothing owed", and runs the launch:
   every weakly fair execution terminates and the final memory holds, at every unscoped buffer, the last
   boundary's contents. The seven argument arrays are written by no segment, hence end as launched. -/
import proofs.«420414_j89421219103752_3_alg».proof.Proof.Gen.KernelIdeal.Regions
import proofs.«420414_j89421219103752_3_alg».proof.Proof.KI.Frame0
import proofs.«420414_j89421219103752_3_alg».proof.Proof.KI.Frame1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- The launch state: memory `m`, every semaphore counter at zero, generator registers `ρ`. -/
abbrev s₀ : MemSt nD τ sig (Elt F) := ⟨m, fun _ => 0, ρ⟩
/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second host stretch. -/
abbrev W2 : Dev nD → Valuation τ sig (Elt F) := fun c => StableHlo.after hostOps0_1 (W1 m ρ c)
/-- After the third host stretch: region 0's entry. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- Region 0 leaves every buffer that is none of its arrays as entered. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents, region 1's entry). -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- Region 1 leaves every buffer that is none of its arrays as entered. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- The same read at the TensorCore's references (region 1's exit contents). -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the fourth host stretch (the tail's first). -/
abbrev W6 : Dev nD → Valuation τ sig (Elt F) := fun c => StableHlo.after hostOps2 (W5 m ρ c)
/-- After the fifth host stretch. -/
abbrev W7 : Dev nD → Valuation τ sig (Elt F) := fun c => StableHlo.after hostOps2_1 (W6 m ρ c)
/-- After the sixth host stretch: the contents @main returns at. -/
abbrev W8 : Dev nD → Valuation τ sig (Elt F) := fun c => StableHlo.after hostOps2_2 (W7 m ρ c)

/-! ### What the regions leave -/

/-- Region 0's output array `main_v6` ends at what its write-backs fold to. -/
theorem W4_out (c : Dev nD) : W4 m ρ c (Proc.devRef .tc main_v6) = (dat0 (V3 m ρ) c).arrAt 3 cfg0.N := W4_arr m ρ c 3
/-- Region 1's output array `main_v7` ends at what its write-backs fold to. -/
theorem W5_out (c : Dev nD) : W5 m ρ c (Proc.devRef .tc main_v7) = (dat1 (V4 m ρ) c).arrAt 3 cfg1.N := W5_arr m ρ c 3

/-- Region 0 changes no buffer but its output array: an input array is never written back. -/
theorem W4_keep (c : Dev nD) (b : Ref sig .tc) (hb : b ≠ main_v6) :
    W4 m ρ c (Proc.devRef .tc b) = W3 m ρ c (Proc.devRef .tc b) := by
  by_cases h : ∃ w, Pipeline.arrRef spec0 w = b
  · obtain ⟨w, rfl⟩ := h
    rw [W4_arr]
    have hw : w = 0 ∨ w = 1 ∨ w = 2 ∨ w = 3 := by revert w; decide
    rcases hw with rfl | rfl | rfl | rfl
    · exact ((dat0 (V3 m ρ) c).arrAt_in 0 rfl _).trans (A_eq0 (V3 m ρ) c 0)
    · exact ((dat0 (V3 m ρ) c).arrAt_in 1 rfl _).trans (A_eq0 (V3 m ρ) c 1)
    · exact ((dat0 (V3 m ρ) c).arrAt_in 2 rfl _).trans (A_eq0 (V3 m ρ) c 2)
    · exact absurd rfl hb
  · exact W4_of_ne m ρ c b fun w e => h ⟨w, e⟩
/-- Region 1 changes no buffer but its output array. -/
theorem W5_keep (c : Dev nD) (b : Ref sig .tc) (hb : b ≠ main_v7) :
    W5 m ρ c (Proc.devRef .tc b) = W4 m ρ c (Proc.devRef .tc b) := by
  by_cases h : ∃ w, Pipeline.arrRef spec1 w = b
  · obtain ⟨w, rfl⟩ := h
    rw [W5_arr]
    have hw : w = 0 ∨ w = 1 ∨ w = 2 ∨ w = 3 := by revert w; decide
    rcases hw with rfl | rfl | rfl | rfl
    · exact ((dat1 (V4 m ρ) c).arrAt_in 0 rfl _).trans (A_eq1 (V4 m ρ) c 0)
    · exact ((dat1 (V4 m ρ) c).arrAt_in 1 rfl _).trans (A_eq1 (V4 m ρ) c 1)
    · exact ((dat1 (V4 m ρ) c).arrAt_in 2 rfl _).trans (A_eq1 (V4 m ρ) c 2)
    · exact absurd rfl hb
  · exact W5_of_ne m ρ c b fun w e => h ⟨w, e⟩
/-- Region 1 does not touch region 0's output array. -/
theorem W5_main_v6 (c : Dev nD) : W5 m ρ c (Proc.devRef .tc main_v6) = W4 m ρ c (Proc.devRef .tc main_v6) :=
  W5_keep m ρ c main_v6 (by decide)

/-! ### What the host stretches leave: a buffer no operation of a stretch writes is as before it -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W7_of (c : Dev nD) (r : Ref sig .tc) (h : r ∉ hostOps2_1_W) : W7 m ρ c (Proc.devRef .tc r) = W6 m ρ c (Proc.devRef .tc r) :=
  StableHlo.after_of_writes_sub hostOps2_1 _ hostOps2_1_writes h
theorem W8_of (c : Dev nD) (r : Ref sig .tc) (h : r ∉ hostOps2_2_W) : W8 m ρ c (Proc.devRef .tc r) = W7 m ρ c (Proc.devRef .tc r) :=
  StableHlo.after_of_writes_sub hostOps2_2 _ hostOps2_2_writes h

/-! ### The arguments end as launched: no host operation and no region writes one -/

/-- `main_arg0` reaches the end as launched. -/
theorem W8_main_arg0 (c : Dev nD) : W8 m ρ c (Proc.devRef .tc main_arg0) = m ((c : Thread nD τ).loc main_arg0) :=
  (W8_of m ρ c main_arg0 (by decide)).trans <| (W7_of m ρ c main_arg0 (by decide)).trans <| (W6_of m ρ c main_arg0 (by decide)).trans <|
    (W5_keep m ρ c main_arg0 (by decide)).trans <| (W4_keep m ρ c main_arg0 (by decide)).trans <| (W3_of m ρ c main_arg0 (by decide)).trans <|
    (W2_of m ρ c main_arg0 (by decide)).trans <| (W1_of m ρ c main_arg0 (by decide)).trans rfl

/-- `main_arg1` reaches the end as launched. -/
theorem W8_main_arg1 (c : Dev nD) : W8 m ρ c (Proc.devRef .tc main_arg1) = m ((c : Thread nD τ).loc main_arg1) :=
  (W8_of m ρ c main_arg1 (by decide)).trans <| (W7_of m ρ c main_arg1 (by decide)).trans <| (W6_of m ρ c main_arg1 (by decide)).trans <|
    (W5_keep m ρ c main_arg1 (by decide)).trans <| (W4_keep m ρ c main_arg1 (by decide)).trans <| (W3_of m ρ c main_arg1 (by decide)).trans <|
    (W2_of m ρ c main_arg1 (by decide)).trans <| (W1_of m ρ c main_arg1 (by decide)).trans rfl

/-- `main_arg2` reaches the end as launched. -/
theorem W8_main_arg2 (c : Dev nD) : W8 m ρ c (Proc.devRef .tc main_arg2) = m ((c : Thread nD τ).loc main_arg2) :=
  (W8_of m ρ c main_arg2 (by decide)).trans <| (W7_of m ρ c main_arg2 (by decide)).trans <| (W6_of m ρ c main_arg2 (by decide)).trans <|
    (W5_keep m ρ c main_arg2 (by decide)).trans <| (W4_keep m ρ c main_arg2 (by decide)).trans <| (W3_of m ρ c main_arg2 (by decide)).trans <|
    (W2_of m ρ c main_arg2 (by decide)).trans <| (W1_of m ρ c main_arg2 (by decide)).trans rfl

/-- `main_arg3` reaches the end as launched. -/
theorem W8_main_arg3 (c : Dev nD) : W8 m ρ c (Proc.devRef .tc main_arg3) = m ((c : Thread nD τ).loc main_arg3) :=
  (W8_of m ρ c main_arg3 (by decide)).trans <| (W7_of m ρ c main_arg3 (by decide)).trans <| (W6_of m ρ c main_arg3 (by decide)).trans <|
    (W5_keep m ρ c main_arg3 (by decide)).trans <| (W4_keep m ρ c main_arg3 (by decide)).trans <| (W3_of m ρ c main_arg3 (by decide)).trans <|
    (W2_of m ρ c main_arg3 (by decide)).trans <| (W1_of m ρ c main_arg3 (by decide)).trans rfl

/-- `main_arg4` reaches the end as launched. -/
theorem W8_main_arg4 (c : Dev nD) : W8 m ρ c (Proc.devRef .tc main_arg4) = m ((c : Thread nD τ).loc main_arg4) :=
  (W8_of m ρ c main_arg4 (by decide)).trans <| (W7_of m ρ c main_arg4 (by decide)).trans <| (W6_of m ρ c main_arg4 (by decide)).trans <|
    (W5_keep m ρ c main_arg4 (by decide)).trans <| (W4_keep m ρ c main_arg4 (by decide)).trans <| (W3_of m ρ c main_arg4 (by decide)).trans <|
    (W2_of m ρ c main_arg4 (by decide)).trans <| (W1_of m ρ c main_arg4 (by decide)).trans rfl

/-- `main_arg5` reaches the end as launched. -/
theorem W8_main_arg5 (c : Dev nD) : W8 m ρ c (Proc.devRef .tc main_arg5) = m ((c : Thread nD τ).loc main_arg5) :=
  (W8_of m ρ c main_arg5 (by decide)).trans <| (W7_of m ρ c main_arg5 (by decide)).trans <| (W6_of m ρ c main_arg5 (by decide)).trans <|
    (W5_keep m ρ c main_arg5 (by decide)).trans <| (W4_keep m ρ c main_arg5 (by decide)).trans <| (W3_of m ρ c main_arg5 (by decide)).trans <|
    (W2_of m ρ c main_arg5 (by decide)).trans <| (W1_of m ρ c main_arg5 (by decide)).trans rfl

/-- `main_arg6` reaches the end as launched. -/
theorem W8_main_arg6 (c : Dev nD) : W8 m ρ c (Proc.devRef .tc main_arg6) = m ((c : Thread nD τ).loc main_arg6) :=
  (W8_of m ρ c main_arg6 (by decide)).trans <| (W7_of m ρ c main_arg6 (by decide)).trans <| (W6_of m ρ c main_arg6 (by decide)).trans <|
    (W5_keep m ρ c main_arg6 (by decide)).trans <| (W4_keep m ρ c main_arg6 (by decide)).trans <| (W3_of m ρ c main_arg6 (by decide)).trans <|
    (W2_of m ρ c main_arg6 (by decide)).trans <| (W1_of m ρ c main_arg6 (by decide)).trans rfl

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 (custom_call 0) over the thread state: entered from every unscoped buffer at `W3`, left at `W4`.
    Its arrays split out of the unscoped buffers and put back at the exit contents; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun c t => owed_eq0 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V3 m ρ) c w) (V3 m ρ c) fun w => A_eq0 (V3 m ρ) c w
    rw [Pipeline.unscopedBufs_held] at hsplit
    have e0 : (pdats m ρ 0 c).owed 0 = 0 := owed_eq0 (V3 m ρ) c 0
    have eR : (pdats m ρ 0 c).recorded 0 = Set.univ := recorded_eq0 (V3 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl (eR ▸ Set.mem_univ x)
      iexact HO
    isplitl [Hp]; · iexact Hp
    iexact Hrest
  hin c := by
    refine .trans ?_ (hin0 (V3 m ρ) c); unfold Pipeline.ΦA
    iintro ⟨Hp, -, Hr⟩
    isplitl [Hr]; · iexact Hr
    iexact Hp
  hout c := by
    rw [Pipeline.ownSems0_none]
    refine (hout0 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V3 m ρ) c w)
      (V3 m ρ c) (V4 m ρ c) ((pdats m ρ 0 c).arrAt · cfg0.N) (hF0 m ρ c) (hrest0 m ρ c)
    rw [Pipeline.unscopedBufs_held] at hjoin
    have eN : (pdats m ρ 0 c).owed (Fin.last (Pipeline.pin (pcfgs (F := F)) adm 0).N) = 0 := owed_eq0 (V3 m ρ) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- REGION 1 (custom_call 1) over the thread state: entered from every unscoped buffer at `W4`, left at `W5`.
    Its arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun c t => owed_eq1 (V4 m ρ) c t
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V4 m ρ) c w) (V4 m ρ c) fun w => A_eq1 (V4 m ρ) c w
    rw [Pipeline.unscopedBufs_held] at hsplit
    have e0 : (pdats m ρ 1 c).owed 0 = 0 := owed_eq1 (V4 m ρ) c 0
    have eR : (pdats m ρ 1 c).recorded 0 = Set.univ := recorded_eq1 (V4 m ρ) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr; · ipureintro; exact fun x _ => Or.inl (eR ▸ Set.mem_univ x)
      iexact HO
    isplitl [Hp]; · iexact Hp
    iexact Hrest
  hin c := by
    refine .trans ?_ (hin1 (V4 m ρ) c); unfold Pipeline.ΦA
    iintro ⟨Hp, -, Hr⟩
    isplitl [Hr]; · iexact Hr
    iexact Hp
  hout c := by
    rw [Pipeline.ownSems0_none]
    refine (hout1 (V4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V4 m ρ) c w)
      (V4 m ρ c) (V5 m ρ c) ((pdats m ρ 1 c).arrAt · cfg1.N) (hF1 m ρ c) (hrest1 m ρ c)
    rw [Pipeline.unscopedBufs_held] at hjoin
    have eN : (pdats m ρ 1 c).owed (Fin.last (Pipeline.pin (pcfgs (F := F)) adm 1).N) = 0 := owed_eq1 (V4 m ρ) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .host (hseg hostOps2_1 hostOps2_1_sub hostOps2_1_fresh (W6 m ρ)),
    .host (hseg hostOps2_2 hostOps2_2_sub hostOps2_2_fresh (W7 m ρ)) ]

set_option backward.isDefEq.respectTransparency.types false in
/-- THE RUN. From any memory with zero counters, every weakly fair execution of @main on the TensorCores terminates,
    nothing faulting, and every final memory holds at every unscoped TensorCore buffer the last boundary's
    contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W8 m ρ c))
    (hch := ⟨fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨Hh, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME at any `F`: every weakly fair execution of @main from memory `m` with zero counters terminates,
    nothing faulting, and every final memory holds each of the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨(hr c _ (mem_uc main_arg0 (by decide))).trans (W8_main_arg0 m ρ c),
    (hr c _ (mem_uc main_arg1 (by decide))).trans (W8_main_arg1 m ρ c),
    (hr c _ (mem_uc main_arg2 (by decide))).trans (W8_main_arg2 m ρ c),
    (hr c _ (mem_uc main_arg3 (by decide))).trans (W8_main_arg3 m ρ c),
    (hr c _ (mem_uc main_arg4 (by decide))).trans (W8_main_arg4 m ρ c),
    (hr c _ (mem_uc main_arg5 (by decide))).trans (W8_main_arg5 m ρ c),
    (hr c _ (mem_uc main_arg6 (by decide))).trans (W8_main_arg6 m ρ c)⟩) (run_all m ρ)

end Cert.KernelIdeal.Hand

end
-- ==== Proof.RefTerms.lean ====
/-
  The reference program's values as terms of its argument arrays, for any float values.

  One definition per stage of the reference: the logits (the inner products over the hidden axis), the
  log-softmax along the vocabulary axis, the entry picked out along that axis by the token ids, the
  per-token log-probability these compose to, the standard deviation over all token positions, and the
  five scalar results. Each definition composes the pure operations the reference's text names, in its
  order, with the same shape facts.
-/
import proofs.«420414_j89421219103752_3_alg».proof.ReferenceIdeal
import proofs.«420414_j89421219103752_3_alg».proof.Proof.Gen.ReferenceIdeal

noncomputable section

namespace Cert.ReferenceIdeal.Terms

open Idealize.ShloMosaic Idealize.SL.Sem
open Cert.ReferenceIdeal
open Cert.ReferenceIdeal.Facts₀ Cert.ReferenceIdeal.Facts

variable {F : FTy → Type} [FloatOps F] [Facts]

/-! ## The logits -/

/-- The logits: each token position's hidden vector against every vocabulary row, contracted over the
    hidden axis. -/
def logits (x : FVec F S4x512x2048 .f32) (w : FVec F S32000x2048 .f32) : FVec F S4x512x32000 .f32 :=
  Host.dotGeneral dot_S4x512x2048_S32000x2048_S4x512x32000_2_1_01_0_n_n none x w

/-! ## The log-softmax along the vocabulary axis -/

/-- The maximum of each row of logits: the fold of the maximum from -∞ along the vocabulary axis, then the
    maximum with -∞ once more. -/
def lsMax (z : FVec F S4x512x32000 .f32) : FVec F S4x512 .f32 :=
  maximumf (broadcastInDim S4x512 ![] bcast_S_S4x512 (constant S_ .f32 0xFF800000#32))
    (Host.reduce FloatOps.maximumf z (constant S_ .f32 0xFF800000#32) reducesTo_S4x512x32000_S4x512_d2 h_S_)

/-- The logits shifted by their row's maximum. -/
def lsShift (z : FVec F S4x512x32000 .f32) : FVec F S4x512x32000 .f32 :=
  subf z
    (broadcastInDim S4x512x32000 ![0, 1, 2] bcast_S4x512x1_S4x512x32000_0_1_2
      (broadcastInDim S4x512x1 ![0, 1] bcast_S4x512_S4x512x1_0_1 (lsMax z)))

/-- The logarithm of each row's sum of shifted exponentials (the sum from zero along the vocabulary axis). -/
def lsLogSum (z : FVec F S4x512x32000 .f32) : FVec F S4x512x1 .f32 :=
  Host.log
    (broadcastInDim S4x512x1 ![0, 1] bcast_S4x512_S4x512x1_0_1
      (Host.reduceAdd (Host.exp (lsShift z)) (constant S_ .f32 0x00000000#32)
        reducesTo_S4x512x32000_S4x512_d2 h_S_))

/-- The log-softmax: the shifted logits minus the logarithm of their row's sum of exponentials. -/
def logSoftmax (z : FVec F S4x512x32000 .f32) : FVec F S4x512x32000 .f32 :=
  subf (lsShift z)
    (broadcastInDim S4x512x32000 ![0, 1, 2] bcast_S4x512x1_S4x512x32000_0_1_2 (lsLogSum z))

/-! ## The entry picked out along the vocabulary axis -/

/-- The index table: a negative id wrapped by adding the vocabulary size, then reshaped to carry the
    one-entry index vector as a last axis. -/
def taIdx (ids3 : IVec S4x512x1 32) : IVec S4x512x1x1 32 :=
  shapeCast S4x512x1x1
    (select
      (cmpi .slt ids3 (broadcastInDim S4x512x1 ![] bcast_S_S4x512x1 (constantI S_ 32 0#32)))
      (addi ids3 (broadcastInDim S4x512x1 ![] bcast_S_S4x512x1 (constantI S_ 32 32000#32)))
      ids3)
    shapeCasts_S4x512x1_S4x512x1x1

/-- The range test: 0 ≤ index ≤ 31999, conjoined over the index vector's one entry. -/
def taInRange (ids3 : IVec S4x512x1 32) : IVec S4x512x1 1 :=
  Host.reduce IntOp.andi
    (andi
      (cmpi .sge (taIdx ids3) (broadcastInDim S4x512x1x1 ![] bcast_S_S4x512x1x1 (constantI S_ 32 0#32)))
      (cmpi .sle (taIdx ids3)
        (broadcastInDim S4x512x1x1 ![0, 1, 2, 3] bcast_S1x1x1x1_S4x512x1x1_0_1_2_3
          (broadcastInDim S1x1x1x1 ![3] bcast_S1_S1x1x1x1_3 (constantI S1 32 31999#32)))))
    (constantI S_ 1 1#1) reducesTo_S4x512x1x1_S4x512x1_d3 h_S_

/-- The entry of each row at its id: the gather along the vocabulary axis where the index is in range, the
    not-a-number fill elsewhere. -/
def takeAlong (lp : FVec F S4x512x32000 .f32) (ids3 : IVec S4x512x1 32) : FVec F S4x512x1 .f32 :=
  select (taInRange ids3)
    (Host.gather gather_S4x512x32000_S4x512x1x1_S4x512x1_n_2_01_01_2_3_111 lp (taIdx ids3))
    (broadcastInDim S4x512x1 ![] bcast_S_S4x512x1 (constant S_ .f32 0x7FC00000#32))

/-- The per-token log-probability: the log-softmax of the logits at the token's id. -/
def tokLogp (x : FVec F S4x512x2048 .f32) (w : FVec F S32000x2048 .f32) (ids : IVec S4x512 32) :
    FVec F S4x512 .f32 :=
  shapeCast S4x512
    (takeAlong (logSoftmax (logits x w)) (broadcastInDim S4x512x1 ![0, 1] bcast_S4x512_S4x512x1_0_1 ids))
    shapeCasts_S4x512x1_S4x512

/-! ## The standard deviation over all token positions -/

/-- The deviations from the mean: each entry minus the sum of all entries divided by 2048. -/
def stdDev (a : FVec F S4x512 .f32) : FVec F S4x512 .f32 :=
  subf a
    (broadcastInDim S4x512 ![0, 1] bcast_S1x1_S4x512_0_1
      (Host.divf
        (broadcastInDim S1x1 ![] bcast_S_S1x1
          (Host.reduceAdd a (constant S_ .f32 0x00000000#32) reducesTo_S4x512_S_d0_1 h_S_))
        (broadcastInDim S1x1 ![] bcast_S_S1x1 (constant S_ .f32 0x45000000#32))))

/-- The divisor of the variance: 2048 minus the degrees-of-freedom correction, the integer 1 converted. -/
def stdDenom : FVec F S_ .f32 :=
  subf (constant S_ .f32 0x45000000#32) (sitofp .f32 (constantI S_ 32 1#32))

/-- The variance: the sum of squared deviations over the divisor where the divisor is positive, the
    not-a-number fill otherwise. -/
def varT (a : FVec F S4x512 .f32) : FVec F S_ .f32 :=
  select (cmpf .ogt (stdDenom (F := F)) (constant S_ .f32 0x00000000#32))
    (Host.divf
      (Host.reduceAdd (mulf (stdDev a) (stdDev a)) (constant S_ .f32 0x00000000#32) reducesTo_S4x512_S_d0_1 h_S_)
      stdDenom)
    (id (constant S_ .f32 0x7FC00000#32))

/-- The standard deviation: the square root of the variance. -/
def stdT (a : FVec F S4x512 .f32) : FVec F S_ .f32 := Host.sqrt (varT a)

/-! ## The tail: the pointwise terms and the five results -/

/-- The mask as floats. -/
def maskF (m : IVec S4x512 32) : FVec F S4x512 .f32 := sitofp .f32 m

/-- The divergence term per token: exp d - d - 1 at d the reference log-probability minus the policy's. -/
def klT (lpP lpR : FVec F S4x512 .f32) : FVec F S4x512 .f32 :=
  subf (subf (Host.exp (subf lpR lpP)) (subf lpR lpP))
    (broadcastInDim S4x512 ![] bcast_S_S4x512 (constant S_ .f32 0x3F800000#32))

/-- The negated objective per token: the ratio exp (p - p) times the row's advantage, minus a tenth of the
    divergence term; negated. -/
def negObj (lpP lpR : FVec F S4x512 .f32) (adv : FVec F S4 .f32) : FVec F S4x512 .f32 :=
  Host.negf
    (subf
      (mulf (Host.exp (subf lpP lpP))
        (broadcastInDim S4x512 ![0, 1] bcast_S4x1_S4x512_0_1 (broadcastInDim S4x1 ![0] bcast_S4_S4x1_0 adv)))
      (mulf (broadcastInDim S4x512 ![] bcast_S_S4x512 (constant S_ .f32 0x3DCCCCCD#32)) (klT lpP lpR)))

/-- The sum over all token positions, from zero. -/
def sumAll (a : FVec F S4x512 .f32) : FVec F S_ .f32 :=
  Host.reduceAdd a (constant S_ .f32 0x00000000#32) reducesTo_S4x512_S_d0_1 h_S_

section Results
variable (a0 : FVec F S32000x2048 .f32) (a1 : FVec F S4x512x2048 .f32) (a2 : IVec S4x512 32)
  (a3 : IVec S4x512 32) (a4 : FVec F S4 .f32) (a5 : FVec F S4x512x2048 .f32) (a6 : FVec F S32000x2048 .f32)

/-- The loss: the masked sum of the negated objective over the mask's sum plus 1e-8. -/
def res29 : FVec F S_ .f32 :=
  Host.divf
    (sumAll (mulf (negObj (tokLogp a1 a0 a2) (tokLogp a5 a6 a2) a4) (maskF a3)))
    (addf (sumAll (maskF a3)) (constant S_ .f32 0x322BCC77#32))

/-- The mean per-token log-probability: the sum over 2048. -/
def res31 : FVec F S_ .f32 :=
  Host.divf (sumAll (tokLogp a1 a0 a2)) (constant S_ .f32 0x45000000#32)

/-- The standard deviation of the per-token log-probability. -/
def res32 : FVec F S_ .f32 := stdT (tokLogp a1 a0 a2)

/-- The mean of the whole log-softmax array: its sum over 65536000. -/
def res34 : FVec F S_ .f32 :=
  Host.divf
    (Host.reduceAdd (logSoftmax (logits a1 a0)) (constant S_ .f32 0x00000000#32)
      reducesTo_S4x512x32000_S_d0_1_2 h_S_)
    (constant S_ .f32 0x4C7A0000#32)

/-- The divergence metric: the masked sum of the divergence term over the mask's sum. -/
def res38 : FVec F S_ .f32 :=
  Host.divf (sumAll (mulf (klT (tokLogp a1 a0 a2) (tokLogp a5 a6 a2)) (maskF a3))) (sumAll (maskF a3))

end Results

end Cert.ReferenceIdeal.Terms

end
-- ==== Proof.RefRun.lean ====
/-
  The reference program's run: its @main with the five module-local functions' bodies
  written out at their calls is one straight line of 141 host operations; every weakly fair execution
  terminates with each result buffer at the composed pure term of the arguments' launch contents
  (the terms of RefTerms.lean) and the arguments unchanged.

  The line is cut into seven consecutive stretches (the two contractions and the policy's
  log-softmax; the policy's gather; the reference's log-softmax; the reference's gather; the
  pointwise tail up to the first two results; the standard deviation; the last two results). Each
  stretch is read back on its own, over an arbitrary valuation: the buffers it is read for as terms of
  the buffers it reads, every buffer it does not write unchanged. The whole line's results are these
  composed.
-/
import proofs.«420414_j89421219103752_3_alg».proof.Proof.Gen.ReferenceIdeal
import proofs.«420414_j89421219103752_3_alg».proof.Proof.RefTerms
import Idealize.ShloMosaic.Lib.StableHlo.Run
import Mathlib.Data.List.Basic

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
/-- The two contractions and the policy's log-softmax (17 operations). -/
def opsA : List (HloOp τ sig (Elt F)) :=
  [ StableHlo.binary main_arg1 main_arg0 main_v0 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.binary main_arg5 main_arg6 main_v1 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.TRef.nullary main_call0.cst (constant S_ .f32 0xFF800000#32),
    StableHlo.TRef.binary (.of main_v0 : StableHlo.TRef sig ⟨S4x512x32000, .f32⟩) main_call0.cst main_call0.v0 (fun x v => Host.reduce FloatOps.maximumf x v reducesTo_S4x512x32000_S4x512_d2 h_S_),
    StableHlo.TRef.nullary main_call0.cst_0 (constant S_ .f32 0xFF800000#32),
    StableHlo.TRef.unary main_call0.cst_0 main_call0.v1 (broadcastInDim S4x512 ![] bcast_S_S4x512),
    StableHlo.TRef.binary main_call0.v1 main_call0.v0 main_call0.v2 maximumf,
    StableHlo.TRef.unary main_call0.v2 main_call0.v3 (broadcastInDim S4x512x1 ![0, 1] bcast_S4x512_S4x512x1_0_1),
    StableHlo.TRef.unary main_call0.v3 main_call0.v4 (broadcastInDim S4x512x32000 ![0, 1, 2] bcast_S4x512x1_S4x512x32000_0_1_2),
    StableHlo.TRef.binary (.of main_v0 : StableHlo.TRef sig ⟨S4x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S4x512x32000_S4x512_d2 h_S_),
    StableHlo.TRef.unary main_call0.v7 main_call0.v8 (broadcastInDim S4x512x1 ![0, 1] bcast_S4x512_S4x512x1_0_1),
    StableHlo.TRef.unary main_call0.v8 main_call0.v9 Host.log,
    StableHlo.TRef.unary main_call0.v9 main_call0.v10 (broadcastInDim S4x512x32000 ![0, 1, 2] bcast_S4x512x1_S4x512x32000_0_1_2),
    StableHlo.TRef.binary main_call0.v5 main_call0.v10 main_call0.v11 subf ]

/-- The buffers stretch A writes. -/
def opsA_W : List (Ref sig .tc) :=
  [main_v0, main_v1, main_call0.cst.ref, main_call0.v0.ref, main_call0.cst_0.ref, main_call0.v1.ref, main_call0.v2.ref, main_call0.v3.ref, main_call0.v4.ref, main_call0.v5.ref, main_call0.v6.ref, main_call0.cst_1.ref, main_call0.v7.ref, main_call0.v8.ref, main_call0.v9.ref, main_call0.v10.ref, main_call0.v11.ref]

/-- The policy's ids broadcast, the gather along the vocabulary axis, the reshape (24 operations). -/
def opsB : List (HloOp τ sig (Elt F)) :=
  [ StableHlo.unary main_arg2 main_v3 (broadcastInDim S4x512x1 ![0, 1] bcast_S4x512_S4x512x1_0_1 : (⟨S4x512, .i32⟩ : BufTy).Contents (Elt F) → (⟨S4x512x1, .i32⟩ : BufTy).Contents (Elt F)),
    StableHlo.TRef.nullary main_call1.c (constantI S_ 32 0#32),
    StableHlo.TRef.unary main_call1.c main_call1.v0 (broadcastInDim S4x512x1 ![] bcast_S_S4x512x1),
    StableHlo.TRef.binary (.of main_v3 : StableHlo.TRef sig ⟨S4x512x1, .i32⟩) main_call1.v0 main_call1.v1 (cmpi .slt),
    StableHlo.TRef.nullary main_call1.c_0 (constantI S_ 32 32000#32),
    StableHlo.TRef.unary main_call1.c_0 main_call1.v2 (broadcastInDim S4x512x1 ![] bcast_S_S4x512x1),
    StableHlo.TRef.binary (.of main_v3 : StableHlo.TRef sig ⟨S4x512x1, .i32⟩) main_call1.v2 main_call1.v3 addi,
    StableHlo.TRef.ternary main_call1.v1 main_call1.v3 (.of main_v3 : StableHlo.TRef sig ⟨S4x512x1, .i32⟩) main_call1.v4 select,
    StableHlo.TRef.reshape main_call1.v4 main_call1.v5 rfl shapeCasts_S4x512x1_S4x512x1x1,
    StableHlo.TRef.nullary main_call1.c_1 (constantI S1 32 31999#32),
    StableHlo.TRef.nullary main_call1.c_2 (constantI S_ 32 0#32),
    StableHlo.TRef.unary main_call1.c_2 main_call1.v6 (broadcastInDim S4x512x1x1 ![] bcast_S_S4x512x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S4x512x1x1 ![0, 1, 2, 3] bcast_S1x1x1x1_S4x512x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4x512x1x1_S4x512x1_d3 h_S_),
    StableHlo.TRef.binary (.of main_v2 : StableHlo.TRef sig ⟨S4x512x32000, .f32⟩) main_call1.v5 main_call1.v13 (fun x i => Host.gather gather_S4x512x32000_S4x512x1x1_S4x512x1_n_2_01_01_2_3_111 x i),
    StableHlo.TRef.nullary main_call1.cst (constant S_ .f32 0x7FC00000#32),
    StableHlo.TRef.unary main_call1.cst main_call1.v14 (broadcastInDim S4x512x1 ![] bcast_S_S4x512x1),
    StableHlo.TRef.ternary main_call1.v12 main_call1.v13 main_call1.v14 main_call1.v15 select,
    StableHlo.reshape main_v4 main_v5 rfl shapeCasts_S4x512x1_S4x512 ]

/-- The buffers stretch B writes. -/
def opsB_W : List (Ref sig .tc) :=
  [main_v3, main_call1.c.ref, main_call1.v0.ref, main_call1.v1.ref, main_call1.c_0.ref, main_call1.v2.ref, main_call1.v3.ref, main_call1.v4.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.cst.ref, main_call1.v14.ref, main_call1.v15.ref, main_v5]

/-- The reference's log-softmax (15 operations). -/
def opsC : List (HloOp τ sig (Elt F)) :=
  [ StableHlo.TRef.nullary main_call2.cst (constant S_ .f32 0xFF800000#32),
    StableHlo.TRef.binary (.of main_v1 : StableHlo.TRef sig ⟨S4x512x32000, .f32⟩) main_call2.cst main_call2.v0 (fun x v => Host.reduce FloatOps.maximumf x v reducesTo_S4x512x32000_S4x512_d2 h_S_),
    StableHlo.TRef.nullary main_call2.cst_0 (constant S_ .f32 0xFF800000#32),
    StableHlo.TRef.unary main_call2.cst_0 main_call2.v1 (broadcastInDim S4x512 ![] bcast_S_S4x512),
    StableHlo.TRef.binary main_call2.v1 main_call2.v0 main_call2.v2 maximumf,
    StableHlo.TRef.unary main_call2.v2 main_call2.v3 (broadcastInDim S4x512x1 ![0, 1] bcast_S4x512_S4x512x1_0_1),
    StableHlo.TRef.unary main_call2.v3 main_call2.v4 (broadcastInDim S4x512x32000 ![0, 1, 2] bcast_S4x512x1_S4x512x32000_0_1_2),
    StableHlo.TRef.binary (.of main_v1 : StableHlo.TRef sig ⟨S4x512x32000, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S4x512x32000_S4x512_d2 h_S_),
    StableHlo.TRef.unary main_call2.v7 main_call2.v8 (broadcastInDim S4x512x1 ![0, 1] bcast_S4x512_S4x512x1_0_1),
    StableHlo.TRef.unary main_call2.v8 main_call2.v9 Host.log,
    StableHlo.TRef.unary main_call2.v9 main_call2.v10 (broadcastInDim S4x512x32000 ![0, 1, 2] bcast_S4x512x1_S4x512x32000_0_1_2),
    StableHlo.TRef.binary main_call2.v5 main_call2.v10 main_call2.v11 subf ]

/-- The buffers stretch C writes. -/
def opsC_W : List (Ref sig .tc) :=
  [main_call2.cst.ref, main_call2.v0.ref, main_call2.cst_0.ref, main_call2.v1.ref, main_call2.v2.ref, main_call2.v3.ref, main_call2.v4.ref, main_call2.v5.ref, main_call2.v6.ref, main_call2.cst_1.ref, main_call2.v7.ref, main_call2.v8.ref, main_call2.v9.ref, main_call2.v10.ref, main_call2.v11.ref]

/-- The reference's ids broadcast, gather and reshape (24 operations). -/
def opsD : List (HloOp τ sig (Elt F)) :=
  [ StableHlo.unary main_arg2 main_v7 (broadcastInDim S4x512x1 ![0, 1] bcast_S4x512_S4x512x1_0_1 : (⟨S4x512, .i32⟩ : BufTy).Contents (Elt F) → (⟨S4x512x1, .i32⟩ : BufTy).Contents (Elt F)),
    StableHlo.TRef.nullary main_call3.c (constantI S_ 32 0#32),
    StableHlo.TRef.unary main_call3.c main_call3.v0 (broadcastInDim S4x512x1 ![] bcast_S_S4x512x1),
    StableHlo.TRef.binary (.of main_v7 : StableHlo.TRef sig ⟨S4x512x1, .i32⟩) main_call3.v0 main_call3.v1 (cmpi .slt),
    StableHlo.TRef.nullary main_call3.c_0 (constantI S_ 32 32000#32),
    StableHlo.TRef.unary main_call3.c_0 main_call3.v2 (broadcastInDim S4x512x1 ![] bcast_S_S4x512x1),
    StableHlo.TRef.binary (.of main_v7 : StableHlo.TRef sig ⟨S4x512x1, .i32⟩) main_call3.v2 main_call3.v3 addi,
    StableHlo.TRef.ternary main_call3.v1 main_call3.v3 (.of main_v7 : StableHlo.TRef sig ⟨S4x512x1, .i32⟩) main_call3.v4 select,
    StableHlo.TRef.reshape main_call3.v4 main_call3.v5 rfl shapeCasts_S4x512x1_S4x512x1x1,
    StableHlo.TRef.nullary main_call3.c_1 (constantI S1 32 31999#32),
    StableHlo.TRef.nullary main_call3.c_2 (constantI S_ 32 0#32),
    StableHlo.TRef.unary main_call3.c_2 main_call3.v6 (broadcastInDim S4x512x1x1 ![] bcast_S_S4x512x1x1),
    StableHlo.TRef.binary main_call3.v5 main_call3.v6 main_call3.v7 (cmpi .sge),
    StableHlo.TRef.unary main_call3.c_1 main_call3.v8 (broadcastInDim S1x1x1x1 ![3] bcast_S1_S1x1x1x1_3),
    StableHlo.TRef.unary main_call3.v8 main_call3.v9 (broadcastInDim S4x512x1x1 ![0, 1, 2, 3] bcast_S1x1x1x1_S4x512x1x1_0_1_2_3),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4x512x1x1_S4x512x1_d3 h_S_),
    StableHlo.TRef.binary (.of main_v6 : StableHlo.TRef sig ⟨S4x512x32000, .f32⟩) main_call3.v5 main_call3.v13 (fun x i => Host.gather gather_S4x512x32000_S4x512x1x1_S4x512x1_n_2_01_01_2_3_111 x i),
    StableHlo.TRef.nullary main_call3.cst (constant S_ .f32 0x7FC00000#32),
    StableHlo.TRef.unary main_call3.cst main_call3.v14 (broadcastInDim S4x512x1 ![] bcast_S_S4x512x1),
    StableHlo.TRef.ternary main_call3.v12 main_call3.v13 main_call3.v14 main_call3.v15 select,
    StableHlo.reshape main_v8 main_v9 rfl shapeCasts_S4x512x1_S4x512 ]

/-- The buffers stretch D writes. -/
def opsD_W : List (Ref sig .tc) :=
  [main_v7, main_call3.c.ref, main_call3.v0.ref, main_call3.v1.ref, main_call3.c_0.ref, main_call3.v2.ref, main_call3.v3.ref, main_call3.v4.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.cst.ref, main_call3.v14.ref, main_call3.v15.ref, main_v9]

/-- The pointwise tail up to the loss and the mean log-probability (29 operations). -/
def opsE : List (HloOp τ sig (Elt F)) :=
  [ StableHlo.binary main_v9 main_v5 main_v10 (subf : (⟨S4x512, .f32⟩ : BufTy).Contents (Elt F) → (⟨S4x512, .f32⟩ : BufTy).Contents (Elt F) → (⟨S4x512, .f32⟩ : BufTy).Contents (Elt F)),
    StableHlo.unary main_v10 main_v11 (Host.exp : (⟨S4x512, .f32⟩ : BufTy).Contents (Elt F) → (⟨S4x512, .f32⟩ : BufTy).Contents (Elt F)),
    StableHlo.binary main_v11 main_v10 main_v12 (subf : (⟨S4x512, .f32⟩ : BufTy).Contents (Elt F) → (⟨S4x512, .f32⟩ : BufTy).Contents (Elt F) → (⟨S4x512, .f32⟩ : BufTy).Contents (Elt F)),
    StableHlo.nullary main_cst (constant S_ .f32 0x3F800000#32),
    StableHlo.unary main_cst main_v13 (broadcastInDim S4x512 ![] bcast_S_S4x512 : (⟨S_, .f32⟩ : BufTy).Contents (Elt F) → (⟨S4x512, .f32⟩ : BufTy).Contents (Elt F)),
    StableHlo.binary main_v12 main_v13 main_v14 (subf : (⟨S4x512, .f32⟩ : BufTy).Contents (Elt F) → (⟨S4x512, .f32⟩ : BufTy).Contents (Elt F) → (⟨S4x512, .f32⟩ : BufTy).Contents (Elt F)),
    StableHlo.binary main_v5 main_v5 main_v15 (subf : (⟨S4x512, .f32⟩ : BufTy).Contents (Elt F) → (⟨S4x512, .f32⟩ : BufTy).Contents (Elt F) → (⟨S4x512, .f32⟩ : BufTy).Contents (Elt F)),
    StableHlo.unary main_v15 main_v16 (Host.exp : (⟨S4x512, .f32⟩ : BufTy).Contents (Elt F) → (⟨S4x512, .f32⟩ : BufTy).Contents (Elt F)),
    StableHlo.unary main_arg4 main_v17 (broadcastInDim S4x1 ![0] bcast_S4_S4x1_0 : (⟨S4, .f32⟩ : BufTy).Contents (Elt F) → (⟨S4x1, .f32⟩ : BufTy).Contents (Elt F)),
    StableHlo.unary main_v17 main_v18 (broadcastInDim S4x512 ![0, 1] bcast_S4x1_S4x512_0_1 : (⟨S4x1, .f32⟩ : BufTy).Contents (Elt F) → (⟨S4x512, .f32⟩ : BufTy).Contents (Elt F)),
    StableHlo.binary main_v16 main_v18 main_v19 (mulf : (⟨S4x512, .f32⟩ : BufTy).Contents (Elt F) → (⟨S4x512, .f32⟩ : BufTy).Contents (Elt F) → (⟨S4x512, .f32⟩ : BufTy).Contents (Elt F)),
    StableHlo.nullary main_cst_0 (constant S_ .f32 0x3DCCCCCD#32),
    StableHlo.unary main_cst_0 main_v20 (broadcastInDim S4x512 ![] bcast_S_S4x512 : (⟨S_, .f32⟩ : BufTy).Contents (Elt F) → (⟨S4x512, .f32⟩ : BufTy).Contents (Elt F)),
    StableHlo.binary main_v20 main_v14 main_v21 (mulf : (⟨S4x512, .f32⟩ : BufTy).Contents (Elt F) → (⟨S4x512, .f32⟩ : BufTy).Contents (Elt F) → (⟨S4x512, .f32⟩ : BufTy).Contents (Elt F)),
    StableHlo.binary main_v19 main_v21 main_v22 (subf : (⟨S4x512, .f32⟩ : BufTy).Contents (Elt F) → (⟨S4x512, .f32⟩ : BufTy).Contents (Elt F) → (⟨S4x512, .f32⟩ : BufTy).Contents (Elt F)),
    StableHlo.unary main_v22 main_v23 (Host.negf : (⟨S4x512, .f32⟩ : BufTy).Contents (Elt F) → (⟨S4x512, .f32⟩ : BufTy).Contents (Elt F)),
    StableHlo.unary main_arg3 main_v24 (sitofp .f32 : (⟨S4x512, .i32⟩ : BufTy).Contents (Elt F) → (⟨S4x512, .f32⟩ : BufTy).Contents (Elt F)),
    StableHlo.binary main_v23 main_v24 main_v25 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v25 main_cst_1 main_v26 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v24 main_cst_2 main_v27 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v27 main_cst_3 main_v28 (addf : (⟨S_, .f32⟩ : BufTy).Contents (Elt F) → (⟨S_, .f32⟩ : BufTy).Contents (Elt F) → (⟨S_, .f32⟩ : BufTy).Contents (Elt F)),
    StableHlo.binary main_v26 main_v28 main_v29 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x00000000#32),
    StableHlo.binary main_v5 main_cst_4 main_v30 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_5 (constant S_ .f32 0x45000000#32),
    StableHlo.binary main_v30 main_cst_5 main_v31 (Host.divf : (⟨S_, .f32⟩ : BufTy).Contents (Elt F) → (⟨S_, .f32⟩ : BufTy).Contents (Elt F) → (⟨S_, .f32⟩ : BufTy).Contents (Elt F)) ]

/-- The buffers stretch E writes. -/
def opsE_W : List (Ref sig .tc) :=
  [main_v10, main_v11, main_v12, main_cst, main_v13, main_v14, main_v15, main_v16, main_v17, main_v18, main_v19, main_cst_0, main_v20, main_v21, main_v22, main_v23, main_v24, main_v25, main_cst_1, main_v26, main_cst_2, main_v27, main_cst_3, main_v28, main_v29, main_cst_4, main_v30, main_cst_5, main_v31]

/-- The correction constant and the standard deviation (22 operations). -/
def opsF : List (HloOp τ sig (Elt F)) :=
  [ StableHlo.nullary main_c (constantI S_ 32 1#32),
    StableHlo.TRef.nullary main_call4.call0.cst (constant S_ .f32 0x00000000#32),
    StableHlo.TRef.binary (.of main_v5 : StableHlo.TRef sig ⟨S4x512, .f32⟩) main_call4.call0.cst main_call4.call0.v0 (fun x v => Host.reduceAdd x v reducesTo_S4x512_S_d0_1 h_S_),
    StableHlo.TRef.unary main_call4.call0.v0 main_call4.call0.v1 (broadcastInDim S1x1 ![] bcast_S_S1x1),
    StableHlo.TRef.nullary main_call4.call0.cst_0 (constant S_ .f32 0x45000000#32),
    StableHlo.TRef.unary main_call4.call0.cst_0 main_call4.call0.v2 (broadcastInDim S1x1 ![] bcast_S_S1x1),
    StableHlo.TRef.binary main_call4.call0.v1 main_call4.call0.v2 main_call4.call0.v3 Host.divf,
    StableHlo.TRef.unary main_call4.call0.v3 main_call4.call0.v4 (broadcastInDim S4x512 ![0, 1] bcast_S1x1_S4x512_0_1),
    StableHlo.TRef.binary (.of main_v5 : StableHlo.TRef sig ⟨S4x512, .f32⟩) main_call4.call0.v4 main_call4.call0.v5 subf,
    StableHlo.TRef.binary main_call4.call0.v5 main_call4.call0.v5 main_call4.call0.v6 mulf,
    StableHlo.TRef.unary (.of main_c : StableHlo.TRef sig ⟨S_, .i32⟩) main_call4.call0.v7 (sitofp .f32),
    StableHlo.TRef.nullary main_call4.call0.cst_1 (constant S_ .f32 0x45000000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S4x512_S_d0_1 h_S_),
    StableHlo.TRef.binary main_call4.call0.v9 main_call4.call0.v8 main_call4.call0.v10 Host.divf,
    StableHlo.TRef.nullary main_call4.call0.cst_3 (constant S_ .f32 0x00000000#32),
    StableHlo.TRef.binary main_call4.call0.v8 main_call4.call0.cst_3 main_call4.call0.v11 (cmpf .ogt),
    StableHlo.TRef.nullary main_call4.call0.cst_4 (constant S_ .f32 0x7FC00000#32),
    StableHlo.TRef.unary main_call4.call0.cst_4 main_call4.call0.call0.v0 id,
    StableHlo.TRef.ternary main_call4.call0.v11 main_call4.call0.v10 main_call4.call0.call0.v0 main_call4.call0.call0.v1 select,
    StableHlo.TRef.unary main_call4.call0.call0.v1 main_call4.v1 Host.sqrt ]

/-- The buffers stretch F writes. -/
def opsF_W : List (Ref sig .tc) :=
  [main_c, main_call4.call0.cst.ref, main_call4.call0.v0.ref, main_call4.call0.v1.ref, main_call4.call0.cst_0.ref, main_call4.call0.v2.ref, main_call4.call0.v3.ref, main_call4.call0.v4.ref, main_call4.call0.v5.ref, main_call4.call0.v6.ref, main_call4.call0.v7.ref, main_call4.call0.cst_1.ref, main_call4.call0.v8.ref, main_call4.call0.cst_2.ref, main_call4.call0.v9.ref, main_call4.call0.v10.ref, main_call4.call0.cst_3.ref, main_call4.call0.v11.ref, main_call4.call0.cst_4.ref, main_call4.call0.call0.v0.ref, main_call4.call0.call0.v1.ref, main_call4.v1.ref]

/-- The mean of the log-softmax array and the divergence metric (10 operations). -/
def opsG : List (HloOp τ sig (Elt F)) :=
  [ StableHlo.nullary main_cst_6 (constant S_ .f32 0x00000000#32),
    StableHlo.binary main_v2 main_cst_6 main_v33 ((fun x v => Host.reduceAdd x v reducesTo_S4x512x32000_S_d0_1_2 h_S_) : (⟨S4x512x32000, .f32⟩ : BufTy).Contents (Elt F) → (⟨S_, .f32⟩ : BufTy).Contents (Elt F) → (⟨S_, .f32⟩ : BufTy).Contents (Elt F)),
    StableHlo.nullary main_cst_7 (constant S_ .f32 0x4C7A0000#32),
    StableHlo.binary main_v33 main_cst_7 main_v34 (Host.divf : (⟨S_, .f32⟩ : BufTy).Contents (Elt F) → (⟨S_, .f32⟩ : BufTy).Contents (Elt F) → (⟨S_, .f32⟩ : BufTy).Contents (Elt F)),
    StableHlo.binary main_v14 main_v24 main_v35 (mulf : (⟨S4x512, .f32⟩ : BufTy).Contents (Elt F) → (⟨S4x512, .f32⟩ : BufTy).Contents (Elt F) → (⟨S4x512, .f32⟩ : BufTy).Contents (Elt F)),
    StableHlo.nullary main_cst_8 (constant S_ .f32 0x00000000#32),
    StableHlo.binary main_v35 main_cst_8 main_v36 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v24 main_cst_9 main_v37 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.binary main_v36 main_v37 main_v38 (Host.divf : (⟨S_, .f32⟩ : BufTy).Contents (Elt F) → (⟨S_, .f32⟩ : BufTy).Contents (Elt F) → (⟨S_, .f32⟩ : BufTy).Contents (Elt F)) ]

/-- The buffers stretch G writes. -/
def opsG_W : List (Ref sig .tc) :=
  [main_cst_6, main_v33, main_cst_7, main_v34, main_v35, main_cst_8, main_v36, main_cst_9, main_v37, main_v38]

/-- @main's 141 operations, in order. -/
def ops : List (HloOp τ sig (Elt F)) :=
  opsA ++ (opsB ++ (opsC ++ (opsD ++ (opsE ++ (opsF ++ opsG)))))

-- 141 binds re-associated, one recursion per statement
set_option maxRecDepth 8192 in
set_option maxHeartbeats 1600000 in
/-- @main is that straight line: the functions' bodies unfolded at their calls, sequencing re-associated. -/
theorem main_eq (c : Dev nD) : main (F := F) c = seq ops := by
  simp only [main, fn_log_softmax.body, fn_take_along_axis.body, fn_std.body, fn_var.body, fn_where.body,
    ops, opsA, opsB, opsC, opsD, opsE, opsF, opsG, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub ..⟩

theorem opsE_fresh : ∀ op ∈ (opsE : List (HloOp τ sig (Elt F))), op.fresh = ∅ := by
  intro _ h; (repeat (cases h with | head => rfl | tail _ h => ?_)); exact nomatch h

theorem opsF_sub : (opsF : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub ..⟩

theorem opsF_fresh : ∀ op ∈ (opsF : List (HloOp τ sig (Elt F))), op.fresh = ∅ := by
  intro _ h; (repeat (cases h with | head => rfl | tail _ h => ?_)); exact nomatch h

theorem opsG_sub : (opsG : List (HloOp τ sig (Elt F))).Forall fun op => op.bufs ⊆ tcRefs τ sig :=
  ⟨nullary_bufs_sub .., binary_bufs_sub .., nullary_bufs_sub .., binary_bufs_sub .., binary_bufs_sub .., nullary_bufs_sub .., binary_bufs_sub .., nullary_bufs_sub .., binary_bufs_sub .., binary_bufs_sub ..⟩

theorem opsG_fresh : ∀ op ∈ (opsG : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_append.mpr ⟨opsA_sub, List.forall_append.mpr ⟨opsB_sub, List.forall_append.mpr ⟨opsC_sub,
    List.forall_append.mpr ⟨opsD_sub, List.forall_append.mpr ⟨opsE_sub, List.forall_append.mpr ⟨opsF_sub, opsG_sub⟩⟩⟩⟩⟩⟩

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := by
  intro op h
  rcases List.mem_append.mp h with h | h
  · exact h₁ op h
  · exact h₂ op h

theorem ops_fresh : ∀ op ∈ (ops : List (HloOp τ sig (Elt F))), op.fresh = ∅ :=
  fresh_append opsA_fresh (fresh_append opsB_fresh (fresh_append opsC_fresh (fresh_append opsD_fresh
    (fresh_append opsE_fresh (fresh_append opsF_fresh opsG_fresh)))))

/-! ## Reading a stretch back -/

local notation "⟪" r "⟫" => (Proc.devRef Proc.tc r : DevRef τ sig)

/-- The fold over a concatenation is the folds in turn. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one written buffer is a member of `W` writes inside `W`. -/
theorem writes_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

theorem opsA_writes : (opsA : List (HloOp τ sig (Elt F))).Forall fun op =>
    op.writes ⊆ (opsA_W.map (Proc.devRef (τ := τ) .tc)).toFinset :=
  ⟨writes_of_mem main_v0 rfl (by decide),
   writes_of_mem main_v1 rfl (by decide),
   writes_of_mem main_call0.cst.ref rfl (by decide),
   writes_of_mem main_call0.v0.ref rfl (by decide),
   writes_of_mem main_call0.cst_0.ref rfl (by decide),
   writes_of_mem main_call0.v1.ref rfl (by decide),
   writes_of_mem main_call0.v2.ref rfl (by decide),
   writes_of_mem main_call0.v3.ref rfl (by decide),
   writes_of_mem main_call0.v4.ref rfl (by decide),
   writes_of_mem main_call0.v5.ref rfl (by decide),
   writes_of_mem main_call0.v6.ref rfl (by decide),
   writes_of_mem main_call0.cst_1.ref rfl (by decide),
   writes_of_mem main_call0.v7.ref rfl (by decide),
   writes_of_mem main_call0.v8.ref rfl (by decide),
   writes_of_mem main_call0.v9.ref rfl (by decide),
   writes_of_mem main_call0.v10.ref rfl (by decide),
   writes_of_mem main_call0.v11.ref rfl (by decide)⟩

/-- A buffer stretch A does not write keeps its contents. -/
theorem A_keep {r : Ref sig .tc} (V : Valuation τ sig (Elt F)) (h : r ∉ opsA_W) :
    after opsA V (no_index ⟪r⟫) = V ⟪r⟫ :=
  after_of_writes_sub opsA V opsA_writes h

theorem opsB_writes : (opsB : List (HloOp τ sig (Elt F))).Forall fun op =>
    op.writes ⊆ (opsB_W.map (Proc.devRef (τ := τ) .tc)).toFinset :=
  ⟨writes_of_mem main_v3 rfl (by decide),
   writes_of_mem main_call1.c.ref rfl (by decide),
   writes_of_mem main_call1.v0.ref rfl (by decide),
   writes_of_mem main_call1.v1.ref rfl (by decide),
   writes_of_mem main_call1.c_0.ref rfl (by decide),
   writes_of_mem main_call1.v2.ref rfl (by decide),
   writes_of_mem main_call1.v3.ref rfl (by decide),
   writes_of_mem main_call1.v4.ref rfl (by decide),
   writes_of_mem main_call1.v5.ref rfl (by decide),
   writes_of_mem main_call1.c_1.ref rfl (by decide),
   writes_of_mem main_call1.c_2.ref rfl (by decide),
   writes_of_mem main_call1.v6.ref rfl (by decide),
   writes_of_mem main_call1.v7.ref rfl (by decide),
   writes_of_mem main_call1.v8.ref rfl (by decide),
   writes_of_mem main_call1.v9.ref rfl (by decide),
   writes_of_mem main_call1.v10.ref rfl (by decide),
   writes_of_mem main_call1.v11.ref rfl (by decide),
   writes_of_mem main_call1.c_3.ref rfl (by decide),
   writes_of_mem main_call1.v12.ref rfl (by decide),
   writes_of_mem main_call1.v13.ref rfl (by decide),
   writes_of_mem main_call1.cst.ref rfl (by decide),
   writes_of_mem main_call1.v14.ref rfl (by decide),
   writes_of_mem main_call1.v15.ref rfl (by decide),
   writes_of_mem main_v5 rfl (by decide)⟩

/-- A buffer stretch B does not write keeps its contents. -/
theorem B_keep {r : Ref sig .tc} (V : Valuation τ sig (Elt F)) (h : r ∉ opsB_W) :
    after opsB V (no_index ⟪r⟫) = V ⟪r⟫ :=
  after_of_writes_sub opsB V opsB_writes h

theorem opsC_writes : (opsC : List (HloOp τ sig (Elt F))).Forall fun op =>
    op.writes ⊆ (opsC_W.map (Proc.devRef (τ := τ) .tc)).toFinset :=
  ⟨writes_of_mem main_call2.cst.ref rfl (by decide),
   writes_of_mem main_call2.v0.ref rfl (by decide),
   writes_of_mem main_call2.cst_0.ref rfl (by decide),
   writes_of_mem main_call2.v1.ref rfl (by decide),
   writes_of_mem main_call2.v2.ref rfl (by decide),
   writes_of_mem main_call2.v3.ref rfl (by decide),
   writes_of_mem main_call2.v4.ref rfl (by decide),
   writes_of_mem main_call2.v5.ref rfl (by decide),
   writes_of_mem main_call2.v6.ref rfl (by decide),
   writes_of_mem main_call2.cst_1.ref rfl (by decide),
   writes_of_mem main_call2.v7.ref rfl (by decide),
   writes_of_mem main_call2.v8.ref rfl (by decide),
   writes_of_mem main_call2.v9.ref rfl (by decide),
   writes_of_mem main_call2.v10.ref rfl (by decide),
   writes_of_mem main_call2.v11.ref rfl (by decide)⟩

/-- A buffer stretch C does not write keeps its contents. -/
theorem C_keep {r : Ref sig .tc} (V : Valuation τ sig (Elt F)) (h : r ∉ opsC_W) :
    after opsC V (no_index ⟪r⟫) = V ⟪r⟫ :=
  after_of_writes_sub opsC V opsC_writes h

theorem opsD_writes : (opsD : List (HloOp τ sig (Elt F))).Forall fun op =>
    op.writes ⊆ (opsD_W.map (Proc.devRef (τ := τ) .tc)).toFinset :=
  ⟨writes_of_mem main_v7 rfl (by decide),
   writes_of_mem main_call3.c.ref rfl (by decide),
   writes_of_mem main_call3.v0.ref rfl (by decide),
   writes_of_mem main_call3.v1.ref rfl (by decide),
   writes_of_mem main_call3.c_0.ref rfl (by decide),
   writes_of_mem main_call3.v2.ref rfl (by decide),
   writes_of_mem main_call3.v3.ref rfl (by decide),
   writes_of_mem main_call3.v4.ref rfl (by decide),
   writes_of_mem main_call3.v5.ref rfl (by decide),
   writes_of_mem main_call3.c_1.ref rfl (by decide),
   writes_of_mem main_call3.c_2.ref rfl (by decide),
   writes_of_mem main_call3.v6.ref rfl (by decide),
   writes_of_mem main_call3.v7.ref rfl (by decide),
   writes_of_mem main_call3.v8.ref rfl (by decide),
   writes_of_mem main_call3.v9.ref rfl (by decide),
   writes_of_mem main_call3.v10.ref rfl (by decide),
   writes_of_mem main_call3.v11.ref rfl (by decide),
   writes_of_mem main_call3.c_3.ref rfl (by decide),
   writes_of_mem main_call3.v12.ref rfl (by decide),
   writes_of_mem main_call3.v13.ref rfl (by decide),
   writes_of_mem main_call3.cst.ref rfl (by decide),
   writes_of_mem main_call3.v14.ref rfl (by decide),
   writes_of_mem main_call3.v15.ref rfl (by decide),
   writes_of_mem main_v9 rfl (by decide)⟩

/-- A buffer stretch D does not write keeps its contents. -/
theorem D_keep {r : Ref sig .tc} (V : Valuation τ sig (Elt F)) (h : r ∉ opsD_W) :
    after opsD V (no_index ⟪r⟫) = V ⟪r⟫ :=
  after_of_writes_sub opsD V opsD_writes h

theorem opsE_writes : (opsE : List (HloOp τ sig (Elt F))).Forall fun op =>
    op.writes ⊆ (opsE_W.map (Proc.devRef (τ := τ) .tc)).toFinset :=
  ⟨writes_of_mem main_v10 rfl (by decide),
   writes_of_mem main_v11 rfl (by decide),
   writes_of_mem main_v12 rfl (by decide),
   writes_of_mem main_cst rfl (by decide),
   writes_of_mem main_v13 rfl (by decide),
   writes_of_mem main_v14 rfl (by decide),
   writes_of_mem main_v15 rfl (by decide),
   writes_of_mem main_v16 rfl (by decide),
   writes_of_mem main_v17 rfl (by decide),
   writes_of_mem main_v18 rfl (by decide),
   writes_of_mem main_v19 rfl (by decide),
   writes_of_mem main_cst_0 rfl (by decide),
   writes_of_mem main_v20 rfl (by decide),
   writes_of_mem main_v21 rfl (by decide),
   writes_of_mem main_v22 rfl (by decide),
   writes_of_mem main_v23 rfl (by decide),
   writes_of_mem main_v24 rfl (by decide),
   writes_of_mem main_v25 rfl (by decide),
   writes_of_mem main_cst_1 rfl (by decide),
   writes_of_mem main_v26 rfl (by decide),
   writes_of_mem main_cst_2 rfl (by decide),
   writes_of_mem main_v27 rfl (by decide),
   writes_of_mem main_cst_3 rfl (by decide),
   writes_of_mem main_v28 rfl (by decide),
   writes_of_mem main_v29 rfl (by decide),
   writes_of_mem main_cst_4 rfl (by decide),
   writes_of_mem main_v30 rfl (by decide),
   writes_of_mem main_cst_5 rfl (by decide),
   writes_of_mem main_v31 rfl (by decide)⟩

/-- A buffer stretch E does not write keeps its contents. -/
theorem E_keep {r : Ref sig .tc} (V : Valuation τ sig (Elt F)) (h : r ∉ opsE_W) :
    after opsE V (no_index ⟪r⟫) = V ⟪r⟫ :=
  after_of_writes_sub opsE V opsE_writes h

theorem opsF_writes : (opsF : List (HloOp τ sig (Elt F))).Forall fun op =>
    op.writes ⊆ (opsF_W.map (Proc.devRef (τ := τ) .tc)).toFinset :=
  ⟨writes_of_mem main_c rfl (by decide),
   writes_of_mem main_call4.call0.cst.ref rfl (by decide),
   writes_of_mem main_call4.call0.v0.ref rfl (by decide),
   writes_of_mem main_call4.call0.v1.ref rfl (by decide),
   writes_of_mem main_call4.call0.cst_0.ref rfl (by decide),
   writes_of_mem main_call4.call0.v2.ref rfl (by decide),
   writes_of_mem main_call4.call0.v3.ref rfl (by decide),
   writes_of_mem main_call4.call0.v4.ref rfl (by decide),
   writes_of_mem main_call4.call0.v5.ref rfl (by decide),
   writes_of_mem main_call4.call0.v6.ref rfl (by decide),
   writes_of_mem main_call4.call0.v7.ref rfl (by decide),
   writes_of_mem main_call4.call0.cst_1.ref rfl (by decide),
   writes_of_mem main_call4.call0.v8.ref rfl (by decide),
   writes_of_mem main_call4.call0.cst_2.ref rfl (by decide),
   writes_of_mem main_call4.call0.v9.ref rfl (by decide),
   writes_of_mem main_call4.call0.v10.ref rfl (by decide),
   writes_of_mem main_call4.call0.cst_3.ref rfl (by decide),
   writes_of_mem main_call4.call0.v11.ref rfl (by decide),
   writes_of_mem main_call4.call0.cst_4.ref rfl (by decide),
   writes_of_mem main_call4.call0.call0.v0.ref rfl (by decide),
   writes_of_mem main_call4.call0.call0.v1.ref rfl (by decide),
   writes_of_mem main_call4.v1.ref rfl (by decide)⟩

/-- A buffer stretch F does not write keeps its contents. -/
theorem F_keep {r : Ref sig .tc} (V : Valuation τ sig (Elt F)) (h : r ∉ opsF_W) :
    after opsF V (no_index ⟪r⟫) = V ⟪r⟫ :=
  after_of_writes_sub opsF V opsF_writes h

theorem opsG_writes : (opsG : List (HloOp τ sig (Elt F))).Forall fun op =>
    op.writes ⊆ (opsG_W.map (Proc.devRef (τ := τ) .tc)).toFinset :=
  ⟨writes_of_mem main_cst_6 rfl (by decide),
   writes_of_mem main_v33 rfl (by decide),
   writes_of_mem main_cst_7 rfl (by decide),
   writes_of_mem main_v34 rfl (by decide),
   writes_of_mem main_v35 rfl (by decide),
   writes_of_mem main_cst_8 rfl (by decide),
   writes_of_mem main_v36 rfl (by decide),
   writes_of_mem main_cst_9 rfl (by decide),
   writes_of_mem main_v37 rfl (by decide),
   writes_of_mem main_v38 rfl (by decide)⟩

/-- A buffer stretch G does not write keeps its contents. -/
theorem G_keep {r : Ref sig .tc} (V : Valuation τ sig (Elt F)) (h : r ∉ opsG_W) :
    after opsG V (no_index ⟪r⟫) = V ⟪r⟫ :=
  after_of_writes_sub opsG V opsG_writes h

-- the reductions and the gather are kept folded: every equation below holds with them as they stand
attribute [local irreducible] Host.reduce Host.reduceAdd Host.gather

/-! ## The stretches over the untyped builders

The same operations with each buffer named directly and each function ascribed at the buffers' types: the typed
references of an inlined body are these at literal references, definitionally (operation by operation). A stretch is
read back through this spelling. -/

/-- Stretch A over the untyped builders. -/
def uopsA : List (HloOp τ sig (Elt F)) :=
  [ StableHlo.binary main_arg1 main_arg0 main_v0 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.binary main_arg5 main_arg6 main_v1 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.nullary main_call0_cst ((constant S_ .f32 0xFF800000#32) : (⟨S_, .f32⟩ : BufTy).Contents (Elt F)),
    StableHlo.binary main_v0 main_call0_cst main_call0_v0 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    StableHlo.nullary main_call0_cst_0 ((constant S_ .f32 0xFF800000#32) : (⟨S_, .f32⟩ : BufTy).Contents (Elt F)),
    StableHlo.unary main_call0_cst_0 main_call0_v1 ((broadcastInDim S4x512 ![] bcast_S_S4x512) : (⟨S_, .f32⟩ : BufTy).Contents (Elt F) → (⟨S4x512, .f32⟩ : BufTy).Contents (Elt F)),
    StableHlo.binary main_call0_v1 main_call0_v0 main_call0_v2 (maximumf : (⟨S4x512, .f32⟩ : BufTy).Contents (Elt F) → (⟨S4x512, .f32⟩ : BufTy).Contents (Elt F) → (⟨S4x512, .f32⟩ : BufTy).Contents (Elt F)),
    StableHlo.unary main_call0_v2 main_call0_v3 ((broadcastInDim S4x512x1 ![0, 1] bcast_S4x512_S4x512x1_0_1) : (⟨S4x512, .f32⟩ : BufTy).Contents (Elt F) → (⟨S4x512x1, .f32⟩ : BufTy).Contents (Elt F)),
    StableHlo.unary main_call0_v3 main_call0_v4 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    StableHlo.binary main_v0 main_call0_v4 main_call0_v5 (subf : (⟨S4x512x32000, .f32⟩ : BufTy).Contents (Elt F) → (⟨S4x512x32000, .f32⟩ : BufTy).Contents (Elt F) → (⟨S4x512x32000, .f32⟩ : BufTy).Contents (Elt F)),
    StableHlo.unary main_call0_v5 main_call0_v6 (Host.exp : (⟨S4x512x32000, .f32⟩ : BufTy).Contents (Elt F) → (⟨S4x512x32000, .f32⟩ : BufTy).Contents (Elt F)),
    StableHlo.nullary main_call0_cst_1 ((constant S_ .f32 0x00000000#32) : (⟨S_, .f32⟩ : BufTy).Contents (Elt F)),
    StableHlo.binary main_call0_v6 main_call0_cst_1 main_call0_v7 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    StableHlo.unary main_call0_v7 main_call0_v8 ((broadcastInDim S4x512x1 ![0, 1] bcast_S4x512_S4x512x1_0_1) : (⟨S4x512, .f32⟩ : BufTy).Contents (Elt F) → (⟨S4x512x1, .f32⟩ : BufTy).Contents (Elt F)),
    StableHlo.unary main_call0_v8 main_call0_v9 (Host.log : (⟨S4x512x1, .f32⟩ : BufTy).Contents (Elt F) → (⟨S4x512x1, .f32⟩ : BufTy).Contents (Elt F)),
    StableHlo.unary main_call0_v9 main_call0_v10 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    StableHlo.binary main_call0_v5 main_call0_v10 main_v2 (subf : (⟨S4x512x32000, .f32⟩ : BufTy).Contents (Elt F) → (⟨S4x512x32000, .f32⟩ : BufTy).Contents (Elt F) → (⟨S4x512x32000, .f32⟩ : BufTy).Contents (Elt F)) ]

set_option maxRecDepth 16384 in
theorem opsA_eq : (opsA : List (HloOp τ sig (Elt F))) = uopsA := rfl

/-- Stretch B over the untyped builders. -/
def uopsB : List (HloOp τ sig (Elt F)) :=
  [ StableHlo.unary main_arg2 main_v3 (broadcastInDim S4x512x1 ![0, 1] bcast_S4x512_S4x512x1_0_1 : (⟨S4x512, .i32⟩ : BufTy).Contents (Elt F) → (⟨S4x512x1, .i32⟩ : BufTy).Contents (Elt F)),
    StableHlo.nullary main_call1_c ((constantI S_ 32 0#32) : (⟨S_, .i32⟩ : BufTy).Contents (Elt F)),
    StableHlo.unary main_call1_c main_call1_v0 ((broadcastInDim S4x512x1 ![] bcast_S_S4x512x1) : (⟨S_, .i32⟩ : BufTy).Contents (Elt F) → (⟨S4x512x1, .i32⟩ : BufTy).Contents (Elt F)),
    StableHlo.binary main_v3 main_call1_v0 main_call1_v1 ((cmpi .slt) : (⟨S4x512x1, .i32⟩ : BufTy).Contents (Elt F) → (⟨S4x512x1, .i32⟩ : BufTy).Contents (Elt F) → (⟨S4x512x1, .i1⟩ : BufTy).Contents (Elt F)),
    StableHlo.nullary main_call1_c_0 ((constantI S_ 32 32000#32) : (⟨S_, .i32⟩ : BufTy).Contents (Elt F)),
    StableHlo.unary main_call1_c_0 main_call1_v2 ((broadcastInDim S4x512x1 ![] bcast_S_S4x512x1) : (⟨S_, .i32⟩ : BufTy).Contents (Elt F) → (⟨S4x512x1, .i32⟩ : BufTy).Contents (Elt F)),
    StableHlo.binary main_v3 main_call1_v2 main_call1_v3 (addi : (⟨S4x512x1, .i32⟩ : BufTy).Contents (Elt F) → (⟨S4x512x1, .i32⟩ : BufTy).Contents (Elt F) → (⟨S4x512x1, .i32⟩ : BufTy).Contents (Elt F)),
    StableHlo.ternary main_call1_v1 main_call1_v3 main_v3 main_call1_v4 (select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)),
    StableHlo.reshape main_call1_v4 main_call1_v5 rfl shapeCasts_S4x512x1_S4x512x1x1,
    StableHlo.nullary main_call1_c_1 ((constantI S1 32 31999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S4x512x1x1 ![] bcast_S_S4x512x1x1) : (⟨S_, .i32⟩ : BufTy).Contents (Elt F) → (⟨S4x512x1x1, .i32⟩ : BufTy).Contents (Elt F)),
    StableHlo.binary main_call1_v5 main_call1_v6 main_call1_v7 ((cmpi .sge) : (⟨S4x512x1x1, .i32⟩ : BufTy).Contents (Elt F) → (⟨S4x512x1x1, .i32⟩ : BufTy).Contents (Elt F) → (⟨S4x512x1x1, .i1⟩ : BufTy).Contents (Elt F)),
    StableHlo.unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    StableHlo.unary main_call1_v8 main_call1_v9 ((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)),
    StableHlo.binary main_call1_v5 main_call1_v9 main_call1_v10 ((cmpi .sle) : (⟨S4x512x1x1, .i32⟩ : BufTy).Contents (Elt F) → (⟨S4x512x1x1, .i32⟩ : BufTy).Contents (Elt F) → (⟨S4x512x1x1, .i1⟩ : BufTy).Contents (Elt F)),
    StableHlo.binary main_call1_v7 main_call1_v10 main_call1_v11 (andi : (⟨S4x512x1x1, .i1⟩ : BufTy).Contents (Elt F) → (⟨S4x512x1x1, .i1⟩ : BufTy).Contents (Elt F) → (⟨S4x512x1x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)),
    StableHlo.binary main_v2 main_call1_v5 main_call1_v13 ((fun x i => Host.gather gather_S4x512x32000_S4x512x1x1_S4x512x1_n_2_01_01_2_3_111 x i) : (⟨S4x512x32000, .f32⟩ : BufTy).Contents (Elt F) → (⟨S4x512x1x1, .i32⟩ : BufTy).Contents (Elt F) → (⟨S4x512x1, .f32⟩ : BufTy).Contents (Elt F)),
    StableHlo.nullary main_call1_cst ((constant S_ .f32 0x7FC00000#32) : (⟨S_, .f32⟩ : BufTy).Contents (Elt F)),
    StableHlo.unary main_call1_cst main_call1_v14 ((broadcastInDim S4x512x1 ![] bcast_S_S4x512x1) : (⟨S_, .f32⟩ : BufTy).Contents (Elt F) → (⟨S4x512x1, .f32⟩ : BufTy).Contents (Elt F)),
    StableHlo.ternary main_call1_v12 main_call1_v13 main_call1_v14 main_v4 (select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)),
    StableHlo.reshape main_v4 main_v5 rfl shapeCasts_S4x512x1_S4x512 ]

set_option maxRecDepth 16384 in
theorem opsB_eq : (opsB : List (HloOp τ sig (Elt F))) = uopsB := rfl

/-- Stretch C over the untyped builders. -/
def uopsC : List (HloOp τ sig (Elt F)) :=
  [ StableHlo.nullary main_call2_cst ((constant S_ .f32 0xFF800000#32) : (⟨S_, .f32⟩ : BufTy).Contents (Elt F)),
    StableHlo.binary main_v1 main_call2_cst main_call2_v0 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    StableHlo.nullary main_call2_cst_0 ((constant S_ .f32 0xFF800000#32) : (⟨S_, .f32⟩ : BufTy).Contents (Elt F)),
    StableHlo.unary main_call2_cst_0 main_call2_v1 ((broadcastInDim S4x512 ![] bcast_S_S4x512) : (⟨S_, .f32⟩ : BufTy).Contents (Elt F) → (⟨S4x512, .f32⟩ : BufTy).Contents (Elt F)),
    StableHlo.binary main_call2_v1 main_call2_v0 main_call2_v2 (maximumf : (⟨S4x512, .f32⟩ : BufTy).Contents (Elt F) → (⟨S4x512, .f32⟩ : BufTy).Contents (Elt F) → (⟨S4x512, .f32⟩ : BufTy).Contents (Elt F)),
    StableHlo.unary main_call2_v2 main_call2_v3 ((broadcastInDim S4x512x1 ![0, 1] bcast_S4x512_S4x512x1_0_1) : (⟨S4x512, .f32⟩ : BufTy).Contents (Elt F) → (⟨S4x512x1, .f32⟩ : BufTy).Contents (Elt F)),
    StableHlo.unary main_call2_v3 main_call2_v4 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    StableHlo.binary main_v1 main_call2_v4 main_call2_v5 (subf : (⟨S4x512x32000, .f32⟩ : BufTy).Contents (Elt F) → (⟨S4x512x32000, .f32⟩ : BufTy).Contents (Elt F) → (⟨S4x512x32000, .f32⟩ : BufTy).Contents (Elt F)),
    StableHlo.unary main_call2_v5 main_call2_v6 (Host.exp : (⟨S4x512x32000, .f32⟩ : BufTy).Contents (Elt F) → (⟨S4x512x32000, .f32⟩ : BufTy).Contents (Elt F)),
    StableHlo.nullary main_call2_cst_1 ((constant S_ .f32 0x00000000#32) : (⟨S_, .f32⟩ : BufTy).Contents (Elt F)),
    StableHlo.binary main_call2_v6 main_call2_cst_1 main_call2_v7 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    StableHlo.unary main_call2_v7 main_call2_v8 ((broadcastInDim S4x512x1 ![0, 1] bcast_S4x512_S4x512x1_0_1) : (⟨S4x512, .f32⟩ : BufTy).Contents (Elt F) → (⟨S4x512x1, .f32⟩ : BufTy).Contents (Elt F)),
    StableHlo.unary main_call2_v8 main_call2_v9 (Host.log : (⟨S4x512x1, .f32⟩ : BufTy).Contents (Elt F) → (⟨S4x512x1, .f32⟩ : BufTy).Contents (Elt F)),
    StableHlo.unary main_call2_v9 main_call2_v10 ((broadcastInDim S4x512x32000 ![0, 1, 2] bcast_S4x512x1_S4x512x32000_0_1_2) : (⟨S4x512x1, .f32⟩ : BufTy).Contents (Elt F) → (⟨S4x512x32000, .f32⟩ : BufTy).Contents (Elt F)),
    StableHlo.binary main_call2_v5 main_call2_v10 main_v6 (subf : (⟨S4x512x32000, .f32⟩ : BufTy).Contents (Elt F) → (⟨S4x512x32000, .f32⟩ : BufTy).Contents (Elt F) → (⟨S4x512x32000, .f32⟩ : BufTy).Contents (Elt F)) ]

set_option maxRecDepth 16384 in
theorem opsC_eq : (opsC : List (HloOp τ sig (Elt F))) = uopsC := rfl

/-- Stretch D over the untyped builders. -/
def uopsD : List (HloOp τ sig (Elt F)) :=
  [ StableHlo.unary main_arg2 main_v7 (broadcastInDim S4x512x1 ![0, 1] bcast_S4x512_S4x512x1_0_1 : (⟨S4x512, .i32⟩ : BufTy).Contents (Elt F) → (⟨S4x512x1, .i32⟩ : BufTy).Contents (Elt F)),
    StableHlo.nullary main_call3_c ((constantI S_ 32 0#32) : (⟨S_, .i32⟩ : BufTy).Contents (Elt F)),
    StableHlo.unary main_call3_c main_call3_v0 ((broadcastInDim S4x512x1 ![] bcast_S_S4x512x1) : (⟨S_, .i32⟩ : BufTy).Contents (Elt F) → (⟨S4x512x1, .i32⟩ : BufTy).Contents (Elt F)),
    StableHlo.binary main_v7 main_call3_v0 main_call3_v1 ((cmpi .slt) : (⟨S4x512x1, .i32⟩ : BufTy).Contents (Elt F) → (⟨S4x512x1, .i32⟩ : BufTy).Contents (Elt F) → (⟨S4x512x1, .i1⟩ : BufTy).Contents (Elt F)),
    StableHlo.nullary main_call3_c_0 ((constantI S_ 32 32000#32) : (⟨S_, .i32⟩ : BufTy).Contents (Elt F)),
    StableHlo.unary main_call3_c_0 main_call3_v2 ((broadcastInDim S4x512x1 ![] bcast_S_S4x512x1) : (⟨S_, .i32⟩ : BufTy).Contents (Elt F) → (⟨S4x512x1, .i32⟩ : BufTy).Contents (Elt F)),
    StableHlo.binary main_v7 main_call3_v2 main_call3_v3 (addi : (⟨S4x512x1, .i32⟩ : BufTy).Contents (Elt F) → (⟨S4x512x1, .i32⟩ : BufTy).Contents (Elt F) → (⟨S4x512x1, .i32⟩ : BufTy).Contents (Elt F)),
    StableHlo.ternary main_call3_v1 main_call3_v3 main_v7 main_call3_v4 (select : (⟨S4x512x1, .i1⟩ : BufTy).Contents (Elt F) → (⟨S4x512x1, .i32⟩ : BufTy).Contents (Elt F) → (⟨S4x512x1, .i32⟩ : BufTy).Contents (Elt F) → (⟨S4x512x1, .i32⟩ : BufTy).Contents (Elt F)),
    StableHlo.reshape main_call3_v4 main_call3_v5 rfl shapeCasts_S4x512x1_S4x512x1x1,
    StableHlo.nullary main_call3_c_1 ((constantI S1 32 31999#32) : (⟨S1, .i32⟩ : BufTy).Contents (Elt F)),
    StableHlo.nullary main_call3_c_2 ((constantI S_ 32 0#32) : (⟨S_, .i32⟩ : BufTy).Contents (Elt F)),
    StableHlo.unary main_call3_c_2 main_call3_v6 ((broadcastInDim S4x512x1x1 ![] bcast_S_S4x512x1x1) : (⟨S_, .i32⟩ : BufTy).Contents (Elt F) → (⟨S4x512x1x1, .i32⟩ : BufTy).Contents (Elt F)),
    StableHlo.binary main_call3_v5 main_call3_v6 main_call3_v7 ((cmpi .sge) : (⟨S4x512x1x1, .i32⟩ : BufTy).Contents (Elt F) → (⟨S4x512x1x1, .i32⟩ : BufTy).Contents (Elt F) → (⟨S4x512x1x1, .i1⟩ : BufTy).Contents (Elt F)),
    StableHlo.unary main_call3_c_1 main_call3_v8 ((broadcastInDim S1x1x1x1 ![3] bcast_S1_S1x1x1x1_3) : (⟨S1, .i32⟩ : BufTy).Contents (Elt F) → (⟨S1x1x1x1, .i32⟩ : BufTy).Contents (Elt F)),
    StableHlo.unary main_call3_v8 main_call3_v9 ((broadcastInDim S4x512x1x1 ![0, 1, 2, 3] bcast_S1x1x1x1_S4x512x1x1_0_1_2_3) : (⟨S1x1x1x1, .i32⟩ : BufTy).Contents (Elt F) → (⟨S4x512x1x1, .i32⟩ : BufTy).Contents (Elt F)),
    StableHlo.binary main_call3_v5 main_call3_v9 main_call3_v10 ((cmpi .sle) : (⟨S4x512x1x1, .i32⟩ : BufTy).Contents (Elt F) → (⟨S4x512x1x1, .i32⟩ : BufTy).Contents (Elt F) → (⟨S4x512x1x1, .i1⟩ : BufTy).Contents (Elt F)),
    StableHlo.binary main_call3_v7 main_call3_v10 main_call3_v11 (andi : (⟨S4x512x1x1, .i1⟩ : BufTy).Contents (Elt F) → (⟨S4x512x1x1, .i1⟩ : BufTy).Contents (Elt F) → (⟨S4x512x1x1, .i1⟩ : BufTy).Contents (Elt F)),
    StableHlo.nullary main_call3_c_3 ((constantI S_ 1 1#1) : (⟨S_, .i1⟩ : BufTy).Contents (Elt F)),
    StableHlo.binary main_call3_v11 main_call3_c_3 main_call3_v12 ((fun x v => Host.reduce IntOp.andi x v reducesTo_S4x512x1x1_S4x512x1_d3 h_S_) : (⟨S4x512x1x1, .i1⟩ : BufTy).Contents (Elt F) → (⟨S_, .i1⟩ : BufTy).Contents (Elt F) → (⟨S4x512x1, .i1⟩ : BufTy).Contents (Elt F)),
    StableHlo.binary main_v6 main_call3_v5 main_call3_v13 ((fun x i => Host.gather gather_S4x512x32000_S4x512x1x1_S4x512x1_n_2_01_01_2_3_111 x i) : (⟨S4x512x32000, .f32⟩ : BufTy).Contents (Elt F) → (⟨S4x512x1x1, .i32⟩ : BufTy).Contents (Elt F) → (⟨S4x512x1, .f32⟩ : BufTy).Contents (Elt F)),
    StableHlo.nullary main_call3_cst ((constant S_ .f32 0x7FC00000#32) : (⟨S_, .f32⟩ : BufTy).Contents (Elt F)),
    StableHlo.unary main_call3_cst main_call3_v14 ((broadcastInDim S4x512x1 ![] bcast_S_S4x512x1) : (⟨S_, .f32⟩ : BufTy).Contents (Elt F) → (⟨S4x512x1, .f32⟩ : BufTy).Contents (Elt F)),
    StableHlo.ternary main_call3_v12 main_call3_v13 main_call3_v14 main_v8 (select : (⟨S4x512x1, .i1⟩ : BufTy).Contents (Elt F) → (⟨S4x512x1, .f32⟩ : BufTy).Contents (Elt F) → (⟨S4x512x1, .f32⟩ : BufTy).Contents (Elt F) → (⟨S4x512x1, .f32⟩ : BufTy).Contents (Elt F)),
    StableHlo.reshape main_v8 main_v9 rfl shapeCasts_S4x512x1_S4x512 ]

set_option maxRecDepth 16384 in
theorem opsD_eq : (opsD : List (HloOp τ sig (Elt F))) = uopsD := rfl

/-- Stretch E over the untyped builders. -/
def uopsE : List (HloOp τ sig (Elt F)) :=
  [ StableHlo.binary main_v9 main_v5 main_v10 (subf : (⟨S4x512, .f32⟩ : BufTy).Contents (Elt F) → (⟨S4x512, .f32⟩ : BufTy).Contents (Elt F) → (⟨S4x512, .f32⟩ : BufTy).Contents (Elt F)),
    StableHlo.unary main_v10 main_v11 (Host.exp : (⟨S4x512, .f32⟩ : BufTy).Contents (Elt F) → (⟨S4x512, .f32⟩ : BufTy).Contents (Elt F)),
    StableHlo.binary main_v11 main_v10 main_v12 (subf : (⟨S4x512, .f32⟩ : BufTy).Contents (Elt F) → (⟨S4x512, .f32⟩ : BufTy).Contents (Elt F) → (⟨S4x512, .f32⟩ : BufTy).Contents (Elt F)),
    StableHlo.nullary main_cst (constant S_ .f32 0x3F800000#32),
    StableHlo.unary main_cst main_v13 (broadcastInDim S4x512 ![] bcast_S_S4x512 : (⟨S_, .f32⟩ : BufTy).Contents (Elt F) → (⟨S4x512, .f32⟩ : BufTy).Contents (Elt F)),
    StableHlo.binary main_v12 main_v13 main_v14 (subf : (⟨S4x512, .f32⟩ : BufTy).Contents (Elt F) → (⟨S4x512, .f32⟩ : BufTy).Contents (Elt F) → (⟨S4x512, .f32⟩ : BufTy).Contents (Elt F)),
    StableHlo.binary main_v5 main_v5 main_v15 (subf : (⟨S4x512, .f32⟩ : BufTy).Contents (Elt F) → (⟨S4x512, .f32⟩ : BufTy).Contents (Elt F) → (⟨S4x512, .f32⟩ : BufTy).Contents (Elt F)),
    StableHlo.unary main_v15 main_v16 (Host.exp : (⟨S4x512, .f32⟩ : BufTy).Contents (Elt F) → (⟨S4x512, .f32⟩ : BufTy).Contents (Elt F)),
    StableHlo.unary main_arg4 main_v17 (broadcastInDim S4x1 ![0] bcast_S4_S4x1_0 : (⟨S4, .f32⟩ : BufTy).Contents (Elt F) → (⟨S4x1, .f32⟩ : BufTy).Contents (Elt F)),
    StableHlo.unary main_v17 main_v18 (broadcastInDim S4x512 ![0, 1] bcast_S4x1_S4x512_0_1 : (⟨S4x1, .f32⟩ : BufTy).Contents (Elt F) → (⟨S4x512, .f32⟩ : BufTy).Contents (Elt F)),
    StableHlo.binary main_v16 main_v18 main_v19 (mulf : (⟨S4x512, .f32⟩ : BufTy).Contents (Elt F) → (⟨S4x512, .f32⟩ : BufTy).Contents (Elt F) → (⟨S4x512, .f32⟩ : BufTy).Contents (Elt F)),
    StableHlo.nullary main_cst_0 (constant S_ .f32 0x3DCCCCCD#32),
    StableHlo.unary main_cst_0 main_v20 (broadcastInDim S4x512 ![] bcast_S_S4x512 : (⟨S_, .f32⟩ : BufTy).Contents (Elt F) → (⟨S4x512, .f32⟩ : BufTy).Contents (Elt F)),
    StableHlo.binary main_v20 main_v14 main_v21 (mulf : (⟨S4x512, .f32⟩ : BufTy).Contents (Elt F) → (⟨S4x512, .f32⟩ : BufTy).Contents (Elt F) → (⟨S4x512, .f32⟩ : BufTy).Contents (Elt F)),
    StableHlo.binary main_v19 main_v21 main_v22 (subf : (⟨S4x512, .f32⟩ : BufTy).Contents (Elt F) → (⟨S4x512, .f32⟩ : BufTy).Contents (Elt F) → (⟨S4x512, .f32⟩ : BufTy).Contents (Elt F)),
    StableHlo.unary main_v22 main_v23 (Host.negf : (⟨S4x512, .f32⟩ : BufTy).Contents (Elt F) → (⟨S4x512, .f32⟩ : BufTy).Contents (Elt F)),
    StableHlo.unary main_arg3 main_v24 (sitofp .f32 : (⟨S4x512, .i32⟩ : BufTy).Contents (Elt F) → (⟨S4x512, .f32⟩ : BufTy).Contents (Elt F)),
    StableHlo.binary main_v23 main_v24 main_v25 (mulf : (⟨S4x512, .f32⟩ : BufTy).Contents (Elt F) → (⟨S4x512, .f32⟩ : BufTy).Contents (Elt F) → (⟨S4x512, .f32⟩ : BufTy).Contents (Elt F)),
    StableHlo.nullary main_cst_1 (constant S_ .f32 0x00000000#32),
    StableHlo.binary main_v25 main_cst_1 main_v26 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v24 main_cst_2 main_v27 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_3 (constant S_ .f32 0x322BCC77#32),
    StableHlo.binary main_v27 main_cst_3 main_v28 (addf : (⟨S_, .f32⟩ : BufTy).Contents (Elt F) → (⟨S_, .f32⟩ : BufTy).Contents (Elt F) → (⟨S_, .f32⟩ : BufTy).Contents (Elt F)),
    StableHlo.binary main_v26 main_v28 main_v29 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x00000000#32),
    StableHlo.binary main_v5 main_cst_4 main_v30 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_5 (constant S_ .f32 0x45000000#32),
    StableHlo.binary main_v30 main_cst_5 main_v31 (Host.divf : (⟨S_, .f32⟩ : BufTy).Contents (Elt F) → (⟨S_, .f32⟩ : BufTy).Contents (Elt F) → (⟨S_, .f32⟩ : BufTy).Contents (Elt F)) ]

set_option maxRecDepth 16384 in
theorem opsE_eq : (opsE : List (HloOp τ sig (Elt F))) = uopsE := rfl

/-- Stretch F over the untyped builders. -/
def uopsF : List (HloOp τ sig (Elt F)) :=
  [ StableHlo.nullary main_c (constantI S_ 32 1#32),
    StableHlo.nullary main_call4_call0_cst ((constant S_ .f32 0x00000000#32) : (⟨S_, .f32⟩ : BufTy).Contents (Elt F)),
    StableHlo.binary main_v5 main_call4_call0_cst main_call4_call0_v0 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_call4_call0_v0 main_call4_call0_v1 ((broadcastInDim S1x1 ![] bcast_S_S1x1) : (⟨S_, .f32⟩ : BufTy).Contents (Elt F) → (⟨S1x1, .f32⟩ : BufTy).Contents (Elt F)),
    StableHlo.nullary main_call4_call0_cst_0 ((constant S_ .f32 0x45000000#32) : (⟨S_, .f32⟩ : BufTy).Contents (Elt F)),
    StableHlo.unary main_call4_call0_cst_0 main_call4_call0_v2 ((broadcastInDim S1x1 ![] bcast_S_S1x1) : (⟨S_, .f32⟩ : BufTy).Contents (Elt F) → (⟨S1x1, .f32⟩ : BufTy).Contents (Elt F)),
    StableHlo.binary main_call4_call0_v1 main_call4_call0_v2 main_call4_call0_v3 (Host.divf : (⟨S1x1, .f32⟩ : BufTy).Contents (Elt F) → (⟨S1x1, .f32⟩ : BufTy).Contents (Elt F) → (⟨S1x1, .f32⟩ : BufTy).Contents (Elt F)),
    StableHlo.unary main_call4_call0_v3 main_call4_call0_v4 ((broadcastInDim S4x512 ![0, 1] bcast_S1x1_S4x512_0_1) : (⟨S1x1, .f32⟩ : BufTy).Contents (Elt F) → (⟨S4x512, .f32⟩ : BufTy).Contents (Elt F)),
    StableHlo.binary main_v5 main_call4_call0_v4 main_call4_call0_v5 (subf : (⟨S4x512, .f32⟩ : BufTy).Contents (Elt F) → (⟨S4x512, .f32⟩ : BufTy).Contents (Elt F) → (⟨S4x512, .f32⟩ : BufTy).Contents (Elt F)),
    StableHlo.binary main_call4_call0_v5 main_call4_call0_v5 main_call4_call0_v6 (mulf : (⟨S4x512, .f32⟩ : BufTy).Contents (Elt F) → (⟨S4x512, .f32⟩ : BufTy).Contents (Elt F) → (⟨S4x512, .f32⟩ : BufTy).Contents (Elt F)),
    StableHlo.unary main_c main_call4_call0_v7 ((sitofp .f32) : (⟨S_, .i32⟩ : BufTy).Contents (Elt F) → (⟨S_, .f32⟩ : BufTy).Contents (Elt F)),
    StableHlo.nullary main_call4_call0_cst_1 ((constant S_ .f32 0x45000000#32) : (⟨S_, .f32⟩ : BufTy).Contents (Elt F)),
    StableHlo.binary main_call4_call0_cst_1 main_call4_call0_v7 main_call4_call0_v8 (subf : (⟨S_, .f32⟩ : BufTy).Contents (Elt F) → (⟨S_, .f32⟩ : BufTy).Contents (Elt F) → (⟨S_, .f32⟩ : BufTy).Contents (Elt F)),
    StableHlo.nullary main_call4_call0_cst_2 ((constant S_ .f32 0x00000000#32) : (⟨S_, .f32⟩ : BufTy).Contents (Elt F)),
    StableHlo.binary main_call4_call0_v6 main_call4_call0_cst_2 main_call4_call0_v9 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.binary main_call4_call0_v9 main_call4_call0_v8 main_call4_call0_v10 (Host.divf : (⟨S_, .f32⟩ : BufTy).Contents (Elt F) → (⟨S_, .f32⟩ : BufTy).Contents (Elt F) → (⟨S_, .f32⟩ : BufTy).Contents (Elt F)),
    StableHlo.nullary main_call4_call0_cst_3 ((constant S_ .f32 0x00000000#32) : (⟨S_, .f32⟩ : BufTy).Contents (Elt F)),
    StableHlo.binary main_call4_call0_v8 main_call4_call0_cst_3 main_call4_call0_v11 ((cmpf .ogt) : (⟨S_, .f32⟩ : BufTy).Contents (Elt F) → (⟨S_, .f32⟩ : BufTy).Contents (Elt F) → (⟨S_, .i1⟩ : BufTy).Contents (Elt F)),
    StableHlo.nullary main_call4_call0_cst_4 ((constant S_ .f32 0x7FC00000#32) : (⟨S_, .f32⟩ : BufTy).Contents (Elt F)),
    StableHlo.unary main_call4_call0_cst_4 main_call4_call0_call0_v0 (id : (⟨S_, .f32⟩ : BufTy).Contents (Elt F) → (⟨S_, .f32⟩ : BufTy).Contents (Elt F)),
    StableHlo.ternary main_call4_call0_v11 main_call4_call0_v10 main_call4_call0_call0_v0 main_call4_v0 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    StableHlo.unary main_call4_v0 main_v32 (Host.sqrt : (⟨S_, .f32⟩ : BufTy).Contents (Elt F) → (⟨S_, .f32⟩ : BufTy).Contents (Elt F)) ]

set_option maxRecDepth 16384 in
theorem opsF_eq : (opsF : List (HloOp τ sig (Elt F))) = uopsF := rfl

/-- Stretch G over the untyped builders. -/
def uopsG : List (HloOp τ sig (Elt F)) :=
  [ StableHlo.nullary main_cst_6 (constant S_ .f32 0x00000000#32),
    StableHlo.binary main_v2 main_cst_6 main_v33 ((fun x v => Host.reduceAdd x v reducesTo_S4x512x32000_S_d0_1_2 h_S_) : (⟨S4x512x32000, .f32⟩ : BufTy).Contents (Elt F) → (⟨S_, .f32⟩ : BufTy).Contents (Elt F) → (⟨S_, .f32⟩ : BufTy).Contents (Elt F)),
    StableHlo.nullary main_cst_7 (constant S_ .f32 0x4C7A0000#32),
    StableHlo.binary main_v33 main_cst_7 main_v34 (Host.divf : (⟨S_, .f32⟩ : BufTy).Contents (Elt F) → (⟨S_, .f32⟩ : BufTy).Contents (Elt F) → (⟨S_, .f32⟩ : BufTy).Contents (Elt F)),
    StableHlo.binary main_v14 main_v24 main_v35 (mulf : (⟨S4x512, .f32⟩ : BufTy).Contents (Elt F) → (⟨S4x512, .f32⟩ : BufTy).Contents (Elt F) → (⟨S4x512, .f32⟩ : BufTy).Contents (Elt F)),
    StableHlo.nullary main_cst_8 (constant S_ .f32 0x00000000#32),
    StableHlo.binary main_v35 main_cst_8 main_v36 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v24 main_cst_9 main_v37 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.binary main_v36 main_v37 main_v38 (Host.divf : (⟨S_, .f32⟩ : BufTy).Contents (Elt F) → (⟨S_, .f32⟩ : BufTy).Contents (Elt F) → (⟨S_, .f32⟩ : BufTy).Contents (Elt F)) ]

set_option maxRecDepth 16384 in
theorem opsG_eq : (opsG : List (HloOp τ sig (Elt F))) = uopsG := rfl

/-- The policy's log-softmax array, of the policy's hidden states and vocabulary matrix. -/
theorem A_v2 (V : Valuation τ sig (Elt F)) :
    after opsA V (no_index ⟪main_v2⟫) = Terms.logSoftmax (Terms.logits (V ⟪main_arg1⟫) (V ⟪main_arg0⟫)) := by
  rw [opsA_eq]
  unfold uopsA
  after_results_simp <;> rfl

/-- The reference's logits. -/
theorem A_v1 (V : Valuation τ sig (Elt F)) :
    after opsA V (no_index ⟪main_v1⟫) = Terms.logits (V ⟪main_arg5⟫) (V ⟪main_arg6⟫) := by
  rw [opsA_eq]
  unfold uopsA
  after_results_simp <;> rfl

/-- The policy's per-token log-probability, of its log-softmax array and the ids. -/
theorem B_v5 (V : Valuation τ sig (Elt F)) :
    after opsB V (no_index ⟪main_v5⟫) = shapeCast S4x512 (Terms.takeAlong (V ⟪main_v2⟫) (broadcastInDim S4x512x1 ![0, 1] bcast_S4x512_S4x512x1_0_1 (V ⟪main_arg2⟫))) shapeCasts_S4x512x1_S4x512 := by
  rw [opsB_eq]
  unfold uopsB
  after_results_simp <;> rfl

/-- The reference's log-softmax array, of its logits. -/
theorem C_v6 (V : Valuation τ sig (Elt F)) :
    after opsC V (no_index ⟪main_v6⟫) = Terms.logSoftmax (V ⟪main_v1⟫) := by
  rw [opsC_eq]
  unfold uopsC
  after_results_simp <;> rfl

/-- The reference's per-token log-probability. -/
theorem D_v9 (V : Valuation τ sig (Elt F)) :
    after opsD V (no_index ⟪main_v9⟫) = shapeCast S4x512 (Terms.takeAlong (V ⟪main_v6⟫) (broadcastInDim S4x512x1 ![0, 1] bcast_S4x512_S4x512x1_0_1 (V ⟪main_arg2⟫))) shapeCasts_S4x512x1_S4x512 := by
  rw [opsD_eq]
  unfold uopsD
  after_results_simp <;> rfl

/-- The loss, of the two per-token log-probabilities, the advantages and the mask. -/
theorem E_v29 (V : Valuation τ sig (Elt F)) :
    after opsE V (no_index ⟪main_v29⟫) = Host.divf (Terms.sumAll (mulf (Terms.negObj (V ⟪main_v5⟫) (V ⟪main_v9⟫) (V ⟪main_arg4⟫)) (Terms.maskF (V ⟪main_arg3⟫))))
        (addf (Terms.sumAll (Terms.maskF (V ⟪main_arg3⟫))) (constant S_ .f32 0x322BCC77#32)) := by
  rw [opsE_eq]
  unfold uopsE
  after_results_simp <;> rfl

/-- The mean per-token log-probability. -/
theorem E_v31 (V : Valuation τ sig (Elt F)) :
    after opsE V (no_index ⟪main_v31⟫) = Host.divf (Terms.sumAll (V ⟪main_v5⟫)) (constant S_ .f32 0x45000000#32) := by
  rw [opsE_eq]
  unfold uopsE
  after_results_simp <;> rfl

/-- The divergence term per token. -/
theorem E_v14 (V : Valuation τ sig (Elt F)) :
    after opsE V (no_index ⟪main_v14⟫) = Terms.klT (V ⟪main_v5⟫) (V ⟪main_v9⟫) := by
  rw [opsE_eq]
  unfold uopsE
  after_results_simp <;> rfl

/-- The mask as floats. -/
theorem E_v24 (V : Valuation τ sig (Elt F)) :
    after opsE V (no_index ⟪main_v24⟫) = Terms.maskF (V ⟪main_arg3⟫) := by
  rw [opsE_eq]
  unfold uopsE
  after_results_simp <;> rfl

/-- The standard deviation of the policy's per-token log-probability. -/
theorem F_v32 (V : Valuation τ sig (Elt F)) :
    after opsF V (no_index ⟪main_v32⟫) = Terms.stdT (V ⟪main_v5⟫) := by
  rw [opsF_eq]
  unfold uopsF
  after_results_simp <;> rfl

/-- The mean of the policy's log-softmax array. -/
theorem G_v34 (V : Valuation τ sig (Elt F)) :
    after opsG V (no_index ⟪main_v34⟫) = Host.divf (Host.reduceAdd (V ⟪main_v2⟫) (constant S_ .f32 0x00000000#32) reducesTo_S4x512x32000_S_d0_1_2 h_S_)
        (constant S_ .f32 0x4C7A0000#32) := by
  rw [opsG_eq]
  unfold uopsG
  after_results_simp <;> rfl

/-- The divergence metric, of the divergence term and the mask. -/
theorem G_v38 (V : Valuation τ sig (Elt F)) :
    after opsG V (no_index ⟪main_v38⟫) = Host.divf (Terms.sumAll (mulf (V ⟪main_v14⟫) (V ⟪main_v24⟫))) (Terms.sumAll (V ⟪main_v24⟫)) := by
  rw [opsG_eq]
  unfold uopsG
  after_results_simp <;> rfl

/-! ## The whole line -/

/-- The loss. -/
theorem res29_eq (V : Valuation τ sig (Elt F)) :
    after ops V (no_index ⟪main_v29⟫) = Terms.res29 (V ⟪main_arg0⟫) (V ⟪main_arg1⟫) (V ⟪main_arg2⟫) (V ⟪main_arg3⟫) (V ⟪main_arg4⟫) (V ⟪main_arg5⟫) (V ⟪main_arg6⟫) := by
  simp only [ops, after_app]
  simp (disch := decide) only [A_keep, B_keep, C_keep, D_keep, E_keep, F_keep, G_keep, A_v2, A_v1, B_v5, C_v6, D_v9, E_v29, E_v31, E_v14, E_v24, F_v32, G_v34, G_v38]
  unfold Terms.res29 Terms.tokLogp
  rfl

/-- The mean per-token log-probability. -/
theorem res31_eq (V : Valuation τ sig (Elt F)) :
    after ops V (no_index ⟪main_v31⟫) = Terms.res31 (V ⟪main_arg0⟫) (V ⟪main_arg1⟫) (V ⟪main_arg2⟫) := by
  simp only [ops, after_app]
  simp (disch := decide) only [A_keep, B_keep, C_keep, D_keep, E_keep, F_keep, G_keep, A_v2, A_v1, B_v5, C_v6, D_v9, E_v29, E_v31, E_v14, E_v24, F_v32, G_v34, G_v38]
  unfold Terms.res31 Terms.tokLogp
  rfl

/-- The standard deviation of the per-token log-probability. -/
theorem res32_eq (V : Valuation τ sig (Elt F)) :
    after ops V (no_index ⟪main_v32⟫) = Terms.res32 (V ⟪main_arg0⟫) (V ⟪main_arg1⟫) (V ⟪main_arg2⟫) := by
  simp only [ops, after_app]
  simp (disch := decide) only [A_keep, B_keep, C_keep, D_keep, E_keep, F_keep, G_keep, A_v2, A_v1, B_v5, C_v6, D_v9, E_v29, E_v31, E_v14, E_v24, F_v32, G_v34, G_v38]
  unfold Terms.res32 Terms.tokLogp
  rfl

/-- The mean of the log-softmax array. -/
theorem res34_eq (V : Valuation τ sig (Elt F)) :
    after ops V (no_index ⟪main_v34⟫) = Terms.res34 (V ⟪main_arg0⟫) (V ⟪main_arg1⟫) := by
  simp only [ops, after_app]
  simp (disch := decide) only [A_keep, B_keep, C_keep, D_keep, E_keep, F_keep, G_keep, A_v2, A_v1, B_v5, C_v6, D_v9, E_v29, E_v31, E_v14, E_v24, F_v32, G_v34, G_v38]
  unfold Terms.res34
  rfl

/-- The divergence metric. -/
theorem res38_eq (V : Valuation τ sig (Elt F)) :
    after ops V (no_index ⟪main_v38⟫) = Terms.res38 (V ⟪main_arg0⟫) (V ⟪main_arg1⟫) (V ⟪main_arg2⟫) (V ⟪main_arg3⟫) (V ⟪main_arg5⟫) (V ⟪main_arg6⟫) := by
  simp only [ops, after_app]
  simp (disch := decide) only [A_keep, B_keep, C_keep, D_keep, E_keep, F_keep, G_keep, A_v2, A_v1, B_v5, C_v6, D_v9, E_v29, E_v31, E_v14, E_v24, F_v32, G_v34, G_v38]
  unfold Terms.res38 Terms.tokLogp
  rfl

theorem arg0_eq (V : Valuation τ sig (Elt F)) : after ops V (no_index ⟪main_arg0⟫) = V ⟪main_arg0⟫ := by
  simp only [ops, after_app]
  simp (disch := decide) only [A_keep, B_keep, C_keep, D_keep, E_keep, F_keep, G_keep]

theorem arg1_eq (V : Valuation τ sig (Elt F)) : after ops V (no_index ⟪main_arg1⟫) = V ⟪main_arg1⟫ := by
  simp only [ops, after_app]
  simp (disch := decide) only [A_keep, B_keep, C_keep, D_keep, E_keep, F_keep, G_keep]

theorem arg2_eq (V : Valuation τ sig (Elt F)) : after ops V (no_index ⟪main_arg2⟫) = V ⟪main_arg2⟫ := by
  simp only [ops, after_app]
  simp (disch := decide) only [A_keep, B_keep, C_keep, D_keep, E_keep, F_keep, G_keep]

theorem arg3_eq (V : Valuation τ sig (Elt F)) : after ops V (no_index ⟪main_arg3⟫) = V ⟪main_arg3⟫ := by
  simp only [ops, after_app]
  simp (disch := decide) only [A_keep, B_keep, C_keep, D_keep, E_keep, F_keep, G_keep]

theorem arg4_eq (V : Valuation τ sig (Elt F)) : after ops V (no_index ⟪main_arg4⟫) = V ⟪main_arg4⟫ := by
  simp only [ops, after_app]
  simp (disch := decide) only [A_keep, B_keep, C_keep, D_keep, E_keep, F_keep, G_keep]

theorem arg5_eq (V : Valuation τ sig (Elt F)) : after ops V (no_index ⟪main_arg5⟫) = V ⟪main_arg5⟫ := by
  simp only [ops, after_app]
  simp (disch := decide) only [A_keep, B_keep, C_keep, D_keep, E_keep, F_keep, G_keep]

theorem arg6_eq (V : Valuation τ sig (Elt F)) : after ops V (no_index ⟪main_arg6⟫) = V ⟪main_arg6⟫ := by
  simp only [ops, after_app]
  simp (disch := decide) only [A_keep, B_keep, C_keep, D_keep, E_keep, F_keep, G_keep]

/-- On every device, for any float values, from any memory with zero counters: every weakly fair execution of
    @main terminates with each of the five results at its term of the arguments' launch contents and the seven
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v29) = Terms.res29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
       ∧ r.2.mem ((c.tc : Thread nD τ).loc main_v31) = Terms.res31 (m ((c.tc : Thread nD τ).loc main_arg0)) (m ((c.tc : Thread nD τ).loc main_arg1)) (m ((c.tc : Thread nD τ).loc main_arg2))
       ∧ r.2.mem ((c.tc : Thread nD τ).loc main_v32) = Terms.res32 (m ((c.tc : Thread nD τ).loc main_arg0)) (m ((c.tc : Thread nD τ).loc main_arg1)) (m ((c.tc : Thread nD τ).loc main_arg2))
       ∧ r.2.mem ((c.tc : Thread nD τ).loc main_v34) = Terms.res34 (m ((c.tc : Thread nD τ).loc main_arg0)) (m ((c.tc : Thread nD τ).loc main_arg1))
       ∧ r.2.mem ((c.tc : Thread nD τ).loc main_v38) = Terms.res38 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))
      ∧ (r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4)
       ∧ r.2.mem ((c.tc : Thread nD τ).loc main_arg5) = m ((c.tc : Thread nD τ).loc main_arg5)
       ∧ r.2.mem ((c.tc : Thread nD τ).loc main_arg6) = m ((c.tc : Thread nD τ).loc main_arg6))) :=
  (θ_run defs _ _).mono (fun _ h c =>
      ⟨⟨(h c main_v29).trans (res29_eq _), (h c main_v31).trans (res31_eq _), (h c main_v32).trans (res32_eq _),
        (h c main_v34).trans (res34_eq _), (h c main_v38).trans (res38_eq _)⟩,
       ⟨(h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩⟩)
    (run_seq scopedRefs_eq scopedSems_eq defs main (fun _ => ops) main_eq (fun _ => ops_sub) m ρ (fun _ => ops_fresh))

/-- The run, read for the arguments alone. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => (h c).2) (run m ρ)

end Cert.ReferenceIdeal.HandRun

end
-- ==== Proof.KI.Tail.lean ====
/-
  The host side of the kernel program read as pure terms.

  Before the two kernel launches the program reshapes the two hidden-state arrays [4,512,2048] to [2048,2048] and
  narrows them to bf16, and clips the token ids to [0, 31999] and reshapes them to a column [2048,1]. After the
  launches it reads the two [2048,4] statistics arrays (columns: running maximum, rescaled sum of exponentials,
  target logit, sum of logits), forms per token the log-probability  t - (m + log l)  and the row mean
  s / 32000 - (m + log l), and from these, the mask and the advantages the five scalar results: the loss, the mean
  and the standard deviation of the token log-probability, the mean of the row means, and the divergence metric.

  Every stage is a named term, for any float values; at the ideal values the stages are then read at an index.
-/
import proofs.«420414_j89421219103752_3_alg».proof.Proof.Gen.KernelIdeal.Launch
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.HandTail

open Cert.KernelIdeal Cert.KernelIdeal.Gen
open Idealize.ShloMosaic Idealize.ShloMosaic.TcCoe
open Idealize.ShloMosaic.ValueIdx
open Idealize.SL.Sem

variable {F : FTy → Type} [FloatOps F]

/-! ## The stages, for any float values -/

/-- The hidden states as the kernel takes them: [4,512,2048] laid out as [2048,2048], narrowed to bf16. -/
def rowsK (x : FVec F S4x512x2048 .f32) : FVec F S2048x2048 .bf16 :=
  truncf .bf16 (shapeCast S2048x2048 x shapeCasts_S4x512x2048_S2048x2048) bitsLt_bf16_f32

/-- The token ids clipped to [0, 31999]: the signed maximum with 0, then the signed minimum with 31999. -/
def clipK (ids : IVec S4x512 32) : IVec S4x512 32 :=
  minsi (broadcastInDim S4x512 ![] bcast_S_S4x512 (id (constantI S_ 32 31999#32)))
    (maxsi (broadcastInDim S4x512 ![] bcast_S_S4x512 (id (constantI S_ 32 0#32))) ids)

/-- The clipped ids as a column [2048,1]. -/
def idsK (ids : IVec S4x512 32) : IVec S2048x1 32 :=
  shapeCast S2048x1 (clipK ids) shapeCasts_S4x512_S2048x1

/-- The log-partition column of a statistics array: running maximum plus the logarithm of the rescaled sum. -/
def logZK (stats : FVec F S2048x4 .f32) : FVec F S2048x1 .f32 :=
  addf (extractStridedSlice S2048x1 ![0, 0] stats slices_S2048x4_S2048x1_0_0)
    (Host.log (extractStridedSlice S2048x1 ![0, 1] stats slices_S2048x4_S2048x1_0_1))

/-- The per-token log-probability: target logit minus log-partition, laid out as [4,512]. -/
def tokLogpK (stats : FVec F S2048x4 .f32) : FVec F S4x512 .f32 :=
  shapeCast S4x512
    (subf (extractStridedSlice S2048x1 ![0, 2] stats slices_S2048x4_S2048x1_0_2) (logZK stats))
    shapeCasts_S2048x1_S4x512

/-- The mean over the vocabulary of the log-softmax row: the logit sum over 32000 minus the log-partition. -/
def rowMeanK (stats : FVec F S2048x4 .f32) : FVec F S4x512 .f32 :=
  shapeCast S4x512
    (subf
      (Host.divf (extractStridedSlice S2048x1 ![0, 3] stats slices_S2048x4_S2048x1_0_3)
        (broadcastInDim S2048x1 ![] bcast_S_S2048x1 (constant S_ .f32 0x46FA0000#32)))
      (logZK stats))
    shapeCasts_S2048x1_S4x512

/-- The mask as floats. -/
def maskF (m : IVec S4x512 32) : FVec F S4x512 .f32 := sitofp .f32 m

/-- The divergence term per token: exp d - d - 1 at d the reference log-probability minus the policy's. -/
def klT (lpP lpR : FVec F S4x512 .f32) : FVec F S4x512 .f32 :=
  subf (subf (Host.exp (subf lpR lpP)) (subf lpR lpP))
    (broadcastInDim S4x512 ![] bcast_S_S4x512 (constant S_ .f32 0x3F800000#32))

/-- The negated objective per token: the row's advantage minus a tenth of the divergence term; negated. -/
def negObjK (lpP lpR : FVec F S4x512 .f32) (adv : FVec F S4 .f32) : FVec F S4x512 .f32 :=
  Host.negf
    (subf
      (broadcastInDim S4x512 ![0, 1] bcast_S4x1_S4x512_0_1 (broadcastInDim S4x1 ![0] bcast_S4_S4x1_0 adv))
      (mulf (broadcastInDim S4x512 ![] bcast_S_S4x512 (constant S_ .f32 0x3DCCCCCD#32)) (klT lpP lpR)))

/-- The sum over all token positions, from zero. -/
def sumAll (a : FVec F S4x512 .f32) : FVec F S_ .f32 :=
  Host.reduceAdd a (constant S_ .f32 0x00000000#32) reducesTo_S4x512_S_d0_1 h_S_

/-- The deviations from the mean: each entry minus the sum of all entries divided by 2048. -/
def stdDev (a : FVec F S4x512 .f32) : FVec F S4x512 .f32 :=
  subf a
    (broadcastInDim S4x512 ![0, 1] bcast_S1x1_S4x512_0_1
      (Host.divf
        (broadcastInDim S1x1 ![] bcast_S_S1x1
          (Host.reduceAdd a (constant S_ .f32 0x00000000#32) reducesTo_S4x512_S_d0_1 h_S_))
        (broadcastInDim S1x1 ![] bcast_S_S1x1 (constant S_ .f32 0x45000000#32))))

/-- The divisor of the variance: 2048 minus the degrees-of-freedom correction, the integer 1 converted. -/
def stdDenom : FVec F S_ .f32 :=
  subf (constant S_ .f32 0x45000000#32) (sitofp .f32 (constantI S_ 32 1#32))

/-- The variance: the sum of squared deviations over the divisor where the divisor is positive, the
    not-a-number fill otherwise. -/
def varT (a : FVec F S4x512 .f32) : FVec F S_ .f32 :=
  select (cmpf .ogt (stdDenom (F := F)) (constant S_ .f32 0x00000000#32))
    (Host.divf
      (Host.reduceAdd (mulf (stdDev a) (stdDev a)) (constant S_ .f32 0x00000000#32) reducesTo_S4x512_S_d0_1 h_S_)
      stdDenom)
    (id (constant S_ .f32 0x7FC00000#32))

/-- The standard deviation: the square root of the variance. -/
def stdT (a : FVec F S4x512 .f32) : FVec F S_ .f32 := Host.sqrt (varT a)

/-- The loss: the masked sum of the negated objective over the mask's sum plus 1e-8. -/
def lossK (lpP lpR : FVec F S4x512 .f32) (mask : IVec S4x512 32) (adv : FVec F S4 .f32) : FVec F S_ .f32 :=
  Host.divf (sumAll (mulf (negObjK lpP lpR adv) (maskF mask)))
    (addf (sumAll (maskF mask)) (constant S_ .f32 0x322BCC77#32))

/-- The mean over all token positions: the sum over 2048. -/
def meanK (a : FVec F S4x512 .f32) : FVec F S_ .f32 :=
  Host.divf (sumAll a) (constant S_ .f32 0x45000000#32)

/-- The divergence metric: the masked sum of the divergence term over the mask's sum. -/
def klMetricK (lpP lpR : FVec F S4x512 .f32) (mask : IVec S4x512 32) : FVec F S_ .f32 :=
  Host.divf (sumAll (mulf (klT lpP lpR) (maskF mask))) (sumAll (maskF mask))

/-! ## The host stretches over any buffer contents -/

/-- The buffer contents after the operations before the first launch. -/
abbrev afterPrelude (U : Valuation τ sig (Elt F)) : Valuation τ sig (Elt F) :=
  StableHlo.after hostOps0_2 (StableHlo.after hostOps0_1 (StableHlo.after hostOps0 U))

/-- The buffer contents after the operations after the second launch. -/
abbrev afterTail (U : Valuation τ sig (Elt F)) : Valuation τ sig (Elt F) :=
  StableHlo.after hostOps2_2 (StableHlo.after hostOps2_1 (StableHlo.after hostOps2 U))

variable (U : Valuation τ sig (Elt F))

/-! ## The prelude -/

/-- The first launch's hidden states are the first hidden-state argument, laid out in rows and narrowed. -/
theorem pre_x : afterPrelude U (Proc.devRef .tc main_v1) = rowsK (U (Proc.devRef .tc main_arg1)) := by
  show StableHlo.after hostOps0_2 (StableHlo.after hostOps0_1 (StableHlo.after hostOps0 U)) (Proc.devRef .tc main_v1) = _
  dsimp only [hostOps0, hostOps0_1, hostOps0_2]
  after_results_simp
  rfl

/-- The second launch's hidden states likewise, from the second hidden-state argument. -/
theorem pre_rx : afterPrelude U (Proc.devRef .tc main_v3) = rowsK (U (Proc.devRef .tc main_arg5)) := by
  show StableHlo.after hostOps0_2 (StableHlo.after hostOps0_1 (StableHlo.after hostOps0 U)) (Proc.devRef .tc main_v3) = _
  dsimp only [hostOps0, hostOps0_1, hostOps0_2]
  after_results_simp
  rfl

/-- Both launches' id column is the clipped token ids. -/
theorem pre_ids : afterPrelude U (Proc.devRef .tc main_v5) = idsK (U (Proc.devRef .tc main_arg2)) := by
  show StableHlo.after hostOps0_2 (StableHlo.after hostOps0_1 (StableHlo.after hostOps0 U)) (Proc.devRef .tc main_v5) = _
  dsimp only [hostOps0, hostOps0_1, hostOps0_2]
  after_results_simp
  rfl

/-- The operations before the launches write none of the program's arguments. -/
theorem pre_arg0 : afterPrelude U (Proc.devRef .tc main_arg0) = U (Proc.devRef .tc main_arg0) := by
  show StableHlo.after hostOps0_2 (StableHlo.after hostOps0_1 (StableHlo.after hostOps0 U)) (Proc.devRef .tc main_arg0) = _
  dsimp only [hostOps0, hostOps0_1, hostOps0_2]
  after_results_simp
theorem pre_arg1 : afterPrelude U (Proc.devRef .tc main_arg1) = U (Proc.devRef .tc main_arg1) := by
  show StableHlo.after hostOps0_2 (StableHlo.after hostOps0_1 (StableHlo.after hostOps0 U)) (Proc.devRef .tc main_arg1) = _
  dsimp only [hostOps0, hostOps0_1, hostOps0_2]
  after_results_simp
theorem pre_arg2 : afterPrelude U (Proc.devRef .tc main_arg2) = U (Proc.devRef .tc main_arg2) := by
  show StableHlo.after hostOps0_2 (StableHlo.after hostOps0_1 (StableHlo.after hostOps0 U)) (Proc.devRef .tc main_arg2) = _
  dsimp only [hostOps0, hostOps0_1, hostOps0_2]
  after_results_simp
theorem pre_arg3 : afterPrelude U (Proc.devRef .tc main_arg3) = U (Proc.devRef .tc main_arg3) := by
  show StableHlo.after hostOps0_2 (StableHlo.after hostOps0_1 (StableHlo.after hostOps0 U)) (Proc.devRef .tc main_arg3) = _
  dsimp only [hostOps0, hostOps0_1, hostOps0_2]
  after_results_simp
theorem pre_arg4 : afterPrelude U (Proc.devRef .tc main_arg4) = U (Proc.devRef .tc main_arg4) := by
  show StableHlo.after hostOps0_2 (StableHlo.after hostOps0_1 (StableHlo.after hostOps0 U)) (Proc.devRef .tc main_arg4) = _
  dsimp only [hostOps0, hostOps0_1, hostOps0_2]
  after_results_simp
theorem pre_arg5 : afterPrelude U (Proc.devRef .tc main_arg5) = U (Proc.devRef .tc main_arg5) := by
  show StableHlo.after hostOps0_2 (StableHlo.after hostOps0_1 (StableHlo.after hostOps0 U)) (Proc.devRef .tc main_arg5) = _
  dsimp only [hostOps0, hostOps0_1, hostOps0_2]
  after_results_simp
theorem pre_arg6 : afterPrelude U (Proc.devRef .tc main_arg6) = U (Proc.devRef .tc main_arg6) := by
  show StableHlo.after hostOps0_2 (StableHlo.after hostOps0_1 (StableHlo.after hostOps0 U)) (Proc.devRef .tc main_arg6) = _
  dsimp only [hostOps0, hostOps0_1, hostOps0_2]
  after_results_simp

/-! ## The tail -/

/-- The loss. -/
theorem tail_v44 : afterTail U (Proc.devRef .tc main_v44)
    = lossK (tokLogpK (U (Proc.devRef .tc main_v6))) (tokLogpK (U (Proc.devRef .tc main_v7)))
        (U (Proc.devRef .tc main_arg3)) (U (Proc.devRef .tc main_arg4)) := by
  show StableHlo.after hostOps2_2 (StableHlo.after hostOps2_1 (StableHlo.after hostOps2 U)) (Proc.devRef .tc main_v44) = _
  dsimp only [hostOps2, hostOps2_1, hostOps2_2]
  after_results_simp
  rfl

/-- The mean token log-probability. -/
theorem tail_v46 : afterTail U (Proc.devRef .tc main_v46) = meanK (tokLogpK (U (Proc.devRef .tc main_v6))) := by
  show StableHlo.after hostOps2_2 (StableHlo.after hostOps2_1 (StableHlo.after hostOps2 U)) (Proc.devRef .tc main_v46) = _
  dsimp only [hostOps2, hostOps2_1, hostOps2_2]
  after_results_simp
  rfl

/-- The standard deviation of the token log-probability. -/
theorem tail_v47 : afterTail U (Proc.devRef .tc main_v47) = stdT (tokLogpK (U (Proc.devRef .tc main_v6))) := by
  show StableHlo.after hostOps2_2 (StableHlo.after hostOps2_1 (StableHlo.after hostOps2 U)) (Proc.devRef .tc main_v47) = _
  dsimp only [hostOps2, hostOps2_1, hostOps2_2]
  after_results_simp
  rfl

/-- The mean of the row means. -/
theorem tail_v49 : afterTail U (Proc.devRef .tc main_v49) = meanK (rowMeanK (U (Proc.devRef .tc main_v6))) := by
  show StableHlo.after hostOps2_2 (StableHlo.after hostOps2_1 (StableHlo.after hostOps2 U)) (Proc.devRef .tc main_v49) = _
  dsimp only [hostOps2, hostOps2_1, hostOps2_2]
  after_results_simp
  rfl

/-- The divergence metric. -/
theorem tail_v53 : afterTail U (Proc.devRef .tc main_v53)
    = klMetricK (tokLogpK (U (Proc.devRef .tc main_v6))) (tokLogpK (U (Proc.devRef .tc main_v7)))
        (U (Proc.devRef .tc main_arg3)) := by
  show StableHlo.after hostOps2_2 (StableHlo.after hostOps2_1 (StableHlo.after hostOps2 U)) (Proc.devRef .tc main_v53) = _
  dsimp only [hostOps2, hostOps2_1, hostOps2_2]
  after_results_simp
  rfl

end Cert.KernelIdeal.HandTail

end
-- ==== Proof.IdxSums.lean ====
/-
  Sums over the index sets of the [4, 512] and [4, 512, 32000] arrays, re-indexed by the flattened token
  position r = 512 b + t in Fin 2048 (the row of the kernel's [2048, ·] arrays) and the vocabulary entry.
-/
import Idealize.ShloMosaic.Lib.ValueIdx
import Mathlib.Algebra.BigOperators.Fin
import Mathlib.Algebra.BigOperators.Group.Finset.Sigma

namespace Cert.IdxSums

open Idealize.ShloMosaic Idealize.ShloMosaic.ValueIdx

/-- The batch coordinate of a flattened token position. -/
def rowB (r : Fin 2048) : Fin 4 := ⟨r.val / 512, by have := r.isLt; omega⟩
/-- The sequence coordinate of a flattened token position. -/
def rowT (r : Fin 2048) : Fin 512 := ⟨r.val % 512, Nat.mod_lt _ (by norm_num)⟩
/-- The flattened token position of batch b, sequence position t. -/
def rowOf (b : Fin 4) (t : Fin 512) : Fin 2048 := ⟨512 * b.val + t.val, by have := b.isLt; have := t.isLt; omega⟩

theorem rowB_rowOf (b : Fin 4) (t : Fin 512) : rowB (rowOf b t) = b := by
  apply Fin.ext; have := t.isLt; simp only [rowB, rowOf]; omega
theorem rowT_rowOf (b : Fin 4) (t : Fin 512) : rowT (rowOf b t) = t := by
  apply Fin.ext; have := t.isLt; simp only [rowT, rowOf]; omega
theorem rowOf_rowB_rowT (r : Fin 2048) : rowOf (rowB r) (rowT r) = r := by
  apply Fin.ext; simp only [rowB, rowT, rowOf]; omega

/-- Token positions are the pairs (batch, sequence position). -/
def rowEquiv : Fin 4 × Fin 512 ≃ Fin 2048 where
  toFun p := rowOf p.1 p.2
  invFun r := (rowB r, rowT r)
  left_inv := fun ⟨b, t⟩ => by simp only [rowB_rowOf, rowT_rowOf]
  right_inv := fun r => rowOf_rowB_rowT r

/-- A sum over the [4, 512] index set is the sum over the flattened token positions. -/
theorem sum_rows {M : Type*} [AddCommMonoid M] (g : (⟨2, ![4, 512]⟩ : Shape).Idx → M) :
    ∑ i, g i = ∑ r : Fin 2048, g (ix2 (rowB r) (rowT r)) := by
  rw [sum_idx2, ← Fintype.sum_prod_type' (fun (b : Fin 4) (t : Fin 512) => g (ix2 b t))]
  exact (Equiv.sum_comp rowEquiv.symm (fun p : Fin 4 × Fin 512 => g (ix2 p.1 p.2))).symm

/-- A rank-3 index set is the product of its three coordinate ranges. -/
def idxEquiv3 {n0 n1 n2 : Nat} : (⟨3, ![n0, n1, n2]⟩ : Shape).Idx ≃ (Fin n0 × Fin n1) × Fin n2 where
  toFun i := ((i 0, i 1), i 2)
  invFun p := ix3 p.1.1 p.1.2 p.2
  left_inv i := (eq_ix3 i).symm
  right_inv _ := rfl

/-- A sum over the [4, 512, 32000] index set is the double sum over token positions and vocabulary entries. -/
theorem sum_rows_vocab {M : Type*} [AddCommMonoid M] (g : (⟨3, ![4, 512, 32000]⟩ : Shape).Idx → M) :
    ∑ i, g i = ∑ r : Fin 2048, ∑ v : Fin 32000, g (ix3 (rowB r) (rowT r) v) := by
  rw [← Equiv.sum_comp (idxEquiv3 (n0 := 4) (n1 := 512) (n2 := 32000)).symm g, Fintype.sum_prod_type]
  exact (Equiv.sum_comp rowEquiv.symm (fun p : Fin 4 × Fin 512 => ∑ v : Fin 32000, g (ix3 p.1 p.2 v))).symm

end Cert.IdxSums
-- ==== Proof.KI.TailIdx.lean ====
/-
  The host-side stages of the kernel program read at an index, at the ideal values.

  A reshape between [4,512,·] and [2048,·] is row-major: row r = 512 b + t is entry (b, t). Narrowing f32 to bf16
  is the identity on extended reals. The clip of a token id that already lies in [0, 31999] is the id. A column
  slice of a statistics array reads that column; the per-token log-probability is the target logit minus the
  log-partition (running maximum plus logarithm of the rescaled sum), the row mean the logit sum over 32000 minus
  the same log-partition. A sum over all token positions into a scalar is the initial word's value plus the total.
-/
import proofs.«420414_j89421219103752_3_alg».proof.Proof.KI.Tail
import proofs.«420414_j89421219103752_3_alg».proof.Proof.IdxSums

set_option maxRecDepth 16384

noncomputable section

namespace Cert.KernelIdeal.HandTail

open Cert.KernelIdeal Cert.KernelIdeal.Gen
open Idealize.ShloMosaic Idealize.ShloMosaic.TcCoe
open Idealize.ShloMosaic.ValueIdx
open Idealize.SL.Sem

/-! ## The stages read at an index, at the ideal values -/

section AtIdeal

open Cert.IdxSums (rowB rowT rowOf)

/-- The kernel's row r of hidden states is the argument's entry (r / 512, r % 512): narrowing is the identity. -/
theorem rowsK_apply (x : FVec Ideal S4x512x2048 .f32) (r : Fin 2048) (h : Fin 2048) :
    rowsK (F := Ideal) x (ix2 r h) = x (ix3 (rowB r) (rowT r) h) := by
  show shapeCast S2048x2048 x shapeCasts_S4x512x2048_S2048x2048 (ix2 r h) = _
  refine shapeCast_apply x _ (ix2 r h) (ix3 (rowB r) (rowT r) h) ?_
  rw [Shape.rowMajor_val_three, Shape.rowMajor_val_two]
  show (r.val / 512 * 512 + r.val % 512) * 2048 + h.val = r.val * 2048 + h.val
  omega

/-- The clip at an entry: the signed minimum with 31999 of the signed maximum with 0. -/
theorem clipK_apply (ids : IVec S4x512 32) (j : S4x512.Idx) :
    clipK ids j = IntOp.minsi 31999#32 (IntOp.maxsi 0#32 (ids j)) := by
  unfold clipK
  show IntOp.minsi (broadcastInDim S4x512 ![] bcast_S_S4x512 (id (constantI S_ 32 31999#32)) j)
      (IntOp.maxsi (broadcastInDim S4x512 ![] bcast_S_S4x512 (id (constantI S_ 32 0#32)) j) (ids j)) = _
  rw [broadcastInDim_scalar_apply, broadcastInDim_scalar_apply]
  rfl

/-- On a word that encodes a natural below 32000 the clip is the identity. -/
theorem clip_of_range (k : Fin 32000) :
    IntOp.minsi 31999#32 (IntOp.maxsi 0#32 (BitVec.ofNat 32 k.val)) = BitVec.ofNat 32 k.val := by
  have hk := k.isLt
  have hn : (BitVec.ofNat 32 k.val).toNat = k.val := by
    rw [BitVec.toNat_ofNat]; exact Nat.mod_eq_of_lt (by omega)
  have hi : (BitVec.ofNat 32 k.val).toInt = (k.val : Int) := by
    rw [BitVec.toInt_eq_toNat_of_lt (by rw [hn]; omega), hn]
  have h0 : (0#32 : BitVec 32).toInt = 0 := by decide
  have h1 : (31999#32 : BitVec 32).toInt = 31999 := by decide
  have hmax : IntOp.maxsi 0#32 (BitVec.ofNat 32 k.val) = BitVec.ofNat 32 k.val := by
    unfold IntOp.maxsi
    refine if_neg ?_
    unfold BitVec.slt
    rw [hi, h0]
    simp only [decide_eq_true_eq]
    omega
  rw [hmax]
  unfold IntOp.minsi
  refine if_neg ?_
  unfold BitVec.slt
  rw [hi, h1]
  simp only [decide_eq_true_eq]
  omega

/-- The id column at row r, for an id in range: the id itself. -/
theorem idsK_apply_of_range (ids : IVec S4x512 32) (r : Fin 2048) (k : Fin 32000)
    (hk : ids (ix2 (rowB r) (rowT r)) = BitVec.ofNat 32 k.val) :
    idsK ids (ix2 r 0) = BitVec.ofNat 32 k.val := by
  unfold idsK
  refine (shapeCast_apply (clipK ids) shapeCasts_S4x512_S2048x1 (ix2 r (0 : Fin 1)) (ix2 (rowB r) (rowT r)) ?_).trans ?_
  · rw [Shape.rowMajor_val_two, Shape.rowMajor_val_two]
    show r.val / 512 * 512 + r.val % 512 = r.val * 1 + 0
    omega
  · rw [clipK_apply, hk, clip_of_range]

/-- The log-partition column at row r. -/
theorem logZK_apply (stats : FVec Ideal S2048x4 .f32) (r : Fin 2048) :
    logZK (F := Ideal) stats (ix2 r (0 : Fin 1)) = stats (ix2 r 0) + Ideal.log (stats (ix2 r 1)) := by
  have e0 := slice2_axis1_apply 0 stats slices_S2048x4_S2048x1_0_0 r (0 : Fin 1) (0 : Fin 4) rfl
  have e1 := slice2_axis1_apply 1 stats slices_S2048x4_S2048x1_0_1 r (0 : Fin 1) (1 : Fin 4) rfl
  show extractStridedSlice S2048x1 ![0, 0] stats slices_S2048x4_S2048x1_0_0 (ix2 r (0 : Fin 1))
      + Ideal.log (extractStridedSlice S2048x1 ![0, 1] stats slices_S2048x4_S2048x1_0_1 (ix2 r (0 : Fin 1))) = _
  rw [e0, e1]

/-- The token log-probability at (b, t): target logit minus log-partition of row 512 b + t. -/
theorem tokLogpK_apply (stats : FVec Ideal S2048x4 .f32) (b : Fin 4) (t : Fin 512) :
    tokLogpK (F := Ideal) stats (ix2 b t)
      = stats (ix2 (rowOf b t) 2) - (stats (ix2 (rowOf b t) 0) + Ideal.log (stats (ix2 (rowOf b t) 1))) := by
  unfold tokLogpK
  refine (shapeCast_apply _ shapeCasts_S2048x1_S4x512 (ix2 b t) (ix2 (rowOf b t) (0 : Fin 1)) ?_).trans ?_
  · rw [Shape.rowMajor_val_two, Shape.rowMajor_val_two]
    show (512 * b.val + t.val) * 1 + 0 = b.val * 512 + t.val
    omega
  · have e2 := slice2_axis1_apply 2 stats slices_S2048x4_S2048x1_0_2 (rowOf b t) (0 : Fin 1) (2 : Fin 4) rfl
    show extractStridedSlice S2048x1 ![0, 2] stats slices_S2048x4_S2048x1_0_2 (ix2 (rowOf b t) (0 : Fin 1))
        - logZK (F := Ideal) stats (ix2 (rowOf b t) (0 : Fin 1)) = _
    rw [e2, logZK_apply]

/-- The row mean at (b, t): logit sum over 32000 minus log-partition of row 512 b + t. -/
theorem rowMeanK_apply (stats : FVec Ideal S2048x4 .f32) (b : Fin 4) (t : Fin 512) :
    rowMeanK (F := Ideal) stats (ix2 b t)
      = Ideal.div (stats (ix2 (rowOf b t) 3)) (Ideal.ofBits .f32 0x46FA0000#32)
        - (stats (ix2 (rowOf b t) 0) + Ideal.log (stats (ix2 (rowOf b t) 1))) := by
  unfold rowMeanK
  refine (shapeCast_apply _ shapeCasts_S2048x1_S4x512 (ix2 b t) (ix2 (rowOf b t) (0 : Fin 1)) ?_).trans ?_
  · rw [Shape.rowMajor_val_two, Shape.rowMajor_val_two]
    show (512 * b.val + t.val) * 1 + 0 = b.val * 512 + t.val
    omega
  · have e3 := slice2_axis1_apply 3 stats slices_S2048x4_S2048x1_0_3 (rowOf b t) (0 : Fin 1) (3 : Fin 4) rfl
    show Ideal.div (extractStridedSlice S2048x1 ![0, 3] stats slices_S2048x4_S2048x1_0_3 (ix2 (rowOf b t) (0 : Fin 1)))
          (broadcastInDim S2048x1 ![] bcast_S_S2048x1 (constant (F := Ideal) S_ .f32 0x46FA0000#32) (ix2 (rowOf b t) (0 : Fin 1)))
        - logZK (F := Ideal) stats (ix2 (rowOf b t) (0 : Fin 1)) = _
    rw [e3, logZK_apply, broadcastInDim_scalar_apply]
    rfl

/-- The sum over all token positions at the scalar's one index: zero's word plus the total. -/
theorem sumAll_apply (a : FVec Ideal S4x512 .f32) :
    sumAll (F := Ideal) a ix0 = Ideal.ofBits .f32 0x00000000#32 + ∑ i : S4x512.Idx, a i := by
  unfold sumAll
  rw [hostReduceAdd_apply, Ideal.hostReduceAdd_total _ (fun b => b.elim0)]
  rfl

/-- The mean over all token positions at the scalar's one index. -/
theorem meanK_apply (a : FVec Ideal S4x512 .f32) :
    meanK (F := Ideal) a ix0
      = Ideal.div (Ideal.ofBits .f32 0x00000000#32 + ∑ i : S4x512.Idx, a i) (Ideal.ofBits .f32 0x45000000#32) := by
  unfold meanK
  show Ideal.div (sumAll (F := Ideal) a ix0) (constant (F := Ideal) S_ .f32 0x45000000#32 ix0) = _
  rw [sumAll_apply]
  rfl

end AtIdeal

end Cert.KernelIdeal.HandTail

end
-- ==== Proof.Spec.lean ====
/-
  The mathematics the two programs meet at, over the extended reals.

  A row of logits is a function f : Fin 32000 → EReal (one token position against the whole vocabulary).
  The reference takes its maximum, the sum of the shifted exponentials and the log-partition in one pass;
  the kernel walks the vocabulary in 125 blocks of 256 and carries four running statistics: the running
  maximum, the sum of exponentials rescaled to the running maximum, the target logit picked out by a
  one-hot mask, and the plain sum of the logits.
-/
import Idealize.ShloMosaic.PureOps.Ideal

noncomputable section

namespace Cert.Spec

open Idealize.ShloMosaic

/-- The logit of row r against vocabulary entry v: the inner product over the hidden axis. -/
def logit (x : Fin 2048 → Fin 2048 → EReal) (w : Fin 32000 → Fin 2048 → EReal) (r : Fin 2048) (v : Fin 32000) : EReal :=
  ∑ h : Fin 2048, x r h * w v h

/-- The maximum of a row, as a fold of max from -∞. -/
def rowMax (f : Fin 32000 → EReal) : EReal := (Finset.univ : Finset (Fin 32000)).fold max ⊥ f

/-- The sum of the exponentials of a row shifted by its maximum. -/
def sumExp (f : Fin 32000 → EReal) : EReal := ∑ v : Fin 32000, Ideal.exp (f v - rowMax f)

/-- The plain sum of a row. -/
def rowSum (f : Fin 32000 → EReal) : EReal := ∑ v : Fin 32000, f v

/-- The log-partition of a row: maximum plus the logarithm of the shifted sum. -/
def logZ (f : Fin 32000 → EReal) : EReal := rowMax f + Ideal.log (sumExp f)

/-- The log-probability of entry k, formed as the kernel forms it: logit minus log-partition. -/
def logpK (f : Fin 32000 → EReal) (k : Fin 32000) : EReal := f k - logZ f

/-- The log-probability of entry k, formed as the reference forms it: shifted logit minus the logarithm
    of the shifted sum. -/
def logpR (f : Fin 32000 → EReal) (k : Fin 32000) : EReal := (f k - rowMax f) - Ideal.log (sumExp f)

/-! ## The kernel's recurrence over the 125 vocabulary blocks -/

/-- Entry q of vocabulary block j of a row. -/
def blk (f : Fin 32000 → EReal) (j : Fin 125) (q : Fin 256) : EReal :=
  f ⟨256 * j.val + q.val, by have := j.isLt; have := q.isLt; omega⟩

/-- The maximum of one block, as a fold of max from -∞. -/
def blkMax (f : Fin 32000 → EReal) (j : Fin 125) : EReal := (Finset.univ : Finset (Fin 256)).fold max ⊥ (blk f j)

/-- The running maximum after the first n blocks. -/
def runMax (f : Fin 32000 → EReal) : ℕ → EReal
  | 0 => ⊥
  | n + 1 => if h : n < 125 then max (runMax f n) (blkMax f ⟨n, h⟩) else runMax f n

/-- The running sum of exponentials after the first n blocks, rescaled to the running maximum. -/
def runL (f : Fin 32000 → EReal) : ℕ → EReal
  | 0 => 0
  | n + 1 => if h : n < 125 then
      Ideal.exp (runMax f n - runMax f (n + 1)) * runL f n + ∑ q : Fin 256, Ideal.exp (blk f ⟨n, h⟩ q - runMax f (n + 1))
    else runL f n

/-- The target logit picked out by the one-hot mask (column = k), accumulated over the first n blocks. -/
def runT (f : Fin 32000 → EReal) (k : Fin 32000) : ℕ → EReal
  | 0 => 0
  | n + 1 => if h : n < 125 then
      runT f k n + ∑ q : Fin 256, (if 256 * n + q.val = k.val then blk f ⟨n, h⟩ q else 0)
    else runT f k n

/-- The plain sum of the logits over the first n blocks. -/
def runS (f : Fin 32000 → EReal) : ℕ → EReal
  | 0 => 0
  | n + 1 => if h : n < 125 then runS f n + ∑ q : Fin 256, blk f ⟨n, h⟩ q else runS f n

/-- A row all of whose entries are real numbers. -/
def Finite (f : Fin 32000 → EReal) : Prop := ∀ v, ∃ a : ℝ, f v = (a : EReal)

end Cert.Spec

end
-- ==== Proof.FlashMath.lean ====
/-
  The mathematics of the blocked log-softmax recurrence over the extended reals.

  A row of 32000 logits is walked in 125 blocks of 256.  After n blocks the running maximum is the maximum of
  the first 256·n entries, the running sum is their plain sum, the masked sum is the entry with the chosen
  index (once its block has been seen), and — for a row of real entries — the rescaled running sum of
  exponentials is Σ exp (x − running maximum) over those entries: passing from the maximum a to the maximum b
  multiplies every term by exp (a − b).  At n = 125 these are the one-pass quantities of the whole row.
-/
import proofs.«420414_j89421219103752_3_alg».proof.Proof.Spec
import Mathlib.Data.Finset.Fold
import Mathlib.Data.EReal.Operations
import Mathlib.Algebra.BigOperators.Fin
import Mathlib.Analysis.SpecialFunctions.Log.Basic
import Mathlib.Tactic.Ring
import Mathlib.Tactic.NormNum

noncomputable section

namespace Cert.Spec

open Idealize.ShloMosaic

/-! ## Real entries, real sums -/

/-- An extended real strictly between -∞ and +∞ is a real number. -/
theorem real_of_lt {x : EReal} (h1 : ⊥ < x) (h2 : x < ⊤) : ∃ a : ℝ, x = (a : EReal) :=
  ⟨x.toReal, (EReal.coe_toReal h2.ne h1.ne').symm⟩

/-- The inclusion of the reals commutes with finite sums. -/
theorem coe_sum {ι : Type} (s : Finset ι) (g : ι → ℝ) :
    ((∑ i ∈ s, g i : ℝ) : EReal) = ∑ i ∈ s, (g i : EReal) := by
  classical
  refine Finset.induction_on s ?_ ?_
  · rw [Finset.sum_empty, Finset.sum_empty, EReal.coe_zero]
  · intro i s hi ih
    rw [Finset.sum_insert hi, Finset.sum_insert hi, EReal.coe_add, ih]

/-- The rescaling law: e^(a-b) · Σ e^(x-a) = Σ e^(x-b), for real x, a, b. -/
theorem rescale {ι κ : Type} (s : Finset ι) (t : Finset κ) (x : ι → κ → ℝ) (a b : ℝ) :
    Ideal.exp ((a : EReal) - (b : EReal)) * ∑ i ∈ s, ∑ k ∈ t, Ideal.exp ((x i k : EReal) - (a : EReal))
      = ∑ i ∈ s, ∑ k ∈ t, Ideal.exp ((x i k : EReal) - (b : EReal)) := by
  simp only [← EReal.coe_sub, Ideal.exp_coe, ← coe_sum, ← EReal.coe_mul]
  congr 1
  rw [Finset.mul_sum]
  refine Finset.sum_congr rfl fun i _ => ?_
  rw [Finset.mul_sum]
  refine Finset.sum_congr rfl fun k _ => ?_
  rw [← Real.exp_add]
  congr 1
  ring

/-! ## The 125 × 256 grid and the row -/

/-- Position 256·j + q of entry q of block j: a bijection of the grid with the row. -/
def pos : Fin 125 × Fin 256 ≃ Fin 32000 where
  toFun p := ⟨256 * p.1.val + p.2.val, by have := p.1.isLt; have := p.2.isLt; omega⟩
  invFun v := (⟨v.val / 256, by have := v.isLt; omega⟩, ⟨v.val % 256, by omega⟩)
  left_inv := by
    rintro ⟨⟨j, hj⟩, ⟨q, hq⟩⟩
    simp only [Prod.mk.injEq, Fin.mk.injEq]
    constructor <;> omega
  right_inv := by
    rintro ⟨v, hv⟩
    simp only [Fin.mk.injEq]
    omega

theorem blk_eq (f : Fin 32000 → EReal) (j : Fin 125) (q : Fin 256) : blk f j q = f (pos (j, q)) := rfl

/-- A sum over the row is the sum over the blocks of the sums inside each block. -/
theorem sum_blocks (g : Fin 32000 → EReal) :
    ∑ j : Fin 125, ∑ q : Fin 256, g (pos (j, q)) = ∑ v : Fin 32000, g v :=
  (Fintype.sum_prod_type (fun p => g (pos p))).symm.trans (Equiv.sum_comp pos g)

/-- The maximum of the row is the maximum over the blocks of the block maxima. -/
theorem fold_blocks (f : Fin 32000 → EReal) :
    (Finset.univ : Finset (Fin 125)).fold max ⊥ (blkMax f) = rowMax f := by
  apply le_antisymm
  · refine (Finset.fold_max_le _).2 ⟨bot_le, fun j _ => ?_⟩
    refine (Finset.fold_max_le _).2 ⟨bot_le, fun q _ => ?_⟩
    exact (Finset.le_fold_max _).2 (Or.inr ⟨pos (j, q), Finset.mem_univ _, le_rfl⟩)
  · refine (Finset.fold_max_le _).2 ⟨bot_le, fun v _ => ?_⟩
    refine (Finset.le_fold_max _).2 (Or.inr ⟨(pos.symm v).1, Finset.mem_univ _, ?_⟩)
    refine (Finset.le_fold_max _).2 (Or.inr ⟨(pos.symm v).2, Finset.mem_univ _, ?_⟩)
    rw [blk_eq, Prod.mk.eta, Equiv.apply_symm_apply]

/-! ## The blocks seen after n steps -/

/-- The blocks with index below n. -/
def seen (n : ℕ) : Finset (Fin 125) := Finset.univ.filter (fun j => j.val < n)

theorem seen_zero : seen 0 = ∅ := by
  ext j; simp [seen]

theorem seen_succ (n : ℕ) (h : n < 125) : seen (n + 1) = insert ⟨n, h⟩ (seen n) := by
  ext j
  simp only [seen, Finset.mem_filter, Finset.mem_univ, true_and, Finset.mem_insert, Fin.ext_iff]
  omega

theorem not_mem_seen (n : ℕ) (h : n < 125) : (⟨n, h⟩ : Fin 125) ∉ seen n := by
  simp [seen]

theorem seen_all : seen 125 = Finset.univ := by
  ext j; simp [seen, j.isLt]

/-! ## The recurrences, one step -/

theorem runMax_succ (f : Fin 32000 → EReal) (n : ℕ) (h : n < 125) :
    runMax f (n + 1) = max (runMax f n) (blkMax f ⟨n, h⟩) := by
  rw [runMax, dif_pos h]

theorem runS_succ (f : Fin 32000 → EReal) (n : ℕ) (h : n < 125) :
    runS f (n + 1) = runS f n + ∑ q : Fin 256, blk f ⟨n, h⟩ q := by
  rw [runS, dif_pos h]

theorem runT_succ (f : Fin 32000 → EReal) (k : Fin 32000) (n : ℕ) (h : n < 125) :
    runT f k (n + 1) = runT f k n + ∑ q : Fin 256, (if 256 * n + q.val = k.val then blk f ⟨n, h⟩ q else 0) := by
  rw [runT, dif_pos h]

theorem runL_succ (f : Fin 32000 → EReal) (n : ℕ) (h : n < 125) :
    runL f (n + 1) = Ideal.exp (runMax f n - runMax f (n + 1)) * runL f n
      + ∑ q : Fin 256, Ideal.exp (blk f ⟨n, h⟩ q - runMax f (n + 1)) := by
  rw [runL, dif_pos h]

/-! ## Closed forms after n blocks -/

theorem runMax_closed (f : Fin 32000 → EReal) :
    ∀ n, n ≤ 125 → runMax f n = (seen n).fold max ⊥ (blkMax f) := by
  intro n
  induction n with
  | zero => intro _; rw [seen_zero, Finset.fold_empty]; rfl
  | succ n ih =>
    intro hn
    have h : n < 125 := hn
    rw [seen_succ n h, Finset.fold_insert (not_mem_seen n h), runMax_succ f n h, ih (le_of_lt h), max_comm]

theorem runS_closed (f : Fin 32000 → EReal) :
    ∀ n, n ≤ 125 → runS f n = ∑ j ∈ seen n, ∑ q : Fin 256, blk f j q := by
  intro n
  induction n with
  | zero => intro _; rw [seen_zero, Finset.sum_empty]; rfl
  | succ n ih =>
    intro hn
    have h : n < 125 := hn
    rw [seen_succ n h, Finset.sum_insert (not_mem_seen n h), runS_succ f n h, ih (le_of_lt h), add_comm]

theorem runT_closed (f : Fin 32000 → EReal) (k : Fin 32000) :
    ∀ n, n ≤ 125 → runT f k n
      = ∑ j ∈ seen n, ∑ q : Fin 256, (if 256 * j.val + q.val = k.val then blk f j q else 0) := by
  intro n
  induction n with
  | zero => intro _; rw [seen_zero, Finset.sum_empty]; rfl
  | succ n ih =>
    intro hn
    have h : n < 125 := hn
    rw [seen_succ n h, Finset.sum_insert (not_mem_seen n h), runT_succ f k n h, ih (le_of_lt h), add_comm]

theorem runMax_final (f : Fin 32000 → EReal) : runMax f 125 = rowMax f := by
  rw [runMax_closed f 125 le_rfl, seen_all, fold_blocks]

theorem runS_final (f : Fin 32000 → EReal) : runS f 125 = rowSum f := by
  rw [runS_closed f 125 le_rfl, seen_all]
  exact sum_blocks f

theorem runT_final (f : Fin 32000 → EReal) (k : Fin 32000) : runT f k 125 = f k := by
  rw [runT_closed f k 125 le_rfl, seen_all]
  have e : ∀ (j : Fin 125) (q : Fin 256),
      (if 256 * j.val + q.val = k.val then blk f j q else 0)
        = (fun v : Fin 32000 => if v = k then f v else 0) (pos (j, q)) := by
    intro j q
    show _ = if pos (j, q) = k then f (pos (j, q)) else 0
    rw [blk_eq]
    exact if_congr ⟨fun h => Fin.ext h, fun h => congrArg Fin.val h⟩ rfl rfl
  simp only [e]
  rw [sum_blocks (fun v : Fin 32000 => if v = k then f v else 0), Finset.sum_ite_eq' Finset.univ k f,
    if_pos (Finset.mem_univ k)]

/-! ## A row of real entries: its maxima are real -/

theorem blkMax_lt_top (f : Fin 32000 → EReal) (hf : Finite f) (j : Fin 125) : blkMax f j < ⊤ := by
  refine (Finset.fold_max_lt _).2 ⟨bot_lt_top, fun q _ => ?_⟩
  obtain ⟨a, ha⟩ := hf (pos (j, q))
  rw [blk_eq, ha]
  exact EReal.coe_lt_top a

theorem bot_lt_blkMax (f : Fin 32000 → EReal) (hf : Finite f) (j : Fin 125) : ⊥ < blkMax f j := by
  refine (Finset.lt_fold_max _).2 (Or.inr ⟨0, Finset.mem_univ _, ?_⟩)
  obtain ⟨a, ha⟩ := hf (pos (j, 0))
  rw [blk_eq, ha]
  exact EReal.bot_lt_coe a

theorem runMax_lt_top (f : Fin 32000 → EReal) (hf : Finite f) : ∀ n, runMax f n < ⊤ := by
  intro n
  induction n with
  | zero => exact bot_lt_top
  | succ n ih =>
    rw [runMax]
    split_ifs with h
    · exact max_lt ih (blkMax_lt_top f hf _)
    · exact ih

theorem bot_lt_runMax (f : Fin 32000 → EReal) (hf : Finite f) : ∀ n, ⊥ < runMax f (n + 1) := by
  intro n
  induction n with
  | zero =>
    rw [runMax_succ f 0 (by norm_num)]
    exact lt_max_of_lt_right (bot_lt_blkMax f hf _)
  | succ n ih =>
    rw [runMax]
    split_ifs with h
    · exact lt_max_of_lt_left ih
    · exact ih

theorem runMax_real (f : Fin 32000 → EReal) (hf : Finite f) (n : ℕ) : ∃ a : ℝ, runMax f (n + 1) = (a : EReal) :=
  real_of_lt (bot_lt_runMax f hf n) (runMax_lt_top f hf (n + 1))

theorem rowMax_real (f : Fin 32000 → EReal) (hf : Finite f) : ∃ a : ℝ, rowMax f = (a : EReal) := by
  rw [← runMax_final]
  exact runMax_real f hf 124

/-! ## The rescaled sum of exponentials after n blocks -/

theorem runL_closed (g : Fin 32000 → ℝ) :
    ∀ n, n ≤ 125 → runL (fun v => (g v : EReal)) n
      = ∑ j ∈ seen n, ∑ q : Fin 256,
          Ideal.exp (blk (fun v => (g v : EReal)) j q - runMax (fun v => (g v : EReal)) n) := by
  have hf : Finite (fun v => (g v : EReal)) := fun v => ⟨g v, rfl⟩
  intro n
  induction n with
  | zero => intro _; rw [seen_zero, Finset.sum_empty]; rfl
  | succ n ih =>
    intro hn
    have h : n < 125 := hn
    rw [seen_succ n h, Finset.sum_insert (not_mem_seen n h), runL_succ _ n h, add_comm]
    congr 1
    rw [ih (le_of_lt h)]
    cases n with
    | zero => rw [seen_zero, Finset.sum_empty, Finset.sum_empty, mul_zero]
    | succ m =>
      obtain ⟨a, ha⟩ := runMax_real _ hf m
      obtain ⟨b, hb⟩ := runMax_real _ hf (m + 1)
      rw [ha, hb]
      exact rescale (seen (m + 1)) Finset.univ (fun j q => g (pos (j, q))) a b

theorem runL_final (f : Fin 32000 → EReal) (hf : Finite f) : runL f 125 = sumExp f := by
  obtain ⟨g, rfl⟩ : ∃ g : Fin 32000 → ℝ, f = fun v => (g v : EReal) :=
    ⟨fun v => (hf v).choose, funext fun v => (hf v).choose_spec⟩
  rw [runL_closed g 125 le_rfl, seen_all, runMax_final]
  exact sum_blocks (fun v => Ideal.exp ((g v : EReal) - rowMax (fun v => (g v : EReal))))

/-! ## The log-probabilities of a real row -/

/-- A real row has a real maximum and a real logarithm of its shifted sum of exponentials. -/
theorem row_facts (f : Fin 32000 → EReal) (hf : Finite f) :
    ∃ (g : Fin 32000 → ℝ) (m l : ℝ), (∀ v, f v = (g v : EReal)) ∧ rowMax f = (m : EReal)
      ∧ Ideal.log (sumExp f) = (l : EReal) := by
  obtain ⟨m, hm⟩ := rowMax_real f hf
  choose g hg using hf
  have hs : sumExp f = ((∑ v : Fin 32000, Real.exp (g v - m) : ℝ) : EReal) := by
    unfold sumExp
    simp only [hg, hm, ← EReal.coe_sub, Ideal.exp_coe, ← coe_sum]
  have hpos : 0 < ∑ v : Fin 32000, Real.exp (g v - m) :=
    Finset.sum_pos (fun v _ => Real.exp_pos _) ⟨0, Finset.mem_univ _⟩
  refine ⟨g, m, Real.log (∑ v : Fin 32000, Real.exp (g v - m)), hg, hm, ?_⟩
  rw [hs, Ideal.log_coe, if_neg (not_le.2 hpos)]

theorem logp_eq (f : Fin 32000 → EReal) (hf : Finite f) (k : Fin 32000) : logpK f k = logpR f k := by
  obtain ⟨g, m, l, hg, hm, hl⟩ := row_facts f hf
  unfold logpK logpR logZ
  rw [hg k, hm, hl]
  simp only [← EReal.coe_add, ← EReal.coe_sub]
  refine congrArg Real.toEReal ?_
  ring

theorem logpR_real (f : Fin 32000 → EReal) (hf : Finite f) (k : Fin 32000) : ∃ a : ℝ, logpR f k = (a : EReal) := by
  obtain ⟨g, m, l, hg, hm, hl⟩ := row_facts f hf
  refine ⟨g k - m - l, ?_⟩
  unfold logpR
  rw [hg k, hm, hl]
  simp only [← EReal.coe_sub]

theorem exp_sub_self_mul (x y : EReal) (hx : ∃ a : ℝ, x = (a : EReal)) : Ideal.exp (x - x) * y = y := by
  obtain ⟨a, rfl⟩ := hx
  rw [← EReal.coe_sub, sub_self, Ideal.exp_coe, Real.exp_zero, EReal.coe_one, one_mul]

/-! ## The mean of the log-probabilities -/

/-- Per row: the plain sum A and the log-partition Z are real, and the log-probabilities sum to A − 32000·Z. -/
theorem row_mean_facts (f : Fin 32000 → EReal) (hf : Finite f) :
    ∃ (A Z : ℝ), rowSum f = (A : EReal) ∧ logZ f = (Z : EReal)
      ∧ ∑ v : Fin 32000, logpR f v = ((A - 32000 * Z : ℝ) : EReal) := by
  obtain ⟨g, m, l, hg, hm, hl⟩ := row_facts f hf
  refine ⟨∑ v : Fin 32000, g v, m + l, ?_, ?_, ?_⟩
  · unfold rowSum
    simp only [hg, ← coe_sum]
  · unfold logZ
    rw [hm, hl, EReal.coe_add]
  · unfold logpR
    simp only [hg, hm, hl, ← EReal.coe_sub, ← coe_sum]
    refine congrArg Real.toEReal ?_
    rw [Finset.sum_sub_distrib, Finset.sum_sub_distrib, Finset.sum_const, Finset.sum_const, Finset.card_univ,
      Fintype.card_fin, nsmul_eq_mul]
    push_cast
    ring

theorem mean_logp (G : Fin 2048 → Fin 32000 → EReal) (hG : ∀ r, Finite (G r)) :
    Ideal.div (∑ r : Fin 2048, (Ideal.div (rowSum (G r)) ((32000 : ℝ) : EReal) - logZ (G r))) ((2048 : ℝ) : EReal)
      = Ideal.div (∑ r : Fin 2048, ∑ v : Fin 32000, logpR (G r) v) ((65536000 : ℝ) : EReal) := by
  choose A Z hA hZ hS using fun r => row_mean_facts (G r) (hG r)
  simp only [hA, hZ, hS, Ideal.div_coe (show (32000 : ℝ) ≠ 0 by norm_num),
    Ideal.div_coe (show (2048 : ℝ) ≠ 0 by norm_num), Ideal.div_coe (show (65536000 : ℝ) ≠ 0 by norm_num),
    ← EReal.coe_mul, ← EReal.coe_sub, ← coe_sum]
  refine congrArg Real.toEReal ?_
  rw [Finset.sum_mul, Finset.sum_mul]
  refine Finset.sum_congr rfl fun r _ => ?_
  ring

/-! ## The logits of real inputs are real -/

theorem logit_real (x : Fin 2048 → Fin 2048 → EReal) (w : Fin 32000 → Fin 2048 → EReal)
    (hx : ∀ r h, ∃ a : ℝ, x r h = (a : EReal)) (hw : ∀ v h, ∃ a : ℝ, w v h = (a : EReal)) (r : Fin 2048) :
    Finite (logit x w r) := by
  choose x' hx' using hx
  choose w' hw' using hw
  intro v
  refine ⟨∑ h : Fin 2048, x' r h * w' v h, ?_⟩
  unfold logit
  simp only [hx', hw', ← EReal.coe_mul, ← coe_sum]

end Cert.Spec

end
-- ==== Proof.PreFacts.lean ====
/-
  The precondition, decoded. The printed predicate is a conjunction of seven reductions by "and" to a scalar:
  |x| < +∞ at every entry of the five float arguments 0, 1, 4, 5, 6, and 0 ≤ w, w < 32000 (signed) at every word of
  argument 2. When the predicate is all ones at the ideal instance, every float entry is a real number (an extended
  real whose absolute value max x (−x) is strictly below ⊤ is neither ⊤ nor ⊥) and every word of argument 2 is the
  32-bit word of a natural number below 32000 (a word that reads signed in [0, 32000) has its top bit clear, so its
  unsigned value is the same number).
-/
import proofs.«420414_j89421219103752_3_alg».proof.Pre_finite_inputs
import proofs.«420414_j89421219103752_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

attribute [local instance] Cert.Pre_finite_inputs.Gen.facts

/-- The scalar shape has one index. -/
instance : Subsingleton S_.Idx := ⟨fun a b => funext fun d => d.elim0⟩

/-- An extended real whose absolute value is strictly below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- A 32-bit word that reads, signed, in [0, 32000) is the word of a natural number below 32000. -/
theorem word_of_range (w : BitVec 32) (h0 : IntOp.cmpi .sge w 0#32 = 1#1) (h1 : IntOp.cmpi .slt w 32000#32 = 1#1) :
    ∃ k : Fin 32000, w = BitVec.ofNat 32 k.val := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have hw := w.isLt
  rw [BitVec.toInt_eq_toNat_cond] at h0 h1
  have hlt : w.toNat < 32000 := by
    split at h0 <;> omega
  refine ⟨⟨w.toNat, hlt⟩, ?_⟩
  apply BitVec.eq_of_toNat_eq
  simp only [BitVec.toNat_ofNat]
  omega

theorem of_pre (a0 : FVec Ideal S32000x2048 .f32) (a1 : FVec Ideal S4x512x2048 .f32) (a2 : IVec S4x512 32)
    (a3 : IVec S4x512 32) (a4 : FVec Ideal S4 .f32) (a5 : FVec Ideal S4x512x2048 .f32) (a6 : FVec Ideal S32000x2048 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a4 i = (r : EReal))
      ∧ (∀ i, ∃ r : ℝ, a5 i = (r : EReal)) ∧ (∀ i, ∃ r : ℝ, a6 i = (r : EReal))
      ∧ (∀ i, ∃ k : Fin 32000, a2 i = BitVec.ofNat 32 k.val) := by
  have e := congrFun h ValueIdx.ix0
  unfold Cert.Pre_finite_inputs.fn Cert.Pre_finite_inputs.fn_part1 at e
  dsimp only [andi] at e
  simp only [IntOp.andi_eq_one] at e
  obtain ⟨⟨⟨⟨⟨⟨h0, h1⟩, h4⟩, h5⟩, h6⟩, hge⟩, hlt⟩ := e
  refine ⟨fun i => ?_, fun i => ?_, fun i => ?_, fun i => ?_, fun i => ?_, fun i => ?_⟩
  · exact real_of_abs_lt_top (a0 i) (Host.reduce_andi_all _ _ _ _ _ h0 i)
  · exact real_of_abs_lt_top (a1 i) (Host.reduce_andi_all _ _ _ _ _ h1 i)
  · exact real_of_abs_lt_top (a4 i) (Host.reduce_andi_all _ _ _ _ _ h4 i)
  · exact real_of_abs_lt_top (a5 i) (Host.reduce_andi_all _ _ _ _ _ h5 i)
  · exact real_of_abs_lt_top (a6 i) (Host.reduce_andi_all _ _ _ _ _ h6 i)
  · exact word_of_range (a2 i) (Host.reduce_andi_all _ _ _ _ _ hge i) (Host.reduce_andi_all _ _ _ _ _ hlt i)

end Cert.PreFacts

end
-- ==== Proof.BridgeBase.lean ====
/-
  The ground the comparison of the two programs stands on.

  For a token position (b, t) the policy's row of logits is f v = Σ_h x[b,t,h] · w[v,h] over the policy's hidden
  states and vocabulary matrix, and the reference model's row likewise over its own. Under the precondition every
  float input entry is real, so every logit is real, and every token id is a natural number below 32000. The first
  kernel launch is entered with the policy's hidden states laid out in rows, the vocabulary matrix and the clipped id
  column; the second with the reference model's; neither launch changes what the other reads, and the mask and the
  advantages reach the host tail as launched. The tail reads the two statistics arrays as the launches leave them.
-/
import proofs.«420414_j89421219103752_3_alg».proof.Defs
import proofs.«420414_j89421219103752_3_alg».proof.Proof.KI.Launch
import proofs.«420414_j89421219103752_3_alg».proof.Proof.KI.TailIdx
import proofs.«420414_j89421219103752_3_alg».proof.Proof.Gen.ReferenceIdeal
import proofs.«420414_j89421219103752_3_alg».proof.Proof.FlashMath
import proofs.«420414_j89421219103752_3_alg».proof.Proof.IdxSums
import proofs.«420414_j89421219103752_3_alg».proof.Proof.PreFacts

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand Cert.KernelIdeal.HandTail
open Cert.IdxSums

attribute [local instance] Cert.ReferenceIdeal.Gen.facts Cert.Pre_finite_inputs.Gen.facts

variable (m : (ℓ : Loc nD τ sig) → Buf (Elt Ideal) ℓ) (ρ : Dev nD → PrngReg)

/-! ## The arguments on a core, and the rows of logits -/

abbrev A0 (c : Dev nD) : FVec Ideal S32000x2048 .f32 := m ((c.tc : Thread nD τ).loc main_arg0)
abbrev A1 (c : Dev nD) : FVec Ideal S4x512x2048 .f32 := m ((c.tc : Thread nD τ).loc main_arg1)
abbrev A2 (c : Dev nD) : IVec S4x512 32 := m ((c.tc : Thread nD τ).loc main_arg2)
abbrev A3 (c : Dev nD) : IVec S4x512 32 := m ((c.tc : Thread nD τ).loc main_arg3)
abbrev A4 (c : Dev nD) : FVec Ideal S4 .f32 := m ((c.tc : Thread nD τ).loc main_arg4)
abbrev A5 (c : Dev nD) : FVec Ideal S4x512x2048 .f32 := m ((c.tc : Thread nD τ).loc main_arg5)
abbrev A6 (c : Dev nD) : FVec Ideal S32000x2048 .f32 := m ((c.tc : Thread nD τ).loc main_arg6)

/-- The policy's row of logits at token position (b, t). -/
def rowP (c : Dev nD) (b : Fin 4) (t : Fin 512) : Fin 32000 → EReal :=
  fun v => ∑ h : Fin 2048, A1 m c (ix3 b t h) * A0 m c (ix2 v h)

/-- The reference model's row of logits at token position (b, t). -/
def rowR (c : Dev nD) (b : Fin 4) (t : Fin 512) : Fin 32000 → EReal :=
  fun v => ∑ h : Fin 2048, A5 m c (ix3 b t h) * A6 m c (ix2 v h)

section
variable (hpre : Cert.Pre_KernelIdeal m)
include hpre

theorem pre_facts (c : Dev nD) :
    (∀ i, ∃ r : ℝ, A0 m c i = (r : EReal)) ∧ (∀ i, ∃ r : ℝ, A1 m c i = (r : EReal)) ∧ (∀ i, ∃ r : ℝ, A4 m c i = (r : EReal))
      ∧ (∀ i, ∃ r : ℝ, A5 m c i = (r : EReal)) ∧ (∀ i, ∃ r : ℝ, A6 m c i = (r : EReal))
      ∧ (∀ i, ∃ k : Fin 32000, A2 m c i = BitVec.ofNat 32 k.val) :=
  Cert.PreFacts.of_pre _ _ _ _ _ _ _ (hpre c)

theorem rowP_finite (c : Dev nD) (b : Fin 4) (t : Fin 512) : Cert.Spec.Finite (rowP m c b t) := by
  obtain ⟨h0, h1, -, -, -, -⟩ := pre_facts m hpre c
  have H := Cert.Spec.logit_real (fun r h => A1 m c (ix3 (rowB r) (rowT r) h)) (fun v h => A0 m c (ix2 v h))
    (fun r h => h1 _) (fun v h => h0 _) (rowOf b t)
  intro v; obtain ⟨a, ha⟩ := H v; refine ⟨a, ?_⟩
  rw [← ha]; unfold rowP Cert.Spec.logit; simp only [rowB_rowOf, rowT_rowOf]

theorem rowR_finite (c : Dev nD) (b : Fin 4) (t : Fin 512) : Cert.Spec.Finite (rowR m c b t) := by
  obtain ⟨-, -, -, h5, h6, -⟩ := pre_facts m hpre c
  have H := Cert.Spec.logit_real (fun r h => A5 m c (ix3 (rowB r) (rowT r) h)) (fun v h => A6 m c (ix2 v h))
    (fun r h => h5 _) (fun v h => h6 _) (rowOf b t)
  intro v; obtain ⟨a, ha⟩ := H v; refine ⟨a, ?_⟩
  rw [← ha]; unfold rowR Cert.Spec.logit; simp only [rowB_rowOf, rowT_rowOf]

end

/-! ## What the regions are entered with -/

theorem V3_x (c : Dev nD) : (V3 m ρ c main_v1 : FVec Ideal S2048x2048 .bf16) = rowsK (F := Ideal) (A1 m c) := pre_x (W0 m ρ c)
theorem V3_w (c : Dev nD) : (V3 m ρ c main_arg0 : FVec Ideal S32000x2048 .f32) = A0 m c := pre_arg0 (W0 m ρ c)
theorem V3_ids (c : Dev nD) : (V3 m ρ c main_v5 : IVec S2048x1 32) = idsK (A2 m c) := pre_ids (W0 m ρ c)
theorem V3_rx (c : Dev nD) : (V3 m ρ c main_v3 : FVec Ideal S2048x2048 .bf16) = rowsK (F := Ideal) (A5 m c) := pre_rx (W0 m ρ c)
theorem V3_rw (c : Dev nD) : (V3 m ρ c main_arg6 : FVec Ideal S32000x2048 .f32) = A6 m c := pre_arg6 (W0 m ρ c)

theorem V4_rx (c : Dev nD) : (V4 m ρ c main_v3 : FVec Ideal S2048x2048 .bf16) = rowsK (F := Ideal) (A5 m c) :=
  (W4_keep m ρ c main_v3 (by decide)).trans (V3_rx m ρ c)
theorem V4_rw (c : Dev nD) : (V4 m ρ c main_arg6 : FVec Ideal S32000x2048 .f32) = A6 m c :=
  (W4_keep m ρ c main_arg6 (by decide)).trans (V3_rw m ρ c)
theorem V4_ids (c : Dev nD) : (V4 m ρ c main_v5 : IVec S2048x1 32) = idsK (A2 m c) :=
  (W4_keep m ρ c main_v5 (by decide)).trans (V3_ids m ρ c)

/-- The first launch's three inputs and the second launch's, as arrays. -/
abbrev in0_x (c : Dev nD) : FVec Ideal S2048x2048 .bf16 := V3 m ρ c main_v1
abbrev in0_w (c : Dev nD) : FVec Ideal S32000x2048 .f32 := V3 m ρ c main_arg0
abbrev in0_ids (c : Dev nD) : IVec S2048x1 32 := V3 m ρ c main_v5
abbrev in1_x (c : Dev nD) : FVec Ideal S2048x2048 .bf16 := V4 m ρ c main_v3
abbrev in1_w (c : Dev nD) : FVec Ideal S32000x2048 .f32 := V4 m ρ c main_arg6
abbrev in1_ids (c : Dev nD) : IVec S2048x1 32 := V4 m ρ c main_v5

theorem in0_x_eq (c : Dev nD) : in0_x m ρ c = rowsK (F := Ideal) (A1 m c) := V3_x m ρ c
theorem in0_w_eq (c : Dev nD) : in0_w m ρ c = A0 m c := V3_w m ρ c
theorem in0_ids_eq (c : Dev nD) : in0_ids m ρ c = idsK (A2 m c) := V3_ids m ρ c
theorem in1_x_eq (c : Dev nD) : in1_x m ρ c = rowsK (F := Ideal) (A5 m c) := V4_rx m ρ c
theorem in1_w_eq (c : Dev nD) : in1_w m ρ c = A6 m c := V4_rw m ρ c
theorem in1_ids_eq (c : Dev nD) : in1_ids m ρ c = idsK (A2 m c) := V4_ids m ρ c

/-- Both launches' id column at the row of token position (b, t) is that position's id, when it is in range. -/
theorem in0_ids_at (c : Dev nD) (b : Fin 4) (t : Fin 512) (k : Fin 32000) (hk : A2 m c (ix2 b t) = BitVec.ofNat 32 k.val) :
    in0_ids m ρ c (ix2 (rowOf b t) (0 : Fin 1)) = BitVec.ofNat 32 k.val := by
  rw [in0_ids_eq]
  exact idsK_apply_of_range (A2 m c) (rowOf b t) k (by rw [rowB_rowOf, rowT_rowOf]; exact hk)
theorem in1_ids_at (c : Dev nD) (b : Fin 4) (t : Fin 512) (k : Fin 32000) (hk : A2 m c (ix2 b t) = BitVec.ofNat 32 k.val) :
    in1_ids m ρ c (ix2 (rowOf b t) (0 : Fin 1)) = BitVec.ofNat 32 k.val := by
  rw [in1_ids_eq]
  exact idsK_apply_of_range (A2 m c) (rowOf b t) k (by rw [rowB_rowOf, rowT_rowOf]; exact hk)

/-- The first launch's row r of logits is the policy's row at (r / 512, r % 512), and the second launch's the
    reference model's. -/
theorem in0_row (c : Dev nD) (b : Fin 4) (t : Fin 512) :
    (fun v : Fin 32000 => ∑ h : Fin 2048, (in0_x m ρ c (ix2 (rowOf b t) h) : EReal) * (in0_w m ρ c (ix2 v h) : EReal)) = rowP m c b t := by
  funext v
  refine Finset.sum_congr rfl fun h _ => ?_
  rw [in0_x_eq, in0_w_eq, rowsK_apply, rowB_rowOf, rowT_rowOf]
theorem in1_row (c : Dev nD) (b : Fin 4) (t : Fin 512) :
    (fun v : Fin 32000 => ∑ h : Fin 2048, (in1_x m ρ c (ix2 (rowOf b t) h) : EReal) * (in1_w m ρ c (ix2 v h) : EReal)) = rowR m c b t := by
  funext v
  refine Finset.sum_congr rfl fun h _ => ?_
  rw [in1_x_eq, in1_w_eq, rowsK_apply, rowB_rowOf, rowT_rowOf]

section
variable (hpre : Cert.Pre_KernelIdeal m)
include hpre
/-- Under the precondition every row of the id column holds a natural number below 32000. -/
theorem in0_ids_row (c : Dev nD) (r : Fin 2048) : ∃ k : Fin 32000, in0_ids m ρ c (ix2 r (0 : Fin 1)) = BitVec.ofNat 32 k.val := by
  obtain ⟨k, hk⟩ := (pre_facts m hpre c).2.2.2.2.2 (ix2 (rowB r) (rowT r))
  refine ⟨k, ?_⟩
  have := in0_ids_at m ρ c (rowB r) (rowT r) k hk
  rwa [rowOf_rowB_rowT] at this
theorem in1_ids_row (c : Dev nD) (r : Fin 2048) : ∃ k : Fin 32000, in1_ids m ρ c (ix2 r (0 : Fin 1)) = BitVec.ofNat 32 k.val := by
  obtain ⟨k, hk⟩ := (pre_facts m hpre c).2.2.2.2.2 (ix2 (rowB r) (rowT r))
  refine ⟨k, ?_⟩
  have := in1_ids_at m ρ c (rowB r) (rowT r) k hk
  rwa [rowOf_rowB_rowT] at this
end

/-- The mask and the advantages reach the tail as launched. -/
theorem W5_arg3 (c : Dev nD) : (W5 m ρ c (Proc.devRef .tc main_arg3) : IVec S4x512 32) = A3 m c :=
  (W5_keep m ρ c main_arg3 (by decide)).trans <| (W4_keep m ρ c main_arg3 (by decide)).trans (pre_arg3 (W0 m ρ c))
theorem W5_arg4 (c : Dev nD) : (W5 m ρ c (Proc.devRef .tc main_arg4) : FVec Ideal S4 .f32) = A4 m c :=
  (W5_keep m ρ c main_arg4 (by decide)).trans <| (W4_keep m ρ c main_arg4 (by decide)).trans (pre_arg4 (W0 m ρ c))

/-- The policy launch's statistics array, as the tail reads it. -/
theorem statsP_eq (c : Dev nD) : W5 m ρ c (Proc.devRef .tc main_v6) = (dat0 (V3 m ρ) c).arrAt 3 cfg0.N :=
  (W5_main_v6 m ρ c).trans (W4_out m ρ c)

/-- The reference-model launch's statistics array, as the tail reads it. -/
theorem statsR_eq (c : Dev nD) : W5 m ρ c (Proc.devRef .tc main_v7) = (dat1 (V4 m ρ) c).arrAt 3 cfg1.N :=
  W5_out m ρ c

end Cert.Bridge

end
-- ==== Proof.Consts.lean ====
/-
  The float constants the two programs spell, as the extended reals their bit patterns denote:
  sign bit, eight exponent bits (bias 127), twenty-three significand bits.
-/
import Idealize.ShloMosaic.PureOps.Ideal

noncomputable section

namespace Cert.Consts

open Idealize.ShloMosaic

/-- +0.0 denotes 0. -/
theorem ofBits_zero : Ideal.ofBits .f32 0x00000000#32 = 0 := by
  simp [Ideal.ofBits, Ideal.ieee]

/-- The pattern with sign 1, exponent all ones, significand 0 denotes -∞. -/
theorem ofBits_neg_inf : Ideal.ofBits .f32 0xFF800000#32 = ⊥ := by
  simp [Ideal.ofBits, Ideal.ieee]

/-- 1.0 = 2^0 denotes 1. -/
theorem ofBits_one : Ideal.ofBits .f32 0x3F800000#32 = 1 := by
  simp [Ideal.ofBits, Ideal.ieee, -EReal.coe_mul]; norm_num

/-- 2048 = 2^11 (exponent field 138). -/
theorem ofBits_2048 : Ideal.ofBits .f32 0x45000000#32 = ((2048 : ℝ) : EReal) := by
  simp [Ideal.ofBits, Ideal.ieee, -EReal.coe_mul]; norm_num

/-- 32000 = 1.953125 · 2^14 (exponent field 141, significand 0x7A0000). -/
theorem ofBits_32000 : Ideal.ofBits .f32 0x46FA0000#32 = ((32000 : ℝ) : EReal) := by
  simp [Ideal.ofBits, Ideal.ieee, -EReal.coe_mul]; norm_num

/-- 65536000 = 2048 · 32000 = 1.953125 · 2^25 (exponent field 152, significand 0x7A0000). -/
theorem ofBits_65536000 : Ideal.ofBits .f32 0x4C7A0000#32 = ((65536000 : ℝ) : EReal) := by
  simp [Ideal.ofBits, Ideal.ieee, -EReal.coe_mul]; norm_num

end Cert.Consts

end
-- ==== Proof.BridgeMath.lean ====
/-
  The identities the final comparison cites, in the index form the two programs produce: the kernel's four
  running statistics at the last block give the reference's log-probabilities and row means, and the mean over
  the [4, 512] token positions of the per-row mean equals the mean over [4, 512, 32000] of the log-probabilities.
-/
import proofs.«420414_j89421219103752_3_alg».proof.Proof.FlashMath
import proofs.«420414_j89421219103752_3_alg».proof.Proof.Consts
import proofs.«420414_j89421219103752_3_alg».proof.Proof.IdxSums

noncomputable section

namespace Cert.Spec

open Idealize.ShloMosaic Idealize.ShloMosaic.ValueIdx

/-- The kernel's log-probability of the target entry: masked sum minus (running maximum + log of the
    rescaled sum), at the last block, is the reference's shifted form. -/
theorem tok_logp_kernel (f : Fin 32000 → EReal) (hf : Finite f) (k : Fin 32000) :
    runT f k 125 - (runMax f 125 + Ideal.log (runL f 125)) = logpR f k := by
  rw [runT_final, runMax_final, runL_final f hf]
  exact logp_eq f hf k

/-- The kernel's per-row mean of the log-probabilities: plain sum over 32000 minus the log-partition. -/
theorem row_mean_kernel (f : Fin 32000 → EReal) (hf : Finite f) :
    Ideal.div (runS f 125) (Ideal.ofBits .f32 0x46FA0000#32) - (runMax f 125 + Ideal.log (runL f 125))
      = Ideal.div (rowSum f) ((32000 : ℝ) : EReal) - logZ f := by
  rw [runS_final, runMax_final, runL_final f hf, Cert.Consts.ofBits_32000]
  rfl

/-- The mean over the token positions of the per-row means is the mean over all entries of the
    log-probabilities: 65536000 = 2048 · 32000. -/
theorem full_mean (G : Fin 2048 → Fin 32000 → EReal) (hG : ∀ r, Finite (G r)) :
    Ideal.div (Ideal.ofBits .f32 0x00000000#32 + ∑ i : (⟨2, ![4, 512]⟩ : Shape).Idx, (Ideal.div (runS (G (IdxSums.rowOf (i 0) (i 1))) 125) (Ideal.ofBits .f32 0x46FA0000#32) - (runMax (G (IdxSums.rowOf (i 0) (i 1))) 125 + Ideal.log (runL (G (IdxSums.rowOf (i 0) (i 1))) 125)))) (Ideal.ofBits .f32 0x45000000#32)
      = Ideal.div (Ideal.ofBits .f32 0x00000000#32 + ∑ I : (⟨3, ![4, 512, 32000]⟩ : Shape).Idx, logpR (G (IdxSums.rowOf (I 0) (I 1))) (I 2)) (Ideal.ofBits .f32 0x4C7A0000#32) := by
  have hL : ∑ i : (⟨2, ![4, 512]⟩ : Shape).Idx, (Ideal.div (runS (G (IdxSums.rowOf (i 0) (i 1))) 125) (Ideal.ofBits .f32 0x46FA0000#32) - (runMax (G (IdxSums.rowOf (i 0) (i 1))) 125 + Ideal.log (runL (G (IdxSums.rowOf (i 0) (i 1))) 125)))
      = ∑ r : Fin 2048, (Ideal.div (rowSum (G r)) ((32000 : ℝ) : EReal) - logZ (G r)) := by
    rw [IdxSums.sum_rows]
    refine Finset.sum_congr rfl fun r _ => ?_
    show Ideal.div (runS (G (IdxSums.rowOf (IdxSums.rowB r) (IdxSums.rowT r))) 125) (Ideal.ofBits .f32 0x46FA0000#32)
        - (runMax (G (IdxSums.rowOf (IdxSums.rowB r) (IdxSums.rowT r))) 125
          + Ideal.log (runL (G (IdxSums.rowOf (IdxSums.rowB r) (IdxSums.rowT r))) 125)) = _
    rw [IdxSums.rowOf_rowB_rowT]
    exact row_mean_kernel (G r) (hG r)
  have hR : ∑ I : (⟨3, ![4, 512, 32000]⟩ : Shape).Idx, logpR (G (IdxSums.rowOf (I 0) (I 1))) (I 2)
      = ∑ r : Fin 2048, ∑ v : Fin 32000, logpR (G r) v := by
    rw [IdxSums.sum_rows_vocab]
    refine Finset.sum_congr rfl fun r _ => ?_
    refine Finset.sum_congr rfl fun v _ => ?_
    show logpR (G (IdxSums.rowOf (IdxSums.rowB r) (IdxSums.rowT r))) v = _
    rw [IdxSums.rowOf_rowB_rowT]
  rw [hL, hR, Cert.Consts.ofBits_zero, Cert.Consts.ofBits_2048, Cert.Consts.ofBits_65536000, zero_add, zero_add]
  exact mean_logp G hG

/-- The probability ratio of a real log-probability against itself is one. -/
theorem ratio_one (lp adv : EReal) (h : ∃ a : ℝ, lp = (a : EReal)) : Ideal.exp (lp - lp) * adv = adv :=
  exp_sub_self_mul lp adv h

end Cert.Spec

end
-- ==== Proof.KI.Pay0.lean ====
/- The arithmetic of region 0's kernel body, payload by payload, read at an index at the ideal values: the block
   product of the token rows with the vocabulary block (an inner product over the hidden axis), its row maximum
   folded into the running maximum, the rescaled running sum of exponentials, the target logit picked by the
   one-hot comparison of the column's vocabulary position with the token id, the plain row sum, and the four
   initial values of the carried statistics. -/
import proofs.«420414_j89421219103752_3_alg».proof.Proof.Gen.KernelIdeal.Skeleton
import proofs.«420414_j89421219103752_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandPay

open Cert.KernelIdeal Cert.KernelIdeal.Gen
open Idealize.ShloMosaic Idealize.ShloMosaic.ValueIdx

/-! ## Layout operations of the body read at an index -/

/-- A length-1024 vector viewed as a column reads, at row p, its entry p. -/
theorem col_cast_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    omega)

/-- A column broadcast along the lanes reads, at (p, q), the column's entry p. -/
theorem col_bcast_apply {α : Type} (v : S1024x1.Idx → α) (h : S1024x1.Broadcasts S1024x256) (p : Fin 1024) (q : Fin 256) :
    broadcastTo S1024x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The index over row p with lane coordinate q inserted is (p, q). -/
theorem lift_row (p : Fin 1024) (q : Fin 256) : reduces_S1024x256_S1024.lift (ix1 p) q = ix2 p q := by
  funext c; apply Fin.ext
  match c with
  | ⟨0, _⟩ => rfl
  | ⟨1, _⟩ => rfl

/-- A lane sum of a [1024, 256] block read at row p: the sum over the 256 lanes. -/
theorem rowSum_apply (src : FVec Ideal S1024x256 .f32) (hφ : FKind.Formats .f32)
    (hacc : (0x00000000#32 : BitVec 32) = FKind.add.neutral .f32 hφ) (p : Fin 1024) :
    multiReduction (F := Ideal) .add [1] S1024 src 0x00000000#32 reduces_S1024x256_S1024 hφ hacc (ix1 p)
      = ∑ q : Fin 256, src (ix2 p q) := by
  refine (Ideal.multiReduction_add_single src _ reduces_S1024x256_S1024 hφ hacc (ix1 p)).trans ?_
  exact Finset.sum_congr rfl fun q _ => congrArg src (lift_row p q)

/-- The pattern of f32's negative infinity is the bottom of the extended reals. -/
theorem ofBits_neg_inf_f32 : Ideal.ofBits .f32 0xFF800000#32 = ⊥ := by simp [Ideal.ofBits, Ideal.ieee]

/-- A lane maximum of a [1024, 256] block read at row p: the fold of max from the bottom over the 256 lanes. -/
theorem rowMax_apply (src : FVec Ideal S1024x256 .f32) (hφ : FKind.Formats .f32)
    (hacc : (0xFF800000#32 : BitVec 32) = FKind.maximumf.neutral .f32 hφ) (p : Fin 1024) :
    multiReduction (F := Ideal) .maximumf [1] S1024 src 0xFF800000#32 reduces_S1024x256_S1024 hφ hacc (ix1 p)
      = (Finset.univ : Finset (Fin 256)).fold max (⊥ : EReal) (fun q => src (ix2 p q)) := by
  refine (Ideal.multiReduction_maximumf_single src _ reduces_S1024x256_S1024 hφ hacc (ix1 p)).trans ?_
  have hb : (FloatOps.ofBits (F := Ideal) .f32 0xFF800000#32) = (⊥ : EReal) := ofBits_neg_inf_f32
  have hf : (src ∘ reduces_S1024x256_S1024.lift (ix1 p)) = fun q : Fin 256 => src (ix2 p q) :=
    funext fun q => congrArg src (lift_row p q)
  rw [hb]
  exact congrArg (fun f => Finset.fold max (⊥ : EReal) f (Finset.univ : Finset (Fin 256))) hf

/-! ## The block product -/

/-- The block of logits: entry (p, q) is the inner product over the hidden axis of token row p with vocabulary row q. -/
theorem pay8_apply (x0 : Vec Ideal S1024x2048 .bf16) (x1 : Vec Ideal S256x2048 .f32) (p : Fin 1024) (q : Fin 256) :
    k0_pay8 x0 x1 (ix2 p q) = ∑ h : Fin 2048, (x0 (ix2 p h) : EReal) * (x1 (ix2 q h) : EReal) := by
  unfold k0_pay8
  rw [shapeCast_self]
  refine (Ideal.matmul_constant_zero_apply dot_S1024x2048_S256x2048_S1024x256_1_1_0_0_n_n none _ _ (ix2 p q)).trans ?_
  rw [← Equiv.sum_comp (contrEquiv1 dot_S1024x2048_S256x2048_S1024x256_1_1_0_0_n_n 2048 rfl rfl).symm]
  refine Finset.sum_congr rfl fun c _ => ?_
  have c2 := contrEquiv1_symm_val dot_S1024x2048_S256x2048_S1024x256_1_1_0_0_n_n 2048 rfl rfl c
  have l2 : dot_S1024x2048_S256x2048_S1024x256_1_1_0_0_n_n.lhsIdx (ix2 p q) ((contrEquiv1 _ 2048 rfl rfl).symm c) = ix2 p c := by
    funext ax; apply Fin.ext
    match ax with
    | ⟨0, _⟩ => simp [DotDims.lhsIdx, dot_S1024x2048_S256x2048_S1024x256_1_1_0_0_n_n]; rfl
    | ⟨1, _⟩ => simp [DotDims.lhsIdx, dot_S1024x2048_S256x2048_S1024x256_1_1_0_0_n_n]; exact c2
  have r2 : dot_S1024x2048_S256x2048_S1024x256_1_1_0_0_n_n.rhsIdx (ix2 p q) ((contrEquiv1 _ 2048 rfl rfl).symm c) = ix2 q c := by
    funext ax; apply Fin.ext
    match ax with
    | ⟨0, _⟩ => simp [DotDims.rhsIdx, dot_S1024x2048_S256x2048_S1024x256_1_1_0_0_n_n]; rfl
    | ⟨1, _⟩ => simp [DotDims.rhsIdx, dot_S1024x2048_S256x2048_S1024x256_1_1_0_0_n_n]; exact c2
  rw [l2, r2]
  rfl

/-! ## The running maximum and the rescaled running sum of exponentials -/

/-- The new running maximum of row p: the old one against the maximum of the row's 256 logits of this block. -/
theorem pay10_apply (x0 : Vec Ideal S1024x2048 .bf16) (x1 : Vec Ideal S256x2048 .f32) (s0 : Vec Ideal S1024x1 .f32)
    (p : Fin 1024) :
    k0_pay10 x0 x1 s0 (ix2 p (0 : Fin 1))
      = max (s0 (ix2 p (0 : Fin 1)) : EReal)
          ((Finset.univ : Finset (Fin 256)).fold max (⊥ : EReal) (fun q => k0_pay8 x0 x1 (ix2 p q))) := by
  unfold k0_pay10
  show max (s0 (ix2 p (0 : Fin 1)) : EReal) (shapeCast S1024x1 _ shapeCasts_S1024_S1024x1 (ix2 p (0 : Fin 1))) = _
  rw [col_cast_apply]
  exact congrArg (max (s0 (ix2 p (0 : Fin 1)) : EReal)) (rowMax_apply (k0_pay8 x0 x1) _ _ p)

/-- The new running sum of exponentials of row p: the old one rescaled from the old to the new running maximum, plus
    the exponentials of this block's 256 logits shifted by the new running maximum. -/
theorem pay11_apply (x0 : Vec Ideal S1024x2048 .bf16) (x1 : Vec Ideal S256x2048 .f32) (s0 s1 : Vec Ideal S1024x1 .f32)
    (p : Fin 1024) :
    k0_pay11 x0 x1 s0 s1 (ix2 p (0 : Fin 1))
      = Ideal.exp ((s0 (ix2 p (0 : Fin 1)) : EReal) - k0_pay10 x0 x1 s0 (ix2 p (0 : Fin 1))) * (s1 (ix2 p (0 : Fin 1)) : EReal)
        + ∑ q : Fin 256, Ideal.exp (k0_pay8 x0 x1 (ix2 p q) - k0_pay10 x0 x1 s0 (ix2 p (0 : Fin 1))) := by
  unfold k0_pay11
  rw [shapeCast_self]
  show Ideal.exp ((s0 (ix2 p (0 : Fin 1)) : EReal) - k0_pay10 x0 x1 s0 (ix2 p (0 : Fin 1))) * (s1 (ix2 p (0 : Fin 1)) : EReal)
      + shapeCast S1024x1 _ shapeCasts_S1024_S1024x1 (ix2 p (0 : Fin 1)) = _
  rw [col_cast_apply]
  refine congrArg (_ + ·) ((rowSum_apply _ _ _ p).trans ?_)
  refine Finset.sum_congr rfl fun q _ => ?_
  show Ideal.exp (k0_pay8 x0 x1 (ix2 p q) - broadcastTo S1024x256 (k0_pay10 x0 x1 s0) broadcasts_S1024x1_S1024x256 (ix2 p q)) = _
  rw [col_bcast_apply]

/-! ## The target logit -/

/-- The block's share of the target logit of row p: the logits of the block's 256 columns, each kept where the
    column's vocabulary position — lane plus 256 times the block coordinate, as 32-bit words — is the row's token id. -/
theorem pay9_apply (i : grid0.Coords) (x0 : Vec Ideal S1024x2048 .bf16) (x1 : Vec Ideal S256x2048 .f32)
    (x2 : Vec Ideal S1024x1 .i32) (p : Fin 1024) :
    k0_pay9 i x0 x1 x2 (ix2 p (0 : Fin 1))
      = ∑ q : Fin 256, (if BitVec.ofNat 32 q.val + BitVec.ofNat 32 (i 1).val * 256#32 = (x2 (ix2 p (0 : Fin 1)) : BitVec 32)
          then k0_pay8 x0 x1 (ix2 p q) else (0 : EReal)) := by
  unfold k0_pay9
  dsimp only
  rw [col_cast_apply]
  refine (rowSum_apply _ _ _ p).trans ?_
  refine Finset.sum_congr rfl fun q _ => ?_
  rw [select_apply, shapeCast_self]
  show Scalar.select (IntOp.cmpi .eq (IntOp.addi (iota .tc S1024x256 32 [1] iota_S1024x256_d1_w32 (ix2 p q))
        (IntOp.muli (BitVec.ofNat 32 (i 1).val) 256#32))
      (broadcastTo S1024x256 x2 broadcasts_S1024x1_S1024x256 (ix2 p q)))
    (k0_pay8 x0 x1 (ix2 p q)) (Ideal.ofBits .f32 0x00000000#32) = _
  rw [iota_single_apply, col_bcast_apply, Ideal.ofBits_zero_f32]
  show (if BitVec.ofBool (BitVec.ofNat 32 q.val + BitVec.ofNat 32 (i 1).val * 256#32 == (x2 (ix2 p (0 : Fin 1)) : BitVec 32)) = 1#1
      then k0_pay8 x0 x1 (ix2 p q) else (0 : EReal)) = _
  by_cases h : BitVec.ofNat 32 q.val + BitVec.ofNat 32 (i 1).val * 256#32 = (x2 (ix2 p (0 : Fin 1)) : BitVec 32)
  · rw [if_pos h, if_pos (by rw [beq_iff_eq.mpr h]; rfl)]
  · rw [if_neg h, if_neg (by rw [beq_eq_false_iff_ne.mpr h]; decide)]

/-- When the token id of row p is the word of a vocabulary position k and the block coordinate is j, the comparison
    holds exactly at the lane q with 256 j + q = k. -/
theorem pay9_cond_iff (j : Nat) (hj : j < 125) (q : Fin 256) (k : Fin 32000) :
    (BitVec.ofNat 32 q.val + BitVec.ofNat 32 j * 256#32 = BitVec.ofNat 32 k.val) ↔ 256 * j + q.val = k.val := by
  have hq := q.isLt
  have hk := k.isLt
  rw [← BitVec.toNat_inj]
  simp only [BitVec.toNat_add, BitVec.toNat_mul, BitVec.toNat_ofNat]
  omega

/-- So for a row whose token id is the word of vocabulary position k, at block coordinate below 125, the block's
    share of the target logit is the one-hot sum over the block's columns. -/
theorem pay9_apply_of_id (i : grid0.Coords) (x0 : Vec Ideal S1024x2048 .bf16) (x1 : Vec Ideal S256x2048 .f32)
    (x2 : Vec Ideal S1024x1 .i32) (p : Fin 1024) (k : Fin 32000)
    (hk : (x2 (ix2 p (0 : Fin 1)) : BitVec 32) = BitVec.ofNat 32 k.val) (hi : (i 1).val < 125) :
    k0_pay9 i x0 x1 x2 (ix2 p (0 : Fin 1))
      = ∑ q : Fin 256, (if 256 * (i 1).val + q.val = k.val then k0_pay8 x0 x1 (ix2 p q) else (0 : EReal)) := by
  rw [pay9_apply, hk]
  exact Finset.sum_congr rfl fun q _ => if_congr (pay9_cond_iff (i 1).val hi q k) rfl rfl

/-! ## The target-logit and logit-sum updates, and the stored running maximum -/

/-- The stored running maximum is the computed one. -/
theorem pay1_apply (v23 : FVec Ideal S1024x1 .f32) : k0_pay1 v23 = v23 := by
  unfold k0_pay1
  exact shapeCast_self _ _

/-- The new target logit of row p: the old one plus the block's share. -/
theorem pay2_apply (v19 : FVec Ideal S1024x1 .f32) (s2 : Vec Ideal S1024x1 .f32) (p : Fin 1024) :
    k0_pay2 v19 s2 (ix2 p (0 : Fin 1)) = (s2 (ix2 p (0 : Fin 1)) : EReal) + v19 (ix2 p (0 : Fin 1)) := by
  unfold k0_pay2
  rw [shapeCast_self]
  rfl

/-- The new logit sum of row p: the old one plus the sum of the block's 256 logits of the row. -/
theorem pay3_apply (v7 : FVec Ideal S1024x256 .f32) (s3 : Vec Ideal S1024x1 .f32) (p : Fin 1024) :
    k0_pay3 v7 s3 (ix2 p (0 : Fin 1)) = (s3 (ix2 p (0 : Fin 1)) : EReal) + ∑ q : Fin 256, v7 (ix2 p q) := by
  unfold k0_pay3
  rw [shapeCast_self]
  show (s3 (ix2 p (0 : Fin 1)) : EReal) + shapeCast S1024x1 _ shapeCasts_S1024_S1024x1 (ix2 p (0 : Fin 1)) = _
  rw [col_cast_apply]
  exact congrArg (_ + ·) (rowSum_apply v7 _ _ p)

/-! ## The initial values of the four carried statistics -/

/-- The running maximum starts at the bottom. -/
theorem pay4_at (j : S1024x1.Idx) : k0_pay4 (F := Ideal) j = (⊥ : EReal) := by
  unfold k0_pay4
  rw [shapeCast_self]
  exact ofBits_neg_inf_f32

/-- The running sum of exponentials starts at zero. -/
theorem pay5_at (j : S1024x1.Idx) : k0_pay5 (F := Ideal) j = (0 : EReal) := by
  unfold k0_pay5
  rw [shapeCast_self]
  exact Ideal.ofBits_zero_f32

/-- The target logit starts at zero. -/
theorem pay6_at (j : S1024x1.Idx) : k0_pay6 (F := Ideal) j = (0 : EReal) := by
  unfold k0_pay6
  rw [shapeCast_self]
  exact Ideal.ofBits_zero_f32

/-- The logit sum starts at zero. -/
theorem pay7_at (j : S1024x1.Idx) : k0_pay7 (F := Ideal) j = (0 : EReal) := by
  unfold k0_pay7
  rw [shapeCast_self]
  exact Ideal.ofBits_zero_f32

/-- The running maximum starts at the bottom, at row p. -/
theorem pay4_apply (p : Fin 1024) : k0_pay4 (F := Ideal) (ix2 p (0 : Fin 1)) = (⊥ : EReal) := pay4_at _

/-- The running sum of exponentials starts at zero, at row p. -/
theorem pay5_apply (p : Fin 1024) : k0_pay5 (F := Ideal) (ix2 p (0 : Fin 1)) = (0 : EReal) := pay5_at _

/-- The target logit starts at zero, at row p. -/
theorem pay6_apply (p : Fin 1024) : k0_pay6 (F := Ideal) (ix2 p (0 : Fin 1)) = (0 : EReal) := pay6_at _

/-- The logit sum starts at zero, at row p. -/
theorem pay7_apply (p : Fin 1024) : k0_pay7 (F := Ideal) (ix2 p (0 : Fin 1)) = (0 : EReal) := pay7_at _

end Cert.KernelIdeal.HandPay

end
-- ==== Proof.KI.Blocks0.lean ====
/-
  Where the blocks of pallas_call 0's four windows sit in their arrays, at a symbolic grid point. The grid is (2, 125)
  in row-major order: point t has coordinates (t / 125, t % 125). Windows 0, 2 and 3 move with the first coordinate in
  blocks of 1024 rows; window 1 moves with the second in blocks of 256 rows; no window moves along its second axis. So
  a block's row p is row 1024 · (t / 125) + p (windows 0, 2, 3) or 256 · (t % 125) + q (window 1) of its array, the
  column unchanged. Row r of the output array lies in the blocks of exactly the points t with t / 125 = r / 1024, of
  which the one written back is 125 · (r / 1024) + 124; these write-backs cover the array.
-/
import proofs.«420414_j89421219103752_3_alg».proof.Proof.Gen.KernelIdeal.Launch
import proofs.«420414_j89421219103752_3_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.HandBlocks

open Cert.KernelIdeal Cert.KernelIdeal.Gen

variable {Val : EltTy → Type}

/-- The grid has 250 points. -/
theorem N0 : cfg0.N = 250 := N_0

/-- The printed index maps over the grid: windows 0, 2, 3 at block row t / 125, window 1 at block row t % 125, every
    window at block column 0. -/
theorem idx0 : ∀ t : Fin cfg0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val / 125 ∧ win0_3.index t (1 : Fin 2) = 0 :=
  (by decide +kernel : ∀ t : Fin grid0.N, _)

/-- Row p of the 1024-row block at point t is a row of the 2048-row array. -/
theorem row0_lt (t : Fin cfg0.N) (p : Fin 1024) : 1024 * (t.val / 125) + p.val < 2048 := by
  have h1 := t.isLt
  have h2 : cfg0.N = 250 := N_0
  omega

/-- Row q of the 256-row block at point t is a row of the 32000-row array. -/
theorem vrow0_lt (t : Fin cfg0.N) (q : Fin 256) : 256 * (t.val % 125) + q.val < 32000 := by
  have h1 := q.isLt
  have h2 : t.val % 125 < 125 := Nat.mod_lt _ (by decide)
  omega

/-- Window 0's block at point t, read at (p, h), is its array at (1024 · (t / 125) + p, h). -/
theorem blk0_0 (A0 : S2048x2048.Idx → Val .bf16) (t : Fin cfg0.N) (p : Fin 1024) (h : Fin 2048) :
    ((cfg0.win 0).blk t).view.read Val A0 (ix2 p h) = A0 (ix2 ⟨1024 * (t.val / 125) + p.val, row0_lt t p⟩ h) := by
  obtain ⟨e0, e1, -⟩ := idx0 t
  show A0 (((cfg0.win 0).blk t).view.emb (ix2 p h)) = _
  congr 1
  funext a
  apply Fin.ext
  match a with
  | ⟨0, _⟩ => show win0_0.index t (0 : Fin 2) * 1024 + 1 * p.val = 1024 * (t.val / 125) + p.val; omega
  | ⟨1, _⟩ => show win0_0.index t (1 : Fin 2) * 2048 + 1 * h.val = h.val; omega

/-- Window 1's block at point t, read at (q, h), is its array at (256 · (t % 125) + q, h). -/
theorem blk0_1 (A1 : S32000x2048.Idx → Val .f32) (t : Fin cfg0.N) (q : Fin 256) (h : Fin 2048) :
    ((cfg0.win 1).blk t).view.read Val A1 (ix2 q h) = A1 (ix2 ⟨256 * (t.val % 125) + q.val, vrow0_lt t q⟩ h) := by
  obtain ⟨-, -, e0, e1, -⟩ := idx0 t
  show A1 (((cfg0.win 1).blk t).view.emb (ix2 q h)) = _
  congr 1
  funext a
  apply Fin.ext
  match a with
  | ⟨0, _⟩ => show win0_1.index t (0 : Fin 2) * 256 + 1 * q.val = 256 * (t.val % 125) + q.val; omega
  | ⟨1, _⟩ => show win0_1.index t (1 : Fin 2) * 2048 + 1 * h.val = h.val; omega

/-- Window 2's block at point t, read at (p, 0), is its array at (1024 · (t / 125) + p, 0). -/
theorem blk0_2 (A2 : S2048x1.Idx → Val .i32) (t : Fin cfg0.N) (p : Fin 1024) :
    ((cfg0.win 2).blk t).view.read Val A2 (ix2 p (0 : Fin 1)) = A2 (ix2 ⟨1024 * (t.val / 125) + p.val, row0_lt t p⟩ (0 : Fin 1)) := by
  obtain ⟨-, -, -, -, e0, e1, -⟩ := idx0 t
  show A2 (((cfg0.win 2).blk t).view.emb (ix2 p (0 : Fin 1))) = _
  congr 1
  funext a
  apply Fin.ext
  match a with
  | ⟨0, _⟩ => show win0_2.index t (0 : Fin 2) * 1024 + 1 * p.val = 1024 * (t.val / 125) + p.val; omega
  | ⟨1, _⟩ => show win0_2.index t (1 : Fin 2) * 1 + 1 * (0 : Fin 1).val = (0 : Fin 1).val; omega

/-- Window 3's block at point t, read at (p, k), is its array at (1024 · (t / 125) + p, k). -/
theorem blk0_3 (G : S2048x4.Idx → Val .f32) (t : Fin cfg0.N) (p : Fin 1024) (k : Fin 4) :
    ((cfg0.win 3).blk t).view.read Val G (ix2 p k) = G (ix2 ⟨1024 * (t.val / 125) + p.val, row0_lt t p⟩ k) := by
  obtain ⟨-, -, -, -, -, -, e0, e1⟩ := idx0 t
  show G (((cfg0.win 3).blk t).view.emb (ix2 p k)) = _
  congr 1
  funext a
  apply Fin.ext
  match a with
  | ⟨0, _⟩ => show win0_3.index t (0 : Fin 2) * 1024 + 1 * p.val = 1024 * (t.val / 125) + p.val; omega
  | ⟨1, _⟩ => show win0_3.index t (1 : Fin 2) * 4 + 1 * k.val = k.val; omega

/-- An index of the output array is in point t's block iff its row is in the point's 1024-row band. -/
theorem mem_blk0_3 (t : Fin cfg0.N) (i : S2048x4.Idx) :
    i ∈ ((cfg0.win 3).blk t).view.set ↔ (i 0).val / 1024 = t.val / 125 := by
  show i ∈ ((View.whole main_v6).slice (win0_3.rect t)).set ↔ _
  rw [View.set_slice_whole, Rect.mem_set_unit]
  obtain ⟨-, -, -, -, -, -, e0, e1⟩ := idx0 t
  have hi1 : (i 1).val < 4 := (i 1).isLt
  constructor
  · intro h
    have b0 : win0_3.index t (0 : Fin 2) * 1024 ≤ (i 0).val ∧ (i 0).val < win0_3.index t (0 : Fin 2) * 1024 + 1024 := h 0
    omega
  · intro h a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 4 ≤ (i 1).val ∧ (i 1).val < win0_3.index t (1 : Fin 2) * 4 + 4; omega

/-- The point with grid coordinates (a, j). -/
def pt0 (a : Fin 2) (j : Fin 125) : Fin cfg0.N :=
  ⟨125 * a.val + j.val, by have h1 := a.isLt; have h2 := j.isLt; have h3 : cfg0.N = 250 := N_0; omega⟩

theorem pt0_val (a : Fin 2) (j : Fin 125) : (pt0 a j).val = 125 * a.val + j.val := rfl
theorem pt0_div (a : Fin 2) (j : Fin 125) : (pt0 a j).val / 125 = a.val := by
  have h2 := j.isLt; rw [pt0_val]; omega
theorem pt0_mod (a : Fin 2) (j : Fin 125) : (pt0 a j).val % 125 = j.val := by
  have h2 := j.isLt; rw [pt0_val]; omega
/-- Every point is the point of its coordinates. -/
theorem eq_pt0 (t : Fin cfg0.N) :
    t = pt0 ⟨t.val / 125, by have h1 := t.isLt; have h3 : cfg0.N = 250 := N_0; omega⟩ ⟨t.val % 125, Nat.mod_lt _ (by decide)⟩ := by
  apply Fin.ext; rw [pt0_val]; show t.val = 125 * (t.val / 125) + t.val % 125; omega

/-- The last point of the band of row r: the one point that writes the row's block back. -/
def last0 (r : Fin 2048) : Fin cfg0.N :=
  ⟨125 * (r.val / 1024) + 124, by have h1 := r.isLt; have h3 : cfg0.N = 250 := N_0; omega⟩

theorem last0_val (r : Fin 2048) : (last0 r).val = 125 * (r.val / 1024) + 124 := rfl
theorem last0_div (r : Fin 2048) : (last0 r).val / 125 = r.val / 1024 := by rw [last0_val]; omega
theorem last0_mod (r : Fin 2048) : (last0 r).val % 125 = 124 := by rw [last0_val]; omega

/-- The last point of a row's band writes its block back, -/
theorem flush_last0 (r : Fin 2048) : (cfg0.win 3).flush (last0 r) = true :=
  (flush0_3 (last0 r)).mpr (last0_mod r)

/-- and its block holds the row. -/
theorem mem_last0 (i : S2048x4.Idx) : i ∈ ((cfg0.win 3).blk (last0 (i 0))).view.set := by
  rw [mem_blk0_3]; exact (last0_div (i 0)).symm

/-- THE COVER: every index of the output array is in the block of a point that writes back. -/
theorem cover0_3 (i : S2048x4.Idx) :
    ∃ t : Fin cfg0.N, (cfg0.win 3).flush t = true ∧ i ∈ ((cfg0.win 3).blk t).view.set :=
  ⟨last0 (i 0), flush_last0 (i 0), mem_last0 i⟩

/-- A point that writes back and whose block holds an index is the last point of the index's row band: the only one. -/
theorem eq_last0_of_flush_mem (t : Fin cfg0.N) (i : S2048x4.Idx) (hf : (cfg0.win 3).flush t = true)
    (hi : i ∈ ((cfg0.win 3).blk t).view.set) : t = last0 (i 0) := by
  rw [mem_blk0_3] at hi
  have hm := (flush0_3 t).mp hf
  apply Fin.ext
  show t.val = 125 * ((i 0).val / 1024) + 124
  omega

/-- A point that writes back is the last point of its own band. -/
theorem flush0_iff_last (t : Fin cfg0.N) : (cfg0.win 3).flush t = true ↔ t.val = 125 * (t.val / 125) + 124 := by
  rw [flush0_3]; omega

end Cert.KernelIdeal.HandBlocks

end
-- ==== Proof.KI.Pieces0A.lean ====
/- What the first vocabulary block leaves in the four carried scratches of region 0, as payload terms: each scratch is
   stored its initial value (the bottom for the running maximum, zero for the running sum of exponentials, the target
   logit and the logit sum), the update reads that value back, and the update's store is what the scratch ends with. -/
import proofs.«420414_j89421219103752_3_alg».proof.Proof.KI.Frame0
import Idealize.ShloMosaic.Lib.Pipeline.Value

set_option maxRecDepth 16384

noncomputable section

namespace Cert.KernelIdeal.HandValue

open Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a rank-2 rectangle, as a function. -/
theorem hz0A : (![0, 0] : Fin 2 → Nat) = fun _ => 0 := funext fun a => by fin_cases a <;> rfl

/-- After the first vocabulary block scratch 0 (running maximum) holds the block's row maxima against the initial bottom: the initial value is stored, read
    back by the update, and the update's store is what the scratch ends with. -/
theorem sout0_A_0_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) :
    sout0_A_0 c i arg2 harg2 arg3 harg3 arg4 harg4 arg5 harg5 arg6 harg6 arg7 harg7 arg8 harg8 arg9 harg9 hc0 hc1 x0 x1 x2 = k0_pay1 (k0_pay10 x0 x1 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero hz0A]
  simp only [View.readAt_eq_ld, harg2.read_unread, harg3.read_unread, harg4.read_unread,
    View.ld_unit_zero (S := S1024x2048) hz0A, View.ld_unit_zero (S := S256x2048) hz0A, View.ld_unit_zero (S := S1024x1) hz0A,
    View.readCov_unit_zero (S := S1024x1) arg6.view hz0A, View.readCov_unit_zero (S := S1024x1) arg7.view hz0A,
    View.readCov_unit_zero (S := S1024x1) arg8.view hz0A, View.readCov_unit_zero (S := S1024x1) arg9.view hz0A]

/-- After the first vocabulary block scratch 1 (running sum of exponentials) holds the block's exponentials shifted by the new maximum, the initial zero rescaled in front: the initial value is stored, read
    back by the update, and the update's store is what the scratch ends with. -/
theorem sout0_A_1_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) :
    sout0_A_1 c i arg2 harg2 arg3 harg3 arg4 harg4 arg5 harg5 arg6 harg6 arg7 harg7 arg8 harg8 arg9 harg9 hc0 hc1 x0 x1 x2 = k0_pay11 x0 x1 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero hz0A]
  simp only [View.readAt_eq_ld, harg2.read_unread, harg3.read_unread, harg4.read_unread,
    View.ld_unit_zero (S := S1024x2048) hz0A, View.ld_unit_zero (S := S256x2048) hz0A, View.ld_unit_zero (S := S1024x1) hz0A,
    View.readCov_unit_zero (S := S1024x1) arg6.view hz0A, View.readCov_unit_zero (S := S1024x1) arg7.view hz0A,
    View.readCov_unit_zero (S := S1024x1) arg8.view hz0A, View.readCov_unit_zero (S := S1024x1) arg9.view hz0A]

/-- After the first vocabulary block scratch 2 (target logit) holds the block's share of the target logit added to the initial zero: the initial value is stored, read
    back by the update, and the update's store is what the scratch ends with. -/
theorem sout0_A_2_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) :
    sout0_A_2 c i arg2 harg2 arg3 harg3 arg4 harg4 arg5 harg5 arg6 harg6 arg7 harg7 arg8 harg8 arg9 harg9 hc0 hc1 x0 x1 x2 = k0_pay2 (k0_pay9 i x0 x1 x2) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero hz0A]
  simp only [View.readAt_eq_ld, harg2.read_unread, harg3.read_unread, harg4.read_unread,
    View.ld_unit_zero (S := S1024x2048) hz0A, View.ld_unit_zero (S := S256x2048) hz0A, View.ld_unit_zero (S := S1024x1) hz0A,
    View.readCov_unit_zero (S := S1024x1) arg6.view hz0A, View.readCov_unit_zero (S := S1024x1) arg7.view hz0A,
    View.readCov_unit_zero (S := S1024x1) arg8.view hz0A, View.readCov_unit_zero (S := S1024x1) arg9.view hz0A]

/-- After the first vocabulary block scratch 3 (logit sum) holds the block's row sums added to the initial zero: the initial value is stored, read
    back by the update, and the update's store is what the scratch ends with. -/
theorem sout0_A_3_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S256x2048 .f32) (x2 : Vec F S1024x1 .i32) :
    sout0_A_3 c i arg2 harg2 arg3 harg3 arg4 harg4 arg5 harg5 arg6 harg6 arg7 harg7 arg8 harg8 arg9 harg9 hc0 hc1 x0 x1 x2 = k0_pay3 (k0_pay8 x0 x1) (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero hz0A]
  simp only [View.readAt_eq_ld, harg2.read_unread, harg3.read_unread, harg4.read_unread,
    View.ld_unit_zero (S := S1024x2048) hz0A, View.ld_unit_zero (S := S256x2048) hz0A, View.ld_unit_zero (S := S1024x1) hz0A,
    View.readCov_unit_zero (S := S1024x1) arg6.view hz0A, View.readCov_unit_zero (S := S1024x1) arg7.view hz0A,
    View.readCov_unit_zero (S := S1024x1) arg8.view hz0A, View.readCov_unit_zero (S := S1024x1) arg9.view hz0A]

end Cert.KernelIdeal.HandValue

end
-- ==== Proof.KI.Run0Read.lean ====
/- What the three runs of region 0's kernel body leave in each buffer, read off as explicit lists of pieces: every
   scratch ends covered by ONE whole store whose payload is the block's update of the carried statistic (running
   maximum m, rescaled sum of exponentials l, target logit t, logit sum s); at a first vocabulary block the update
   starts from the initial values (−∞, 0, 0, 0) stored just before; at the last block the output's four columns
   receive the four new statistics. -/
import proofs.«420414_j89421219103752_3_alg».proof.Proof.KI.Run0C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle, as a function. -/
theorem hzero0 : (![0, 0] : Fin 2 → Nat) = fun _ => 0 := funext fun a => by fin_cases a <;> rfl

/-! ## Case A: each scratch is initialised, then updated from the initial value -/

theorem pieces0_A_out (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S256x2048 .f32) (x2 : Vec F S1024x1 .i32) : (kernelRun0_A c i arg2 harg2 arg3 harg3 arg4 harg4 arg5 harg5 arg6 harg6 arg7 harg7 arg8 harg8 arg9 harg9 hc0 hc1 x0 x1 x2).1 = [] := rfl
theorem pieces0_A_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S256x2048 .f32) (x2 : Vec F S1024x1 .i32) :
    (kernelRun0_A c i arg2 harg2 arg3 harg3 arg4 harg4 arg5 harg5 arg6 harg6 arg7 harg7 arg8 harg8 arg9 harg9 hc0 hc1 x0 x1 x2).2.1 = [⟨Rect.unit ![0, 0] S1024x1.size inb_S1024x1_S1024x1_0_0, k0_pay1 (k0_pay10 x0 x1 (k0_pay4 (F := F)))⟩, ⟨Rect.unit ![0, 0] S1024x1.size inb_S1024x1_S1024x1_0_0, k0_pay4⟩] := by
  unfold kernelRun0_A
  dsimp only
  sl_unfold_words
  simp only [View.readAt_eq_ld, harg2.read_unread, harg3.read_unread, harg4.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_A_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S256x2048 .f32) (x2 : Vec F S1024x1 .i32) :
    (kernelRun0_A c i arg2 harg2 arg3 harg3 arg4 harg4 arg5 harg5 arg6 harg6 arg7 harg7 arg8 harg8 arg9 harg9 hc0 hc1 x0 x1 x2).2.2.1 = [⟨Rect.unit ![0, 0] S1024x1.size inb_S1024x1_S1024x1_0_0, k0_pay11 x0 x1 (k0_pay4 (F := F)) (k0_pay5 (F := F))⟩, ⟨Rect.unit ![0, 0] S1024x1.size inb_S1024x1_S1024x1_0_0, k0_pay5⟩] := by
  unfold kernelRun0_A
  dsimp only
  sl_unfold_words
  simp only [View.readAt_eq_ld, harg2.read_unread, harg3.read_unread, harg4.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_A_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S256x2048 .f32) (x2 : Vec F S1024x1 .i32) :
    (kernelRun0_A c i arg2 harg2 arg3 harg3 arg4 harg4 arg5 harg5 arg6 harg6 arg7 harg7 arg8 harg8 arg9 harg9 hc0 hc1 x0 x1 x2).2.2.2.1 = [⟨Rect.unit ![0, 0] S1024x1.size inb_S1024x1_S1024x1_0_0, k0_pay2 (k0_pay9 i x0 x1 x2) (k0_pay6 (F := F))⟩, ⟨Rect.unit ![0, 0] S1024x1.size inb_S1024x1_S1024x1_0_0, k0_pay6⟩] := by
  unfold kernelRun0_A
  dsimp only
  sl_unfold_words
  simp only [View.readAt_eq_ld, harg2.read_unread, harg3.read_unread, harg4.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_A_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .bf16) (x1 : Vec F S256x2048 .f32) (x2 : Vec F S1024x1 .i32) :
    (kernelRun0_A c i arg2 harg2 arg3 harg3 arg4 harg4 arg5 harg5 arg6 harg6 arg7 harg7 arg8 harg8 arg9 harg9 hc0 hc1 x0 x1 x2).2.2.2.2.1 = [⟨Rect.unit ![0, 0] S1024x1.size inb_S1024x1_S1024x1_0_0, k0_pay3 (k0_pay8 x0 x1) (k0_pay7 (F := F))⟩, ⟨Rect.unit ![0, 0] S1024x1.size inb_S1024x1_S1024x1_0_0, k0_pay7⟩] := by
  unfold kernelRun0_A
  dsimp only
  sl_unfold_words
  simp only [View.readAt_eq_ld, harg2.read_unread, harg3.read_unread, harg4.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]

/-! ## Case B: each scratch is updated from what the block before left -/

theorem pieces0_B_out (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) : (kernelRun0_B c i arg2 harg2 arg3 harg3 arg4 harg4 arg5 harg5 arg6 harg6 arg7 harg7 arg8 harg8 arg9 harg9 hc0 hc1 x0 x1 x2 xs0 xs1 xs2 xs3).1 = [] := rfl
theorem pieces0_B_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    (kernelRun0_B c i arg2 harg2 arg3 harg3 arg4 harg4 arg5 harg5 arg6 harg6 arg7 harg7 arg8 harg8 arg9 harg9 hc0 hc1 x0 x1 x2 xs0 xs1 xs2 xs3).2.1 = [⟨Rect.unit ![0, 0] S1024x1.size inb_S1024x1_S1024x1_0_0, k0_pay1 (k0_pay10 x0 x1 xs0)⟩] := by
  unfold kernelRun0_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_B_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    (kernelRun0_B c i arg2 harg2 arg3 harg3 arg4 harg4 arg5 harg5 arg6 harg6 arg7 harg7 arg8 harg8 arg9 harg9 hc0 hc1 x0 x1 x2 xs0 xs1 xs2 xs3).2.2.1 = [⟨Rect.unit ![0, 0] S1024x1.size inb_S1024x1_S1024x1_0_0, k0_pay11 x0 x1 xs0 xs1⟩] := by
  unfold kernelRun0_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_B_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    (kernelRun0_B c i arg2 harg2 arg3 harg3 arg4 harg4 arg5 harg5 arg6 harg6 arg7 harg7 arg8 harg8 arg9 harg9 hc0 hc1 x0 x1 x2 xs0 xs1 xs2 xs3).2.2.2.1 = [⟨Rect.unit ![0, 0] S1024x1.size inb_S1024x1_S1024x1_0_0, k0_pay2 (k0_pay9 i x0 x1 x2) xs2⟩] := by
  unfold kernelRun0_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_B_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    (kernelRun0_B c i arg2 harg2 arg3 harg3 arg4 harg4 arg5 harg5 arg6 harg6 arg7 harg7 arg8 harg8 arg9 harg9 hc0 hc1 x0 x1 x2 xs0 xs1 xs2 xs3).2.2.2.2.1 = [⟨Rect.unit ![0, 0] S1024x1.size inb_S1024x1_S1024x1_0_0, k0_pay3 (k0_pay8 x0 x1) xs3⟩] := by
  unfold kernelRun0_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]

/-! ## Case C: the scratches as in case B; the output's four columns are the scratches' new values -/

theorem pieces0_C_out (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    (kernelRun0_C c i arg2 harg2 arg3 harg3 arg4 harg4 arg5 harg5 arg6 harg6 arg7 harg7 arg8 harg8 arg9 harg9 hc0 hc1 x0 x1 x2 xs0 xs1 xs2 xs3).1 = [⟨(Rect.unit (s := S1024x4) ![0, 3] S1024x1.size inb_S1024x4_S1024x1_0_3), k0_pay3 (k0_pay8 x0 x1) xs3⟩, ⟨(Rect.unit (s := S1024x4) ![0, 2] S1024x1.size inb_S1024x4_S1024x1_0_2), k0_pay2 (k0_pay9 i x0 x1 x2) xs2⟩, ⟨(Rect.unit (s := S1024x4) ![0, 1] S1024x1.size inb_S1024x4_S1024x1_0_1), k0_pay11 x0 x1 xs0 xs1⟩, ⟨(Rect.unit (s := S1024x4) ![0, 0] S1024x1.size inb_S1024x4_S1024x1_0_0), k0_pay1 (k0_pay10 x0 x1 xs0)⟩] := by
  unfold kernelRun0_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_C_0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    (kernelRun0_C c i arg2 harg2 arg3 harg3 arg4 harg4 arg5 harg5 arg6 harg6 arg7 harg7 arg8 harg8 arg9 harg9 hc0 hc1 x0 x1 x2 xs0 xs1 xs2 xs3).2.1 = [⟨Rect.unit ![0, 0] S1024x1.size inb_S1024x1_S1024x1_0_0, k0_pay1 (k0_pay10 x0 x1 xs0)⟩] := by
  unfold kernelRun0_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_C_1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    (kernelRun0_C c i arg2 harg2 arg3 harg3 arg4 harg4 arg5 harg5 arg6 harg6 arg7 harg7 arg8 harg8 arg9 harg9 hc0 hc1 x0 x1 x2 xs0 xs1 xs2 xs3).2.2.1 = [⟨Rect.unit ![0, 0] S1024x1.size inb_S1024x1_S1024x1_0_0, k0_pay11 x0 x1 xs0 xs1⟩] := by
  unfold kernelRun0_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_C_2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    (kernelRun0_C c i arg2 harg2 arg3 harg3 arg4 harg4 arg5 harg5 arg6 harg6 arg7 harg7 arg8 harg8 arg9 harg9 hc0 hc1 x0 x1 x2 xs0 xs1 xs2 xs3).2.2.2.1 = [⟨Rect.unit ![0, 0] S1024x1.size inb_S1024x1_S1024x1_0_0, k0_pay2 (k0_pay9 i x0 x1 x2) xs2⟩] := by
  unfold kernelRun0_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]
theorem pieces0_C_3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    (kernelRun0_C c i arg2 harg2 arg3 harg3 arg4 harg4 arg5 harg5 arg6 harg6 arg7 harg7 arg8 harg8 arg9 harg9 hc0 hc1 x0 x1 x2 xs0 xs1 xs2 xs3).2.2.2.2.1 = [⟨Rect.unit ![0, 0] S1024x1.size inb_S1024x1_S1024x1_0_0, k0_pay3 (k0_pay8 x0 x1) xs3⟩] := by
  unfold kernelRun0_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero0, View.ld_unit_zero (S := S256x2048) hzero0, View.ld_unit_zero (S := S1024x1) hzero0,
    View.readCov_unit_zero (S := S1024x1) arg6.view hzero0, View.readCov_unit_zero (S := S1024x1) arg7.view hzero0, View.readCov_unit_zero (S := S1024x1) arg8.view hzero0, View.readCov_unit_zero (S := S1024x1) arg9.view hzero0]

end Cert.KernelIdeal.Hand

end
-- ==== Proof.KI.Pieces0C.lean ====
/-
  The last vocabulary block of a row band, read off: what the kernel body leaves in each of the four carried scratches
  (running maximum, running sum of exponentials, target logit, logit sum) is that scratch's update from its value
  before, and the output block's four columns are those same four updated values, column k holding scratch k.
  The body stores each column through a [1024, 1] rectangle at column offset k of the [1024, 4] block, the last store
  first in the list; reading (p, k) skips the stores at other columns and hits the one at column k at row p.
-/
import proofs.«420414_j89421219103752_3_alg».proof.Proof.KI.Frame0
import proofs.«420414_j89421219103752_3_alg».proof.Proof.KI.Run0Read
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The zero offset of a rank-2 rectangle, as a function. -/
theorem hz0C : (![0, 0] : Fin 2 → Nat) = fun _ => 0 := funext fun a => by fin_cases a <;> rfl

/-- A last store of a column at offset k of the [1024, 4] block is what the block reads at (p, k). -/
theorem canon_col_hit {Val : EltTy → Type} [∀ e, Nonempty (Val e)] (k : Nat) (inb : ∀ a, (![0, k] : Fin 2 → Nat) a + S1024x1.size a ≤ S1024x4.size a)
    (w : S1024x1.Idx → Val .f32) (L : List (View.Piece Val S1024x4 .f32)) (p : Fin 1024) (y : S1024x4.Idx)
    (h0 : (y 0).val = p.val) (h1 : (y 1).val = k) :
    View.canon ((⟨Rect.unit (s := S1024x4) ![0, k] S1024x1.size inb, w⟩ : View.Piece Val S1024x4 .f32) :: L) y = w (ix2 p (0 : Fin 1)) := by
  have e : (Rect.unit (s := S1024x4) ![0, k] S1024x1.size inb).emb (ix2 p (0 : Fin 1)) = y := by
    funext a; apply Fin.ext
    match a with
    | ⟨0, _⟩ => show 0 + 1 * p.val = (y 0).val; omega
    | ⟨1, _⟩ => show k + 1 * 0 = (y 1).val; omega
  rw [← e]; exact View.canon_cons_emb (Rect.unit (s := S1024x4) ![0, k] S1024x1.size inb) w L (ix2 p (0 : Fin 1))

/-- A store of a column at offset k leaves the other columns to the earlier stores. -/
theorem canon_col_skip {Val : EltTy → Type} [∀ e, Nonempty (Val e)] (k : Nat) (inb : ∀ a, (![0, k] : Fin 2 → Nat) a + S1024x1.size a ≤ S1024x4.size a)
    (w : S1024x1.Idx → Val .f32) (L : List (View.Piece Val S1024x4 .f32)) (y : S1024x4.Idx) (h1 : (y 1).val ≠ k) :
    View.canon ((⟨Rect.unit (s := S1024x4) ![0, k] S1024x1.size inb, w⟩ : View.Piece Val S1024x4 .f32) :: L) y = View.canon L y :=
  View.canon_cons_of_not_mem _ L (by
    rw [Rect.mem_set_unit]; intro h
    have h1' : k ≤ (y 1).val ∧ (y 1).val < k + 1 := h 1
    omega)

/-! ## The scratches after the last vocabulary block -/

theorem sout0_C_0_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    sout0_C_0 c i arg2 harg2 arg3 harg3 arg4 harg4 arg5 harg5 arg6 harg6 arg7 harg7 arg8 harg8 arg9 harg9 hc0 hc1 x0 x1 x2 xs0 xs1 xs2 xs3 = k0_pay1 (k0_pay10 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2 xs3), pieces0_C_0]
  exact View.canon_unit_zero hz0C _ _

theorem sout0_C_1_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    sout0_C_1 c i arg2 harg2 arg3 harg3 arg4 harg4 arg5 harg5 arg6 harg6 arg7 harg7 arg8 harg8 arg9 harg9 hc0 hc1 x0 x1 x2 xs0 xs1 xs2 xs3 = k0_pay11 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2 xs3), pieces0_C_1]
  exact View.canon_unit_zero hz0C _ _

theorem sout0_C_2_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    sout0_C_2 c i arg2 harg2 arg3 harg3 arg4 harg4 arg5 harg5 arg6 harg6 arg7 harg7 arg8 harg8 arg9 harg9 hc0 hc1 x0 x1 x2 xs0 xs1 xs2 xs3 = k0_pay2 (k0_pay9 i x0 x1 x2) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2 xs3), pieces0_C_2]
  exact View.canon_unit_zero hz0C _ _

theorem sout0_C_3_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) :
    sout0_C_3 c i arg2 harg2 arg3 harg3 arg4 harg4 arg5 harg5 arg6 harg6 arg7 harg7 arg8 harg8 arg9 harg9 hc0 hc1 x0 x1 x2 xs0 xs1 xs2 xs3 = k0_pay3 (k0_pay8 x0 x1) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 x2 xs0 xs1 xs2 xs3), pieces0_C_3]
  exact View.canon_unit_zero hz0C _ _

/-! ## The output block's four columns after the last vocabulary block -/

theorem out0_C_3_col0 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) (p : Fin 1024) :
    out0_C_3 c i arg2 harg2 arg3 harg3 arg4 harg4 arg5 harg5 arg6 harg6 arg7 harg7 arg8 harg8 arg9 harg9 hc0 hc1 x0 x1 x2 xs0 xs1 xs2 xs3 (ix2 p (0 : Fin 4)) = k0_pay1 (k0_pay10 x0 x1 xs0) (ix2 p (0 : Fin 1)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3), pieces0_C_out]
  refine (canon_col_skip 3 _ _ _ _ (by show (0 : Nat) ≠ 3; omega)).trans ?_
  refine (canon_col_skip 2 _ _ _ _ (by show (0 : Nat) ≠ 2; omega)).trans ?_
  refine (canon_col_skip 1 _ _ _ _ (by show (0 : Nat) ≠ 1; omega)).trans ?_
  exact canon_col_hit 0 _ _ _ p _ rfl rfl

theorem out0_C_3_col1 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) (p : Fin 1024) :
    out0_C_3 c i arg2 harg2 arg3 harg3 arg4 harg4 arg5 harg5 arg6 harg6 arg7 harg7 arg8 harg8 arg9 harg9 hc0 hc1 x0 x1 x2 xs0 xs1 xs2 xs3 (ix2 p (1 : Fin 4)) = k0_pay11 x0 x1 xs0 xs1 (ix2 p (0 : Fin 1)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3), pieces0_C_out]
  refine (canon_col_skip 3 _ _ _ _ (by show (1 : Nat) ≠ 3; omega)).trans ?_
  refine (canon_col_skip 2 _ _ _ _ (by show (1 : Nat) ≠ 2; omega)).trans ?_
  exact canon_col_hit 1 _ _ _ p _ rfl rfl

theorem out0_C_3_col2 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) (p : Fin 1024) :
    out0_C_3 c i arg2 harg2 arg3 harg3 arg4 harg4 arg5 harg5 arg6 harg6 arg7 harg7 arg8 harg8 arg9 harg9 hc0 hc1 x0 x1 x2 xs0 xs1 xs2 xs3 (ix2 p (2 : Fin 4)) = k0_pay2 (k0_pay9 i x0 x1 x2) xs2 (ix2 p (0 : Fin 1)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3), pieces0_C_out]
  refine (canon_col_skip 3 _ _ _ _ (by show (2 : Nat) ≠ 3; omega)).trans ?_
  exact canon_col_hit 2 _ _ _ p _ rfl rfl

theorem out0_C_3_col3 (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .bf16) (x1 : Vec F S256x2048 .f32) (x2 : Vec F S1024x1 .i32) (xs0 xs1 xs2 xs3 : Vec F S1024x1 .f32) (p : Fin 1024) :
    out0_C_3 c i arg2 harg2 arg3 harg3 arg4 harg4 arg5 harg5 arg6 harg6 arg7 harg7 arg8 harg8 arg9 harg9 hc0 hc1 x0 x1 x2 xs0 xs1 xs2 xs3 (ix2 p (3 : Fin 4)) = k0_pay3 (k0_pay8 x0 x1) xs3 (ix2 p (0 : Fin 1)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3), pieces0_C_out]
  exact canon_col_hit 3 _ _ _ p _ rfl rfl

end Cert.KernelIdeal.HandValue

end
-- ==== Proof.KI.Value0.lean ====
/- What region 0 leaves in its statistics array, at the ideal values. The kernel walks the vocabulary in 125 blocks of
   256 for each of the two blocks of 1024 token rows and carries four statistics of every row in scratch memory: the
   running maximum of the row's logits, the sum of their exponentials rescaled to the running maximum, the logit of the
   row's target token picked out by a one-hot comparison, and the plain sum of the logits. This module reads what each
   control case of the body leaves in the scratches as the body's arithmetic of the point's blocks, shows by induction over
   the vocabulary blocks that the scratches hold the specification's recurrences of the row's logits, and reads the four
   columns the last vocabulary block stores and the pipeline writes back as row r of the statistics array. -/
import proofs.«420414_j89421219103752_3_alg».proof.Proof.KI.Frame0
import proofs.«420414_j89421219103752_3_alg».proof.Proof.KI.Pay0
import proofs.«420414_j89421219103752_3_alg».proof.Proof.KI.Blocks0
import proofs.«420414_j89421219103752_3_alg».proof.Proof.KI.Pieces0A
import proofs.«420414_j89421219103752_3_alg».proof.Proof.KI.Pieces0C
import proofs.«420414_j89421219103752_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Cert.KernelIdeal.HandPay
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## What an inner vocabulary block leaves in the four scratches -/

section piecesB

variable {F : FTy → Type} [FloatOps F]

theorem hz0B : (![0, 0] : Fin 2 → Nat) = fun _ => 0 := funext fun a => by fin_cases a <;> rfl

/-- The running maximum takes in the block's maximum. -/
theorem sout0_B_0_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    sout0_B_0 c i arg2 harg2 arg3 harg3 arg4 harg4 arg5 harg5 arg6 harg6 arg7 harg7 arg8 harg8 arg9 harg9 hc0 hc1 x0 x1 x2 xs0 xs1 xs2 xs3 = k0_pay1 (k0_pay10 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz0B]
  simp only [View.readAt_eq_ld, harg2.read_unread, harg3.read_unread, harg4.read_unread, harg5.read_unread, harg6.read_unread, harg7.read_unread, harg8.read_unread, harg9.read_unread, View.ld_unit_zero (S := S1024x2048) hz0B, View.ld_unit_zero (S := S256x2048) hz0B, View.ld_unit_zero (S := S1024x1) hz0B]

/-- The sum of exponentials is rescaled to the new maximum and takes in the block's exponentials. -/
theorem sout0_B_1_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    sout0_B_1 c i arg2 harg2 arg3 harg3 arg4 harg4 arg5 harg5 arg6 harg6 arg7 harg7 arg8 harg8 arg9 harg9 hc0 hc1 x0 x1 x2 xs0 xs1 xs2 xs3 = k0_pay11 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz0B]
  simp only [View.readAt_eq_ld, harg2.read_unread, harg3.read_unread, harg4.read_unread, harg5.read_unread, harg6.read_unread, harg7.read_unread, harg8.read_unread, harg9.read_unread, View.ld_unit_zero (S := S1024x2048) hz0B, View.ld_unit_zero (S := S256x2048) hz0B, View.ld_unit_zero (S := S1024x1) hz0B]

/-- The target logit takes in the block's entry under the one-hot comparison. -/
theorem sout0_B_2_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    sout0_B_2 c i arg2 harg2 arg3 harg3 arg4 harg4 arg5 harg5 arg6 harg6 arg7 harg7 arg8 harg8 arg9 harg9 hc0 hc1 x0 x1 x2 xs0 xs1 xs2 xs3 = k0_pay2 (k0_pay9 i x0 x1 x2) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz0B]
  simp only [View.readAt_eq_ld, harg2.read_unread, harg3.read_unread, harg4.read_unread, harg5.read_unread, harg6.read_unread, harg7.read_unread, harg8.read_unread, harg9.read_unread, View.ld_unit_zero (S := S1024x2048) hz0B, View.ld_unit_zero (S := S256x2048) hz0B, View.ld_unit_zero (S := S1024x1) hz0B]

/-- The logit sum takes in the block's sum. -/
theorem sout0_B_3_eq (c : Dev nD) (i : grid0.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .bf16) (x1 : Vec F S256x2048 .f32) (x2 : Vec F S1024x1 .i32) (xs0 xs1 xs2 xs3 : Vec F S1024x1 .f32) :
    sout0_B_3 c i arg2 harg2 arg3 harg3 arg4 harg4 arg5 harg5 arg6 harg6 arg7 harg7 arg8 harg8 arg9 harg9 hc0 hc1 x0 x1 x2 xs0 xs1 xs2 xs3 = k0_pay3 (k0_pay8 x0 x1) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz0B]
  simp only [View.readAt_eq_ld, harg2.read_unread, harg3.read_unread, harg4.read_unread, harg5.read_unread, harg6.read_unread, harg7.read_unread, harg8.read_unread, harg9.read_unread, View.ld_unit_zero (S := S1024x2048) hz0B, View.ld_unit_zero (S := S256x2048) hz0B, View.ld_unit_zero (S := S1024x1) hz0B]

end piecesB

/-! ## The recurrences of the specification, one step -/

theorem runMax_succ (f : Fin 32000 → EReal) (n : ℕ) (h : n < 125) :
    Cert.Spec.runMax f (n + 1) = max (Cert.Spec.runMax f n) (Cert.Spec.blkMax f ⟨n, h⟩) := by
  rw [Cert.Spec.runMax, dif_pos h]

theorem runL_succ (f : Fin 32000 → EReal) (n : ℕ) (h : n < 125) :
    Cert.Spec.runL f (n + 1) = Ideal.exp (Cert.Spec.runMax f n - Cert.Spec.runMax f (n + 1)) * Cert.Spec.runL f n
      + ∑ q : Fin 256, Ideal.exp (Cert.Spec.blk f ⟨n, h⟩ q - Cert.Spec.runMax f (n + 1)) := by
  rw [Cert.Spec.runL, dif_pos h]

theorem runT_succ (f : Fin 32000 → EReal) (k : Fin 32000) (n : ℕ) (h : n < 125) :
    Cert.Spec.runT f k (n + 1) = Cert.Spec.runT f k n + ∑ q : Fin 256, (if 256 * n + q.val = k.val then Cert.Spec.blk f ⟨n, h⟩ q else 0) := by
  rw [Cert.Spec.runT, dif_pos h]

theorem runS_succ (f : Fin 32000 → EReal) (n : ℕ) (h : n < 125) :
    Cert.Spec.runS f (n + 1) = Cert.Spec.runS f n + ∑ q : Fin 256, Cert.Spec.blk f ⟨n, h⟩ q := by
  rw [Cert.Spec.runS, dif_pos h]

/-! ## One vocabulary block's update of the four statistics of a row, at the ideal values -/

section step

variable (x0 : Vec Ideal S1024x2048 .bf16) (x1 : Vec Ideal S256x2048 .f32)
variable (s0 s1 s3 : Vec Ideal S1024x1 .f32) (p : Fin 1024) (f : Fin 32000 → EReal) (n : ℕ) (hn : n < 125)

/-- The running maximum takes in the block's maximum. -/
theorem step_max (hx : ∀ q : Fin 256, (k0_pay8 x0 x1 (ix2 p q) : EReal) = Cert.Spec.blk f ⟨n, hn⟩ q)
    (h0 : (s0 (ix2 p (0 : Fin 1)) : EReal) = Cert.Spec.runMax f n) :
    (k0_pay10 x0 x1 s0 (ix2 p (0 : Fin 1)) : EReal) = Cert.Spec.runMax f (n + 1) := by
  refine (pay10_apply x0 x1 s0 p).trans ?_
  have e : (fun q : Fin 256 => (k0_pay8 x0 x1 (ix2 p q) : EReal)) = Cert.Spec.blk f ⟨n, hn⟩ := funext hx
  rw [e, h0, runMax_succ f n hn]
  rfl

/-- The running sum of exponentials is rescaled to the new maximum and takes in the block's exponentials. -/
theorem step_L (hx : ∀ q : Fin 256, (k0_pay8 x0 x1 (ix2 p q) : EReal) = Cert.Spec.blk f ⟨n, hn⟩ q)
    (h0 : (s0 (ix2 p (0 : Fin 1)) : EReal) = Cert.Spec.runMax f n)
    (h1 : (s1 (ix2 p (0 : Fin 1)) : EReal) = Cert.Spec.runL f n) :
    (k0_pay11 x0 x1 s0 s1 (ix2 p (0 : Fin 1)) : EReal) = Cert.Spec.runL f (n + 1) := by
  refine (pay11_apply x0 x1 s0 s1 p).trans ?_
  rw [step_max x0 x1 s0 p f n hn hx h0, h0, h1, runL_succ f n hn]
  congr 1
  exact Finset.sum_congr rfl fun q _ => by rw [hx q]

/-- The plain sum takes in the block's sum. -/
theorem step_S (hx : ∀ q : Fin 256, (k0_pay8 x0 x1 (ix2 p q) : EReal) = Cert.Spec.blk f ⟨n, hn⟩ q)
    (h3 : (s3 (ix2 p (0 : Fin 1)) : EReal) = Cert.Spec.runS f n) :
    (k0_pay3 (k0_pay8 x0 x1) s3 (ix2 p (0 : Fin 1)) : EReal) = Cert.Spec.runS f (n + 1) := by
  refine (pay3_apply (k0_pay8 x0 x1) s3 p).trans ?_
  rw [h3, runS_succ f n hn]
  congr 1
  exact Finset.sum_congr rfl fun q _ => hx q

end step

/-! ## The arrays the region reads and their blocks -/

section arrays

variable (V : (c : Dev nD) → (b : Ref sig .tc) → Buf (Elt Ideal) ((c : Thread nD τ).loc b))

/-- The block indices of the four windows over the grid: the row-block coordinate is the point's quotient by 125, the
    vocabulary-block coordinate its remainder. -/
theorem idx_facts0 : ∀ t : Fin cfg0.N, win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val / 125 ∧ win0_3.index t (1 : Fin 2) = 0 :=
  (by decide +kernel : ∀ t : Fin grid0.N, _)

/-- The vocabulary-block coordinate of a point is its remainder by 125. -/
theorem coord1_facts0 : ∀ t : Fin cfg0.N, ((grid0.coords t) 1).val = t.val % 125 :=
  (by decide +kernel : ∀ t : Fin grid0.N, _)

/-- The token rows (bf16), the vocabulary rows (f32), the token ids and the statistics array as the region finds them. -/
abbrev xarr (c : Dev nD) : Vec Ideal S2048x2048 .bf16 := V c main_v1
abbrev warr (c : Dev nD) : Vec Ideal S32000x2048 .f32 := V c main_arg0
abbrev idarr (c : Dev nD) : Vec Ideal S2048x1 .i32 := V c main_v5
/-- Their blocks at a point. -/
abbrev xblk (c : Dev nD) (t : Fin cfg0.N) : Vec Ideal S1024x2048 .bf16 := iblk0 V c 0 t
abbrev wblk (c : Dev nD) (t : Fin cfg0.N) : Vec Ideal S256x2048 .f32 := iblk0 V c 1 t
abbrev idblk (c : Dev nD) (t : Fin cfg0.N) : Vec Ideal S1024x1 .i32 := iblk0 V c 2 t

/-- Row p of the token block at point t is row 1024 (t / 125) + p of the token array. -/
theorem xblk_apply (c : Dev nD) (t : Fin cfg0.N) (p : Fin 1024) (h : Fin 2048) (r : Fin 2048)
    (hr : r.val = 1024 * (t.val / 125) + p.val) :
    xblk V c t (ix2 p h) = xarr V c (ix2 r h) := by
  obtain ⟨e0, e1, -⟩ := idx_facts0 t
  unfold xblk iblk0
  rw [View.read_apply]
  show V c main_v1 _ = V c main_v1 _
  congr 1
  funext a
  apply Fin.ext
  match a with
  | ⟨0, _⟩ => show win0_0.index t (0 : Fin 2) * 1024 + 1 * p.val = r.val; rw [e0]; omega
  | ⟨1, _⟩ => show win0_0.index t (1 : Fin 2) * 2048 + 1 * h.val = h.val; rw [e1]; omega

/-- Row q of the vocabulary block at point t is row 256 (t % 125) + q of the vocabulary array. -/
theorem wblk_apply (c : Dev nD) (t : Fin cfg0.N) (q : Fin 256) (h : Fin 2048) (v : Fin 32000)
    (hv : v.val = 256 * (t.val % 125) + q.val) :
    wblk V c t (ix2 q h) = warr V c (ix2 v h) := by
  obtain ⟨-, -, e0, e1, -⟩ := idx_facts0 t
  unfold wblk iblk0
  rw [View.read_apply]
  show V c main_arg0 _ = V c main_arg0 _
  congr 1
  funext a
  apply Fin.ext
  match a with
  | ⟨0, _⟩ => show win0_1.index t (0 : Fin 2) * 256 + 1 * q.val = v.val; rw [e0]; omega
  | ⟨1, _⟩ => show win0_1.index t (1 : Fin 2) * 2048 + 1 * h.val = h.val; rw [e1]; omega

/-- Row p of the id block at point t is row 1024 (t / 125) + p of the id array. -/
theorem idblk_apply (c : Dev nD) (t : Fin cfg0.N) (p : Fin 1024) (r : Fin 2048)
    (hr : r.val = 1024 * (t.val / 125) + p.val) :
    idblk V c t (ix2 p (0 : Fin 1)) = idarr V c (ix2 r (0 : Fin 1)) := by
  obtain ⟨-, -, -, -, e0, e1, -⟩ := idx_facts0 t
  unfold idblk iblk0
  rw [View.read_apply]
  show V c main_v5 _ = V c main_v5 _
  congr 1
  funext a
  apply Fin.ext
  match a with
  | ⟨0, _⟩ => show win0_2.index t (0 : Fin 2) * 1024 + 1 * p.val = r.val; rw [e0]; omega
  | ⟨1, _⟩ => show win0_2.index t (1 : Fin 2) * 1 + 1 * (0 : Fin 1).val = (0 : Fin 1).val; rw [e1]; rfl

/-- The logits of token row r against the whole vocabulary. -/
def frow (c : Dev nD) (r : Fin 2048) : Fin 32000 → EReal :=
  fun v => ∑ h : Fin 2048, (xarr V c (ix2 r h) : EReal) * (warr V c (ix2 v h) : EReal)

/-- The same, spelt over the region-entry contents of the two arrays. -/
theorem frow_eq (c : Dev nD) (r : Fin 2048) :
    frow V c r = fun v : Fin 32000 => ∑ h : Fin 2048, (xarr V c (ix2 r h) : EReal) * (warr V c (ix2 v h) : EReal) := rfl

theorem cfgN : cfg0.N = 250 := N_0

/-- A point of the grid from its row block a and vocabulary block n. -/
abbrev pt (a : Fin 2) (n : ℕ) (hn : n < 125) : Fin cfg0.N := ⟨125 * a.val + n, by rw [cfgN]; have := a.isLt; omega⟩

/-- The block product at point t, row p, is block t % 125 of the row's logits. -/
theorem pay8_blk (c : Dev nD) (t : Fin cfg0.N) (p : Fin 1024) (r : Fin 2048) (hr : r.val = 1024 * (t.val / 125) + p.val)
    (n : ℕ) (hn : n < 125) (ht : t.val % 125 = n) (q : Fin 256) :
    (k0_pay8 (xblk V c t) (wblk V c t) (ix2 p q) : EReal) = Cert.Spec.blk (frow V c r) ⟨n, hn⟩ q := by
  refine (pay8_apply (xblk V c t) (wblk V c t) p q).trans ?_
  show _ = ∑ h : Fin 2048, (xarr V c (ix2 r h) : EReal) * (warr V c (ix2 _ h) : EReal)
  refine Finset.sum_congr rfl fun h _ => ?_
  rw [xblk_apply V c t p h r hr, wblk_apply V c t q h ⟨256 * n + q.val, by have := q.isLt; omega⟩ (by rw [ht])]

/-- The target-logit term block t adds to row p: the block's entries under the one-hot comparison with the row's id. -/
def tsel (c : Dev nD) (t : Fin cfg0.N) (p : Fin 1024) : EReal :=
  k0_pay9 (grid0.coords t) (xblk V c t) (wblk V c t) (idblk V c t) (ix2 p (0 : Fin 1))

/-- The target logit of row p of row block a accumulated over the first n vocabulary blocks, as the body forms it. -/
def runTraw (c : Dev nD) (a : Fin 2) (p : Fin 1024) : ℕ → EReal
  | 0 => 0
  | n + 1 => if h : n < 125 then runTraw c a p n + tsel V c (pt a n h) p else runTraw c a p n

theorem runTraw_succ (c : Dev nD) (a : Fin 2) (p : Fin 1024) (n : ℕ) (h : n < 125) :
    runTraw V c a p (n + 1) = runTraw V c a p n + tsel V c (pt a n h) p := by
  rw [runTraw, dif_pos h]

/-- Under an id in range the body's one-hot accumulation is the specification's. -/
theorem runTraw_eq (c : Dev nD) (a : Fin 2) (p : Fin 1024) (r : Fin 2048) (hr : r.val = 1024 * a.val + p.val) (k : Fin 32000)
    (hk : (idarr V c (ix2 r (0 : Fin 1)) : BitVec 32) = BitVec.ofNat 32 k.val) :
    ∀ n : ℕ, n ≤ 125 → runTraw V c a p n = Cert.Spec.runT (frow V c r) k n
  | 0, _ => rfl
  | n + 1, hn => by
    have hn' : n < 125 := hn
    have hq : (pt a n hn').val / 125 = a.val := by show (125 * a.val + n) / 125 = a.val; omega
    have hm : (pt a n hn').val % 125 = n := by show (125 * a.val + n) % 125 = n; omega
    have hr' : r.val = 1024 * ((pt a n hn').val / 125) + p.val := by rw [hq]; exact hr
    have hc1 : ((grid0.coords (pt a n hn')) 1).val = n := (coord1_facts0 (pt a n hn')).trans hm
    rw [runTraw_succ V c a p n hn', runT_succ _ k n hn', runTraw_eq c a p r hr k hk n (Nat.le_of_lt hn')]
    congr 1
    unfold tsel
    refine (pay9_apply_of_id (grid0.coords (pt a n hn')) (xblk V c (pt a n hn')) (wblk V c (pt a n hn')) (idblk V c (pt a n hn')) p k
      ((idblk_apply V c (pt a n hn') p r hr').trans hk) (by rw [hc1]; exact hn')).trans ?_
    refine Finset.sum_congr rfl fun q _ => ?_
    rw [hc1, pay8_blk V c (pt a n hn') p r hr' n hn' hm q]

end arrays

/-! ## The four carried statistics of a row after every point -/

section invariant

variable (V : (c : Dev nD) → (b : Ref sig .tc) → Buf (Elt Ideal) ((c : Thread nD τ).loc b))

/-- What the four scratches hold at row p (row r of the arrays, row block a) after n vocabulary blocks: the running maximum,
    the rescaled sum of exponentials, the accumulated target logit and the plain sum of the row's logits. -/
def Inv (c : Dev nD) (r : Fin 2048) (a : Fin 2) (p : Fin 1024) (n : ℕ) (o : Vec Ideal S1024x4 .f32 × Vec Ideal S1024x1 .f32 × Vec Ideal S1024x1 .f32 × Vec Ideal S1024x1 .f32 × Vec Ideal S1024x1 .f32) : Prop :=
  (o.2.1 (ix2 p (0 : Fin 1)) : EReal) = Cert.Spec.runMax (frow V c r) n
  ∧ (o.2.2.1 (ix2 p (0 : Fin 1)) : EReal) = Cert.Spec.runL (frow V c r) n
  ∧ (o.2.2.2.1 (ix2 p (0 : Fin 1)) : EReal) = runTraw V c a p n
  ∧ (o.2.2.2.2 (ix2 p (0 : Fin 1)) : EReal) = Cert.Spec.runS (frow V c r) n

/-- One point's update of row p, over the blocks of that point and scratches holding the statistics of n blocks. -/
theorem update_row (c : Dev nD) (t : Fin cfg0.N) (a : Fin 2) (n : ℕ) (hn : n < 125) (hq : t.val / 125 = a.val) (hm : t.val % 125 = n)
    (p : Fin 1024) (r : Fin 2048) (hr : r.val = 1024 * a.val + p.val) (s0 s1 s2 s3 : Vec Ideal S1024x1 .f32)
    (h0 : (s0 (ix2 p (0 : Fin 1)) : EReal) = Cert.Spec.runMax (frow V c r) n)
    (h1 : (s1 (ix2 p (0 : Fin 1)) : EReal) = Cert.Spec.runL (frow V c r) n)
    (h2 : (s2 (ix2 p (0 : Fin 1)) : EReal) = runTraw V c a p n)
    (h3 : (s3 (ix2 p (0 : Fin 1)) : EReal) = Cert.Spec.runS (frow V c r) n) :
    (k0_pay1 (k0_pay10 (xblk V c t) (wblk V c t) s0) (ix2 p (0 : Fin 1)) : EReal) = Cert.Spec.runMax (frow V c r) (n + 1)
    ∧ (k0_pay11 (xblk V c t) (wblk V c t) s0 s1 (ix2 p (0 : Fin 1)) : EReal) = Cert.Spec.runL (frow V c r) (n + 1)
    ∧ (k0_pay2 (k0_pay9 (grid0.coords t) (xblk V c t) (wblk V c t) (idblk V c t)) s2 (ix2 p (0 : Fin 1)) : EReal) = runTraw V c a p (n + 1)
    ∧ (k0_pay3 (k0_pay8 (xblk V c t) (wblk V c t)) s3 (ix2 p (0 : Fin 1)) : EReal) = Cert.Spec.runS (frow V c r) (n + 1) := by
  have hr' : r.val = 1024 * (t.val / 125) + p.val := by rw [hq]; exact hr
  have hx : ∀ q : Fin 256, (k0_pay8 (xblk V c t) (wblk V c t) (ix2 p q) : EReal) = Cert.Spec.blk (frow V c r) ⟨n, hn⟩ q :=
    fun q => pay8_blk V c t p r hr' n hn hm q
  have et : t = pt a n hn := Fin.ext (by show t.val = 125 * a.val + n; omega)
  refine ⟨?_, step_L (xblk V c t) (wblk V c t) s0 s1 p (frow V c r) n hn hx h0 h1, ?_, step_S (xblk V c t) (wblk V c t) s3 p (frow V c r) n hn hx h3⟩
  · exact (congrFun (pay1_apply (k0_pay10 (xblk V c t) (wblk V c t) s0)) (ix2 p (0 : Fin 1))).trans
      (step_max (xblk V c t) (wblk V c t) s0 p (frow V c r) n hn hx h0)
  · refine (pay2_apply (k0_pay9 (grid0.coords t) (xblk V c t) (wblk V c t) (idblk V c t)) s2 p).trans ?_
    rw [h2, runTraw_succ V c a p n hn]
    subst et
    rfl

/-- A first vocabulary block: the scratches are re-initialised (maximum at the bottom, the sums at zero) and take in block 0. -/
theorem point_A (c : Dev nD) (t : Fin cfg0.N) (a : Fin 2) (hq : t.val / 125 = a.val) (h0 : t.val % 125 = 0) (h1 : ¬t.val % 125 = 124)
    (p : Fin 1024) (r : Fin 2048) (hr : r.val = 1024 * a.val + p.val) :
    Inv V c r a p 1 (outsAt0 V c t.val t.isLt) := by
  have e0 : ((k0_pay4 (F := Ideal)) (ix2 p (0 : Fin 1)) : EReal) = Cert.Spec.runMax (frow V c r) 0 := pay4_apply p
  have e1 : ((k0_pay5 (F := Ideal)) (ix2 p (0 : Fin 1)) : EReal) = Cert.Spec.runL (frow V c r) 0 := pay5_apply p
  have e2 : ((k0_pay6 (F := Ideal)) (ix2 p (0 : Fin 1)) : EReal) = runTraw V c a p 0 := pay6_apply p
  have e3 : ((k0_pay7 (F := Ideal)) (ix2 p (0 : Fin 1)) : EReal) = Cert.Spec.runS (frow V c r) 0 := pay7_apply p
  obtain ⟨u0, u1, u2, u3⟩ := update_row V c t a 0 (by omega) hq h0 p r hr (k0_pay4 (F := Ideal)) (k0_pay5 (F := Ideal)) (k0_pay6 (F := Ideal)) (k0_pay7 (F := Ideal)) e0 e1 e2 e3
  unfold Inv
  refine ⟨?_, ?_, ?_, ?_⟩
  · show ((outsAt0 V c t.val t.isLt).2.1 (ix2 p (0 : Fin 1)) : EReal) = _
    rw [outsAt0_A V c t h0 h1]; dsimp only
    exact (congrFun (sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk V c t) (wblk V c t) (idblk V c t)) (ix2 p (0 : Fin 1))).trans u0
  · show ((outsAt0 V c t.val t.isLt).2.2.1 (ix2 p (0 : Fin 1)) : EReal) = _
    rw [outsAt0_A V c t h0 h1]; dsimp only
    exact (congrFun (sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk V c t) (wblk V c t) (idblk V c t)) (ix2 p (0 : Fin 1))).trans u1
  · show ((outsAt0 V c t.val t.isLt).2.2.2.1 (ix2 p (0 : Fin 1)) : EReal) = _
    rw [outsAt0_A V c t h0 h1]; dsimp only
    exact (congrFun (sout0_A_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk V c t) (wblk V c t) (idblk V c t)) (ix2 p (0 : Fin 1))).trans u2
  · show ((outsAt0 V c t.val t.isLt).2.2.2.2 (ix2 p (0 : Fin 1)) : EReal) = _
    rw [outsAt0_A V c t h0 h1]; dsimp only
    exact (congrFun (sout0_A_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk V c t) (wblk V c t) (idblk V c t)) (ix2 p (0 : Fin 1))).trans u3

/-- An inner vocabulary block: the scratches, at the statistics of n blocks, take in block n. -/
theorem point_B (c : Dev nD) (t : Fin cfg0.N) (a : Fin 2) (n : ℕ) (hn : n < 125) (hq : t.val / 125 = a.val) (hm : t.val % 125 = n)
    (h0 : ¬t.val % 125 = 0) (h1 : ¬t.val % 125 = 124) (p : Fin 1024) (r : Fin 2048) (hr : r.val = 1024 * a.val + p.val)
    (prev : Inv V c r a p n (outsAt0 V c (t.val - 1) (Nat.lt_of_le_of_lt (Nat.sub_le _ _) t.isLt))) :
    Inv V c r a p (n + 1) (outsAt0 V c t.val t.isLt) := by
  obtain ⟨i0, i1, i2, i3⟩ := prev
  obtain ⟨u0, u1, u2, u3⟩ := update_row V c t a n hn hq hm p r hr (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 i0 i1 i2 i3
  unfold Inv
  refine ⟨?_, ?_, ?_, ?_⟩
  · show ((outsAt0 V c t.val t.isLt).2.1 (ix2 p (0 : Fin 1)) : EReal) = _
    rw [outsAt0_B V c t h0 h1]; dsimp only
    exact (congrFun (sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u0
  · show ((outsAt0 V c t.val t.isLt).2.2.1 (ix2 p (0 : Fin 1)) : EReal) = _
    rw [outsAt0_B V c t h0 h1]; dsimp only
    exact (congrFun (sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u1
  · show ((outsAt0 V c t.val t.isLt).2.2.2.1 (ix2 p (0 : Fin 1)) : EReal) = _
    rw [outsAt0_B V c t h0 h1]; dsimp only
    exact (congrFun (sout0_B_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u2
  · show ((outsAt0 V c t.val t.isLt).2.2.2.2 (ix2 p (0 : Fin 1)) : EReal) = _
    rw [outsAt0_B V c t h0 h1]; dsimp only
    exact (congrFun (sout0_B_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u3

/-- A last vocabulary block: the same update, -/
theorem point_C (c : Dev nD) (t : Fin cfg0.N) (a : Fin 2) (n : ℕ) (hn : n < 125) (hq : t.val / 125 = a.val) (hm : t.val % 125 = n)
    (h0 : ¬t.val % 125 = 0) (h1 : t.val % 125 = 124) (p : Fin 1024) (r : Fin 2048) (hr : r.val = 1024 * a.val + p.val)
    (prev : Inv V c r a p n (outsAt0 V c (t.val - 1) (Nat.lt_of_le_of_lt (Nat.sub_le _ _) t.isLt))) :
    Inv V c r a p (n + 1) (outsAt0 V c t.val t.isLt) := by
  obtain ⟨i0, i1, i2, i3⟩ := prev
  obtain ⟨u0, u1, u2, u3⟩ := update_row V c t a n hn hq hm p r hr (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 i0 i1 i2 i3
  unfold Inv
  refine ⟨?_, ?_, ?_, ?_⟩
  · show ((outsAt0 V c t.val t.isLt).2.1 (ix2 p (0 : Fin 1)) : EReal) = _
    rw [outsAt0_C V c t h0 h1]; dsimp only
    exact (congrFun (sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u0
  · show ((outsAt0 V c t.val t.isLt).2.2.1 (ix2 p (0 : Fin 1)) : EReal) = _
    rw [outsAt0_C V c t h0 h1]; dsimp only
    exact (congrFun (sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u1
  · show ((outsAt0 V c t.val t.isLt).2.2.2.1 (ix2 p (0 : Fin 1)) : EReal) = _
    rw [outsAt0_C V c t h0 h1]; dsimp only
    exact (congrFun (sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u2
  · show ((outsAt0 V c t.val t.isLt).2.2.2.2 (ix2 p (0 : Fin 1)) : EReal) = _
    rw [outsAt0_C V c t h0 h1]; dsimp only
    exact (congrFun (sout0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p (0 : Fin 1))).trans u3

/-- and the output block's four columns are the four updated statistics. -/
theorem point_C_out (c : Dev nD) (t : Fin cfg0.N) (a : Fin 2) (n : ℕ) (hn : n < 125) (hq : t.val / 125 = a.val) (hm : t.val % 125 = n)
    (h0 : ¬t.val % 125 = 0) (h1 : t.val % 125 = 124) (p : Fin 1024) (r : Fin 2048) (hr : r.val = 1024 * a.val + p.val)
    (prev : Inv V c r a p n (outsAt0 V c (t.val - 1) (Nat.lt_of_le_of_lt (Nat.sub_le _ _) t.isLt))) :
    ((outsAt0 V c t.val t.isLt).1 (ix2 p (0 : Fin 4)) : EReal) = Cert.Spec.runMax (frow V c r) (n + 1)
    ∧ ((outsAt0 V c t.val t.isLt).1 (ix2 p (1 : Fin 4)) : EReal) = Cert.Spec.runL (frow V c r) (n + 1)
    ∧ ((outsAt0 V c t.val t.isLt).1 (ix2 p (2 : Fin 4)) : EReal) = runTraw V c a p (n + 1)
    ∧ ((outsAt0 V c t.val t.isLt).1 (ix2 p (3 : Fin 4)) : EReal) = Cert.Spec.runS (frow V c r) (n + 1) := by
  obtain ⟨i0, i1, i2, i3⟩ := prev
  obtain ⟨u0, u1, u2, u3⟩ := update_row V c t a n hn hq hm p r hr (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 i0 i1 i2 i3
  refine ⟨?_, ?_, ?_, ?_⟩
  · rw [outsAt0_C V c t h0 h1]; dsimp only
    exact (out0_C_3_col0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 p).trans u0
  · rw [outsAt0_C V c t h0 h1]; dsimp only
    exact (out0_C_3_col1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 p).trans u1
  · rw [outsAt0_C V c t h0 h1]; dsimp only
    exact (out0_C_3_col2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 p).trans u2
  · rw [outsAt0_C V c t h0 h1]; dsimp only
    exact (out0_C_3_col3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk V c t) (wblk V c t) (idblk V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 p).trans u3

theorem pt_div (a : Fin 2) (n : ℕ) (hn : n < 125) : (pt a n hn).val / 125 = a.val := by show (125 * a.val + n) / 125 = a.val; omega
theorem pt_mod (a : Fin 2) (n : ℕ) (hn : n < 125) : (pt a n hn).val % 125 = n := by show (125 * a.val + n) % 125 = n; omega

/-- THE INVARIANT: after vocabulary block n of row block a the scratches hold the statistics of n + 1 blocks — by induction
    on the block within the row block. -/
theorem inv_all (c : Dev nD) (a : Fin 2) (p : Fin 1024) (r : Fin 2048) (hr : r.val = 1024 * a.val + p.val) :
    ∀ (n : ℕ) (hn : n < 125), Inv V c r a p (n + 1) (outsAt0 V c (pt a n hn).val (pt a n hn).isLt)
  | 0, hn => point_A V c (pt a 0 hn) a (pt_div a 0 hn) (pt_mod a 0 hn) (by rw [pt_mod]; omega) p r hr
  | n + 1, hn => by
    have ih := inv_all c a p r hr n (by omega)
    have hne : ¬(pt a (n + 1) hn).val % 125 = 0 := by rw [pt_mod]; omega
    by_cases h1 : (pt a (n + 1) hn).val % 125 = 124
    · exact point_C V c (pt a (n + 1) hn) a (n + 1) hn (pt_div a _ hn) (pt_mod a _ hn) hne h1 p r hr ih
    · exact point_B V c (pt a (n + 1) hn) a (n + 1) hn (pt_div a _ hn) (pt_mod a _ hn) hne h1 p r hr ih

/-- At the last vocabulary block of a row block the output block's columns hold the statistics of all 125 blocks. -/
theorem out_last (c : Dev nD) (t : Fin cfg0.N) (a : Fin 2) (hq : t.val / 125 = a.val) (h124 : t.val % 125 = 124)
    (p : Fin 1024) (r : Fin 2048) (hr : r.val = 1024 * a.val + p.val) :
    ((outsAt0 V c t.val t.isLt).1 (ix2 p (0 : Fin 4)) : EReal) = Cert.Spec.runMax (frow V c r) 125
    ∧ ((outsAt0 V c t.val t.isLt).1 (ix2 p (1 : Fin 4)) : EReal) = Cert.Spec.runL (frow V c r) 125
    ∧ ((outsAt0 V c t.val t.isLt).1 (ix2 p (2 : Fin 4)) : EReal) = runTraw V c a p 125
    ∧ ((outsAt0 V c t.val t.isLt).1 (ix2 p (3 : Fin 4)) : EReal) = Cert.Spec.runS (frow V c r) 125 := by
  have h0 : ¬t.val % 125 = 0 := by omega
  have et : t = pt a 124 (by decide) := Fin.ext (by show t.val = 125 * a.val + 124; omega)
  have prev := inv_all V c a p r hr 123 (by decide)
  subst et
  exact point_C_out V c (pt a 124 (by decide)) a 124 (by decide) hq h124 h0 h124 p r hr prev

end invariant

/-! ## The statistics array after the region -/

section array

variable (V : (c : Dev nD) → (b : Ref sig .tc) → Buf (Elt Ideal) ((c : Thread nD τ).loc b))

/-- The row block of a row and its place inside it. -/
abbrev rowBlk (r : Fin 2048) : Fin 2 := ⟨r.val / 1024, by have := r.isLt; omega⟩
abbrev rowIn (r : Fin 2048) : Fin 1024 := ⟨r.val % 1024, by omega⟩
theorem row_split (r : Fin 2048) : r.val = 1024 * (rowBlk r).val + (rowIn r).val := by
  show r.val = 1024 * (r.val / 1024) + r.val % 1024; omega

/-- Entry (r, k) of the statistics array: the running maximum, the rescaled sum of exponentials, the accumulated target
    logit and the plain sum of row r's logits after all 125 vocabulary blocks. -/
def statsAt (c : Dev nD) (r : Fin 2048) (k : Fin 4) : EReal :=
  match k with
  | ⟨0, _⟩ => Cert.Spec.runMax (frow V c r) 125
  | ⟨1, _⟩ => Cert.Spec.runL (frow V c r) 125
  | ⟨2, _⟩ => runTraw V c (rowBlk r) (rowIn r) 125
  | ⟨3, _⟩ => Cert.Spec.runS (frow V c r) 125

/-- The statistics array. -/
def statsArr (c : Dev nD) : Vec Ideal S2048x4 .f32 := fun i => statsAt V c (i 0) (i 1)

/-- Row p, column k of the output block at point t sits at row 1024 (t / 125) + p, column k of the array. -/
theorem emb3 (t : Fin cfg0.N) (p : Fin 1024) (k : Fin 4) (r : Fin 2048) (hr : r.val = 1024 * (t.val / 125) + p.val) :
    ((cfg0.win 3).blk t).view.emb (ix2 p k) = ix2 r k := by
  obtain ⟨-, -, -, -, -, -, e0, e1⟩ := idx_facts0 t
  funext a
  apply Fin.ext
  match a with
  | ⟨0, _⟩ => show win0_3.index t (0 : Fin 2) * 1024 + 1 * p.val = r.val; rw [e0]; omega
  | ⟨1, _⟩ => show win0_3.index t (1 : Fin 2) * 4 + 1 * k.val = k.val; rw [e1]; omega

/-- What a last vocabulary block leaves in the output block is its block of the statistics array, entry by entry. -/
theorem out_entry (c : Dev nD) (t : Fin cfg0.N) (h124 : t.val % 125 = 124) (p : Fin 1024) (k : Fin 4) :
    ((outsAt0 V c t.val t.isLt).1 (ix2 p k) : EReal) = ((cfg0.win 3).blk t).view.read (Elt Ideal) (statsArr V c) (ix2 p k) := by
  have hq : t.val / 125 < 2 := by have := t.isLt; have hN : cfg0.N = 250 := cfgN; omega
  have hr : (⟨1024 * (t.val / 125) + p.val, by have := p.isLt; omega⟩ : Fin 2048).val = 1024 * (t.val / 125) + p.val := rfl
  rw [View.read_apply, emb3 t p k ⟨1024 * (t.val / 125) + p.val, by have := p.isLt; omega⟩ hr]
  have hb : rowBlk (⟨1024 * (t.val / 125) + p.val, by have := p.isLt; omega⟩ : Fin 2048) = ⟨t.val / 125, hq⟩ :=
    Fin.ext (by show (1024 * (t.val / 125) + p.val) / 1024 = t.val / 125; have := p.isLt; omega)
  have hi : rowIn (⟨1024 * (t.val / 125) + p.val, by have := p.isLt; omega⟩ : Fin 2048) = p :=
    Fin.ext (by show (1024 * (t.val / 125) + p.val) % 1024 = p.val; have := p.isLt; omega)
  obtain ⟨o0, o1, o2, o3⟩ := out_last V c t ⟨t.val / 125, hq⟩ rfl h124 p ⟨1024 * (t.val / 125) + p.val, by have := p.isLt; omega⟩ rfl
  show _ = statsAt V c _ k
  match k with
  | ⟨0, _⟩ => exact o0
  | ⟨1, _⟩ => exact o1
  | ⟨2, _⟩ => show _ = runTraw V c (rowBlk _) (rowIn _) 125; rw [hb, hi]; exact o2
  | ⟨3, _⟩ => exact o3

/-- What a flushing point writes back is its block of the statistics array. -/
theorem flushed_eq (c : Dev nD) (t : Fin cfg0.N) (hf : (cfg0.win 3).flush t = true) :
    (dat0 V c).flushed 3 t = ((cfg0.win 3).blk t).view.read (Elt Ideal) (statsArr V c) := by
  have h124 : t.val % 125 = 124 := (flush0_3 t).mp hf
  show (cfg0.win 3).cut (grid0.coords t) ((dat0 V c).after 3 t) = _
  rw [after0_3]
  funext y
  have ey : y = ix2 (y 0) (y 1) := eq_ix2 (n0 := 1024) (n1 := 4) y
  rw [ey]
  exact out_entry V c t h124 (y 0) (y 1)

end array

/-! ## The result -/

section result

variable (V : (c : Dev nD) → (b : Ref sig .tc) → Buf (Elt Ideal) ((c : Thread nD τ).loc b))

/-- THE ARRAY after region 0: the statistics array, every row written back by the last vocabulary block of its row block. -/
theorem stats_arr (c : Dev nD) : (dat0 V c).arrAt 3 cfg0.N = statsArr V c :=
  (dat0 V c).arrAt_eq_of_cover 3 (statsArr V c) (flushed_eq V c) Cert.KernelIdeal.HandBlocks.cover0_3

/-- Row r of the statistics array in the specification's recurrences: the running maximum, the rescaled sum of exponentials,
    the target logit (for an id k in range) and the plain sum, each after all 125 vocabulary blocks. -/
theorem stats0 (c : Dev nD) (r : Fin 2048) (k : Fin 32000)
    (hk : (V c main_v5 (ix2 r (0 : Fin 1)) : BitVec 32) = BitVec.ofNat 32 k.val) :
    ((dat0 V c).arrAt 3 cfg0.N (ix2 r (0 : Fin 4)) : EReal) = Cert.Spec.runMax (frow V c r) 125
    ∧ ((dat0 V c).arrAt 3 cfg0.N (ix2 r (1 : Fin 4)) : EReal) = Cert.Spec.runL (frow V c r) 125
    ∧ ((dat0 V c).arrAt 3 cfg0.N (ix2 r (2 : Fin 4)) : EReal) = Cert.Spec.runT (frow V c r) k 125
    ∧ ((dat0 V c).arrAt 3 cfg0.N (ix2 r (3 : Fin 4)) : EReal) = Cert.Spec.runS (frow V c r) 125 := by
  rw [stats_arr V c]
  refine ⟨rfl, rfl, ?_, rfl⟩
  show runTraw V c (rowBlk r) (rowIn r) 125 = _
  exact runTraw_eq V c (rowBlk r) (rowIn r) r (row_split r) k hk 125 (Nat.le_refl _)

end result

end Cert.KernelIdeal.HandValue

end
-- ==== Proof.RefRead.lean ====
/-
  The reference's stages read at an index, at the extended reals.

  The logits at (b, t, v) are the inner product over the hidden axis; the log-softmax at (b, t, v) is the
  shifted logit minus the logarithm of the row's sum of shifted exponentials; the entry picked out along
  the vocabulary axis at an id in range is the row's entry at that id; the five results are quotients of
  sums over all token positions of the pointwise tail formulas.
-/
import proofs.«420414_j89421219103752_3_alg».proof.Proof.RefTerms
import proofs.«420414_j89421219103752_3_alg».proof.Proof.Spec
import proofs.«420414_j89421219103752_3_alg».proof.Proof.IdxSums
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value
import Idealize.ShloMosaic.Lib.StableHlo.Predicate

noncomputable section

open scoped BigOperators

namespace Cert.ReferenceIdeal.Read

open Idealize.ShloMosaic Idealize.ShloMosaic.ValueIdx
open Cert.ReferenceIdeal Cert.ReferenceIdeal.Gen Cert.ReferenceIdeal.Terms

/-! ## Layout operations of the reference read at an index -/

section Layout
variable {α : Type}

/-- A [4,512] array given a trailing unit axis reads the array at the two leading coordinates. -/
theorem bcast_bt_bt1_apply (h : S4x512.BroadcastsInDim S4x512x1 (![0, 1] : Fin 2 → Fin S4x512x1.rank))
    (v : S4x512.Idx → α) (b : Fin 4) (t : Fin 512) (u : Fin 1) :
    broadcastInDim S4x512x1 ![0, 1] h v (ix3 b t u) = v (ix2 b t) := by
  refine broadcastInDim_apply _ h v _ _ fun a => ?_
  match a with
  | ⟨0, _⟩ => rfl
  | ⟨1, _⟩ => rfl

/-- A [4,512,1] array broadcast along the vocabulary axis reads the array at the two leading coordinates. -/
theorem bcast_bt1_btv_apply (h : S4x512x1.BroadcastsInDim S4x512x32000 (![0, 1, 2] : Fin 3 → Fin S4x512x32000.rank))
    (v : S4x512x1.Idx → α) (b : Fin 4) (t : Fin 512) (k : Fin 32000) :
    broadcastInDim S4x512x32000 ![0, 1, 2] h v (ix3 b t k) = v (ix3 b t 0) := by
  refine broadcastInDim_apply _ h v _ _ fun a => ?_
  match a with
  | ⟨0, _⟩ => rfl
  | ⟨1, _⟩ => rfl
  | ⟨2, _⟩ => rfl

/-- A [4,512,1] array reshaped to [4,512] reads the array at the same two coordinates. -/
theorem cast_bt1_bt_apply (h : S4x512x1.ShapeCasts S4x512) (v : S4x512x1.Idx → α) (b : Fin 4) (t : Fin 512) :
    shapeCast S4x512 v h (ix2 b t) = v (ix3 b t 0) := by
  refine shapeCast_apply v h _ _ ?_
  rw [Shape.rowMajor_val_three, Shape.rowMajor_val_two]
  show (b.val * 512 + t.val) * 1 + 0 = b.val * 512 + t.val
  omega

/-- A [4,512,1] array reshaped to [4,512,1,1] reads the array at the same leading coordinates. -/
theorem cast_bt1_bt11_apply (h : S4x512x1.ShapeCasts S4x512x1x1) (v : S4x512x1.Idx → α) (b : Fin 4) (t : Fin 512) :
    shapeCast S4x512x1x1 v h (ix4 b t 0 0) = v (ix3 b t 0) := by
  refine shapeCast_apply v h _ _ ?_
  rw [Shape.rowMajor_val_three, Shape.rowMajor_val_four]
  show (b.val * 512 + t.val) * 1 + 0 = ((b.val * 512 + t.val) * 1 + 0) * 1 + 0
  omega

end Layout

/-! ## The logits at an index -/

section Logits

/-- The contraction's left index on the batch axis is the output's. -/
theorem lhs_logits_0 (i : S4x512x32000.Idx) (q : dot_S4x512x2048_S32000x2048_S4x512x32000_2_1_01_0_n_n.contr.Idx) :
    (dot_S4x512x2048_S32000x2048_S4x512x32000_2_1_01_0_n_n.lhsIdx i q 0).val = (i 0).val := by
  unfold DotDims.lhsIdx
  rw [dif_neg (show ¬(0 : Fin S4x512x2048.rank) ∈ dot_S4x512x2048_S32000x2048_S4x512x32000_2_1_01_0_n_n.lhsBatch by decide),
    dif_pos (show (0 : Fin S4x512x2048.rank) ∈ dot_S4x512x2048_S32000x2048_S4x512x32000_2_1_01_0_n_n.lhsNonContracting by decide)]
  rfl

/-- The contraction's left index on the position axis is the output's. -/
theorem lhs_logits_1 (i : S4x512x32000.Idx) (q : dot_S4x512x2048_S32000x2048_S4x512x32000_2_1_01_0_n_n.contr.Idx) :
    (dot_S4x512x2048_S32000x2048_S4x512x32000_2_1_01_0_n_n.lhsIdx i q 1).val = (i 1).val := by
  unfold DotDims.lhsIdx
  rw [dif_neg (show ¬(1 : Fin S4x512x2048.rank) ∈ dot_S4x512x2048_S32000x2048_S4x512x32000_2_1_01_0_n_n.lhsBatch by decide),
    dif_pos (show (1 : Fin S4x512x2048.rank) ∈ dot_S4x512x2048_S32000x2048_S4x512x32000_2_1_01_0_n_n.lhsNonContracting by decide)]
  rfl

/-- The contraction's left index on the hidden axis is the contraction position. -/
theorem lhs_logits_2 (i : S4x512x32000.Idx) (q : dot_S4x512x2048_S32000x2048_S4x512x32000_2_1_01_0_n_n.contr.Idx) :
    (dot_S4x512x2048_S32000x2048_S4x512x32000_2_1_01_0_n_n.lhsIdx i q 2).val = (q ⟨0, by decide⟩).val :=
  dot_S4x512x2048_S32000x2048_S4x512x32000_2_1_01_0_n_n.lhsIdx_val_of_single rfl i q

/-- The contraction's right index on the vocabulary axis is the output's third coordinate. -/
theorem rhs_logits_0 (i : S4x512x32000.Idx) (q : dot_S4x512x2048_S32000x2048_S4x512x32000_2_1_01_0_n_n.contr.Idx) :
    (dot_S4x512x2048_S32000x2048_S4x512x32000_2_1_01_0_n_n.rhsIdx i q 0).val = (i 2).val := by
  unfold DotDims.rhsIdx
  rw [dif_neg (show ¬(0 : Fin S32000x2048.rank) ∈ dot_S4x512x2048_S32000x2048_S4x512x32000_2_1_01_0_n_n.rhsBatch by decide),
    dif_pos (show (0 : Fin S32000x2048.rank) ∈ dot_S4x512x2048_S32000x2048_S4x512x32000_2_1_01_0_n_n.rhsNonContracting by decide)]
  rfl

/-- The contraction's right index on the hidden axis is the contraction position. -/
theorem rhs_logits_1 (i : S4x512x32000.Idx) (q : dot_S4x512x2048_S32000x2048_S4x512x32000_2_1_01_0_n_n.contr.Idx) :
    (dot_S4x512x2048_S32000x2048_S4x512x32000_2_1_01_0_n_n.rhsIdx i q 1).val = (q ⟨0, by decide⟩).val :=
  dot_S4x512x2048_S32000x2048_S4x512x32000_2_1_01_0_n_n.rhsIdx_val_of_single rfl i q

/-- The logits at (b, t, v): the inner product over the hidden axis of position (b, t)'s hidden vector and
    vocabulary row v. -/
theorem logits_apply (x : FVec Ideal S4x512x2048 .f32) (w : FVec Ideal S32000x2048 .f32) (b : Fin 4) (t : Fin 512)
    (v : Fin 32000) :
    logits (F := Ideal) x w (ix3 b t v) = ∑ h : Fin 2048, x (ix3 b t h) * w (ix2 v h) := by
  unfold logits
  simp only [Host.dotGeneral]
  rw [Ideal.dotGeneral_apply,
    ← Equiv.sum_comp (contrEquiv1 dot_S4x512x2048_S32000x2048_S4x512x32000_2_1_01_0_n_n 2048 rfl rfl).symm]
  refine Finset.sum_congr rfl fun k _ => ?_
  have hk := contrEquiv1_symm_val dot_S4x512x2048_S32000x2048_S4x512x32000_2_1_01_0_n_n 2048 rfl rfl k
  have el : dot_S4x512x2048_S32000x2048_S4x512x32000_2_1_01_0_n_n.lhsIdx (ix3 b t v)
      ((contrEquiv1 dot_S4x512x2048_S32000x2048_S4x512x32000_2_1_01_0_n_n 2048 rfl rfl).symm k) = ix3 b t k :=
    funext fun a => Fin.ext (by
      match a with
      | ⟨0, _⟩ => exact lhs_logits_0 _ _
      | ⟨1, _⟩ => exact lhs_logits_1 _ _
      | ⟨2, _⟩ => exact (lhs_logits_2 _ _).trans hk)
  have er : dot_S4x512x2048_S32000x2048_S4x512x32000_2_1_01_0_n_n.rhsIdx (ix3 b t v)
      ((contrEquiv1 dot_S4x512x2048_S32000x2048_S4x512x32000_2_1_01_0_n_n 2048 rfl rfl).symm k) = ix2 v k :=
    funext fun a => Fin.ext (by
      match a with
      | ⟨0, _⟩ => exact rhs_logits_0 _ _
      | ⟨1, _⟩ => exact (rhs_logits_1 _ _).trans hk)
  rw [el, er]

end Logits

/-! ## Host operations read at an index, at the extended reals -/

section HostAt
variable {s : Shape} {φ : FTy}

theorem hostExp_apply (x : FVec Ideal s φ) (i : s.Idx) : Host.exp x i = Ideal.exp (x i) := rfl
theorem hostLog_apply (x : FVec Ideal s φ) (i : s.Idx) : Host.log x i = Ideal.log (x i) := rfl
theorem hostSqrt_apply (x : FVec Ideal s φ) (i : s.Idx) : Host.sqrt x i = Ideal.sqrt (x i) := rfl
theorem hostNegf_apply (x : FVec Ideal s φ) (i : s.Idx) : Host.negf x i = -(x i) := rfl

/-- The f32 pattern of -∞ is the bottom of the extended reals. -/
theorem ofBits_negInf_f32 : Ideal.ofBits .f32 0xFF800000#32 = ⊥ := by simp [Ideal.ofBits, Ideal.ieee]

end HostAt

/-! ## The log-softmax at an index -/

section LogSoftmax

/-- Dropping the vocabulary axis of [4,512,32000] leaves [4,512]. -/
theorem reduces_vocab : S4x512x32000.Reduces [2] S4x512 := by decide

/-- Position (b, t) with vocabulary coordinate k put back is (b, t, k). -/
theorem lift_vocab (b : Fin 4) (t : Fin 512) (k : Fin 32000) :
    reduces_vocab.lift (ix2 b t) k = ix3 b t k := by
  funext c; apply Fin.ext
  fin_cases c <;> rfl

/-- The row maximum at (b, t): the fold of max from -∞ over the row. -/
theorem lsMax_apply (z : FVec Ideal S4x512x32000 .f32) (b : Fin 4) (t : Fin 512) :
    lsMax (F := Ideal) z (ix2 b t) = Cert.Spec.rowMax fun v => z (ix3 b t v) := by
  unfold lsMax Cert.Spec.rowMax
  rw [maximumf_apply, broadcastInDim_scalar_apply, constant_apply,
    Host.reduce_eq_fold_single FloatOps.maximumf z _ _ reduces_vocab _, constant_apply, ofBits_negInf_f32, max_bot_left]
  have hf : (z ∘ reduces_vocab.lift (ix2 b t)) = fun k : Fin 32000 => z (ix3 b t k) :=
    funext fun k => congrArg z (lift_vocab b t k)
  exact congrArg (fun f => Finset.fold max ⊥ f (Finset.univ : Finset (Fin 32000))) hf

/-- The shifted logit at (b, t, v). -/
theorem lsShift_apply (z : FVec Ideal S4x512x32000 .f32) (b : Fin 4) (t : Fin 512) (v : Fin 32000) :
    lsShift (F := Ideal) z (ix3 b t v) = z (ix3 b t v) - Cert.Spec.rowMax fun v' => z (ix3 b t v') := by
  unfold lsShift
  rw [subf_apply, bcast_bt1_btv_apply, bcast_bt_bt1_apply, lsMax_apply]

/-- The logarithm of the row's sum of shifted exponentials at (b, t). -/
theorem lsLogSum_apply (z : FVec Ideal S4x512x32000 .f32) (b : Fin 4) (t : Fin 512) :
    lsLogSum (F := Ideal) z (ix3 b t 0) = Ideal.log (Cert.Spec.sumExp fun v => z (ix3 b t v)) := by
  unfold lsLogSum Cert.Spec.sumExp
  rw [hostLog_apply, bcast_bt_bt1_apply, hostReduceAdd_apply, Ideal.hostReduceAdd_single _ reduces_vocab, constant_apply,
    Ideal.ofBits_zero_f32, zero_add]
  refine congrArg Ideal.log ?_
  show (∑ k : Fin 32000, Host.exp (lsShift z) (reduces_vocab.lift (ix2 b t) k)) = _
  refine Finset.sum_congr rfl fun k _ => ?_
  rw [lift_vocab, hostExp_apply, lsShift_apply]

/-- The log-softmax at (b, t, v): the reference's form of the log-probability of entry v of the row. -/
theorem logSoftmax_apply (z : FVec Ideal S4x512x32000 .f32) (b : Fin 4) (t : Fin 512) (v : Fin 32000) :
    logSoftmax (F := Ideal) z (ix3 b t v) = Cert.Spec.logpR (fun v' => z (ix3 b t v')) v := by
  unfold logSoftmax Cert.Spec.logpR
  rw [subf_apply, lsShift_apply, bcast_bt1_btv_apply, lsLogSum_apply]

end LogSoftmax

/-! ## The entry picked out along the vocabulary axis -/

section Take
open Idealize.ShloMosaic.StableHlo.Predicate
variable {α : Type}

theorem cmpi_apply {s : Shape} {w : Nat} (p : CmpIPredicate) (x y : IVec s w) (i : s.Idx) :
    cmpi p x y i = IntOp.cmpi p (x i) (y i) := rfl
theorem andi_apply {s : Shape} {w : Nat} (x y : IVec s w) (i : s.Idx) : andi x y i = IntOp.andi (x i) (y i) := rfl

/-- A vocabulary id as a 32-bit word reads back as itself, unsigned. -/
theorem toNat_ofNat_id (k : Fin 32000) : (BitVec.ofNat 32 k.val).toNat = k.val := by
  have := k.isLt
  simp only [BitVec.toNat_ofNat]; omega

/-- An id in range is not wrapped: the index table at (b, t) is the id. -/
theorem taIdx_apply (ids3 : IVec S4x512x1 32) (b : Fin 4) (t : Fin 512) (k : Fin 32000)
    (hk : ids3 (ix3 b t 0) = BitVec.ofNat 32 k.val) : taIdx ids3 (ix4 b t 0 0) = BitVec.ofNat 32 k.val := by
  unfold taIdx
  rw [cast_bt1_bt11_apply, select_apply, cmpi_apply, broadcastInDim_scalar_apply, constantI_apply, hk]
  have h0 : IntOp.cmpi .slt (BitVec.ofNat 32 k.val) 0#32 = 0#1 := by
    apply eq_zero_of_ne_one
    rw [slt_iff_toNat (by rw [toNat_ofNat_id]; have := k.isLt; omega) (by decide)]
    simp
  rw [h0, select_zero]

/-- Dropping the index vector's axis of [4,512,1,1] leaves [4,512,1]. -/
theorem reduces_ivec : S4x512x1x1.Reduces [3] S4x512x1 := by decide

/-- Position (b, t, 0) with the index vector's coordinate put back is (b, t, 0, 0). -/
theorem lift_ivec (b : Fin 4) (t : Fin 512) (u : Fin (S4x512x1x1.size 3)) :
    reduces_ivec.lift (ix3 b t 0) u = ix4 b t 0 0 := by
  have hu : u.val < 1 := u.isLt
  funext c; apply Fin.ext
  fin_cases c <;> first | rfl | (show u.val = 0; omega)

/-- A fold over a one-element range is one application. -/
theorem fold_univ_fin_one {β : Type} (op : β → β → β) [Std.Commutative op] [Std.Associative op] (init : β) {n : Nat}
    (hn : n = 1) (f : Fin n → β) :
    (Finset.univ : Finset (Fin n)).fold op init f = op (f ⟨0, by omega⟩) init := by
  subst hn
  rw [Finset.univ_unique, Finset.fold_singleton]; rfl

/-- An id in range passes the range test. -/
theorem taInRange_apply (ids3 : IVec S4x512x1 32) (b : Fin 4) (t : Fin 512) (k : Fin 32000)
    (hk : ids3 (ix3 b t 0) = BitVec.ofNat 32 k.val) : taInRange ids3 (ix3 b t 0) = 1#1 := by
  unfold taInRange
  rw [Host.reduce_eq_fold_single IntOp.andi _ _ _ reduces_ivec _]
  rw [fold_univ_fin_one IntOp.andi _ (rfl : S4x512x1x1.size 3 = 1), Function.comp_apply, lift_ivec, andi_apply, cmpi_apply, cmpi_apply,
    taIdx_apply ids3 b t k hk, broadcastInDim_scalar_apply, constantI_apply, constantI_apply]
  have hlt : (BitVec.ofNat 32 k.val).toNat < 2 ^ 31 := by rw [toNat_ofNat_id]; have := k.isLt; omega
  have h1 : IntOp.cmpi .sge (BitVec.ofNat 32 k.val) 0#32 = 1#1 := by
    rw [sge_iff_toNat hlt (by decide)]; simp
  have h2 : IntOp.cmpi .sle (BitVec.ofNat 32 k.val)
      (broadcastInDim S4x512x1x1 ![0, 1, 2, 3] bcast_S1x1x1x1_S4x512x1x1_0_1_2_3
        (broadcastInDim S1x1x1x1 ![3] bcast_S1_S1x1x1x1_3 (constantI S1 32 31999#32)) (ix4 b t 0 0)) = 1#1 := by
    show IntOp.cmpi .sle (BitVec.ofNat 32 k.val) 31999#32 = 1#1
    rw [sle_iff_toNat hlt (by decide), toNat_ofNat_id]
    have := k.isLt
    show k.val ≤ 31999
    omega
  rw [h1, h2]
  rfl

/-- The gather's operand index on the batch axis is the result's. -/
theorem gather_vocab_0 (b : Fin 4) (t : Fin 512) (u : Fin 1) (idx : IVec S4x512x1x1 32) :
    gather_S4x512x32000_S4x512x1x1_S4x512x1_n_2_01_01_2_3_111.start (ix3 b t u) idx 0
      + gather_S4x512x32000_S4x512x1x1_S4x512x1_n_2_01_01_2_3_111.batchCoord (ix3 b t u) 0
      + gather_S4x512x32000_S4x512x1x1_S4x512x1_n_2_01_01_2_3_111.offCoord (ix3 b t u) 0 = b.val := by
  rw [GatherDims.start_batching _ _ _ _ (by decide), GatherDims.offCoord_eq_zero _ _ _ (by decide)]
  simp only [Nat.zero_add, Nat.add_zero]
  unfold GatherDims.batchCoord
  rw [dif_pos (show (0 : Fin S4x512x32000.rank) ∈ gather_S4x512x32000_S4x512x1x1_S4x512x1_n_2_01_01_2_3_111.operandBatchingDims by decide)]
  rfl

/-- The gather's operand index on the position axis is the result's. -/
theorem gather_vocab_1 (b : Fin 4) (t : Fin 512) (u : Fin 1) (idx : IVec S4x512x1x1 32) :
    gather_S4x512x32000_S4x512x1x1_S4x512x1_n_2_01_01_2_3_111.start (ix3 b t u) idx 1
      + gather_S4x512x32000_S4x512x1x1_S4x512x1_n_2_01_01_2_3_111.batchCoord (ix3 b t u) 1
      + gather_S4x512x32000_S4x512x1x1_S4x512x1_n_2_01_01_2_3_111.offCoord (ix3 b t u) 1 = t.val := by
  rw [GatherDims.start_batching _ _ _ _ (by decide), GatherDims.offCoord_eq_zero _ _ _ (by decide)]
  simp only [Nat.zero_add, Nat.add_zero]
  unfold GatherDims.batchCoord
  rw [dif_pos (show (1 : Fin S4x512x32000.rank) ∈ gather_S4x512x32000_S4x512x1x1_S4x512x1_n_2_01_01_2_3_111.operandBatchingDims by decide)]
  rfl

/-- The gather's operand index on the vocabulary axis is the start index read signed and clamped. -/
theorem gather_vocab_2 (b : Fin 4) (t : Fin 512) (u : Fin 1) (idx : IVec S4x512x1x1 32) :
    gather_S4x512x32000_S4x512x1x1_S4x512x1_n_2_01_01_2_3_111.start (ix3 b t u) idx 2
      + gather_S4x512x32000_S4x512x1x1_S4x512x1_n_2_01_01_2_3_111.batchCoord (ix3 b t u) 2
      + gather_S4x512x32000_S4x512x1x1_S4x512x1_n_2_01_01_2_3_111.offCoord (ix3 b t u) 2
      = min (idx (ix4 b t u 0)).toInt.toNat 31999 := by
  rw [GatherDims.batchCoord_eq_zero _ _ _ (by decide), GatherDims.offCoord_eq_zero _ _ _ (by decide)]
  simp only [Nat.add_zero]
  unfold GatherDims.start
  rw [dif_pos (show (2 : Fin S4x512x32000.rank) ∈ gather_S4x512x32000_S4x512x1x1_S4x512x1_n_2_01_01_2_3_111.startIndexMap by decide)]
  have hsi : gather_S4x512x32000_S4x512x1x1_S4x512x1_n_2_01_01_2_3_111.siIdx (ix3 b t u)
      ⟨List.idxOf (2 : Fin S4x512x32000.rank) gather_S4x512x32000_S4x512x1x1_S4x512x1_n_2_01_01_2_3_111.startIndexMap,
        List.idxOf_lt_length_iff.2 (by decide)⟩ = ix4 b t u 0 := by
    funext c; refine Fin.ext ?_
    match c with
    | ⟨0, _⟩ => rfl
    | ⟨1, _⟩ => rfl
    | ⟨2, _⟩ => rfl
    | ⟨3, _⟩ => rfl
  rw [hsi]
  rfl

/-- The gather along the vocabulary axis at an id in range reads the row's entry at the id. -/
theorem gather_vocab_apply (lp : S4x512x32000.Idx → α) (idx : IVec S4x512x1x1 32) (b : Fin 4) (t : Fin 512) (k : Fin 32000)
    (hk : idx (ix4 b t 0 0) = BitVec.ofNat 32 k.val) :
    Host.gather gather_S4x512x32000_S4x512x1x1_S4x512x1_n_2_01_01_2_3_111 lp idx (ix3 b t 0) = lp (ix3 b t k) := by
  unfold Host.gather
  refine congrArg lp (funext fun a => Fin.ext ?_)
  have hv : min (idx (ix4 b t 0 0)).toInt.toNat 31999 = k.val := by
    have := k.isLt
    rw [hk, toInt_ofNat_small k.val (by omega)]
    simp only [Int.toNat_natCast]
    omega
  match a with
  | ⟨0, _⟩ => exact gather_vocab_0 b t 0 idx
  | ⟨1, _⟩ => exact gather_vocab_1 b t 0 idx
  | ⟨2, _⟩ => exact (gather_vocab_2 b t 0 idx).trans hv

/-- The entry picked out at an id in range: the row's entry at the id. -/
theorem takeAlong_apply (lp : FVec Ideal S4x512x32000 .f32) (ids3 : IVec S4x512x1 32) (b : Fin 4) (t : Fin 512)
    (k : Fin 32000) (hk : ids3 (ix3 b t 0) = BitVec.ofNat 32 k.val) :
    takeAlong (F := Ideal) lp ids3 (ix3 b t 0) = lp (ix3 b t k) := by
  unfold takeAlong
  rw [select_apply, taInRange_apply ids3 b t k hk, select_one, gather_vocab_apply lp _ b t k (taIdx_apply ids3 b t k hk)]

/-- The per-token log-probability at (b, t) at an id in range: the reference's form of the log-probability of
    the id among the row of logits. -/
theorem tokLogp_apply (x : FVec Ideal S4x512x2048 .f32) (w : FVec Ideal S32000x2048 .f32) (ids : IVec S4x512 32)
    (b : Fin 4) (t : Fin 512) (k : Fin 32000) (hk : ids (ix2 b t) = BitVec.ofNat 32 k.val) :
    tokLogp (F := Ideal) x w ids (ix2 b t)
      = Cert.Spec.logpR (fun v => ∑ h : Fin 2048, x (ix3 b t h) * w (ix2 v h)) k := by
  unfold tokLogp
  rw [cast_bt1_bt_apply, takeAlong_apply _ _ b t k (by rw [bcast_bt_bt1_apply]; exact hk), logSoftmax_apply]
  exact congrArg (fun f => Cert.Spec.logpR f k) (funext fun v => logits_apply x w b t v)

end Take

/-! ## The mean of the whole log-softmax array -/

section Results
open Cert.IdxSums

/-- The fourth result: the sum over every (position, vocabulary entry) of the reference's form of the
    log-probability of the entry among the position's row of logits, from zero, over 65536000. -/
theorem res34_apply (a0 : FVec Ideal S32000x2048 .f32) (a1 : FVec Ideal S4x512x2048 .f32) :
    res34 (F := Ideal) a0 a1 ValueIdx.ix0
      = Ideal.div
          (Ideal.ofBits .f32 0x00000000#32 + ∑ I : S4x512x32000.Idx,
            Cert.Spec.logpR (fun v => ∑ h : Fin 2048, a1 (ix3 (I 0) (I 1) h) * a0 (ix2 v h)) (I 2))
          (Ideal.ofBits .f32 0x4C7A0000#32) := by
  unfold res34
  rw [hostDivf_apply, hostReduceAdd_apply, Ideal.hostReduceAdd_total _ (fun b => b.elim0), constant_apply, constant_apply]
  refine congrArg (fun s => Ideal.div (Ideal.ofBits .f32 0x00000000#32 + s) (Ideal.ofBits .f32 0x4C7A0000#32)) ?_
  refine Finset.sum_congr rfl fun I _ => ?_
  rw [show logSoftmax (logits a1 a0) I = logSoftmax (logits a1 a0) (ix3 (I 0) (I 1) (I 2)) from
    congrArg _ (eq_ix3 I)]
  refine (logSoftmax_apply (logits a1 a0) (I 0) (I 1) (I 2)).trans ?_
  exact congrArg (fun f => Cert.Spec.logpR f (I 2)) (funext fun v => logits_apply a1 a0 (I 0) (I 1) v)

/-- The same, the sum taken over the flattened token positions and the vocabulary entries. -/
theorem res34_rows (a0 : FVec Ideal S32000x2048 .f32) (a1 : FVec Ideal S4x512x2048 .f32) :
    res34 (F := Ideal) a0 a1 ValueIdx.ix0
      = Ideal.div
          (Ideal.ofBits .f32 0x00000000#32 + ∑ r : Fin 2048, ∑ v : Fin 32000,
            Cert.Spec.logpR (fun v' => ∑ h : Fin 2048, a1 (ix3 (rowB r) (rowT r) h) * a0 (ix2 v' h)) v)
          (Ideal.ofBits .f32 0x4C7A0000#32) := by
  unfold res34
  rw [hostDivf_apply, hostReduceAdd_apply, Ideal.hostReduceAdd_total _ (fun b => b.elim0), constant_apply, constant_apply,
    sum_rows_vocab]
  refine congrArg (fun s => Ideal.div (Ideal.ofBits .f32 0x00000000#32 + s) (Ideal.ofBits .f32 0x4C7A0000#32)) ?_
  refine Finset.sum_congr rfl fun r _ => Finset.sum_congr rfl fun v _ => ?_
  rw [logSoftmax_apply]
  exact congrArg (fun f => Cert.Spec.logpR f v) (funext fun v' => logits_apply a1 a0 (rowB r) (rowT r) v')

end Results

end Cert.ReferenceIdeal.Read

end
-- ==== Proof.BridgeMean.lean ====
/-
  The mean of the whole log-softmax array, formed two ways.

  The reference sums the log-probability of every vocabulary entry at every token position and divides by
  65536000 = 2048 · 32000.  The kernel program forms, per token position, the plain sum of the row of logits over
  32000 minus the log-partition, and takes the mean of these 2048 row means.  Row r of the policy launch's
  statistics array holds the running maximum, the rescaled sum of exponentials and the plain sum of the row of
  logits of position (r / 512, r % 512) after the last vocabulary block; for a real row these are the one-pass
  maximum, Σ exp (x − max) and Σ x, and the two means agree.
-/
import proofs.«420414_j89421219103752_3_alg».proof.Proof.BridgeBase
import proofs.«420414_j89421219103752_3_alg».proof.Proof.BridgeMath
import proofs.«420414_j89421219103752_3_alg».proof.Proof.KI.TailIdx
import proofs.«420414_j89421219103752_3_alg».proof.Proof.KI.Value0
import proofs.«420414_j89421219103752_3_alg».proof.Proof.RefRead

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand Cert.KernelIdeal.HandTail Cert.KernelIdeal.HandValue
open Cert.IdxSums

attribute [local instance] Cert.ReferenceIdeal.Gen.facts Cert.Pre_finite_inputs.Gen.facts

/-- The mean over the token positions of the kernel's row means is the reference's mean of the whole
    log-softmax array, once each row of the statistics array holds the running maximum, rescaled sum of
    exponentials and plain sum of that position's real row of logits after the last block. -/
theorem mean_core (stats : FVec Ideal Cert.KernelIdeal.S2048x4 .f32)
    (a0 : FVec Ideal Cert.ReferenceIdeal.S32000x2048 .f32) (a1 : FVec Ideal Cert.ReferenceIdeal.S4x512x2048 .f32)
    (G : Fin 2048 → Fin 32000 → EReal)
    (hG : ∀ r v, G r v = ∑ h : Fin 2048, a1 (ix3 (rowB r) (rowT r) h) * a0 (ix2 v h))
    (hfin : ∀ r, Cert.Spec.Finite (G r))
    (h0 : ∀ r, stats (ix2 r 0) = Cert.Spec.runMax (G r) 125)
    (h1 : ∀ r, stats (ix2 r 1) = Cert.Spec.runL (G r) 125)
    (h3 : ∀ r, stats (ix2 r 3) = Cert.Spec.runS (G r) 125) :
    Cert.KernelIdeal.HandTail.meanK (Cert.KernelIdeal.HandTail.rowMeanK stats)
      = Cert.ReferenceIdeal.Terms.res34 (F := Ideal) a0 a1 := by
  funext i
  rw [eq_ix0 i, Cert.KernelIdeal.HandTail.meanK_apply, Cert.ReferenceIdeal.Read.res34_rows, Cert.IdxSums.sum_rows]
  have hL : ∀ r : Fin 2048, Cert.KernelIdeal.HandTail.rowMeanK stats (ix2 (rowB r) (rowT r))
      = Ideal.div (Cert.Spec.rowSum (G r)) ((32000 : ℝ) : EReal) - Cert.Spec.logZ (G r) := by
    intro r
    rw [Cert.KernelIdeal.HandTail.rowMeanK_apply, rowOf_rowB_rowT, h0, h1, h3]
    exact Cert.Spec.row_mean_kernel (G r) (hfin r)
  have hR : ∀ (r : Fin 2048) (v : Fin 32000),
      Cert.Spec.logpR (fun v' => ∑ h : Fin 2048, a1 (ix3 (rowB r) (rowT r) h) * a0 (ix2 v' h)) v
        = Cert.Spec.logpR (G r) v :=
    fun r v => congrArg (fun f => Cert.Spec.logpR f v) (funext fun v' => (hG r v').symm)
  simp only [hL, hR]
  rw [Cert.Consts.ofBits_zero, Cert.Consts.ofBits_2048, Cert.Consts.ofBits_65536000, zero_add, zero_add]
  exact Cert.Spec.mean_logp G hfin

variable (m : (ℓ : Loc nD τ sig) → Buf (Elt Ideal) ℓ) (ρ : Dev nD → PrngReg)

/-- The kernel's row r of logits, formed from the arrays the first launch is entered with, is the policy's row
    of logits at token position (r / 512, r % 512): the rows are the hidden states re-laid, unrounded. -/
theorem krow_eq (c : Dev nD) (r : Fin 2048) :
    frow (V3 m ρ) c r = rowP m c (rowB r) (rowT r) := by
  funext v
  show (∑ h : Fin 2048, in0_x m ρ c (ix2 r h) * in0_w m ρ c (ix2 v h))
    = ∑ h : Fin 2048, A1 m c (ix3 (rowB r) (rowT r) h) * A0 m c (ix2 v h)
  refine Finset.sum_congr rfl fun h _ => ?_
  have ex : in0_x m ρ c (ix2 r h) = A1 m c (ix3 (rowB r) (rowT r) h) :=
    (congrFun (V3_x m ρ c) (ix2 r h)).trans (rowsK_apply (A1 m c) r h)
  have ew : in0_w m ρ c (ix2 v h) = A0 m c (ix2 v h) := congrFun (V3_w m ρ c) (ix2 v h)
  rw [ex, ew]

/-- Row r of the policy launch's statistics array: the running maximum, the rescaled sum of exponentials and
    the plain sum of the policy's row of logits after the last block. -/
theorem statsP_rows (hpre : Cert.Pre_KernelIdeal m) (c : Dev nD) (r : Fin 2048) :
    (W5 m ρ c (Proc.devRef .tc main_v6) : FVec Ideal S2048x4 .f32) (ix2 r (0 : Fin 4))
        = Cert.Spec.runMax (rowP m c (rowB r) (rowT r)) 125
      ∧ (W5 m ρ c (Proc.devRef .tc main_v6) : FVec Ideal S2048x4 .f32) (ix2 r (1 : Fin 4))
        = Cert.Spec.runL (rowP m c (rowB r) (rowT r)) 125
      ∧ (W5 m ρ c (Proc.devRef .tc main_v6) : FVec Ideal S2048x4 .f32) (ix2 r (3 : Fin 4))
        = Cert.Spec.runS (rowP m c (rowB r) (rowT r)) 125 := by
  obtain ⟨k, hk⟩ := in0_ids_row m ρ hpre c r
  have h := stats0 (V3 m ρ) c r k hk
  rw [krow_eq m ρ c r] at h
  rw [statsP_eq]
  exact ⟨h.1, h.2.1, h.2.2.2⟩

/-- The mean of the row means the kernel program forms is the reference's mean of the whole log-softmax array. -/
theorem mean_full (hpre : Cert.Pre_KernelIdeal m) (c : Dev nD) :
    HandTail.meanK (HandTail.rowMeanK (W5 m ρ c (Proc.devRef .tc main_v6)))
      = Cert.ReferenceIdeal.Terms.res34 (F := Ideal) (A0 m c) (A1 m c) :=
  mean_core (W5 m ρ c (Proc.devRef .tc main_v6)) (A0 m c) (A1 m c)
    (fun r => rowP m c (rowB r) (rowT r)) (fun _ _ => rfl) (fun r => rowP_finite m hpre c (rowB r) (rowT r))
    (fun r => (statsP_rows m ρ hpre c r).1) (fun r => (statsP_rows m ρ hpre c r).2.1)
    (fun r => (statsP_rows m ρ hpre c r).2.2)

end Cert.Bridge

end
-- ==== Proof.BridgeTail.lean ====
/-
  The two host tails are the same operations over the same shapes: the reference's scalar results, as terms of
  its per-token log-probabilities, are the kernel program's tail stages at those log-probabilities.  The one
  difference is the reference's factor exp (p − p) on the advantages, which is one where p is real.
-/
import proofs.«420414_j89421219103752_3_alg».proof.Proof.KI.Tail
import proofs.«420414_j89421219103752_3_alg».proof.Proof.RefTerms
import proofs.«420414_j89421219103752_3_alg».proof.Proof.BridgeMath

noncomputable section

namespace Cert.Bridge

open Idealize.ShloMosaic Idealize.SL.Sem

/-- The mean per-token log-probability. -/
theorem res31_eq (a0 : FVec Ideal Cert.ReferenceIdeal.S32000x2048 .f32)
    (a1 : FVec Ideal Cert.ReferenceIdeal.S4x512x2048 .f32) (a2 : IVec Cert.ReferenceIdeal.S4x512 32) :
    Cert.ReferenceIdeal.Terms.res31 (F := Ideal) a0 a1 a2
      = Cert.KernelIdeal.HandTail.meanK (Cert.ReferenceIdeal.Terms.tokLogp a1 a0 a2) := rfl

/-- The standard deviation of the per-token log-probability. -/
theorem res32_eq (a0 : FVec Ideal Cert.ReferenceIdeal.S32000x2048 .f32)
    (a1 : FVec Ideal Cert.ReferenceIdeal.S4x512x2048 .f32) (a2 : IVec Cert.ReferenceIdeal.S4x512 32) :
    Cert.ReferenceIdeal.Terms.res32 (F := Ideal) a0 a1 a2
      = Cert.KernelIdeal.HandTail.stdT (Cert.ReferenceIdeal.Terms.tokLogp a1 a0 a2) := rfl

/-- The divergence metric. -/
theorem res38_eq (a0 : FVec Ideal Cert.ReferenceIdeal.S32000x2048 .f32)
    (a1 : FVec Ideal Cert.ReferenceIdeal.S4x512x2048 .f32) (a2 a3 : IVec Cert.ReferenceIdeal.S4x512 32)
    (a5 : FVec Ideal Cert.ReferenceIdeal.S4x512x2048 .f32) (a6 : FVec Ideal Cert.ReferenceIdeal.S32000x2048 .f32) :
    Cert.ReferenceIdeal.Terms.res38 (F := Ideal) a0 a1 a2 a3 a5 a6
      = Cert.KernelIdeal.HandTail.klMetricK (Cert.ReferenceIdeal.Terms.tokLogp a1 a0 a2)
          (Cert.ReferenceIdeal.Terms.tokLogp a5 a6 a2) a3 := rfl

/-- The factor exp (p − p) is one at every token position where p is real. -/
theorem ratio_factor (lp B : FVec Ideal Cert.ReferenceIdeal.S4x512 .f32)
    (h : ∀ i, ∃ x : ℝ, lp i = (x : EReal)) : mulf (Host.exp (subf lp lp)) B = B := by
  funext i
  show Ideal.exp (lp i - lp i) * B i = B i
  exact Cert.Spec.ratio_one (lp i) (B i) (h i)

/-- The loss: with real log-probabilities the reference's ratio factor drops out. -/
theorem res29_eq (a0 : FVec Ideal Cert.ReferenceIdeal.S32000x2048 .f32)
    (a1 : FVec Ideal Cert.ReferenceIdeal.S4x512x2048 .f32) (a2 a3 : IVec Cert.ReferenceIdeal.S4x512 32)
    (a4 : FVec Ideal Cert.ReferenceIdeal.S4 .f32)
    (a5 : FVec Ideal Cert.ReferenceIdeal.S4x512x2048 .f32) (a6 : FVec Ideal Cert.ReferenceIdeal.S32000x2048 .f32)
    (hreal : ∀ i, ∃ x : ℝ, Cert.ReferenceIdeal.Terms.tokLogp (F := Ideal) a1 a0 a2 i = (x : EReal)) :
    Cert.ReferenceIdeal.Terms.res29 (F := Ideal) a0 a1 a2 a3 a4 a5 a6
      = Cert.KernelIdeal.HandTail.lossK (Cert.ReferenceIdeal.Terms.tokLogp a1 a0 a2)
          (Cert.ReferenceIdeal.Terms.tokLogp a5 a6 a2) a3 a4 := by
  unfold Cert.ReferenceIdeal.Terms.res29 Cert.ReferenceIdeal.Terms.negObj
  rw [ratio_factor _ _ hreal]
  rfl

end Cert.Bridge

end
-- ==== Proof.KI.Pay1.lean ====
/- The arithmetic of region 1's kernel body, payload by payload, read at an index at the ideal values: the block
   product of the token rows with the vocabulary block (an inner product over the hidden axis), its row maximum
   folded into the running maximum, the rescaled running sum of exponentials, the target logit picked by the
   one-hot comparison of the column's vocabulary position with the token id, the plain row sum, and the four
   initial values of the carried statistics. -/
import proofs.«420414_j89421219103752_3_alg».proof.Proof.Gen.KernelIdeal.Skeleton
import proofs.«420414_j89421219103752_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandPay1

open Cert.KernelIdeal Cert.KernelIdeal.Gen
open Idealize.ShloMosaic Idealize.ShloMosaic.ValueIdx

/-! ## Layout operations of the body read at an index -/

/-- A length-1024 vector viewed as a column reads, at row p, its entry p. -/
theorem col_cast_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    omega)

/-- A column broadcast along the lanes reads, at (p, q), the column's entry p. -/
theorem col_bcast_apply {α : Type} (v : S1024x1.Idx → α) (h : S1024x1.Broadcasts S1024x256) (p : Fin 1024) (q : Fin 256) :
    broadcastTo S1024x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The index over row p with lane coordinate q inserted is (p, q). -/
theorem lift_row (p : Fin 1024) (q : Fin 256) : reduces_S1024x256_S1024.lift (ix1 p) q = ix2 p q := by
  funext c; apply Fin.ext
  match c with
  | ⟨0, _⟩ => rfl
  | ⟨1, _⟩ => rfl

/-- A lane sum of a [1024, 256] block read at row p: the sum over the 256 lanes. -/
theorem rowSum_apply (src : FVec Ideal S1024x256 .f32) (hφ : FKind.Formats .f32)
    (hacc : (0x00000000#32 : BitVec 32) = FKind.add.neutral .f32 hφ) (p : Fin 1024) :
    multiReduction (F := Ideal) .add [1] S1024 src 0x00000000#32 reduces_S1024x256_S1024 hφ hacc (ix1 p)
      = ∑ q : Fin 256, src (ix2 p q) := by
  refine (Ideal.multiReduction_add_single src _ reduces_S1024x256_S1024 hφ hacc (ix1 p)).trans ?_
  exact Finset.sum_congr rfl fun q _ => congrArg src (lift_row p q)

/-- The pattern of f32's negative infinity is the bottom of the extended reals. -/
theorem ofBits_neg_inf_f32 : Ideal.ofBits .f32 0xFF800000#32 = ⊥ := by simp [Ideal.ofBits, Ideal.ieee]

/-- A lane maximum of a [1024, 256] block read at row p: the fold of max from the bottom over the 256 lanes. -/
theorem rowMax_apply (src : FVec Ideal S1024x256 .f32) (hφ : FKind.Formats .f32)
    (hacc : (0xFF800000#32 : BitVec 32) = FKind.maximumf.neutral .f32 hφ) (p : Fin 1024) :
    multiReduction (F := Ideal) .maximumf [1] S1024 src 0xFF800000#32 reduces_S1024x256_S1024 hφ hacc (ix1 p)
      = (Finset.univ : Finset (Fin 256)).fold max (⊥ : EReal) (fun q => src (ix2 p q)) := by
  refine (Ideal.multiReduction_maximumf_single src _ reduces_S1024x256_S1024 hφ hacc (ix1 p)).trans ?_
  have hb : (FloatOps.ofBits (F := Ideal) .f32 0xFF800000#32) = (⊥ : EReal) := ofBits_neg_inf_f32
  have hf : (src ∘ reduces_S1024x256_S1024.lift (ix1 p)) = fun q : Fin 256 => src (ix2 p q) :=
    funext fun q => congrArg src (lift_row p q)
  rw [hb]
  exact congrArg (fun f => Finset.fold max (⊥ : EReal) f (Finset.univ : Finset (Fin 256))) hf

/-! ## The block product -/

/-- The block of logits: entry (p, q) is the inner product over the hidden axis of token row p with vocabulary row q. -/
theorem pay8_apply (x0 : Vec Ideal S1024x2048 .bf16) (x1 : Vec Ideal S256x2048 .f32) (p : Fin 1024) (q : Fin 256) :
    k1_pay8 x0 x1 (ix2 p q) = ∑ h : Fin 2048, (x0 (ix2 p h) : EReal) * (x1 (ix2 q h) : EReal) := by
  unfold k1_pay8
  rw [shapeCast_self]
  refine (Ideal.matmul_constant_zero_apply dot_S1024x2048_S256x2048_S1024x256_1_1_0_0_n_n none _ _ (ix2 p q)).trans ?_
  rw [← Equiv.sum_comp (contrEquiv1 dot_S1024x2048_S256x2048_S1024x256_1_1_0_0_n_n 2048 rfl rfl).symm]
  refine Finset.sum_congr rfl fun c _ => ?_
  have c2 := contrEquiv1_symm_val dot_S1024x2048_S256x2048_S1024x256_1_1_0_0_n_n 2048 rfl rfl c
  have l2 : dot_S1024x2048_S256x2048_S1024x256_1_1_0_0_n_n.lhsIdx (ix2 p q) ((contrEquiv1 _ 2048 rfl rfl).symm c) = ix2 p c := by
    funext ax; apply Fin.ext
    match ax with
    | ⟨0, _⟩ => simp [DotDims.lhsIdx, dot_S1024x2048_S256x2048_S1024x256_1_1_0_0_n_n]; rfl
    | ⟨1, _⟩ => simp [DotDims.lhsIdx, dot_S1024x2048_S256x2048_S1024x256_1_1_0_0_n_n]; exact c2
  have r2 : dot_S1024x2048_S256x2048_S1024x256_1_1_0_0_n_n.rhsIdx (ix2 p q) ((contrEquiv1 _ 2048 rfl rfl).symm c) = ix2 q c := by
    funext ax; apply Fin.ext
    match ax with
    | ⟨0, _⟩ => simp [DotDims.rhsIdx, dot_S1024x2048_S256x2048_S1024x256_1_1_0_0_n_n]; rfl
    | ⟨1, _⟩ => simp [DotDims.rhsIdx, dot_S1024x2048_S256x2048_S1024x256_1_1_0_0_n_n]; exact c2
  rw [l2, r2]
  rfl

/-! ## The running maximum and the rescaled running sum of exponentials -/

/-- The new running maximum of row p: the old one against the maximum of the row's 256 logits of this block. -/
theorem pay10_apply (x0 : Vec Ideal S1024x2048 .bf16) (x1 : Vec Ideal S256x2048 .f32) (s0 : Vec Ideal S1024x1 .f32)
    (p : Fin 1024) :
    k1_pay10 x0 x1 s0 (ix2 p (0 : Fin 1))
      = max (s0 (ix2 p (0 : Fin 1)) : EReal)
          ((Finset.univ : Finset (Fin 256)).fold max (⊥ : EReal) (fun q => k1_pay8 x0 x1 (ix2 p q))) := by
  unfold k1_pay10
  show max (s0 (ix2 p (0 : Fin 1)) : EReal) (shapeCast S1024x1 _ shapeCasts_S1024_S1024x1 (ix2 p (0 : Fin 1))) = _
  rw [col_cast_apply]
  exact congrArg (max (s0 (ix2 p (0 : Fin 1)) : EReal)) (rowMax_apply (k1_pay8 x0 x1) _ _ p)

/-- The new running sum of exponentials of row p: the old one rescaled from the old to the new running maximum, plus
    the exponentials of this block's 256 logits shifted by the new running maximum. -/
theorem pay11_apply (x0 : Vec Ideal S1024x2048 .bf16) (x1 : Vec Ideal S256x2048 .f32) (s0 s1 : Vec Ideal S1024x1 .f32)
    (p : Fin 1024) :
    k1_pay11 x0 x1 s0 s1 (ix2 p (0 : Fin 1))
      = Ideal.exp ((s0 (ix2 p (0 : Fin 1)) : EReal) - k1_pay10 x0 x1 s0 (ix2 p (0 : Fin 1))) * (s1 (ix2 p (0 : Fin 1)) : EReal)
        + ∑ q : Fin 256, Ideal.exp (k1_pay8 x0 x1 (ix2 p q) - k1_pay10 x0 x1 s0 (ix2 p (0 : Fin 1))) := by
  unfold k1_pay11
  rw [shapeCast_self]
  show Ideal.exp ((s0 (ix2 p (0 : Fin 1)) : EReal) - k1_pay10 x0 x1 s0 (ix2 p (0 : Fin 1))) * (s1 (ix2 p (0 : Fin 1)) : EReal)
      + shapeCast S1024x1 _ shapeCasts_S1024_S1024x1 (ix2 p (0 : Fin 1)) = _
  rw [col_cast_apply]
  refine congrArg (_ + ·) ((rowSum_apply _ _ _ p).trans ?_)
  refine Finset.sum_congr rfl fun q _ => ?_
  show Ideal.exp (k1_pay8 x0 x1 (ix2 p q) - broadcastTo S1024x256 (k1_pay10 x0 x1 s0) broadcasts_S1024x1_S1024x256 (ix2 p q)) = _
  rw [col_bcast_apply]

/-! ## The target logit -/

/-- The block's share of the target logit of row p: the logits of the block's 256 columns, each kept where the
    column's vocabulary position — lane plus 256 times the block coordinate, as 32-bit words — is the row's token id. -/
theorem pay9_apply (i : grid1.Coords) (x0 : Vec Ideal S1024x2048 .bf16) (x1 : Vec Ideal S256x2048 .f32)
    (x2 : Vec Ideal S1024x1 .i32) (p : Fin 1024) :
    k1_pay9 i x0 x1 x2 (ix2 p (0 : Fin 1))
      = ∑ q : Fin 256, (if BitVec.ofNat 32 q.val + BitVec.ofNat 32 (i 1).val * 256#32 = (x2 (ix2 p (0 : Fin 1)) : BitVec 32)
          then k1_pay8 x0 x1 (ix2 p q) else (0 : EReal)) := by
  unfold k1_pay9
  dsimp only
  rw [col_cast_apply]
  refine (rowSum_apply _ _ _ p).trans ?_
  refine Finset.sum_congr rfl fun q _ => ?_
  rw [select_apply, shapeCast_self]
  show Scalar.select (IntOp.cmpi .eq (IntOp.addi (iota .tc S1024x256 32 [1] iota_S1024x256_d1_w32 (ix2 p q))
        (IntOp.muli (BitVec.ofNat 32 (i 1).val) 256#32))
      (broadcastTo S1024x256 x2 broadcasts_S1024x1_S1024x256 (ix2 p q)))
    (k1_pay8 x0 x1 (ix2 p q)) (Ideal.ofBits .f32 0x00000000#32) = _
  rw [iota_single_apply, col_bcast_apply, Ideal.ofBits_zero_f32]
  show (if BitVec.ofBool (BitVec.ofNat 32 q.val + BitVec.ofNat 32 (i 1).val * 256#32 == (x2 (ix2 p (0 : Fin 1)) : BitVec 32)) = 1#1
      then k1_pay8 x0 x1 (ix2 p q) else (0 : EReal)) = _
  by_cases h : BitVec.ofNat 32 q.val + BitVec.ofNat 32 (i 1).val * 256#32 = (x2 (ix2 p (0 : Fin 1)) : BitVec 32)
  · rw [if_pos h, if_pos (by rw [beq_iff_eq.mpr h]; rfl)]
  · rw [if_neg h, if_neg (by rw [beq_eq_false_iff_ne.mpr h]; decide)]

/-- When the token id of row p is the word of a vocabulary position k and the block coordinate is j, the comparison
    holds exactly at the lane q with 256 j + q = k. -/
theorem pay9_cond_iff (j : Nat) (hj : j < 125) (q : Fin 256) (k : Fin 32000) :
    (BitVec.ofNat 32 q.val + BitVec.ofNat 32 j * 256#32 = BitVec.ofNat 32 k.val) ↔ 256 * j + q.val = k.val := by
  have hq := q.isLt
  have hk := k.isLt
  rw [← BitVec.toNat_inj]
  simp only [BitVec.toNat_add, BitVec.toNat_mul, BitVec.toNat_ofNat]
  omega

/-- So for a row whose token id is the word of vocabulary position k, at block coordinate below 125, the block's
    share of the target logit is the one-hot sum over the block's columns. -/
theorem pay9_apply_of_id (i : grid1.Coords) (x0 : Vec Ideal S1024x2048 .bf16) (x1 : Vec Ideal S256x2048 .f32)
    (x2 : Vec Ideal S1024x1 .i32) (p : Fin 1024) (k : Fin 32000)
    (hk : (x2 (ix2 p (0 : Fin 1)) : BitVec 32) = BitVec.ofNat 32 k.val) (hi : (i 1).val < 125) :
    k1_pay9 i x0 x1 x2 (ix2 p (0 : Fin 1))
      = ∑ q : Fin 256, (if 256 * (i 1).val + q.val = k.val then k1_pay8 x0 x1 (ix2 p q) else (0 : EReal)) := by
  rw [pay9_apply, hk]
  exact Finset.sum_congr rfl fun q _ => if_congr (pay9_cond_iff (i 1).val hi q k) rfl rfl

/-! ## The target-logit and logit-sum updates, and the stored running maximum -/

/-- The stored running maximum is the computed one. -/
theorem pay1_apply (v23 : FVec Ideal S1024x1 .f32) : k1_pay1 v23 = v23 := by
  unfold k1_pay1
  exact shapeCast_self _ _

/-- The new target logit of row p: the old one plus the block's share. -/
theorem pay2_apply (v19 : FVec Ideal S1024x1 .f32) (s2 : Vec Ideal S1024x1 .f32) (p : Fin 1024) :
    k1_pay2 v19 s2 (ix2 p (0 : Fin 1)) = (s2 (ix2 p (0 : Fin 1)) : EReal) + v19 (ix2 p (0 : Fin 1)) := by
  unfold k1_pay2
  rw [shapeCast_self]
  rfl

/-- The new logit sum of row p: the old one plus the sum of the block's 256 logits of the row. -/
theorem pay3_apply (v7 : FVec Ideal S1024x256 .f32) (s3 : Vec Ideal S1024x1 .f32) (p : Fin 1024) :
    k1_pay3 v7 s3 (ix2 p (0 : Fin 1)) = (s3 (ix2 p (0 : Fin 1)) : EReal) + ∑ q : Fin 256, v7 (ix2 p q) := by
  unfold k1_pay3
  rw [shapeCast_self]
  show (s3 (ix2 p (0 : Fin 1)) : EReal) + shapeCast S1024x1 _ shapeCasts_S1024_S1024x1 (ix2 p (0 : Fin 1)) = _
  rw [col_cast_apply]
  exact congrArg (_ + ·) (rowSum_apply v7 _ _ p)

/-! ## The initial values of the four carried statistics -/

/-- The running maximum starts at the bottom. -/
theorem pay4_at (j : S1024x1.Idx) : k1_pay4 (F := Ideal) j = (⊥ : EReal) := by
  unfold k1_pay4
  rw [shapeCast_self]
  exact ofBits_neg_inf_f32

/-- The running sum of exponentials starts at zero. -/
theorem pay5_at (j : S1024x1.Idx) : k1_pay5 (F := Ideal) j = (0 : EReal) := by
  unfold k1_pay5
  rw [shapeCast_self]
  exact Ideal.ofBits_zero_f32

/-- The target logit starts at zero. -/
theorem pay6_at (j : S1024x1.Idx) : k1_pay6 (F := Ideal) j = (0 : EReal) := by
  unfold k1_pay6
  rw [shapeCast_self]
  exact Ideal.ofBits_zero_f32

/-- The logit sum starts at zero. -/
theorem pay7_at (j : S1024x1.Idx) : k1_pay7 (F := Ideal) j = (0 : EReal) := by
  unfold k1_pay7
  rw [shapeCast_self]
  exact Ideal.ofBits_zero_f32

/-- The running maximum starts at the bottom, at row p. -/
theorem pay4_apply (p : Fin 1024) : k1_pay4 (F := Ideal) (ix2 p (0 : Fin 1)) = (⊥ : EReal) := pay4_at _

/-- The running sum of exponentials starts at zero, at row p. -/
theorem pay5_apply (p : Fin 1024) : k1_pay5 (F := Ideal) (ix2 p (0 : Fin 1)) = (0 : EReal) := pay5_at _

/-- The target logit starts at zero, at row p. -/
theorem pay6_apply (p : Fin 1024) : k1_pay6 (F := Ideal) (ix2 p (0 : Fin 1)) = (0 : EReal) := pay6_at _

/-- The logit sum starts at zero, at row p. -/
theorem pay7_apply (p : Fin 1024) : k1_pay7 (F := Ideal) (ix2 p (0 : Fin 1)) = (0 : EReal) := pay7_at _

end Cert.KernelIdeal.HandPay1

end
-- ==== Proof.KI.Blocks1.lean ====
/-
  Where the blocks of pallas_call 1's four windows sit in their arrays, at a symbolic grid point. The grid is (2, 125)
  in row-major order: point t has coordinates (t / 125, t % 125). Windows 0, 2 and 3 move with the first coordinate in
  blocks of 1024 rows; window 1 moves with the second in blocks of 256 rows; no window moves along its second axis. So
  a block's row p is row 1024 · (t / 125) + p (windows 0, 2, 3) or 256 · (t % 125) + q (window 1) of its array, the
  column unchanged. Row r of the output array lies in the blocks of exactly the points t with t / 125 = r / 1024, of
  which the one written back is 125 · (r / 1024) + 124; these write-backs cover the array.
-/
import proofs.«420414_j89421219103752_3_alg».proof.Proof.Gen.KernelIdeal.Launch
import proofs.«420414_j89421219103752_3_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.HandBlocks

open Cert.KernelIdeal Cert.KernelIdeal.Gen

variable {Val : EltTy → Type}

/-- The grid has 250 points. -/
theorem N1 : cfg1.N = 250 := N_1

/-- The printed index maps over the grid: windows 0, 2, 3 at block row t / 125, window 1 at block row t % 125, every
    window at block column 0. -/
theorem idx1 : ∀ t : Fin cfg1.N,
    win1_0.index t (0 : Fin 2) = t.val / 125 ∧ win1_0.index t (1 : Fin 2) = 0
    ∧ win1_1.index t (0 : Fin 2) = t.val % 125 ∧ win1_1.index t (1 : Fin 2) = 0
    ∧ win1_2.index t (0 : Fin 2) = t.val / 125 ∧ win1_2.index t (1 : Fin 2) = 0
    ∧ win1_3.index t (0 : Fin 2) = t.val / 125 ∧ win1_3.index t (1 : Fin 2) = 0 :=
  (by decide +kernel : ∀ t : Fin grid1.N, _)

/-- Row p of the 1024-row block at point t is a row of the 2048-row array. -/
theorem row1_lt (t : Fin cfg1.N) (p : Fin 1024) : 1024 * (t.val / 125) + p.val < 2048 := by
  have h1 := t.isLt
  have h2 : cfg1.N = 250 := N_1
  omega

/-- Row q of the 256-row block at point t is a row of the 32000-row array. -/
theorem vrow1_lt (t : Fin cfg1.N) (q : Fin 256) : 256 * (t.val % 125) + q.val < 32000 := by
  have h1 := q.isLt
  have h2 : t.val % 125 < 125 := Nat.mod_lt _ (by decide)
  omega

/-- Window 0's block at point t, read at (p, h), is its array at (1024 · (t / 125) + p, h). -/
theorem blk1_0 (A0 : S2048x2048.Idx → Val .bf16) (t : Fin cfg1.N) (p : Fin 1024) (h : Fin 2048) :
    ((cfg1.win 0).blk t).view.read Val A0 (ix2 p h) = A0 (ix2 ⟨1024 * (t.val / 125) + p.val, row1_lt t p⟩ h) := by
  obtain ⟨e0, e1, -⟩ := idx1 t
  show A0 (((cfg1.win 0).blk t).view.emb (ix2 p h)) = _
  congr 1
  funext a
  apply Fin.ext
  match a with
  | ⟨0, _⟩ => show win1_0.index t (0 : Fin 2) * 1024 + 1 * p.val = 1024 * (t.val / 125) + p.val; omega
  | ⟨1, _⟩ => show win1_0.index t (1 : Fin 2) * 2048 + 1 * h.val = h.val; omega

/-- Window 1's block at point t, read at (q, h), is its array at (256 · (t % 125) + q, h). -/
theorem blk1_1 (A1 : S32000x2048.Idx → Val .f32) (t : Fin cfg1.N) (q : Fin 256) (h : Fin 2048) :
    ((cfg1.win 1).blk t).view.read Val A1 (ix2 q h) = A1 (ix2 ⟨256 * (t.val % 125) + q.val, vrow1_lt t q⟩ h) := by
  obtain ⟨-, -, e0, e1, -⟩ := idx1 t
  show A1 (((cfg1.win 1).blk t).view.emb (ix2 q h)) = _
  congr 1
  funext a
  apply Fin.ext
  match a with
  | ⟨0, _⟩ => show win1_1.index t (0 : Fin 2) * 256 + 1 * q.val = 256 * (t.val % 125) + q.val; omega
  | ⟨1, _⟩ => show win1_1.index t (1 : Fin 2) * 2048 + 1 * h.val = h.val; omega

/-- Window 2's block at point t, read at (p, 0), is its array at (1024 · (t / 125) + p, 0). -/
theorem blk1_2 (A2 : S2048x1.Idx → Val .i32) (t : Fin cfg1.N) (p : Fin 1024) :
    ((cfg1.win 2).blk t).view.read Val A2 (ix2 p (0 : Fin 1)) = A2 (ix2 ⟨1024 * (t.val / 125) + p.val, row1_lt t p⟩ (0 : Fin 1)) := by
  obtain ⟨-, -, -, -, e0, e1, -⟩ := idx1 t
  show A2 (((cfg1.win 2).blk t).view.emb (ix2 p (0 : Fin 1))) = _
  congr 1
  funext a
  apply Fin.ext
  match a with
  | ⟨0, _⟩ => show win1_2.index t (0 : Fin 2) * 1024 + 1 * p.val = 1024 * (t.val / 125) + p.val; omega
  | ⟨1, _⟩ => show win1_2.index t (1 : Fin 2) * 1 + 1 * (0 : Fin 1).val = (0 : Fin 1).val; omega

/-- Window 3's block at point t, read at (p, k), is its array at (1024 · (t / 125) + p, k). -/
theorem blk1_3 (G : S2048x4.Idx → Val .f32) (t : Fin cfg1.N) (p : Fin 1024) (k : Fin 4) :
    ((cfg1.win 3).blk t).view.read Val G (ix2 p k) = G (ix2 ⟨1024 * (t.val / 125) + p.val, row1_lt t p⟩ k) := by
  obtain ⟨-, -, -, -, -, -, e0, e1⟩ := idx1 t
  show G (((cfg1.win 3).blk t).view.emb (ix2 p k)) = _
  congr 1
  funext a
  apply Fin.ext
  match a with
  | ⟨0, _⟩ => show win1_3.index t (0 : Fin 2) * 1024 + 1 * p.val = 1024 * (t.val / 125) + p.val; omega
  | ⟨1, _⟩ => show win1_3.index t (1 : Fin 2) * 4 + 1 * k.val = k.val; omega

/-- An index of the output array is in point t's block iff its row is in the point's 1024-row band. -/
theorem mem_blk1_3 (t : Fin cfg1.N) (i : S2048x4.Idx) :
    i ∈ ((cfg1.win 3).blk t).view.set ↔ (i 0).val / 1024 = t.val / 125 := by
  show i ∈ ((View.whole main_v7).slice (win1_3.rect t)).set ↔ _
  rw [View.set_slice_whole, Rect.mem_set_unit]
  obtain ⟨-, -, -, -, -, -, e0, e1⟩ := idx1 t
  have hi1 : (i 1).val < 4 := (i 1).isLt
  constructor
  · intro h
    have b0 : win1_3.index t (0 : Fin 2) * 1024 ≤ (i 0).val ∧ (i 0).val < win1_3.index t (0 : Fin 2) * 1024 + 1024 := h 0
    omega
  · intro h a
    match a with
    | ⟨0, _⟩ => show win1_3.index t (0 : Fin 2) * 1024 ≤ (i 0).val ∧ (i 0).val < win1_3.index t (0 : Fin 2) * 1024 + 1024; omega
    | ⟨1, _⟩ => show win1_3.index t (1 : Fin 2) * 4 ≤ (i 1).val ∧ (i 1).val < win1_3.index t (1 : Fin 2) * 4 + 4; omega

/-- The point with grid coordinates (a, j). -/
def pt1 (a : Fin 2) (j : Fin 125) : Fin cfg1.N :=
  ⟨125 * a.val + j.val, by have h1 := a.isLt; have h2 := j.isLt; have h3 : cfg1.N = 250 := N_1; omega⟩

theorem pt1_val (a : Fin 2) (j : Fin 125) : (pt1 a j).val = 125 * a.val + j.val := rfl
theorem pt1_div (a : Fin 2) (j : Fin 125) : (pt1 a j).val / 125 = a.val := by
  have h2 := j.isLt; rw [pt1_val]; omega
theorem pt1_mod (a : Fin 2) (j : Fin 125) : (pt1 a j).val % 125 = j.val := by
  have h2 := j.isLt; rw [pt1_val]; omega
/-- Every point is the point of its coordinates. -/
theorem eq_pt1 (t : Fin cfg1.N) :
    t = pt1 ⟨t.val / 125, by have h1 := t.isLt; have h3 : cfg1.N = 250 := N_1; omega⟩ ⟨t.val % 125, Nat.mod_lt _ (by decide)⟩ := by
  apply Fin.ext; rw [pt1_val]; show t.val = 125 * (t.val / 125) + t.val % 125; omega

/-- The last point of the band of row r: the one point that writes the row's block back. -/
def last1 (r : Fin 2048) : Fin cfg1.N :=
  ⟨125 * (r.val / 1024) + 124, by have h1 := r.isLt; have h3 : cfg1.N = 250 := N_1; omega⟩

theorem last1_val (r : Fin 2048) : (last1 r).val = 125 * (r.val / 1024) + 124 := rfl
theorem last1_div (r : Fin 2048) : (last1 r).val / 125 = r.val / 1024 := by rw [last1_val]; omega
theorem last1_mod (r : Fin 2048) : (last1 r).val % 125 = 124 := by rw [last1_val]; omega

/-- The last point of a row's band writes its block back, -/
theorem flush_last1 (r : Fin 2048) : (cfg1.win 3).flush (last1 r) = true :=
  (flush1_3 (last1 r)).mpr (last1_mod r)

/-- and its block holds the row. -/
theorem mem_last1 (i : S2048x4.Idx) : i ∈ ((cfg1.win 3).blk (last1 (i 0))).view.set := by
  rw [mem_blk1_3]; exact (last1_div (i 0)).symm

/-- THE COVER: every index of the output array is in the block of a point that writes back. -/
theorem cover1_3 (i : S2048x4.Idx) :
    ∃ t : Fin cfg1.N, (cfg1.win 3).flush t = true ∧ i ∈ ((cfg1.win 3).blk t).view.set :=
  ⟨last1 (i 0), flush_last1 (i 0), mem_last1 i⟩

/-- A point that writes back and whose block holds an index is the last point of the index's row band: the only one. -/
theorem eq_last1_of_flush_mem (t : Fin cfg1.N) (i : S2048x4.Idx) (hf : (cfg1.win 3).flush t = true)
    (hi : i ∈ ((cfg1.win 3).blk t).view.set) : t = last1 (i 0) := by
  rw [mem_blk1_3] at hi
  have hm := (flush1_3 t).mp hf
  apply Fin.ext
  show t.val = 125 * ((i 0).val / 1024) + 124
  omega

/-- A point that writes back is the last point of its own band. -/
theorem flush1_iff_last (t : Fin cfg1.N) : (cfg1.win 3).flush t = true ↔ t.val = 125 * (t.val / 125) + 124 := by
  rw [flush1_3]; omega

end Cert.KernelIdeal.HandBlocks

end
-- ==== Proof.KI.Pieces1A.lean ====
/- What the first vocabulary block leaves in the four carried scratches of region 1, as payload terms: each scratch is
   stored its initial value (the bottom for the running maximum, zero for the running sum of exponentials, the target
   logit and the logit sum), the update reads that value back, and the update's store is what the scratch ends with. -/
import proofs.«420414_j89421219103752_3_alg».proof.Proof.KI.Frame1
import Idealize.ShloMosaic.Lib.Pipeline.Value

set_option maxRecDepth 16384

noncomputable section

namespace Cert.KernelIdeal.HandValue1

open Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a rank-2 rectangle, as a function. -/
theorem hz1A : (![0, 0] : Fin 2 → Nat) = fun _ => 0 := funext fun a => by fin_cases a <;> rfl

/-- After the first vocabulary block scratch 0 (running maximum) holds the block's row maxima against the initial bottom: the initial value is stored, read
    back by the update, and the update's store is what the scratch ends with. -/
theorem sout1_A_0_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) :
    sout1_A_0 c i arg2 harg2 arg3 harg3 arg4 harg4 arg5 harg5 arg6 harg6 arg7 harg7 arg8 harg8 arg9 harg9 hc0 hc1 x0 x1 x2 = k1_pay1 (k1_pay10 x0 x1 (k1_pay4 (F := F))) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2)]
  unfold kernelRun1_A
  dsimp only
  sl_unfold_words
  rw [View.canon_cons_unit_zero hz1A]
  simp only [View.readAt_eq_ld, harg2.read_unread, harg3.read_unread, harg4.read_unread,
    View.ld_unit_zero (S := S1024x2048) hz1A, View.ld_unit_zero (S := S256x2048) hz1A, View.ld_unit_zero (S := S1024x1) hz1A,
    View.readCov_unit_zero (S := S1024x1) arg6.view hz1A, View.readCov_unit_zero (S := S1024x1) arg7.view hz1A,
    View.readCov_unit_zero (S := S1024x1) arg8.view hz1A, View.readCov_unit_zero (S := S1024x1) arg9.view hz1A]

/-- After the first vocabulary block scratch 1 (running sum of exponentials) holds the block's exponentials shifted by the new maximum, the initial zero rescaled in front: the initial value is stored, read
    back by the update, and the update's store is what the scratch ends with. -/
theorem sout1_A_1_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) :
    sout1_A_1 c i arg2 harg2 arg3 harg3 arg4 harg4 arg5 harg5 arg6 harg6 arg7 harg7 arg8 harg8 arg9 harg9 hc0 hc1 x0 x1 x2 = k1_pay11 x0 x1 (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2)]
  unfold kernelRun1_A
  dsimp only
  sl_unfold_words
  rw [View.canon_cons_unit_zero hz1A]
  simp only [View.readAt_eq_ld, harg2.read_unread, harg3.read_unread, harg4.read_unread,
    View.ld_unit_zero (S := S1024x2048) hz1A, View.ld_unit_zero (S := S256x2048) hz1A, View.ld_unit_zero (S := S1024x1) hz1A,
    View.readCov_unit_zero (S := S1024x1) arg6.view hz1A, View.readCov_unit_zero (S := S1024x1) arg7.view hz1A,
    View.readCov_unit_zero (S := S1024x1) arg8.view hz1A, View.readCov_unit_zero (S := S1024x1) arg9.view hz1A]

/-- After the first vocabulary block scratch 2 (target logit) holds the block's share of the target logit added to the initial zero: the initial value is stored, read
    back by the update, and the update's store is what the scratch ends with. -/
theorem sout1_A_2_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) :
    sout1_A_2 c i arg2 harg2 arg3 harg3 arg4 harg4 arg5 harg5 arg6 harg6 arg7 harg7 arg8 harg8 arg9 harg9 hc0 hc1 x0 x1 x2 = k1_pay2 (k1_pay9 i x0 x1 x2) (k1_pay6 (F := F)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2)]
  unfold kernelRun1_A
  dsimp only
  sl_unfold_words
  rw [View.canon_cons_unit_zero hz1A]
  simp only [View.readAt_eq_ld, harg2.read_unread, harg3.read_unread, harg4.read_unread,
    View.ld_unit_zero (S := S1024x2048) hz1A, View.ld_unit_zero (S := S256x2048) hz1A, View.ld_unit_zero (S := S1024x1) hz1A,
    View.readCov_unit_zero (S := S1024x1) arg6.view hz1A, View.readCov_unit_zero (S := S1024x1) arg7.view hz1A,
    View.readCov_unit_zero (S := S1024x1) arg8.view hz1A, View.readCov_unit_zero (S := S1024x1) arg9.view hz1A]

/-- After the first vocabulary block scratch 3 (logit sum) holds the block's row sums added to the initial zero: the initial value is stored, read
    back by the update, and the update's store is what the scratch ends with. -/
theorem sout1_A_3_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i)
    (x0 : Vec F S1024x2048 .bf16) (x1 : Vec F S256x2048 .f32) (x2 : Vec F S1024x1 .i32) :
    sout1_A_3 c i arg2 harg2 arg3 harg3 arg4 harg4 arg5 harg5 arg6 harg6 arg7 harg7 arg8 harg8 arg9 harg9 hc0 hc1 x0 x1 x2 = k1_pay3 (k1_pay8 x0 x1) (k1_pay7 (F := F)) := by
  unfold sout1_A_3
  rw [View.read_writes_eq_canon _ _ _ (scover1_A_3 c i arg2 harg2 arg3 harg3 arg4 harg4 arg5 harg5 arg6 harg6 arg7 harg7 arg8 harg8 arg9 harg9 hc0 hc1 x0 x1 x2)]
  unfold kernelRun1_A
  dsimp only
  sl_unfold_words
  rw [View.canon_cons_unit_zero hz1A]
  simp only [View.readAt_eq_ld, harg2.read_unread, harg3.read_unread, harg4.read_unread,
    View.ld_unit_zero (S := S1024x2048) hz1A, View.ld_unit_zero (S := S256x2048) hz1A, View.ld_unit_zero (S := S1024x1) hz1A,
    View.readCov_unit_zero (S := S1024x1) arg6.view hz1A, View.readCov_unit_zero (S := S1024x1) arg7.view hz1A,
    View.readCov_unit_zero (S := S1024x1) arg8.view hz1A, View.readCov_unit_zero (S := S1024x1) arg9.view hz1A]

end Cert.KernelIdeal.HandValue1

end
-- ==== Proof.KI.Run1Read.lean ====
/- What the three runs of region 1's kernel body leave in each buffer, read off as explicit lists of pieces: every
   scratch ends covered by ONE whole store whose payload is the block's update of the carried statistic (running
   maximum m, rescaled sum of exponentials l, target logit t, logit sum s); at a first vocabulary block the update
   starts from the initial values (−∞, 0, 0, 0) stored just before; at the last block the output's four columns
   receive the four new statistics. -/
import proofs.«420414_j89421219103752_3_alg».proof.Proof.KI.Run1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle, as a function. -/
theorem hzero1 : (![0, 0] : Fin 2 → Nat) = fun _ => 0 := funext fun a => by fin_cases a <;> rfl

/-! ## Case A: each scratch is initialised, then updated from the initial value -/

theorem pieces1_A_out (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i) (x0 : Vec F S1024x2048 .bf16) (x1 : Vec F S256x2048 .f32) (x2 : Vec F S1024x1 .i32) : (kernelRun1_A c i arg2 harg2 arg3 harg3 arg4 harg4 arg5 harg5 arg6 harg6 arg7 harg7 arg8 harg8 arg9 harg9 hc0 hc1 x0 x1 x2).1 = [] := rfl
theorem pieces1_A_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i) (x0 : Vec F S1024x2048 .bf16) (x1 : Vec F S256x2048 .f32) (x2 : Vec F S1024x1 .i32) :
    (kernelRun1_A c i arg2 harg2 arg3 harg3 arg4 harg4 arg5 harg5 arg6 harg6 arg7 harg7 arg8 harg8 arg9 harg9 hc0 hc1 x0 x1 x2).2.1 = [⟨Rect.unit ![0, 0] S1024x1.size inb_S1024x1_S1024x1_0_0, k1_pay1 (k1_pay10 x0 x1 (k1_pay4 (F := F)))⟩, ⟨Rect.unit ![0, 0] S1024x1.size inb_S1024x1_S1024x1_0_0, k1_pay4⟩] := by
  unfold kernelRun1_A
  dsimp only
  sl_unfold_words
  simp only [View.readAt_eq_ld, harg2.read_unread, harg3.read_unread, harg4.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_A_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i) (x0 : Vec F S1024x2048 .bf16) (x1 : Vec F S256x2048 .f32) (x2 : Vec F S1024x1 .i32) :
    (kernelRun1_A c i arg2 harg2 arg3 harg3 arg4 harg4 arg5 harg5 arg6 harg6 arg7 harg7 arg8 harg8 arg9 harg9 hc0 hc1 x0 x1 x2).2.2.1 = [⟨Rect.unit ![0, 0] S1024x1.size inb_S1024x1_S1024x1_0_0, k1_pay11 x0 x1 (k1_pay4 (F := F)) (k1_pay5 (F := F))⟩, ⟨Rect.unit ![0, 0] S1024x1.size inb_S1024x1_S1024x1_0_0, k1_pay5⟩] := by
  unfold kernelRun1_A
  dsimp only
  sl_unfold_words
  simp only [View.readAt_eq_ld, harg2.read_unread, harg3.read_unread, harg4.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_A_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i) (x0 : Vec F S1024x2048 .bf16) (x1 : Vec F S256x2048 .f32) (x2 : Vec F S1024x1 .i32) :
    (kernelRun1_A c i arg2 harg2 arg3 harg3 arg4 harg4 arg5 harg5 arg6 harg6 arg7 harg7 arg8 harg8 arg9 harg9 hc0 hc1 x0 x1 x2).2.2.2.1 = [⟨Rect.unit ![0, 0] S1024x1.size inb_S1024x1_S1024x1_0_0, k1_pay2 (k1_pay9 i x0 x1 x2) (k1_pay6 (F := F))⟩, ⟨Rect.unit ![0, 0] S1024x1.size inb_S1024x1_S1024x1_0_0, k1_pay6⟩] := by
  unfold kernelRun1_A
  dsimp only
  sl_unfold_words
  simp only [View.readAt_eq_ld, harg2.read_unread, harg3.read_unread, harg4.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_A_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond1_0 i) (hc1 : ¬cond1_1 i) (x0 : Vec F S1024x2048 .bf16) (x1 : Vec F S256x2048 .f32) (x2 : Vec F S1024x1 .i32) :
    (kernelRun1_A c i arg2 harg2 arg3 harg3 arg4 harg4 arg5 harg5 arg6 harg6 arg7 harg7 arg8 harg8 arg9 harg9 hc0 hc1 x0 x1 x2).2.2.2.2.1 = [⟨Rect.unit ![0, 0] S1024x1.size inb_S1024x1_S1024x1_0_0, k1_pay3 (k1_pay8 x0 x1) (k1_pay7 (F := F))⟩, ⟨Rect.unit ![0, 0] S1024x1.size inb_S1024x1_S1024x1_0_0, k1_pay7⟩] := by
  unfold kernelRun1_A
  dsimp only
  sl_unfold_words
  simp only [View.readAt_eq_ld, harg2.read_unread, harg3.read_unread, harg4.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]

/-! ## Case B: each scratch is updated from what the block before left -/

theorem pieces1_B_out (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) : (kernelRun1_B c i arg2 harg2 arg3 harg3 arg4 harg4 arg5 harg5 arg6 harg6 arg7 harg7 arg8 harg8 arg9 harg9 hc0 hc1 x0 x1 x2 xs0 xs1 xs2 xs3).1 = [] := rfl
theorem pieces1_B_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    (kernelRun1_B c i arg2 harg2 arg3 harg3 arg4 harg4 arg5 harg5 arg6 harg6 arg7 harg7 arg8 harg8 arg9 harg9 hc0 hc1 x0 x1 x2 xs0 xs1 xs2 xs3).2.1 = [⟨Rect.unit ![0, 0] S1024x1.size inb_S1024x1_S1024x1_0_0, k1_pay1 (k1_pay10 x0 x1 xs0)⟩] := by
  unfold kernelRun1_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_B_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    (kernelRun1_B c i arg2 harg2 arg3 harg3 arg4 harg4 arg5 harg5 arg6 harg6 arg7 harg7 arg8 harg8 arg9 harg9 hc0 hc1 x0 x1 x2 xs0 xs1 xs2 xs3).2.2.1 = [⟨Rect.unit ![0, 0] S1024x1.size inb_S1024x1_S1024x1_0_0, k1_pay11 x0 x1 xs0 xs1⟩] := by
  unfold kernelRun1_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_B_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    (kernelRun1_B c i arg2 harg2 arg3 harg3 arg4 harg4 arg5 harg5 arg6 harg6 arg7 harg7 arg8 harg8 arg9 harg9 hc0 hc1 x0 x1 x2 xs0 xs1 xs2 xs3).2.2.2.1 = [⟨Rect.unit ![0, 0] S1024x1.size inb_S1024x1_S1024x1_0_0, k1_pay2 (k1_pay9 i x0 x1 x2) xs2⟩] := by
  unfold kernelRun1_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_B_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    (kernelRun1_B c i arg2 harg2 arg3 harg3 arg4 harg4 arg5 harg5 arg6 harg6 arg7 harg7 arg8 harg8 arg9 harg9 hc0 hc1 x0 x1 x2 xs0 xs1 xs2 xs3).2.2.2.2.1 = [⟨Rect.unit ![0, 0] S1024x1.size inb_S1024x1_S1024x1_0_0, k1_pay3 (k1_pay8 x0 x1) xs3⟩] := by
  unfold kernelRun1_B
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]

/-! ## Case C: the scratches as in case B; the output's four columns are the scratches' new values -/

theorem pieces1_C_out (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    (kernelRun1_C c i arg2 harg2 arg3 harg3 arg4 harg4 arg5 harg5 arg6 harg6 arg7 harg7 arg8 harg8 arg9 harg9 hc0 hc1 x0 x1 x2 xs0 xs1 xs2 xs3).1 = [⟨(Rect.unit (s := S1024x4) ![0, 3] S1024x1.size inb_S1024x4_S1024x1_0_3), k1_pay3 (k1_pay8 x0 x1) xs3⟩, ⟨(Rect.unit (s := S1024x4) ![0, 2] S1024x1.size inb_S1024x4_S1024x1_0_2), k1_pay2 (k1_pay9 i x0 x1 x2) xs2⟩, ⟨(Rect.unit (s := S1024x4) ![0, 1] S1024x1.size inb_S1024x4_S1024x1_0_1), k1_pay11 x0 x1 xs0 xs1⟩, ⟨(Rect.unit (s := S1024x4) ![0, 0] S1024x1.size inb_S1024x4_S1024x1_0_0), k1_pay1 (k1_pay10 x0 x1 xs0)⟩] := by
  unfold kernelRun1_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_C_0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    (kernelRun1_C c i arg2 harg2 arg3 harg3 arg4 harg4 arg5 harg5 arg6 harg6 arg7 harg7 arg8 harg8 arg9 harg9 hc0 hc1 x0 x1 x2 xs0 xs1 xs2 xs3).2.1 = [⟨Rect.unit ![0, 0] S1024x1.size inb_S1024x1_S1024x1_0_0, k1_pay1 (k1_pay10 x0 x1 xs0)⟩] := by
  unfold kernelRun1_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_C_1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    (kernelRun1_C c i arg2 harg2 arg3 harg3 arg4 harg4 arg5 harg5 arg6 harg6 arg7 harg7 arg8 harg8 arg9 harg9 hc0 hc1 x0 x1 x2 xs0 xs1 xs2 xs3).2.2.1 = [⟨Rect.unit ![0, 0] S1024x1.size inb_S1024x1_S1024x1_0_0, k1_pay11 x0 x1 xs0 xs1⟩] := by
  unfold kernelRun1_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_C_2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    (kernelRun1_C c i arg2 harg2 arg3 harg3 arg4 harg4 arg5 harg5 arg6 harg6 arg7 harg7 arg8 harg8 arg9 harg9 hc0 hc1 x0 x1 x2 xs0 xs1 xs2 xs3).2.2.2.1 = [⟨Rect.unit ![0, 0] S1024x1.size inb_S1024x1_S1024x1_0_0, k1_pay2 (k1_pay9 i x0 x1 x2) xs2⟩] := by
  unfold kernelRun1_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]
theorem pieces1_C_3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    (kernelRun1_C c i arg2 harg2 arg3 harg3 arg4 harg4 arg5 harg5 arg6 harg6 arg7 harg7 arg8 harg8 arg9 harg9 hc0 hc1 x0 x1 x2 xs0 xs1 xs2 xs3).2.2.2.2.1 = [⟨Rect.unit ![0, 0] S1024x1.size inb_S1024x1_S1024x1_0_0, k1_pay3 (k1_pay8 x0 x1) xs3⟩] := by
  unfold kernelRun1_C
  dsimp only
  sl_unfold_words
  simp only [View.readAt_eq_ld, harg2.read_unread, harg3.read_unread, harg4.read_unread, harg6.read_unread, harg7.read_unread, harg8.read_unread, harg9.read_unread,
    View.ld_unit_zero (S := S1024x2048) hzero1, View.ld_unit_zero (S := S256x2048) hzero1, View.ld_unit_zero (S := S1024x1) hzero1,
    View.readCov_unit_zero (S := S1024x1) arg6.view hzero1, View.readCov_unit_zero (S := S1024x1) arg7.view hzero1, View.readCov_unit_zero (S := S1024x1) arg8.view hzero1, View.readCov_unit_zero (S := S1024x1) arg9.view hzero1]

end Cert.KernelIdeal.Hand

end
-- ==== Proof.KI.Pieces1C.lean ====
/-
  The last vocabulary block of a row band, read off: what the kernel body leaves in each of the four carried scratches
  (running maximum, running sum of exponentials, target logit, logit sum) is that scratch's update from its value
  before, and the output block's four columns are those same four updated values, column k holding scratch k.
  The body stores each column through a [1024, 1] rectangle at column offset k of the [1024, 4] block, the last store
  first in the list; reading (p, k) skips the stores at other columns and hits the one at column k at row p.
-/
import proofs.«420414_j89421219103752_3_alg».proof.Proof.KI.Frame1
import proofs.«420414_j89421219103752_3_alg».proof.Proof.KI.Run1Read
import Idealize.ShloMosaic.Lib.Pipeline.Value
import Idealize.ShloMosaic.Lib.ValueIdx

set_option maxRecDepth 16384

noncomputable section

namespace Cert.KernelIdeal.HandValue1

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The zero offset of a rank-2 rectangle, as a function. -/
theorem hz1C : (![0, 0] : Fin 2 → Nat) = fun _ => 0 := funext fun a => by fin_cases a <;> rfl

/-- A last store of a column at offset k of the [1024, 4] block is what the block reads at (p, k). -/
theorem canon_col_hit {Val : EltTy → Type} [∀ e, Nonempty (Val e)] (k : Nat) (inb : ∀ a, (![0, k] : Fin 2 → Nat) a + S1024x1.size a ≤ S1024x4.size a)
    (w : S1024x1.Idx → Val .f32) (L : List (View.Piece Val S1024x4 .f32)) (p : Fin 1024) (y : S1024x4.Idx)
    (h0 : (y 0).val = p.val) (h1 : (y 1).val = k) :
    View.canon ((⟨Rect.unit (s := S1024x4) ![0, k] S1024x1.size inb, w⟩ : View.Piece Val S1024x4 .f32) :: L) y = w (ix2 p (0 : Fin 1)) := by
  have e : (Rect.unit (s := S1024x4) ![0, k] S1024x1.size inb).emb (ix2 p (0 : Fin 1)) = y := by
    funext a; apply Fin.ext
    match a with
    | ⟨0, _⟩ => show 0 + 1 * p.val = (y 0).val; omega
    | ⟨1, _⟩ => show k + 1 * 0 = (y 1).val; omega
  rw [← e]; exact View.canon_cons_emb (Rect.unit (s := S1024x4) ![0, k] S1024x1.size inb) w L (ix2 p (0 : Fin 1))

/-- A store of a column at offset k leaves the other columns to the earlier stores. -/
theorem canon_col_skip {Val : EltTy → Type} [∀ e, Nonempty (Val e)] (k : Nat) (inb : ∀ a, (![0, k] : Fin 2 → Nat) a + S1024x1.size a ≤ S1024x4.size a)
    (w : S1024x1.Idx → Val .f32) (L : List (View.Piece Val S1024x4 .f32)) (y : S1024x4.Idx) (h1 : (y 1).val ≠ k) :
    View.canon ((⟨Rect.unit (s := S1024x4) ![0, k] S1024x1.size inb, w⟩ : View.Piece Val S1024x4 .f32) :: L) y = View.canon L y :=
  View.canon_cons_of_not_mem _ L (by
    rw [Rect.mem_set_unit]; intro h
    have h1' : k ≤ (y 1).val ∧ (y 1).val < k + 1 := h 1
    omega)

/-! ## The scratches after the last vocabulary block -/

theorem sout1_C_0_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    sout1_C_0 c i arg2 harg2 arg3 harg3 arg4 harg4 arg5 harg5 arg6 harg6 arg7 harg7 arg8 harg8 arg9 harg9 hc0 hc1 x0 x1 x2 xs0 xs1 xs2 xs3 = k1_pay1 (k1_pay10 x0 x1 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 xs0 xs1 xs2 xs3), pieces1_C_0]
  exact View.canon_unit_zero hz1C _ _

theorem sout1_C_1_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    sout1_C_1 c i arg2 harg2 arg3 harg3 arg4 harg4 arg5 harg5 arg6 harg6 arg7 harg7 arg8 harg8 arg9 harg9 hc0 hc1 x0 x1 x2 xs0 xs1 xs2 xs3 = k1_pay11 x0 x1 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 xs0 xs1 xs2 xs3), pieces1_C_1]
  exact View.canon_unit_zero hz1C _ _

theorem sout1_C_2_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    sout1_C_2 c i arg2 harg2 arg3 harg3 arg4 harg4 arg5 harg5 arg6 harg6 arg7 harg7 arg8 harg8 arg9 harg9 hc0 hc1 x0 x1 x2 xs0 xs1 xs2 xs3 = k1_pay2 (k1_pay9 i x0 x1 x2) xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 xs0 xs1 xs2 xs3), pieces1_C_2]
  exact View.canon_unit_zero hz1C _ _

theorem sout1_C_3_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) :
    sout1_C_3 c i arg2 harg2 arg3 harg3 arg4 harg4 arg5 harg5 arg6 harg6 arg7 harg7 arg8 harg8 arg9 harg9 hc0 hc1 x0 x1 x2 xs0 xs1 xs2 xs3 = k1_pay3 (k1_pay8 x0 x1) xs3 := by
  unfold sout1_C_3
  rw [View.read_writes_eq_canon _ _ _ (scover1_C_3 c i arg2 harg2 arg3 harg3 arg4 harg4 arg5 harg5 arg6 harg6 arg7 harg7 arg8 harg8 arg9 harg9 hc0 hc1 x0 x1 x2 xs0 xs1 xs2 xs3), pieces1_C_3]
  exact View.canon_unit_zero hz1C _ _

/-! ## The output block's four columns after the last vocabulary block -/

theorem out1_C_3_col0 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) (p : Fin 1024) :
    out1_C_3 c i arg2 harg2 arg3 harg3 arg4 harg4 arg5 harg5 arg6 harg6 arg7 harg7 arg8 harg8 arg9 harg9 hc0 hc1 x0 x1 x2 xs0 xs1 xs2 xs3 (ix2 p (0 : Fin 4)) = k1_pay1 (k1_pay10 x0 x1 xs0) (ix2 p (0 : Fin 1)) := by
  unfold out1_C_3
  rw [View.read_writes_eq_canon _ _ _ (cover1_C_3 c i arg2 harg2 arg3 harg3 arg4 harg4 arg5 harg5 arg6 harg6 arg7 harg7 arg8 harg8 arg9 harg9 hc0 hc1 x0 x1 x2 xs0 xs1 xs2 xs3), pieces1_C_out]
  refine (canon_col_skip 3 _ _ _ _ (by show (0 : Nat) ≠ 3; omega)).trans ?_
  refine (canon_col_skip 2 _ _ _ _ (by show (0 : Nat) ≠ 2; omega)).trans ?_
  refine (canon_col_skip 1 _ _ _ _ (by show (0 : Nat) ≠ 1; omega)).trans ?_
  exact canon_col_hit 0 _ _ _ p _ rfl rfl

theorem out1_C_3_col1 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) (p : Fin 1024) :
    out1_C_3 c i arg2 harg2 arg3 harg3 arg4 harg4 arg5 harg5 arg6 harg6 arg7 harg7 arg8 harg8 arg9 harg9 hc0 hc1 x0 x1 x2 xs0 xs1 xs2 xs3 (ix2 p (1 : Fin 4)) = k1_pay11 x0 x1 xs0 xs1 (ix2 p (0 : Fin 1)) := by
  unfold out1_C_3
  rw [View.read_writes_eq_canon _ _ _ (cover1_C_3 c i arg2 harg2 arg3 harg3 arg4 harg4 arg5 harg5 arg6 harg6 arg7 harg7 arg8 harg8 arg9 harg9 hc0 hc1 x0 x1 x2 xs0 xs1 xs2 xs3), pieces1_C_out]
  refine (canon_col_skip 3 _ _ _ _ (by show (1 : Nat) ≠ 3; omega)).trans ?_
  refine (canon_col_skip 2 _ _ _ _ (by show (1 : Nat) ≠ 2; omega)).trans ?_
  exact canon_col_hit 1 _ _ _ p _ rfl rfl

theorem out1_C_3_col2 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) (p : Fin 1024) :
    out1_C_3 c i arg2 harg2 arg3 harg3 arg4 harg4 arg5 harg5 arg6 harg6 arg7 harg7 arg8 harg8 arg9 harg9 hc0 hc1 x0 x1 x2 xs0 xs1 xs2 xs3 (ix2 p (2 : Fin 4)) = k1_pay2 (k1_pay9 i x0 x1 x2) xs2 (ix2 p (0 : Fin 1)) := by
  unfold out1_C_3
  rw [View.read_writes_eq_canon _ _ _ (cover1_C_3 c i arg2 harg2 arg3 harg3 arg4 harg4 arg5 harg5 arg6 harg6 arg7 harg7 arg8 harg8 arg9 harg9 hc0 hc1 x0 x1 x2 xs0 xs1 xs2 xs3), pieces1_C_out]
  refine (canon_col_skip 3 _ _ _ _ (by show (2 : Nat) ≠ 3; omega)).trans ?_
  exact canon_col_hit 2 _ _ _ p _ rfl rfl

theorem out1_C_3_col3 (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : cond1_1 i) (x0 : Vec F S1024x2048 .bf16) (x1 : Vec F S256x2048 .f32) (x2 : Vec F S1024x1 .i32) (xs0 xs1 xs2 xs3 : Vec F S1024x1 .f32) (p : Fin 1024) :
    out1_C_3 c i arg2 harg2 arg3 harg3 arg4 harg4 arg5 harg5 arg6 harg6 arg7 harg7 arg8 harg8 arg9 harg9 hc0 hc1 x0 x1 x2 xs0 xs1 xs2 xs3 (ix2 p (3 : Fin 4)) = k1_pay3 (k1_pay8 x0 x1) xs3 (ix2 p (0 : Fin 1)) := by
  unfold out1_C_3
  rw [View.read_writes_eq_canon _ _ _ (cover1_C_3 c i arg2 harg2 arg3 harg3 arg4 harg4 arg5 harg5 arg6 harg6 arg7 harg7 arg8 harg8 arg9 harg9 hc0 hc1 x0 x1 x2 xs0 xs1 xs2 xs3), pieces1_C_out]
  exact canon_col_hit 3 _ _ _ p _ rfl rfl

end Cert.KernelIdeal.HandValue1

end
-- ==== Proof.KI.Value1.lean ====
/- What region 1 leaves in its statistics array, at the ideal values. The kernel walks the vocabulary in 125 blocks of
   256 for each of the two blocks of 1024 token rows and carries four statistics of every row in scratch memory: the
   running maximum of the row's logits, the sum of their exponentials rescaled to the running maximum, the logit of the
   row's target token picked out by a one-hot comparison, and the plain sum of the logits. This module reads what each
   control case of the body leaves in the scratches as the body's arithmetic of the point's blocks, shows by induction over
   the vocabulary blocks that the scratches hold the specification's recurrences of the row's logits, and reads the four
   columns the last vocabulary block stores and the pipeline writes back as row r of the statistics array. -/
import proofs.«420414_j89421219103752_3_alg».proof.Proof.KI.Frame1
import proofs.«420414_j89421219103752_3_alg».proof.Proof.KI.Pay1
import proofs.«420414_j89421219103752_3_alg».proof.Proof.KI.Blocks1
import proofs.«420414_j89421219103752_3_alg».proof.Proof.KI.Pieces1A
import proofs.«420414_j89421219103752_3_alg».proof.Proof.KI.Pieces1C
import proofs.«420414_j89421219103752_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue1

open Cert.KernelIdeal Cert.KernelIdeal.Gen Cert.KernelIdeal.Hand Cert.KernelIdeal.HandPay1
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## What an inner vocabulary block leaves in the four scratches -/

section piecesB

variable {F : FTy → Type} [FloatOps F]

theorem hz1B : (![0, 0] : Fin 2 → Nat) = fun _ => 0 := funext fun a => by fin_cases a <;> rfl

/-- The running maximum takes in the block's maximum. -/
theorem sout1_B_0_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    sout1_B_0 c i arg2 harg2 arg3 harg3 arg4 harg4 arg5 harg5 arg6 harg6 arg7 harg7 arg8 harg8 arg9 harg9 hc0 hc1 x0 x1 x2 xs0 xs1 xs2 xs3 = k1_pay1 (k1_pay10 x0 x1 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 xs0 xs1 xs2 xs3)]
  unfold kernelRun1_B
  dsimp only
  sl_unfold_words
  rw [View.canon_unit_zero hz1B]
  simp only [View.readAt_eq_ld, harg2.read_unread, harg3.read_unread, harg4.read_unread, harg5.read_unread, harg6.read_unread, harg7.read_unread, harg8.read_unread, harg9.read_unread, View.ld_unit_zero (S := S1024x2048) hz1B, View.ld_unit_zero (S := S256x2048) hz1B, View.ld_unit_zero (S := S1024x1) hz1B]

/-- The sum of exponentials is rescaled to the new maximum and takes in the block's exponentials. -/
theorem sout1_B_1_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    sout1_B_1 c i arg2 harg2 arg3 harg3 arg4 harg4 arg5 harg5 arg6 harg6 arg7 harg7 arg8 harg8 arg9 harg9 hc0 hc1 x0 x1 x2 xs0 xs1 xs2 xs3 = k1_pay11 x0 x1 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 xs0 xs1 xs2 xs3)]
  unfold kernelRun1_B
  dsimp only
  sl_unfold_words
  rw [View.canon_unit_zero hz1B]
  simp only [View.readAt_eq_ld, harg2.read_unread, harg3.read_unread, harg4.read_unread, harg5.read_unread, harg6.read_unread, harg7.read_unread, harg8.read_unread, harg9.read_unread, View.ld_unit_zero (S := S1024x2048) hz1B, View.ld_unit_zero (S := S256x2048) hz1B, View.ld_unit_zero (S := S1024x1) hz1B]

/-- The target logit takes in the block's entry under the one-hot comparison. -/
theorem sout1_B_2_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    sout1_B_2 c i arg2 harg2 arg3 harg3 arg4 harg4 arg5 harg5 arg6 harg6 arg7 harg7 arg8 harg8 arg9 harg9 hc0 hc1 x0 x1 x2 xs0 xs1 xs2 xs3 = k1_pay2 (k1_pay9 i x0 x1 x2) xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 xs0 xs1 xs2 xs3)]
  unfold kernelRun1_B
  dsimp only
  sl_unfold_words
  rw [View.canon_unit_zero hz1B]
  simp only [View.readAt_eq_ld, harg2.read_unread, harg3.read_unread, harg4.read_unread, harg5.read_unread, harg6.read_unread, harg7.read_unread, harg8.read_unread, harg9.read_unread, View.ld_unit_zero (S := S1024x2048) hz1B, View.ld_unit_zero (S := S256x2048) hz1B, View.ld_unit_zero (S := S1024x1) hz1B]

/-- The logit sum takes in the block's sum. -/
theorem sout1_B_3_eq (c : Dev nD) (i : grid1.Coords) (arg2 : Memref sig .tc .vmem S1024x2048 .bf16) (harg2 : arg2.IsWhole) (arg3 : Memref sig .tc .vmem S256x2048 .f32) (harg3 : arg3.IsWhole) (arg4 : Memref sig .tc .vmem S1024x1 .i32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond1_0 i) (hc1 : ¬cond1_1 i) (x0 : Vec F S1024x2048 .bf16) (x1 : Vec F S256x2048 .f32) (x2 : Vec F S1024x1 .i32) (xs0 xs1 xs2 xs3 : Vec F S1024x1 .f32) :
    sout1_B_3 c i arg2 harg2 arg3 harg3 arg4 harg4 arg5 harg5 arg6 harg6 arg7 harg7 arg8 harg8 arg9 harg9 hc0 hc1 x0 x1 x2 xs0 xs1 xs2 xs3 = k1_pay3 (k1_pay8 x0 x1) xs3 := by
  unfold sout1_B_3
  rw [View.read_writes_eq_canon _ _ _ (scover1_B_3 c i arg2 harg2 arg3 harg3 arg4 harg4 arg5 harg5 arg6 harg6 arg7 harg7 arg8 harg8 arg9 harg9 hc0 hc1 x0 x1 x2 xs0 xs1 xs2 xs3)]
  unfold kernelRun1_B
  dsimp only
  sl_unfold_words
  rw [View.canon_unit_zero hz1B]
  simp only [View.readAt_eq_ld, harg2.read_unread, harg3.read_unread, harg4.read_unread, harg5.read_unread, harg6.read_unread, harg7.read_unread, harg8.read_unread, harg9.read_unread, View.ld_unit_zero (S := S1024x2048) hz1B, View.ld_unit_zero (S := S256x2048) hz1B, View.ld_unit_zero (S := S1024x1) hz1B]

end piecesB

/-! ## The recurrences of the specification, one step -/

theorem runMax_succ (f : Fin 32000 → EReal) (n : ℕ) (h : n < 125) :
    Cert.Spec.runMax f (n + 1) = max (Cert.Spec.runMax f n) (Cert.Spec.blkMax f ⟨n, h⟩) := by
  rw [Cert.Spec.runMax, dif_pos h]

theorem runL_succ (f : Fin 32000 → EReal) (n : ℕ) (h : n < 125) :
    Cert.Spec.runL f (n + 1) = Ideal.exp (Cert.Spec.runMax f n - Cert.Spec.runMax f (n + 1)) * Cert.Spec.runL f n
      + ∑ q : Fin 256, Ideal.exp (Cert.Spec.blk f ⟨n, h⟩ q - Cert.Spec.runMax f (n + 1)) := by
  rw [Cert.Spec.runL, dif_pos h]

theorem runT_succ (f : Fin 32000 → EReal) (k : Fin 32000) (n : ℕ) (h : n < 125) :
    Cert.Spec.runT f k (n + 1) = Cert.Spec.runT f k n + ∑ q : Fin 256, (if 256 * n + q.val = k.val then Cert.Spec.blk f ⟨n, h⟩ q else 0) := by
  rw [Cert.Spec.runT, dif_pos h]

theorem runS_succ (f : Fin 32000 → EReal) (n : ℕ) (h : n < 125) :
    Cert.Spec.runS f (n + 1) = Cert.Spec.runS f n + ∑ q : Fin 256, Cert.Spec.blk f ⟨n, h⟩ q := by
  rw [Cert.Spec.runS, dif_pos h]

/-! ## One vocabulary block's update of the four statistics of a row, at the ideal values -/

section step

variable (x0 : Vec Ideal S1024x2048 .bf16) (x1 : Vec Ideal S256x2048 .f32)
variable (s0 s1 s3 : Vec Ideal S1024x1 .f32) (p : Fin 1024) (f : Fin 32000 → EReal) (n : ℕ) (hn : n < 125)

/-- The running maximum takes in the block's maximum. -/
theorem step_max (hx : ∀ q : Fin 256, (k1_pay8 x0 x1 (ix2 p q) : EReal) = Cert.Spec.blk f ⟨n, hn⟩ q)
    (h0 : (s0 (ix2 p (0 : Fin 1)) : EReal) = Cert.Spec.runMax f n) :
    (k1_pay10 x0 x1 s0 (ix2 p (0 : Fin 1)) : EReal) = Cert.Spec.runMax f (n + 1) := by
  refine (pay10_apply x0 x1 s0 p).trans ?_
  have e : (fun q : Fin 256 => (k1_pay8 x0 x1 (ix2 p q) : EReal)) = Cert.Spec.blk f ⟨n, hn⟩ := funext hx
  rw [e, h0, runMax_succ f n hn]
  rfl

/-- The running sum of exponentials is rescaled to the new maximum and takes in the block's exponentials. -/
theorem step_L (hx : ∀ q : Fin 256, (k1_pay8 x0 x1 (ix2 p q) : EReal) = Cert.Spec.blk f ⟨n, hn⟩ q)
    (h0 : (s0 (ix2 p (0 : Fin 1)) : EReal) = Cert.Spec.runMax f n)
    (h1 : (s1 (ix2 p (0 : Fin 1)) : EReal) = Cert.Spec.runL f n) :
    (k1_pay11 x0 x1 s0 s1 (ix2 p (0 : Fin 1)) : EReal) = Cert.Spec.runL f (n + 1) := by
  refine (pay11_apply x0 x1 s0 s1 p).trans ?_
  rw [step_max x0 x1 s0 p f n hn hx h0, h0, h1, runL_succ f n hn]
  congr 1
  exact Finset.sum_congr rfl fun q _ => by rw [hx q]

/-- The plain sum takes in the block's sum. -/
theorem step_S (hx : ∀ q : Fin 256, (k1_pay8 x0 x1 (ix2 p q) : EReal) = Cert.Spec.blk f ⟨n, hn⟩ q)
    (h3 : (s3 (ix2 p (0 : Fin 1)) : EReal) = Cert.Spec.runS f n) :
    (k1_pay3 (k1_pay8 x0 x1) s3 (ix2 p (0 : Fin 1)) : EReal) = Cert.Spec.runS f (n + 1) := by
  refine (pay3_apply (k1_pay8 x0 x1) s3 p).trans ?_
  rw [h3, runS_succ f n hn]
  congr 1
  exact Finset.sum_congr rfl fun q _ => hx q

end step

/-! ## The arrays the region reads and their blocks -/

section arrays

variable (V : (c : Dev nD) → (b : Ref sig .tc) → Buf (Elt Ideal) ((c : Thread nD τ).loc b))

/-- The block indices of the four windows over the grid: the row-block coordinate is the point's quotient by 125, the
    vocabulary-block coordinate its remainder. -/
theorem idx_facts1 : ∀ t : Fin cfg1.N, win1_0.index t (0 : Fin 2) = t.val / 125 ∧ win1_0.index t (1 : Fin 2) = 0
    ∧ win1_1.index t (0 : Fin 2) = t.val % 125 ∧ win1_1.index t (1 : Fin 2) = 0
    ∧ win1_2.index t (0 : Fin 2) = t.val / 125 ∧ win1_2.index t (1 : Fin 2) = 0
    ∧ win1_3.index t (0 : Fin 2) = t.val / 125 ∧ win1_3.index t (1 : Fin 2) = 0 :=
  (by decide +kernel : ∀ t : Fin grid1.N, _)

/-- The vocabulary-block coordinate of a point is its remainder by 125. -/
theorem coord1_facts0 : ∀ t : Fin cfg1.N, ((grid1.coords t) 1).val = t.val % 125 :=
  (by decide +kernel : ∀ t : Fin grid1.N, _)

/-- The token rows (bf16), the vocabulary rows (f32), the token ids and the statistics array as the region finds them. -/
abbrev xarr (c : Dev nD) : Vec Ideal S2048x2048 .bf16 := V c main_v3
abbrev warr (c : Dev nD) : Vec Ideal S32000x2048 .f32 := V c main_arg6
abbrev idarr (c : Dev nD) : Vec Ideal S2048x1 .i32 := V c main_v5
/-- Their blocks at a point. -/
abbrev xblk (c : Dev nD) (t : Fin cfg1.N) : Vec Ideal S1024x2048 .bf16 := iblk1 V c 0 t
abbrev wblk (c : Dev nD) (t : Fin cfg1.N) : Vec Ideal S256x2048 .f32 := iblk1 V c 1 t
abbrev idblk (c : Dev nD) (t : Fin cfg1.N) : Vec Ideal S1024x1 .i32 := iblk1 V c 2 t

/-- Row p of the token block at point t is row 1024 (t / 125) + p of the token array. -/
theorem xblk_apply (c : Dev nD) (t : Fin cfg1.N) (p : Fin 1024) (h : Fin 2048) (r : Fin 2048)
    (hr : r.val = 1024 * (t.val / 125) + p.val) :
    xblk V c t (ix2 p h) = xarr V c (ix2 r h) := by
  obtain ⟨e0, e1, -⟩ := idx_facts1 t
  unfold xblk iblk1
  rw [View.read_apply]
  show V c main_v3 _ = V c main_v3 _
  congr 1
  funext a
  apply Fin.ext
  match a with
  | ⟨0, _⟩ => show win1_0.index t (0 : Fin 2) * 1024 + 1 * p.val = r.val; rw [e0]; omega
  | ⟨1, _⟩ => show win1_0.index t (1 : Fin 2) * 2048 + 1 * h.val = h.val; rw [e1]; omega

/-- Row q of the vocabulary block at point t is row 256 (t % 125) + q of the vocabulary array. -/
theorem wblk_apply (c : Dev nD) (t : Fin cfg1.N) (q : Fin 256) (h : Fin 2048) (v : Fin 32000)
    (hv : v.val = 256 * (t.val % 125) + q.val) :
    wblk V c t (ix2 q h) = warr V c (ix2 v h) := by
  obtain ⟨-, -, e0, e1, -⟩ := idx_facts1 t
  unfold wblk iblk1
  rw [View.read_apply]
  show V c main_arg6 _ = V c main_arg6 _
  congr 1
  funext a
  apply Fin.ext
  match a with
  | ⟨0, _⟩ => show win1_1.index t (0 : Fin 2) * 256 + 1 * q.val = v.val; rw [e0]; omega
  | ⟨1, _⟩ => show win1_1.index t (1 : Fin 2) * 2048 + 1 * h.val = h.val; rw [e1]; omega

/-- Row p of the id block at point t is row 1024 (t / 125) + p of the id array. -/
theorem idblk_apply (c : Dev nD) (t : Fin cfg1.N) (p : Fin 1024) (r : Fin 2048)
    (hr : r.val = 1024 * (t.val / 125) + p.val) :
    idblk V c t (ix2 p (0 : Fin 1)) = idarr V c (ix2 r (0 : Fin 1)) := by
  obtain ⟨-, -, -, -, e0, e1, -⟩ := idx_facts1 t
  unfold idblk iblk1
  rw [View.read_apply]
  show V c main_v5 _ = V c main_v5 _
  congr 1
  funext a
  apply Fin.ext
  match a with
  | ⟨0, _⟩ => show win1_2.index t (0 : Fin 2) * 1024 + 1 * p.val = r.val; rw [e0]; omega
  | ⟨1, _⟩ => show win1_2.index t (1 : Fin 2) * 1 + 1 * (0 : Fin 1).val = (0 : Fin 1).val; rw [e1]; rfl

/-- The logits of token row r against the whole vocabulary. -/
def frow (c : Dev nD) (r : Fin 2048) : Fin 32000 → EReal :=
  fun v => ∑ h : Fin 2048, (xarr V c (ix2 r h) : EReal) * (warr V c (ix2 v h) : EReal)

/-- The same, spelt over the region-entry contents of the two arrays. -/
theorem frow_eq (c : Dev nD) (r : Fin 2048) :
    frow V c r = fun v : Fin 32000 => ∑ h : Fin 2048, (xarr V c (ix2 r h) : EReal) * (warr V c (ix2 v h) : EReal) := rfl

theorem cfgN : cfg1.N = 250 := N_1

/-- A point of the grid from its row block a and vocabulary block n. -/
abbrev pt (a : Fin 2) (n : ℕ) (hn : n < 125) : Fin cfg1.N := ⟨125 * a.val + n, by rw [cfgN]; have := a.isLt; omega⟩

/-- The block product at point t, row p, is block t % 125 of the row's logits. -/
theorem pay8_blk (c : Dev nD) (t : Fin cfg1.N) (p : Fin 1024) (r : Fin 2048) (hr : r.val = 1024 * (t.val / 125) + p.val)
    (n : ℕ) (hn : n < 125) (ht : t.val % 125 = n) (q : Fin 256) :
    (k1_pay8 (xblk V c t) (wblk V c t) (ix2 p q) : EReal) = Cert.Spec.blk (frow V c r) ⟨n, hn⟩ q := by
  refine (pay8_apply (xblk V c t) (wblk V c t) p q).trans ?_
  show _ = ∑ h : Fin 2048, (xarr V c (ix2 r h) : EReal) * (warr V c (ix2 _ h) : EReal)
  refine Finset.sum_congr rfl fun h _ => ?_
  rw [xblk_apply V c t p h r hr, wblk_apply V c t q h ⟨256 * n + q.val, by have := q.isLt; omega⟩ (by rw [ht])]

/-- The target-logit term block t adds to row p: the block's entries under the one-hot comparison with the row's id. -/
def tsel (c : Dev nD) (t : Fin cfg1.N) (p : Fin 1024) : EReal :=
  k1_pay9 (grid1.coords t) (xblk V c t) (wblk V c t) (idblk V c t) (ix2 p (0 : Fin 1))

/-- The target logit of row p of row block a accumulated over the first n vocabulary blocks, as the body forms it. -/
def runTraw (c : Dev nD) (a : Fin 2) (p : Fin 1024) : ℕ → EReal
  | 0 => 0
  | n + 1 => if h : n < 125 then runTraw c a p n + tsel V c (pt a n h) p else runTraw c a p n

theorem runTraw_succ (c : Dev nD) (a : Fin 2) (p : Fin 1024) (n : ℕ) (h : n < 125) :
    runTraw V c a p (n + 1) = runTraw V c a p n + tsel V c (pt a n h) p := by
  rw [runTraw, dif_pos h]

/-- Under an id in range the body's one-hot accumulation is the specification's. -/
theorem runTraw_eq (c : Dev nD) (a : Fin 2) (p : Fin 1024) (r : Fin 2048) (hr : r.val = 1024 * a.val + p.val) (k : Fin 32000)
    (hk : (idarr V c (ix2 r (0 : Fin 1)) : BitVec 32) = BitVec.ofNat 32 k.val) :
    ∀ n : ℕ, n ≤ 125 → runTraw V c a p n = Cert.Spec.runT (frow V c r) k n
  | 0, _ => rfl
  | n + 1, hn => by
    have hn' : n < 125 := hn
    have hq : (pt a n hn').val / 125 = a.val := by show (125 * a.val + n) / 125 = a.val; omega
    have hm : (pt a n hn').val % 125 = n := by show (125 * a.val + n) % 125 = n; omega
    have hr' : r.val = 1024 * ((pt a n hn').val / 125) + p.val := by rw [hq]; exact hr
    have hc1 : ((grid1.coords (pt a n hn')) 1).val = n := (coord1_facts0 (pt a n hn')).trans hm
    rw [runTraw_succ V c a p n hn', runT_succ _ k n hn', runTraw_eq c a p r hr k hk n (Nat.le_of_lt hn')]
    congr 1
    unfold tsel
    refine (pay9_apply_of_id (grid1.coords (pt a n hn')) (xblk V c (pt a n hn')) (wblk V c (pt a n hn')) (idblk V c (pt a n hn')) p k
      ((idblk_apply V c (pt a n hn') p r hr').trans hk) (by rw [hc1]; exact hn')).trans ?_
    refine Finset.sum_congr rfl fun q _ => ?_
    rw [hc1, pay8_blk V c (pt a n hn') p r hr' n hn' hm q]

end arrays

/-! ## The four carried statistics of a row after every point -/

section invariant

variable (V : (c : Dev nD) → (b : Ref sig .tc) → Buf (Elt Ideal) ((c : Thread nD τ).loc b))

/-- What the four scratches hold at row p (row r of the arrays, row block a) after n vocabulary blocks: the running maximum,
    the rescaled sum of exponentials, the accumulated target logit and the plain sum of the row's logits. -/
def Inv (c : Dev nD) (r : Fin 2048) (a : Fin 2) (p : Fin 1024) (n : ℕ) (o : Vec Ideal S1024x4 .f32 × Vec Ideal S1024x1 .f32 × Vec Ideal S1024x1 .f32 × Vec Ideal S1024x1 .f32 × Vec Ideal S1024x1 .f32) : Prop :=
  (o.2.1 (ix2 p (0 : Fin 1)) : EReal) = Cert.Spec.runMax (frow V c r) n
  ∧ (o.2.2.1 (ix2 p (0 : Fin 1)) : EReal) = Cert.Spec.runL (frow V c r) n
  ∧ (o.2.2.2.1 (ix2 p (0 : Fin 1)) : EReal) = runTraw V c a p n
  ∧ (o.2.2.2.2 (ix2 p (0 : Fin 1)) : EReal) = Cert.Spec.runS (frow V c r) n

/-- One point's update of row p, over the blocks of that point and scratches holding the statistics of n blocks. -/
theorem update_row (c : Dev nD) (t : Fin cfg1.N) (a : Fin 2) (n : ℕ) (hn : n < 125) (hq : t.val / 125 = a.val) (hm : t.val % 125 = n)
    (p : Fin 1024) (r : Fin 2048) (hr : r.val = 1024 * a.val + p.val) (s0 s1 s2 s3 : Vec Ideal S1024x1 .f32)
    (h0 : (s0 (ix2 p (0 : Fin 1)) : EReal) = Cert.Spec.runMax (frow V c r) n)
    (h1 : (s1 (ix2 p (0 : Fin 1)) : EReal) = Cert.Spec.runL (frow V c r) n)
    (h2 : (s2 (ix2 p (0 : Fin 1)) : EReal) = runTraw V c a p n)
    (h3 : (s3 (ix2 p (0 : Fin 1)) : EReal) = Cert.Spec.runS (frow V c r) n) :
    (k1_pay1 (k1_pay10 (xblk V c t) (wblk V c t) s0) (ix2 p (0 : Fin 1)) : EReal) = Cert.Spec.runMax (frow V c r) (n + 1)
    ∧ (k1_pay11 (xblk V c t) (wblk V c t) s0 s1 (ix2 p (0 : Fin 1)) : EReal) = Cert.Spec.runL (frow V c r) (n + 1)
    ∧ (k1_pay2 (k1_pay9 (grid1.coords t) (xblk V c t) (wblk V c t) (idblk V c t)) s2 (ix2 p (0 : Fin 1)) : EReal) = runTraw V c a p (n + 1)
    ∧ (k1_pay3 (k1_pay8 (xblk V c t) (wblk V c t)) s3 (ix2 p (0 : Fin 1)) : EReal) = Cert.Spec.runS (frow V c r) (n + 1) := by
  have hr' : r.val = 1024 * (t.val / 125) + p.val := by rw [hq]; exact hr
  have hx : ∀ q : Fin 256, (k1_pay8 (xblk V c t) (wblk V c t) (ix2 p q) : EReal) = Cert.Spec.blk (frow V c r) ⟨n, hn⟩ q :=
    fun q => pay8_blk V c t p r hr' n hn hm q
  have et : t = pt a n hn := Fin.ext (by show t.val = 125 * a.val + n; omega)
  refine ⟨?_, step_L (xblk V c t) (wblk V c t) s0 s1 p (frow V c r) n hn hx h0 h1, ?_, step_S (xblk V c t) (wblk V c t) s3 p (frow V c r) n hn hx h3⟩
  · exact (congrFun (pay1_apply (k1_pay10 (xblk V c t) (wblk V c t) s0)) (ix2 p (0 : Fin 1))).trans
      (step_max (xblk V c t) (wblk V c t) s0 p (frow V c r) n hn hx h0)
  · refine (pay2_apply (k1_pay9 (grid1.coords t) (xblk V c t) (wblk V c t) (idblk V c t)) s2 p).trans ?_
    rw [h2, runTraw_succ V c a p n hn]
    subst et
    rfl

/-- A first vocabulary block: the scratches are re-initialised (maximum at the bottom, the sums at zero) and take in block 0. -/
theorem point_A (c : Dev nD) (t : Fin cfg1.N) (a : Fin 2) (hq : t.val / 125 = a.val) (h0 : t.val % 125 = 0) (h1 : ¬t.val % 125 = 124)
    (p : Fin 1024) (r : Fin 2048) (hr : r.val = 1024 * a.val + p.val) :
    Inv V c r a p 1 (outsAt1 V c t.val t.isLt) := by
  have e0 : ((k1_pay4 (F := Ideal)) (ix2 p (0 : Fin 1)) : EReal) = Cert.Spec.runMax (frow V c r) 0 := pay4_apply p
  have e1 : ((k1_pay5 (F := Ideal)) (ix2 p (0 : Fin 1)) : EReal) = Cert.Spec.runL (frow V c r) 0 := pay5_apply p
  have e2 : ((k1_pay6 (F := Ideal)) (ix2 p (0 : Fin 1)) : EReal) = runTraw V c a p 0 := pay6_apply p
  have e3 : ((k1_pay7 (F := Ideal)) (ix2 p (0 : Fin 1)) : EReal) = Cert.Spec.runS (frow V c r) 0 := pay7_apply p
  obtain ⟨u0, u1, u2, u3⟩ := update_row V c t a 0 (by omega) hq h0 p r hr (k1_pay4 (F := Ideal)) (k1_pay5 (F := Ideal)) (k1_pay6 (F := Ideal)) (k1_pay7 (F := Ideal)) e0 e1 e2 e3
  unfold Inv
  refine ⟨?_, ?_, ?_, ?_⟩
  · show ((outsAt1 V c t.val t.isLt).2.1 (ix2 p (0 : Fin 1)) : EReal) = _
    rw [outsAt1_A V c t h0 h1]; dsimp only
    exact (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (xblk V c t) (wblk V c t) (idblk V c t)) (ix2 p (0 : Fin 1))).trans u0
  · show ((outsAt1 V c t.val t.isLt).2.2.1 (ix2 p (0 : Fin 1)) : EReal) = _
    rw [outsAt1_A V c t h0 h1]; dsimp only
    exact (congrFun (sout1_A_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (xblk V c t) (wblk V c t) (idblk V c t)) (ix2 p (0 : Fin 1))).trans u1
  · show ((outsAt1 V c t.val t.isLt).2.2.2.1 (ix2 p (0 : Fin 1)) : EReal) = _
    rw [outsAt1_A V c t h0 h1]; dsimp only
    exact (congrFun (sout1_A_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (xblk V c t) (wblk V c t) (idblk V c t)) (ix2 p (0 : Fin 1))).trans u2
  · show ((outsAt1 V c t.val t.isLt).2.2.2.2 (ix2 p (0 : Fin 1)) : EReal) = _
    rw [outsAt1_A V c t h0 h1]; dsimp only
    exact (congrFun (sout1_A_3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (xblk V c t) (wblk V c t) (idblk V c t)) (ix2 p (0 : Fin 1))).trans u3

/-- An inner vocabulary block: the scratches, at the statistics of n blocks, take in block n. -/
theorem point_B (c : Dev nD) (t : Fin cfg1.N) (a : Fin 2) (n : ℕ) (hn : n < 125) (hq : t.val / 125 = a.val) (hm : t.val % 125 = n)
    (h0 : ¬t.val % 125 = 0) (h1 : ¬t.val % 125 = 124) (p : Fin 1024) (r : Fin 2048) (hr : r.val = 1024 * a.val + p.val)
    (prev : Inv V c r a p n (outsAt1 V c (t.val - 1) (Nat.lt_of_le_of_lt (Nat.sub_le _ _) t.isLt))) :
    Inv V c r a p (n + 1) (outsAt1 V c t.val t.isLt) := by
  obtain ⟨i0, i1, i2, i3⟩ := prev
  obtain ⟨u0, u1, u2, u3⟩ := update_row V c t a n hn hq hm p r hr (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 i0 i1 i2 i3
  unfold Inv
  refine ⟨?_, ?_, ?_, ?_⟩
  · show ((outsAt1 V c t.val t.isLt).2.1 (ix2 p (0 : Fin 1)) : EReal) = _
    rw [outsAt1_B V c t h0 h1]; dsimp only
    exact (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u0
  · show ((outsAt1 V c t.val t.isLt).2.2.1 (ix2 p (0 : Fin 1)) : EReal) = _
    rw [outsAt1_B V c t h0 h1]; dsimp only
    exact (congrFun (sout1_B_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u1
  · show ((outsAt1 V c t.val t.isLt).2.2.2.1 (ix2 p (0 : Fin 1)) : EReal) = _
    rw [outsAt1_B V c t h0 h1]; dsimp only
    exact (congrFun (sout1_B_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u2
  · show ((outsAt1 V c t.val t.isLt).2.2.2.2 (ix2 p (0 : Fin 1)) : EReal) = _
    rw [outsAt1_B V c t h0 h1]; dsimp only
    exact (congrFun (sout1_B_3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u3

/-- A last vocabulary block: the same update, -/
theorem point_C (c : Dev nD) (t : Fin cfg1.N) (a : Fin 2) (n : ℕ) (hn : n < 125) (hq : t.val / 125 = a.val) (hm : t.val % 125 = n)
    (h0 : ¬t.val % 125 = 0) (h1 : t.val % 125 = 124) (p : Fin 1024) (r : Fin 2048) (hr : r.val = 1024 * a.val + p.val)
    (prev : Inv V c r a p n (outsAt1 V c (t.val - 1) (Nat.lt_of_le_of_lt (Nat.sub_le _ _) t.isLt))) :
    Inv V c r a p (n + 1) (outsAt1 V c t.val t.isLt) := by
  obtain ⟨i0, i1, i2, i3⟩ := prev
  obtain ⟨u0, u1, u2, u3⟩ := update_row V c t a n hn hq hm p r hr (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 i0 i1 i2 i3
  unfold Inv
  refine ⟨?_, ?_, ?_, ?_⟩
  · show ((outsAt1 V c t.val t.isLt).2.1 (ix2 p (0 : Fin 1)) : EReal) = _
    rw [outsAt1_C V c t h0 h1]; dsimp only
    exact (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u0
  · show ((outsAt1 V c t.val t.isLt).2.2.1 (ix2 p (0 : Fin 1)) : EReal) = _
    rw [outsAt1_C V c t h0 h1]; dsimp only
    exact (congrFun (sout1_C_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u1
  · show ((outsAt1 V c t.val t.isLt).2.2.2.1 (ix2 p (0 : Fin 1)) : EReal) = _
    rw [outsAt1_C V c t h0 h1]; dsimp only
    exact (congrFun (sout1_C_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u2
  · show ((outsAt1 V c t.val t.isLt).2.2.2.2 (ix2 p (0 : Fin 1)) : EReal) = _
    rw [outsAt1_C V c t h0 h1]; dsimp only
    exact (congrFun (sout1_C_3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p (0 : Fin 1))).trans u3

/-- and the output block's four columns are the four updated statistics. -/
theorem point_C_out (c : Dev nD) (t : Fin cfg1.N) (a : Fin 2) (n : ℕ) (hn : n < 125) (hq : t.val / 125 = a.val) (hm : t.val % 125 = n)
    (h0 : ¬t.val % 125 = 0) (h1 : t.val % 125 = 124) (p : Fin 1024) (r : Fin 2048) (hr : r.val = 1024 * a.val + p.val)
    (prev : Inv V c r a p n (outsAt1 V c (t.val - 1) (Nat.lt_of_le_of_lt (Nat.sub_le _ _) t.isLt))) :
    ((outsAt1 V c t.val t.isLt).1 (ix2 p (0 : Fin 4)) : EReal) = Cert.Spec.runMax (frow V c r) (n + 1)
    ∧ ((outsAt1 V c t.val t.isLt).1 (ix2 p (1 : Fin 4)) : EReal) = Cert.Spec.runL (frow V c r) (n + 1)
    ∧ ((outsAt1 V c t.val t.isLt).1 (ix2 p (2 : Fin 4)) : EReal) = runTraw V c a p (n + 1)
    ∧ ((outsAt1 V c t.val t.isLt).1 (ix2 p (3 : Fin 4)) : EReal) = Cert.Spec.runS (frow V c r) (n + 1) := by
  obtain ⟨i0, i1, i2, i3⟩ := prev
  obtain ⟨u0, u1, u2, u3⟩ := update_row V c t a n hn hq hm p r hr (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 i0 i1 i2 i3
  refine ⟨?_, ?_, ?_, ?_⟩
  · rw [outsAt1_C V c t h0 h1]; dsimp only
    exact (out1_C_3_col0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 p).trans u0
  · rw [outsAt1_C V c t h0 h1]; dsimp only
    exact (out1_C_3_col1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 p).trans u1
  · rw [outsAt1_C V c t h0 h1]; dsimp only
    exact (out1_C_3_col2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 p).trans u2
  · rw [outsAt1_C V c t h0 h1]; dsimp only
    exact (out1_C_3_col3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (xblk V c t) (wblk V c t) (idblk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2 p).trans u3

theorem pt_div (a : Fin 2) (n : ℕ) (hn : n < 125) : (pt a n hn).val / 125 = a.val := by show (125 * a.val + n) / 125 = a.val; omega
theorem pt_mod (a : Fin 2) (n : ℕ) (hn : n < 125) : (pt a n hn).val % 125 = n := by show (125 * a.val + n) % 125 = n; omega

/-- THE INVARIANT: after vocabulary block n of row block a the scratches hold the statistics of n + 1 blocks — by induction
    on the block within the row block. -/
theorem inv_all (c : Dev nD) (a : Fin 2) (p : Fin 1024) (r : Fin 2048) (hr : r.val = 1024 * a.val + p.val) :
    ∀ (n : ℕ) (hn : n < 125), Inv V c r a p (n + 1) (outsAt1 V c (pt a n hn).val (pt a n hn).isLt)
  | 0, hn => point_A V c (pt a 0 hn) a (pt_div a 0 hn) (pt_mod a 0 hn) (by rw [pt_mod]; omega) p r hr
  | n + 1, hn => by
    have ih := inv_all c a p r hr n (by omega)
    have hne : ¬(pt a (n + 1) hn).val % 125 = 0 := by rw [pt_mod]; omega
    by_cases h1 : (pt a (n + 1) hn).val % 125 = 124
    · exact point_C V c (pt a (n + 1) hn) a (n + 1) hn (pt_div a _ hn) (pt_mod a _ hn) hne h1 p r hr ih
    · exact point_B V c (pt a (n + 1) hn) a (n + 1) hn (pt_div a _ hn) (pt_mod a _ hn) hne h1 p r hr ih

/-- At the last vocabulary block of a row block the output block's columns hold the statistics of all 125 blocks. -/
theorem out_last (c : Dev nD) (t : Fin cfg1.N) (a : Fin 2) (hq : t.val / 125 = a.val) (h124 : t.val % 125 = 124)
    (p : Fin 1024) (r : Fin 2048) (hr : r.val = 1024 * a.val + p.val) :
    ((outsAt1 V c t.val t.isLt).1 (ix2 p (0 : Fin 4)) : EReal) = Cert.Spec.runMax (frow V c r) 125
    ∧ ((outsAt1 V c t.val t.isLt).1 (ix2 p (1 : Fin 4)) : EReal) = Cert.Spec.runL (frow V c r) 125
    ∧ ((outsAt1 V c t.val t.isLt).1 (ix2 p (2 : Fin 4)) : EReal) = runTraw V c a p 125
    ∧ ((outsAt1 V c t.val t.isLt).1 (ix2 p (3 : Fin 4)) : EReal) = Cert.Spec.runS (frow V c r) 125 := by
  have h0 : ¬t.val % 125 = 0 := by omega
  have et : t = pt a 124 (by decide) := Fin.ext (by show t.val = 125 * a.val + 124; omega)
  have prev := inv_all V c a p r hr 123 (by decide)
  subst et
  exact point_C_out V c (pt a 124 (by decide)) a 124 (by decide) hq h124 h0 h124 p r hr prev

end invariant

/-! ## The statistics array after the region -/

section array

variable (V : (c : Dev nD) → (b : Ref sig .tc) → Buf (Elt Ideal) ((c : Thread nD τ).loc b))

/-- The row block of a row and its place inside it. -/
abbrev rowBlk (r : Fin 2048) : Fin 2 := ⟨r.val / 1024, by have := r.isLt; omega⟩
abbrev rowIn (r : Fin 2048) : Fin 1024 := ⟨r.val % 1024, by omega⟩
theorem row_split (r : Fin 2048) : r.val = 1024 * (rowBlk r).val + (rowIn r).val := by
  show r.val = 1024 * (r.val / 1024) + r.val % 1024; omega

/-- Entry (r, k) of the statistics array: the running maximum, the rescaled sum of exponentials, the accumulated target
    logit and the plain sum of row r's logits after all 125 vocabulary blocks. -/
def statsAt (c : Dev nD) (r : Fin 2048) (k : Fin 4) : EReal :=
  match k with
  | ⟨0, _⟩ => Cert.Spec.runMax (frow V c r) 125
  | ⟨1, _⟩ => Cert.Spec.runL (frow V c r) 125
  | ⟨2, _⟩ => runTraw V c (rowBlk r) (rowIn r) 125
  | ⟨3, _⟩ => Cert.Spec.runS (frow V c r) 125

/-- The statistics array. -/
def statsArr (c : Dev nD) : Vec Ideal S2048x4 .f32 := fun i => statsAt V c (i 0) (i 1)

/-- Row p, column k of the output block at point t sits at row 1024 (t / 125) + p, column k of the array. -/
theorem emb3 (t : Fin cfg1.N) (p : Fin 1024) (k : Fin 4) (r : Fin 2048) (hr : r.val = 1024 * (t.val / 125) + p.val) :
    ((cfg1.win 3).blk t).view.emb (ix2 p k) = ix2 r k := by
  obtain ⟨-, -, -, -, -, -, e0, e1⟩ := idx_facts1 t
  funext a
  apply Fin.ext
  match a with
  | ⟨0, _⟩ => show win1_3.index t (0 : Fin 2) * 1024 + 1 * p.val = r.val; rw [e0]; omega
  | ⟨1, _⟩ => show win1_3.index t (1 : Fin 2) * 4 + 1 * k.val = k.val; rw [e1]; omega

/-- What a last vocabulary block leaves in the output block is its block of the statistics array, entry by entry. -/
theorem out_entry (c : Dev nD) (t : Fin cfg1.N) (h124 : t.val % 125 = 124) (p : Fin 1024) (k : Fin 4) :
    ((outsAt1 V c t.val t.isLt).1 (ix2 p k) : EReal) = ((cfg1.win 3).blk t).view.read (Elt Ideal) (statsArr V c) (ix2 p k) := by
  have hq : t.val / 125 < 2 := by have := t.isLt; have hN : cfg1.N = 250 := cfgN; omega
  have hr : (⟨1024 * (t.val / 125) + p.val, by have := p.isLt; omega⟩ : Fin 2048).val = 1024 * (t.val / 125) + p.val := rfl
  rw [View.read_apply, emb3 t p k ⟨1024 * (t.val / 125) + p.val, by have := p.isLt; omega⟩ hr]
  have hb : rowBlk (⟨1024 * (t.val / 125) + p.val, by have := p.isLt; omega⟩ : Fin 2048) = ⟨t.val / 125, hq⟩ :=
    Fin.ext (by show (1024 * (t.val / 125) + p.val) / 1024 = t.val / 125; have := p.isLt; omega)
  have hi : rowIn (⟨1024 * (t.val / 125) + p.val, by have := p.isLt; omega⟩ : Fin 2048) = p :=
    Fin.ext (by show (1024 * (t.val / 125) + p.val) % 1024 = p.val; have := p.isLt; omega)
  obtain ⟨o0, o1, o2, o3⟩ := out_last V c t ⟨t.val / 125, hq⟩ rfl h124 p ⟨1024 * (t.val / 125) + p.val, by have := p.isLt; omega⟩ rfl
  show _ = statsAt V c _ k
  match k with
  | ⟨0, _⟩ => exact o0
  | ⟨1, _⟩ => exact o1
  | ⟨2, _⟩ => show _ = runTraw V c (rowBlk _) (rowIn _) 125; rw [hb, hi]; exact o2
  | ⟨3, _⟩ => exact o3

/-- What a flushing point writes back is its block of the statistics array. -/
theorem flushed_eq (c : Dev nD) (t : Fin cfg1.N) (hf : (cfg1.win 3).flush t = true) :
    (dat1 V c).flushed 3 t = ((cfg1.win 3).blk t).view.read (Elt Ideal) (statsArr V c) := by
  have h124 : t.val % 125 = 124 := (flush1_3 t).mp hf
  show (cfg1.win 3).cut (grid1.coords t) ((dat1 V c).after 3 t) = _
  rw [after1_3]
  funext y
  have ey : y = ix2 (y 0) (y 1) := eq_ix2 (n0 := 1024) (n1 := 4) y
  rw [ey]
  exact out_entry V c t h124 (y 0) (y 1)

end array

/-! ## The result -/

section result

variable (V : (c : Dev nD) → (b : Ref sig .tc) → Buf (Elt Ideal) ((c : Thread nD τ).loc b))

/-- THE ARRAY after region 1: the statistics array, every row written back by the last vocabulary block of its row block. -/
theorem stats_arr (c : Dev nD) : (dat1 V c).arrAt 3 cfg1.N = statsArr V c :=
  (dat1 V c).arrAt_eq_of_cover 3 (statsArr V c) (flushed_eq V c) Cert.KernelIdeal.HandBlocks.cover1_3

/-- Row r of the statistics array in the specification's recurrences: the running maximum, the rescaled sum of exponentials,
    the target logit (for an id k in range) and the plain sum, each after all 125 vocabulary blocks. -/
theorem stats1 (c : Dev nD) (r : Fin 2048) (k : Fin 32000)
    (hk : (V c main_v5 (ix2 r (0 : Fin 1)) : BitVec 32) = BitVec.ofNat 32 k.val) :
    ((dat1 V c).arrAt 3 cfg1.N (ix2 r (0 : Fin 4)) : EReal) = Cert.Spec.runMax (frow V c r) 125
    ∧ ((dat1 V c).arrAt 3 cfg1.N (ix2 r (1 : Fin 4)) : EReal) = Cert.Spec.runL (frow V c r) 125
    ∧ ((dat1 V c).arrAt 3 cfg1.N (ix2 r (2 : Fin 4)) : EReal) = Cert.Spec.runT (frow V c r) k 125
    ∧ ((dat1 V c).arrAt 3 cfg1.N (ix2 r (3 : Fin 4)) : EReal) = Cert.Spec.runS (frow V c r) 125 := by
  rw [stats_arr V c]
  refine ⟨rfl, rfl, ?_, rfl⟩
  show runTraw V c (rowBlk r) (rowIn r) 125 = _
  exact runTraw_eq V c (rowBlk r) (rowIn r) r (row_split r) k hk 125 (Nat.le_refl _)

end result

end Cert.KernelIdeal.HandValue1

end
-- ==== Proof.Bridge.lean ====
/-
  The two programs meet.

  For a token position r = 512 b + t let f_r be its row of logits: f_r v = Σ_h x[b,t,h] · w[v,h]. The kernel's two
  launches leave, in row r of their statistics arrays, the running maximum, the rescaled sum of exponentials, the
  target logit and the logit sum after all 125 vocabulary blocks; these are the one-pass maximum, Σ exp (f_r − max),
  f_r(id) and Σ f_r. Under the precondition every input entry is real and every token id lies in [0, 32000), so the
  kernel's clip of the ids is the identity and the reference's gather reads entry id; the kernel's token
  log-probability  t − (m + log l)  is then the reference's  (f_r(id) − max) − log Σ exp (f_r − max), a real number,
  so the reference's factor exp (logp − logp) is 1. The five results are the same host operations applied to equal
  arrays, except the mean of the full log-softmax, which the kernel forms from the row means s/32000 − logZ.
-/
import proofs.«420414_j89421219103752_3_alg».proof.Defs
import proofs.«420414_j89421219103752_3_alg».proof.Proof.BridgeBase
import proofs.«420414_j89421219103752_3_alg».proof.Proof.BridgeMean
import proofs.«420414_j89421219103752_3_alg».proof.Proof.BridgeTail
import proofs.«420414_j89421219103752_3_alg».proof.Proof.KI.Value0
import proofs.«420414_j89421219103752_3_alg».proof.Proof.KI.Value1
import proofs.«420414_j89421219103752_3_alg».proof.Proof.RefRun
import proofs.«420414_j89421219103752_3_alg».proof.Proof.RefRead

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand Cert.KernelIdeal.HandTail Cert.KernelIdeal.HandValue
open Cert.IdxSums

attribute [local instance] Cert.ReferenceIdeal.Gen.facts Cert.Pre_finite_inputs.Gen.facts

variable (m : (ℓ : Loc nD τ sig) → Buf (Elt Ideal) ℓ) (ρ : Dev nD → PrngReg)

section
variable (hpre : Cert.Pre_KernelIdeal m)
include hpre

/-! ## The token log-probabilities -/

/-- The policy's token log-probabilities: the kernel's  t − (m + log l)  over the first launch's statistics is the
    reference's log-softmax of the policy's logits at the token's id. -/
theorem tokP (c : Dev nD) :
    tokLogpK (W5 m ρ c (Proc.devRef .tc main_v6))
      = Cert.ReferenceIdeal.Terms.tokLogp (F := Ideal) (A1 m c) (A0 m c) (A2 m c) := by
  funext i
  obtain ⟨b, t, rfl⟩ : ∃ (b : Fin 4) (t : Fin 512), i = ix2 b t := ⟨i 0, i 1, eq_ix2 i⟩
  obtain ⟨k, hk⟩ := (pre_facts m hpre c).2.2.2.2.2 (ix2 b t)
  have hk3 := in0_ids_at m ρ c b t k hk
  have hf : Cert.KernelIdeal.HandValue.frow (V3 m ρ) c (rowOf b t) = rowP m c b t := in0_row m ρ c b t
  obtain ⟨e0, e1, e2, -⟩ := stats0 (V3 m ρ) c (rowOf b t) k hk3
  have e0' := e0.trans (congrArg (fun f => Cert.Spec.runMax f 125) hf)
  have e1' := e1.trans (congrArg (fun f => Cert.Spec.runL f 125) hf)
  have e2' := e2.trans (congrArg (fun f => Cert.Spec.runT f k 125) hf)
  rw [tokLogpK_apply, Cert.ReferenceIdeal.Read.tokLogp_apply _ _ _ b t k hk, statsP_eq]
  exact (congrArg₂ (fun x y : EReal => x - y) e2' (congrArg₂ (fun x y : EReal => x + y) e0' (congrArg Ideal.log e1'))).trans
    (Cert.Spec.tok_logp_kernel (rowP m c b t) (rowP_finite m hpre c b t) k)

/-- The reference model's token log-probabilities, likewise over the second launch's statistics. -/
theorem tokR (c : Dev nD) :
    tokLogpK (W5 m ρ c (Proc.devRef .tc main_v7))
      = Cert.ReferenceIdeal.Terms.tokLogp (F := Ideal) (A5 m c) (A6 m c) (A2 m c) := by
  funext i
  obtain ⟨b, t, rfl⟩ : ∃ (b : Fin 4) (t : Fin 512), i = ix2 b t := ⟨i 0, i 1, eq_ix2 i⟩
  obtain ⟨k, hk⟩ := (pre_facts m hpre c).2.2.2.2.2 (ix2 b t)
  have hk4 := in1_ids_at m ρ c b t k hk
  have hf : Cert.KernelIdeal.HandValue1.frow (V4 m ρ) c (rowOf b t) = rowR m c b t := in1_row m ρ c b t
  obtain ⟨e0, e1, e2, -⟩ := Cert.KernelIdeal.HandValue1.stats1 (V4 m ρ) c (rowOf b t) k hk4
  have e0' := e0.trans (congrArg (fun f => Cert.Spec.runMax f 125) hf)
  have e1' := e1.trans (congrArg (fun f => Cert.Spec.runL f 125) hf)
  have e2' := e2.trans (congrArg (fun f => Cert.Spec.runT f k 125) hf)
  rw [tokLogpK_apply, Cert.ReferenceIdeal.Read.tokLogp_apply _ _ _ b t k hk, statsR_eq]
  exact (congrArg₂ (fun x y : EReal => x - y) e2' (congrArg₂ (fun x y : EReal => x + y) e0' (congrArg Ideal.log e1'))).trans
    (Cert.Spec.tok_logp_kernel (rowR m c b t) (rowR_finite m hpre c b t) k)

/-- The policy's token log-probabilities are real numbers. -/
theorem tokLogp_real (c : Dev nD) (i) :
    ∃ x : ℝ, Cert.ReferenceIdeal.Terms.tokLogp (F := Ideal) (A1 m c) (A0 m c) (A2 m c) i = (x : EReal) := by
  obtain ⟨b, t, rfl⟩ : ∃ (b : Fin 4) (t : Fin 512), i = ix2 b t := ⟨i 0, i 1, eq_ix2 i⟩
  obtain ⟨k, hk⟩ := (pre_facts m hpre c).2.2.2.2.2 (ix2 b t)
  rw [Cert.ReferenceIdeal.Read.tokLogp_apply _ _ _ b t k hk]
  exact Cert.Spec.logpR_real (rowP m c b t) (rowP_finite m hpre c b t) k

/-! ## The five results -/

/-- The loss. -/
theorem out_v44 (c : Dev nD) : W8 m ρ c (Proc.devRef .tc main_v44)
    = Cert.ReferenceIdeal.Terms.res29 (F := Ideal) (A0 m c) (A1 m c) (A2 m c) (A3 m c) (A4 m c) (A5 m c) (A6 m c) := by
  rw [show W8 m ρ c (Proc.devRef .tc main_v44) = afterTail (W5 m ρ c) (Proc.devRef .tc main_v44) from rfl,
    tail_v44, tokP m ρ hpre c, tokR m ρ hpre c, W5_arg3, W5_arg4]
  exact (res29_eq _ _ _ _ _ _ _ (tokLogp_real m hpre c)).symm

/-- The mean token log-probability. -/
theorem out_v46 (c : Dev nD) : W8 m ρ c (Proc.devRef .tc main_v46)
    = Cert.ReferenceIdeal.Terms.res31 (F := Ideal) (A0 m c) (A1 m c) (A2 m c) := by
  rw [show W8 m ρ c (Proc.devRef .tc main_v46) = afterTail (W5 m ρ c) (Proc.devRef .tc main_v46) from rfl,
    tail_v46, tokP m ρ hpre c]
  exact (res31_eq _ _ _).symm

/-- The standard deviation of the token log-probability. -/
theorem out_v47 (c : Dev nD) : W8 m ρ c (Proc.devRef .tc main_v47)
    = Cert.ReferenceIdeal.Terms.res32 (F := Ideal) (A0 m c) (A1 m c) (A2 m c) := by
  rw [show W8 m ρ c (Proc.devRef .tc main_v47) = afterTail (W5 m ρ c) (Proc.devRef .tc main_v47) from rfl,
    tail_v47, tokP m ρ hpre c]
  exact (res32_eq _ _ _).symm

/-- The mean of the full log-softmax. -/
theorem out_v49 (c : Dev nD) : W8 m ρ c (Proc.devRef .tc main_v49)
    = Cert.ReferenceIdeal.Terms.res34 (F := Ideal) (A0 m c) (A1 m c) := by
  rw [show W8 m ρ c (Proc.devRef .tc main_v49) = afterTail (W5 m ρ c) (Proc.devRef .tc main_v49) from rfl, tail_v49]
  exact mean_full m ρ hpre c

/-- The divergence metric. -/
theorem out_v53 (c : Dev nD) : W8 m ρ c (Proc.devRef .tc main_v53)
    = Cert.ReferenceIdeal.Terms.res38 (F := Ideal) (A0 m c) (A1 m c) (A2 m c) (A3 m c) (A5 m c) (A6 m c) := by
  rw [show W8 m ρ c (Proc.devRef .tc main_v53) = afterTail (W5 m ρ c) (Proc.devRef .tc main_v53) from rfl,
    tail_v53, tokP m ρ hpre c, tokR m ρ hpre c, W5_arg3]
  exact (res38_eq _ _ _ _ _ _).symm

end

/-! ## The claim -/

/-- From memories agreeing on the seven arguments, both programs run, end with equal results and unchanged
    arguments: the kernel program's five results are the last boundary's contents at its result buffers, which are
    the reference's five terms at the arguments. -/
theorem algebraic : Cert.algebraic_KernelIdeal_ReferenceIdeal := by
  intro m ρ m' ρ' hpre hagree
  refine ⟨fun c => W8 m ρ c (Proc.devRef .tc main_v44), fun c => W8 m ρ c (Proc.devRef .tc main_v46),
    fun c => W8 m ρ c (Proc.devRef .tc main_v47), fun c => W8 m ρ c (Proc.devRef .tc main_v49),
    fun c => W8 m ρ c (Proc.devRef .tc main_v53), ?_, ?_⟩
  · refine (θ_run _ _ _).mono (fun r hr c => ?_) (run_all (F := Ideal) m ρ)
    exact ⟨hr c _ (mem_uc main_v44 (by decide)), hr c _ (mem_uc main_v46 (by decide)), hr c _ (mem_uc main_v47 (by decide)),
      hr c _ (mem_uc main_v49 (by decide)), hr c _ (mem_uc main_v53 (by decide)),
      (hr c _ (mem_uc main_arg0 (by decide))).trans (W8_main_arg0 m ρ c),
      (hr c _ (mem_uc main_arg1 (by decide))).trans (W8_main_arg1 m ρ c),
      (hr c _ (mem_uc main_arg2 (by decide))).trans (W8_main_arg2 m ρ c),
      (hr c _ (mem_uc main_arg3 (by decide))).trans (W8_main_arg3 m ρ c),
      (hr c _ (mem_uc main_arg4 (by decide))).trans (W8_main_arg4 m ρ c),
      (hr c _ (mem_uc main_arg5 (by decide))).trans (W8_main_arg5 m ρ c),
      (hr c _ (mem_uc main_arg6 (by decide))).trans (W8_main_arg6 m ρ c)⟩
  · refine (θ_run _ _ _).mono (fun r hr c => ?_) (Cert.ReferenceIdeal.HandRun.run m' ρ')
    obtain ⟨⟨h29, h31, h32, h34, h38⟩, ha0, ha1, ha2, ha3, ha4, ha5, ha6⟩ := hr c
    obtain ⟨g0, g1, g2, g3, g4, g5, g6⟩ := hagree c
    simp only [g0, g1, g2, g3, g4, g5, g6] at h29 h31 h32 h34 h38
    exact ⟨h29.trans (out_v44 m ρ hpre c).symm, h31.trans (out_v46 m ρ hpre c).symm, h32.trans (out_v47 m ρ hpre c).symm,
      h34.trans (out_v49 m ρ hpre c).symm, h38.trans (out_v53 m ρ hpre c).symm, ha0, ha1, ha2, ha3, ha4, ha5, ha6⟩

end Cert.Bridge

end
-- ==== Proof.lean ====
/-
  The kernel computes, for every token position, four statistics of its row of logits by walking the vocabulary
  in 125 blocks of 256 — the running maximum, the sum of exponentials rescaled to the running maximum, the target
  logit picked out by a one-hot mask, and the plain sum — once for the policy's hidden states and weights and once
  for the reference model's, and forms the loss and its metrics from them on the host. The reference takes the
  log-softmax of the full logits and gathers the target entry.

  frame_Kernel, frame_KernelIdeal: every weakly fair execution of the program runs its two launches and its host
  operations to the end and leaves the seven argument arrays as they were (the launch over the two regions, each
  region's body run once per control case: first block, inner block, last block). frame_ReferenceIdeal: the
  reference is a straight line of host operations. The idealization rewrote nothing. At the ideal values, for finite
  inputs and token ids in [0, 32000), the blocked statistics are the one-pass maximum, Σ exp (x − max), the target
  logit and Σ x of each row, so the two programs' five results are equal.
-/
import proofs.«420414_j89421219103752_3_alg».proof.Defs
import proofs.«420414_j89421219103752_3_alg».proof.Proof.Gen.Kernel
import proofs.«420414_j89421219103752_3_alg».proof.Proof.Gen.KernelIdeal
import proofs.«420414_j89421219103752_3_alg».proof.Proof.Gen.ReferenceIdeal
import proofs.«420414_j89421219103752_3_alg».proof.Proof.Gen.Pre_finite_inputs
import proofs.«420414_j89421219103752_3_alg».proof.Proof.K.Launch
import proofs.«420414_j89421219103752_3_alg».proof.Proof.KI.Launch
import proofs.«420414_j89421219103752_3_alg».proof.Proof.RefRun
import proofs.«420414_j89421219103752_3_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => Cert.ReferenceIdeal.HandRun.frame m ρ,
    trivial,
    Cert.Bridge.algebraic⟩

end Cert.Proof

end
